-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_v84) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x20x5 : Shape := ⟨3, ![150000, 20, 5]⟩
abbrev S150000 : Shape := ⟨1, ![150000]⟩
abbrev S150000x4 : Shape := ⟨2, ![150000, 4]⟩
abbrev S64x9 : Shape := ⟨2, ![64, 9]⟩
abbrev S64 : Shape := ⟨1, ![64]⟩
abbrev S_ : Shape := ⟨0, ![]⟩

class Facts : Prop where
  bcast_S_S150000x20x5 : S_.BroadcastsInDim S150000x20x5 (![] : Fin 0 → Fin S150000x20x5.rank)
  reducesTo_S150000x20x5_S_d0_1_2 : S150000x20x5.ReducesTo [0, 1, 2] S_
  h_S_ : 0 < S_.numel
  bcast_S_S64x9 : S_.BroadcastsInDim S64x9 (![] : Fin 0 → Fin S64x9.rank)
  reducesTo_S64x9_S_d0_1 : S64x9.ReducesTo [0, 1] S_
  bcast_S_S64 : S_.BroadcastsInDim S64 (![] : Fin 0 → Fin S64.rank)
  reducesTo_S64_S_d0 : S64.ReducesTo [0] S_
  bcast_S_S150000 : S_.BroadcastsInDim S150000 (![] : Fin 0 → Fin S150000.rank)
  reducesTo_S150000_S_d0 : S150000.ReducesTo [0] S_

variable [Facts]

def fn_part1 {F : FTy → Type} [FloatOps F] (main_arg1 : IVec S150000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 1#32
  let main_v19 : IVec S150000 32 := broadcastInDim S150000 ![] bcast_S_S150000 main_c_6
  let main_v20 : IVec S150000 1 := cmpi .sge main_arg1 main_v19
  let main_c_7 : IVec S_ 1 := constantI S_ 1 1#1
  let main_v21 : IVec S_ 1 := (fun x v => Host.reduce IntOp.andi x v reducesTo_S150000_S_d0 h_S_) main_v20 main_c_7
  let main_v22 : IVec S_ 1 := andi main_v18 main_v21
  main_v22

def fn {F : FTy → Type} [FloatOps F] (main_arg0 : FVec F S150000x20x5 .f32) (main_arg1 : IVec S150000 32) (main_arg2 : IVec S150000x4 32) (main_arg3 : FVec F S64x9 .f32) (main_arg4 : FVec F S64 .f32) (main_arg5 : FVec F S64 .f32) : IVec S_ 1 :=
  let main_v0 : FVec F S150000x20x5 .f32 := Host.absf main_arg0
  let main_cst : FVec F S_ .f32 := constant S_ .f32 0x7F800000#32
  let main_v1 : FVec F S150000x20x5 .f32 := broadcastInDim S150000x20x5 ![] bcast_S_S150000x20x5 main_cst
  let main_v2 : IVec S150000x20x5 1 := cmpf .olt main_v0 main_v1
  let main_c : IVec S_ 1 := constantI S_ 1 1#1
  let main_v3 : IVec S_ 1 := (fun x v => Host.reduce IntOp.andi x v reducesTo_S150000x20x5_S_d0_1_2 h_S_) main_v2 main_c
  let main_v4 : FVec F S64x9 .f32 := Host.absf main_arg3
  let main_cst_0 : FVec F S_ .f32 := constant S_ .f32 0x7F800000#32
  let main_v5 : FVec F S64x9 .f32 := broadcastInDim S64x9 ![] bcast_S_S64x9 main_cst_0
  let main_v6 : IVec S64x9 1 := cmpf .olt main_v4 main_v5
  let main_c_1 : IVec S_ 1 := constantI S_ 1 1#1
  let main_v7 : IVec S_ 1 := (fun x v => Host.reduce IntOp.andi x v reducesTo_S64x9_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_v13 main_v16
-- ==== Kernel.lean ====
abbrev S150000x20x5 : Shape := ⟨3, ![150000, 20, 5]⟩
abbrev S150000 : Shape := ⟨1, ![150000]⟩
abbrev S150000x4 : Shape := ⟨2, ![150000, 4]⟩
abbrev S64x9 : Shape := ⟨2, ![64, 9]⟩
abbrev S64 : Shape := ⟨1, ![64]⟩
abbrev S3 : Shape := ⟨1, ![3]⟩
abbrev S6 : Shape := ⟨1, ![6]⟩
abbrev S2 : Shape := ⟨1, ![2]⟩
abbrev S_ : Shape := ⟨0, ![]⟩
abbrev S150016x20x5 : Shape := ⟨3, ![150016, 20, 5]⟩
abbrev S150016 : Shape := ⟨1, ![150016]⟩
abbrev S150016x1 : Shape := ⟨2, ![150016, 1]⟩
abbrev S150016x4 : Shape := ⟨2, ![150016, 4]⟩
abbrev S9x64 : Shape := ⟨2, ![9, 64]⟩
abbrev S1x64 : Shape := ⟨2, ![1, 64]⟩
abbrev S512x20x5 : Shape := ⟨3, ![512, 20, 5]⟩
abbrev S512x1 : Shape := ⟨2, ![512, 1]⟩
abbrev S512x4 : Shape := ⟨2, ![512, 4]⟩
abbrev S512x20x3 : Shape := ⟨3, ![512, 20, 3]⟩
abbrev S512x3 : Shape := ⟨2, ![512, 3]⟩
abbrev S512x1x3 : Shape := ⟨3, ![512, 1, 3]⟩
abbrev S512 : Shape := ⟨1, ![512]⟩
abbrev S512x20x1 : Shape := ⟨3, ![512, 20, 1]⟩
abbrev S512x20 : Shape := ⟨2, ![512, 20]⟩
abbrev S512x20x9 : Shape := ⟨3, ![512, 20, 9]⟩
abbrev S10240x9 : Shape := ⟨2, ![10240, 9]⟩
abbrev S10240x64 : Shape := ⟨2, ![10240, 64]⟩
abbrev S512x20x64 : Shape := ⟨3, ![512, 20, 64]⟩
abbrev S150016x64 : Shape := ⟨2, ![150016, 64]⟩
abbrev S512x64 : Shape := ⟨2, ![512, 64]⟩
abbrev S1x1x64 : Shape := ⟨3, ![1, 1, 64]⟩
abbrev S150000x64 : Shape := ⟨2, ![150000, 64]⟩
abbrev S3x1 : Shape := ⟨2, ![3, 1]⟩
abbrev S150000x3 : Shape := ⟨2, ![150000, 3]⟩
abbrev S2x1 : Shape := ⟨2, ![2, 1]⟩

abbrev nBuf : Space → Nat
  | .hbm => 50
  | .vmem => 24
  | .smem => 0
  | _ => 0

abbrev bufTy : (tb : Table) → Fin (tcTables nBuf tb) → BufTy
  | .hbm, ⟨0, _⟩ => ⟨S150000x20x5, .f32⟩
  | .hbm, ⟨1, _⟩ => ⟨S150000, .i32⟩
  | .hbm, ⟨2, _⟩ => ⟨S150000x4, .i32⟩
  | .hbm, ⟨3, _⟩ => ⟨S64x9, .f32⟩
  | .hbm, ⟨4, _⟩ => ⟨S64, .f32⟩
  | .hbm, ⟨5, _⟩ => ⟨S64, .f32⟩
  | .hbm, ⟨6, _⟩ => ⟨S3, .i32⟩
  | .hbm, ⟨7, _⟩ => ⟨S6, .f32⟩
  | .hbm, ⟨8, _⟩ => ⟨S3, .f32⟩
  | .hbm, ⟨9, _⟩ => ⟨S2, .i32⟩
  | .hbm, ⟨10, _⟩ => ⟨S_, .f32⟩
  | .hbm, ⟨11, _⟩ => ⟨S_, .f32⟩
  | .hbm, ⟨12, _⟩ => ⟨S150016x20x5, .f32⟩
  | .hbm, ⟨13, _⟩ => ⟨S_, .i32⟩
  | .hbm, ⟨14, _⟩ => ⟨S_, .i32⟩
  | .hbm, ⟨15, _⟩ => ⟨S150016, .i32⟩
  | .hbm, ⟨16, _⟩ => ⟨S150016x1, .i32⟩
  | .hbm, ⟨17, _⟩ => ⟨S_, .i32⟩
  | .hbm, ⟨18, _⟩ => ⟨S_, .i32⟩
  | .hbm, ⟨19, _⟩ => ⟨S150016x4, .i32⟩
  | .hbm, ⟨20, _⟩ => ⟨S9x64, .f32⟩
  | .hbm, ⟨21, _⟩ => ⟨S1x64, .f32⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S150016x64, .f32⟩
  | .hbm, ⟨26, _⟩ => ⟨S150000x64, .f32⟩
  | .hbm, ⟨27, _⟩ => ⟨S_, .i32⟩
  | .hbm, ⟨28, _⟩ => ⟨S3, .i32⟩
  | .hbm, ⟨29, _⟩ => ⟨S3, .i1⟩
  | .hbm, ⟨30, _⟩ => ⟨S_, .i32⟩
  | .hbm, ⟨31, _⟩ => ⟨S3, .i32⟩
  | .hbm, ⟨32, _⟩ => ⟨S3, .i32⟩
  | .hbm, ⟨33, _⟩ => ⟨S3, .i32⟩
  | .hbm, ⟨34, _⟩ => ⟨S3x1, .i32⟩
  | .hbm, ⟨35, _⟩ => ⟨S150000x3, .i32⟩
  | .hbm, ⟨36, _⟩ => ⟨S3, .f32⟩
  | .hbm, ⟨37, _⟩ => ⟨S3, .f32⟩
  | .hbm, ⟨38, _⟩ => ⟨S3, .f32⟩
  | .hbm, ⟨39, _⟩ => ⟨S3, .f32⟩
  | .hbm, ⟨40, _⟩ => ⟨S3, .f32⟩
  | .hbm, ⟨41, _⟩ => ⟨S_, .i32⟩
  | .hbm, ⟨42, _⟩ => ⟨S2, .i32⟩
  | .hbm, ⟨43, _⟩ => ⟨S2, .i1⟩
  | .hbm, ⟨44, _⟩ => ⟨S_, .i32⟩
  | .hbm, ⟨45, _⟩ => ⟨S2, .i32⟩
  | .hbm, ⟨46, _⟩ => ⟨S2, .i32⟩
  | .hbm, ⟨47, _⟩ => ⟨S2, .i32⟩
  | .hbm, ⟨48, _⟩ => ⟨S2x1, .i32⟩
  | .hbm, ⟨49, _⟩ => ⟨S2, .f32⟩
  | .local _ .vmem, ⟨0, _⟩ => ⟨S512x20x5, .f32⟩
  | .local _ .vmem, ⟨1, _⟩ => ⟨S512x20x5, .f32⟩
  | .local _ .vmem, ⟨2, _⟩ => ⟨S512x1, .i32⟩
  | .local _ .vmem, ⟨3, _⟩ => ⟨S512x1, .i32⟩
  | .local _ .vmem, ⟨4, _⟩ => ⟨S512x4, .i32⟩
  | .local _ .vmem, ⟨5, _⟩ => ⟨S512x4, .i32⟩
  | .local _ .vmem, ⟨6, _⟩ => ⟨S9x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S512x20x5, .f32⟩
  | .local _ .vmem, ⟨12, _⟩ => ⟨S512x20x5, .f32⟩
  | .local _ .vmem, ⟨13, _⟩ => ⟨S512x1, .i32⟩
  | .local _ .vmem, ⟨14, _⟩ => ⟨S512x1, .i32⟩
  | .local _ .vmem, ⟨15, _⟩ => ⟨S512x4, .i32⟩
  | .local _ .vmem, ⟨16, _⟩ => ⟨S512x4, .i32⟩
  | .local _ .vmem, ⟨17, _⟩ => ⟨S9x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S512x64, .f32⟩
  | .local _ .vmem, ⟨23, _⟩ => ⟨S512x64, .f32⟩
  | _, _ => ⟨S150000x20x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_cst : Ref sig .tc := ⟨.hbm, 7, rfl⟩
abbrev main_cst_0 : Ref sig .tc := ⟨.hbm, 8, rfl⟩
abbrev main_c_1 : Ref sig .tc := ⟨.hbm, 9, rfl⟩
abbrev main_cst_2 : Ref sig .tc := ⟨.hbm, 10, rfl⟩
abbrev main_call0_v0 : Ref sig .tc := ⟨.hbm, 11, rfl⟩
abbrev main_v0 : Ref sig .tc := ⟨.hbm, 12, rfl⟩
abbrev main_c_3 : Ref sig .tc := ⟨.hbm, 13, rfl⟩
abbrev main_call1_v0 : Ref sig .tc := ⟨.hbm, 14, rfl⟩
abbrev main_v1 : Ref sig .tc := ⟨.hbm, 15, rfl⟩
abbrev main_v2 : Ref sig .tc := ⟨.hbm, 16, rfl⟩
abbrev main_c_4 : Ref sig .tc := ⟨.hbm, 17, rfl⟩
abbrev main_call2_v0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7_0 : Ref sig .tc := ⟨.hbm, 23, rfl⟩
abbrev main_v7_1 : Ref sig .tc := ⟨.hbm, 24, rfl⟩
abbrev main_v8 : Ref sig .tc := ⟨.hbm, 25, rfl⟩
abbrev main_v9 : Ref sig .tc := ⟨.hbm, 26, rfl⟩
abbrev main_c_5 : Ref sig .tc := ⟨.hbm, 27, rfl⟩
abbrev main_v10 : Ref sig .tc := ⟨.hbm, 28, rfl⟩
abbrev main_v11 : Ref sig .tc := ⟨.hbm, 29, rfl⟩
abbrev main_c_6 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_7 : Ref sig .tc := ⟨.hbm, 41, rfl⟩
abbrev main_v22 : Ref sig .tc := ⟨.hbm, 42, rfl⟩
abbrev main_v23 : Ref sig .tc := ⟨.hbm, 43, rfl⟩
abbrev main_c_8 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨1, ![293], ![false]⟩

def k0_cond2 (i : grid0.Coords) : BitVec 1 :=
  let arg0 : BitVec 32 := BitVec.ofNat 32 (i 0).val
  let c292_i32 : BitVec 32 := 292#32
  let v83 : BitVec 1 := Scalar.cmpi .eq arg0 c292_i32
  let v84 : BitVec 32 := Scalar.extui v83
  let c0_i32_29 : BitVec 32 := 0#32
  let v85 : BitVec 1 := Scalar.cmpi .ne v84 c0_i32_29
  v85

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x20x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![293], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x20x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x4 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S9x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  pads_S150000x20x5_S150016x20x5_0160_000_000 : S150000x20x5.Pads (![0, 0, 0] : Fin 3 → Nat) ![16, 0, 0] ![0, 0, 0] S150016x20x5
  h_S_ : 0 < S_.numel
  pads_S150000_S150016_0160 : S150000.Pads (![0] : Fin 1 → Nat) ![16] ![0] S150016
  shapeCasts_S150016_S150016x1 : S150016.ShapeCasts S150016x1
  pads_S150000x4_S150016x4_0160_000 : S150000x4.Pads (![0, 0] : Fin 2 → Nat) ![16, 0] ![0, 0] S150016x4
  transposes_S64x9_S9x64_1_0 : S64x9.Transposes [1, 0] S9x64
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S512x20x5_S512x20x5_0_0_0 : ∀ a, (![0, 0, 0] : Fin 3 → Nat) a + S512x20x5.size a ≤ S512x20x5.size a
  h_S512x20x5 : 0 < S512x20x5.numel
  shapeCasts_S512x20x5_S512x20x5 : S512x20x5.ShapeCasts S512x20x5
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4_S512x4_0_0 : ∀ a, (![0, 0] : Fin 2 → Nat) a + S512x4.size a ≤ S512x4.size a
  h_S512x4 : 0 < S512x4.numel
  shapeCasts_S512x4_S512x4 : S512x4.ShapeCasts S512x4
  slices_S512x20x5_o0_0_0_S512x20x3 : S512x20x5.Slices ![0, 0, 0] S512x20x3
  reduces_S512x20x3_S512x3 : S512x20x3.Reduces [1] S512x3
  broadcasts_S512x1_S512x3 : S512x1.Broadcasts S512x3
  shapeCasts_S512x3_S512x1x3 : S512x3.ShapeCasts S512x1x3
  broadcasts_S512x1x3_S512x20x3 : S512x1x3.Broadcasts S512x20x3
  slices_S512x4_o0_3_S512x1 : S512x4.Slices ![0, 3] S512x1
  shapeCasts_S512x1_S512 : S512x1.ShapeCasts S512
  slices_S512x4_o0_2_S512x1 : S512x4.Slices ![0, 2] S512x1
  slices_S512x20x3_o0_0_0_S512x20x1 : S512x20x3.Slices ![0, 0, 0] S512x20x1
  shapeCasts_S512x20x1_S512x20 : S512x20x1.ShapeCasts S512x20
  shapeCasts_S512_S512x1 : S512.ShapeCasts S512x1
  broadcasts_S512x1_S512x20 : S512x1.Broadcasts S512x20
  slices_S512x20x3_o0_0_1_S512x20x1 : S512x20x3.Slices ![0, 0, 1] S512x20x1
  slices_S512x20x3_o0_0_2_S512x20x1 : S512x20x3.Slices ![0, 0, 2] S512x20x1
  shapeCasts_S512x20_S512x20x1 : S512x20.ShapeCasts S512x20x1
  concatenates_S512x20x1_S512x20x1_S512x20x1_S512x20x3_d2 : Shape.Concatenates [S512x20x1, S512x20x1, S512x20x1] S512x20x3 2
  natLt_1_32 : 1 < 32
  concatenates_S512x20x3_S512x20x3_S512x20x3_S512x20x9_d2 : Shape.Concatenates [S512x20x3, S512x20x3, S512x20x3] S512x20x9 2
  inb_S9x64_S9x64_0_0 : ∀ a, (![0, 0] : Fin 2 → Nat) a + S9x64.size a ≤ S9x64.size a
  h_S9x64 : 0 < S9x64.numel
  shapeCasts_S9x64_S9x64 : S9x64.ShapeCasts S9x64
  shapeCasts_S512x20x9_S10240x9 : S512x20x9.ShapeCasts S10240x9
  shapeCasts_S10240x64_S512x20x64 : S10240x64.ShapeCasts S512x20x64
  shapeCasts_S512x20x64_S10240x64 : S512x20x64.ShapeCasts S10240x64
  reduces_S10240x64_S64 : S10240x64.Reduces [0] S64
  shapeCasts_S1x64_S1x1x64 : S1x64.ShapeCasts S1x1x64
  broadcasts_S1x1x64_S512x20x64 : S1x1x64.Broadcasts S512x20x64
  reduces_S512x20x64_S512x64 : S512x20x64.Reduces [1] S512x64
  inb_S512x64_S512x64_0_0 : ∀ a, (![0, 0] : Fin 2 → Nat) a + S512x64.size a ≤ S512x64.size a
  h_S512x64 : 0 < S512x64.numel
  slices_S150016x64_S150000x64_0_0 : S150016x64.Slices ![0, 0] S150000x64
  bcast_S_S3 : S_.BroadcastsInDim S3 (![] : Fin 0 → Fin S3.rank)
  bcast_S3_S3x1_0 : S3.BroadcastsInDim S3x1 (![0] : Fin 1 → Fin S3x1.rank)
  slices_S6_S3_3 : S6.Slices ![3] S3
  slices_S6_S3_0 : S6.Slices ![0] S3
  bcast_S_S2 : S_.BroadcastsInDim S2 (![] : Fin 0 → Fin S2.rank)
  bcast_S2_S2x1_0 : S2.BroadcastsInDim S2x1 (![0] : Fin 1 → Fin S2x1.rank)
  dot_S10240x9_S9x64_S10240x64_1_0_0_1_n_n_wf : DotDims.WF S10240x9 S9x64 S10240x64 [1] [0] [0] [1] [] []
  gather_S150000x4_S3x1_S150000x3_0_1_n_n_1_1_1500001_wf : GatherDims.WF S150000x4 S3x1 S150000x3 [0] [1] [] [1] [] 1 ![150000, 1]
  gather_S3_S2x1_S2_n_0_n_n_0_1_1_wf : GatherDims.WF S3 S2x1 S2 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x20x5.size a ≤ S150016x20x5.size a
  hwx0_0 : ∀ i : grid0.Coords, EltTy.bits .f32 = 32 ∨ (Rect.block (s := S150016x20x5) S512x20x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S150016x1.size a
  hwx0_1 : ∀ i : grid0.Coords, EltTy.bits .i32 = 32 ∨ (Rect.block (s := S150016x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4.size a ≤ S150016x4.size a
  hwx0_2 : ∀ i : grid0.Coords, EltTy.bits .i32 = 32 ∨ (Rect.block (s := S150016x4) S512x4.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x64.size a ≤ S9x64.size a
  hwx0_3 : ∀ i : grid0.Coords, EltTy.bits .f32 = 32 ∨ (Rect.block (s := S9x64) S9x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x20x5.size a ≤ S150016x20x5.size a
  hwx1_0 : ∀ i : grid1.Coords, EltTy.bits .f32 = 32 ∨ (Rect.block (s := S150016x20x5) S512x20x5.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S150016x1.size a
  hwx1_1 : ∀ i : grid1.Coords, EltTy.bits .i32 = 32 ∨ (Rect.block (s := S150016x1) S512x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4.size a ≤ S150016x4.size a
  hwx1_2 : ∀ i : grid1.Coords, EltTy.bits .i32 = 32 ∨ (Rect.block (s := S150016x4) S512x4.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x64.size a ≤ S9x64.size a
  hwx1_3 : ∀ i : grid1.Coords, EltTy.bits .f32 = 32 ∨ (Rect.block (s := S9x64) S9x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x64.size a ≤ S150016x64.size a
  hwx1_8 : ∀ i : grid1.Coords, EltTy.bits .f32 = 32 ∨ (Rect.block (s := S150016x64) S512x64.size (cc1_transform_8 i) (hinb1_8 i)).WholeWords (EltTy.packing .f32)

variable [Facts₀]

def dot_S10240x9_S9x64_S10240x64_1_0_0_1_n_n : DotDims S10240x9 S9x64 S10240x64 where
  lhsContracting := [1]
  rhsContracting := [0]
  lhsNonContracting := [0]
  rhsNonContracting := [1]
  lhsBatch := []
  rhsBatch := []
  wf := dot_S10240x9_S9x64_S10240x64_1_0_0_1_n_n_wf
def gather_S150000x4_S3x1_S150000x3_0_1_n_n_1_1_1500001 : GatherDims S150000x4 S3x1 S150000x3 where
  offsetDims := [0]
  collapsedSliceDims := [1]
  operandBatchingDims := []
  startIndicesBatchingDims := []
  startIndexMap := [1]
  indexVectorDim := 1
  sliceSizes := ![150000, 1]
  wf := gather_S150000x4_S3x1_S150000x3_0_1_n_n_1_1_1500001_wf
def gather_S3_S2x1_S2_n_0_n_n_0_1_1 : GatherDims S3 S2x1 S2 where
  offsetDims := []
  collapsedSliceDims := [0]
  operandBatchingDims := []
  startIndicesBatchingDims := []
  startIndexMap := [0]
  indexVectorDim := 1
  sliceSizes := ![1]
  wf := gather_S3_S2x1_S2_n_0_n_n_0_1_1_wf

abbrev win0_0 : Pipeline.Window sig grid0 :=
  Pipeline.Window.ofSpec (Memref.whole main_v0) S512x20x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S9x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7_0) S1x64.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7_1) S1x64.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v0) S512x20x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S512x4.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S9x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7_0) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7_1) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v6) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8) S512x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S150000x20x5 : Shape := ⟨3, ![150000, 20, 5]⟩
abbrev S150000 : Shape := ⟨1, ![150000]⟩
abbrev S150000x4 : Shape := ⟨2, ![150000, 4]⟩
abbrev S64x9 : Shape := ⟨2, ![64, 9]⟩
abbrev S64 : Shape := ⟨1, ![64]⟩
abbrev S3 : Shape := ⟨1, ![3]⟩
abbrev S6 : Shape := ⟨1, ![6]⟩
abbrev S2 : Shape := ⟨1, ![2]⟩
abbrev S150000x20x3 : Shape := ⟨3, ![150000, 20, 3]⟩
abbrev S_ : Shape := ⟨0, ![]⟩
abbrev S150000x3 : Shape := ⟨2, ![150000, 3]⟩
abbrev S150000x1 : Shape := ⟨2, ![150000, 1]⟩
abbrev S150000x1x3 : Shape := ⟨3, ![150000, 1, 3]⟩
abbrev S150000x2 : Shape := ⟨2, ![150000, 2]⟩
abbrev S150000x20x2 : Shape := ⟨3, ![150000, 20, 2]⟩
abbrev S1x2 : Shape := ⟨2, ![1, 2]⟩
abbrev S150000x1x2 : Shape := ⟨3, ![150000, 1, 2]⟩
abbrev S150000x20x1 : Shape := ⟨3, ![150000, 20, 1]⟩
abbrev S150000x20 : Shape := ⟨2, ![150000, 20]⟩
abbrev S1 : Shape := ⟨1, ![1]⟩
abbrev S150000x20x9 : Shape := ⟨3, ![150000, 20, 9]⟩
abbrev S150000x20x64 : Shape := ⟨3, ![150000, 20, 64]⟩
abbrev S1x1x64 : Shape := ⟨3, ![1, 1, 64]⟩
abbrev S150000x64 : Shape := ⟨2, ![150000, 64]⟩
abbrev S3x1 : Shape := ⟨2, ![3, 1]⟩
abbrev S2x1 : Shape := ⟨2, ![2, 1]⟩

abbrev nBuf : Space → Nat
  | .hbm => 131
  | .vmem => 0
  | .smem => 0
  | _ => 0

abbrev hbmTy0_0 (i : Nat) : BufTy := match i % 128 with
  | 0 => ⟨S150000x20x5, .f32⟩
  | 1 => ⟨S150000, .i32⟩
  | 2 => ⟨S150000x4, .i32⟩
  | 3 => ⟨S64x9, .f32⟩
  | 4 => ⟨S64, .f32⟩
  | 5 => ⟨S64, .f32⟩
  | 6 => ⟨S3, .f32⟩
  | 7 => ⟨S6, .f32⟩
  | 8 => ⟨S3, .i32⟩
  | 9 => ⟨S2, .i32⟩
  | 10 => ⟨S150000x20x3, .f32⟩
  | 11 => ⟨S150000, .f32⟩
  | 12 => ⟨S_, .f32⟩
  | 13 => ⟨S150000x3, .f32⟩
  | 14 => ⟨S150000x1, .f32⟩
  | 15 => ⟨S150000x3, .f32⟩
  | 16 => ⟨S150000x3, .f32⟩
  | 17 => ⟨S150000x1x3, .f32⟩
  | 18 => ⟨S150000x20x3, .f32⟩
  | 19 => ⟨S150000x20x3, .f32⟩
  | 20 => ⟨S150000x2, .i32⟩
  | 21 => ⟨S150000x2, .f32⟩
  | 22 => ⟨S150000x2, .f32⟩
  | 23 => ⟨S150000x20x2, .f32⟩
  | 24 => ⟨S_, .f32⟩
  | 25 => ⟨S150000x2, .f32⟩
  | 26 => ⟨S150000x2, .f32⟩
  | 27 => ⟨S2, .f32⟩
  | 28 => ⟨S1x2, .f32⟩
  | 29 => ⟨S150000x2, .f32⟩
  | 30 => ⟨S150000x2, .f32⟩
  | 31 => ⟨S2, .f32⟩
  | 32 => ⟨S1x2, .f32⟩
  | 33 => ⟨S150000x2, .f32⟩
  | 34 => ⟨S150000x2, .f32⟩
  | 35 => ⟨S150000x1x2, .f32⟩
  | 36 => ⟨S150000x20x2, .f32⟩
  | 37 => ⟨S150000x20x2, .f32⟩
  | 38 => ⟨S150000x20x1, .f32⟩
  | 39 => ⟨S150000x20, .f32⟩
  | 40 => ⟨S1, .f32⟩
  | 41 => ⟨S_, .f32⟩
  | 42 => ⟨S_, .f32⟩
  | 43 => ⟨S_, .f32⟩
  | 44 => ⟨S1, .f32⟩
  | 45 => ⟨S_, .f32⟩
  | 46 => ⟨S_, .f32⟩
  | 47 => ⟨S150000x20, .f32⟩
  | 48 => ⟨S150000x20, .f32⟩
  | 49 => ⟨S150000x20x1, .f32⟩
  | 50 => ⟨S150000x20x3, .f32⟩
  | 51 => ⟨S_, .f32⟩
  | 52 => ⟨S150000x20x3, .f32⟩
  | 53 => ⟨S150000x20x3, .i1⟩
  | 54 => ⟨S150000x20x3, .f32⟩
  | 55 => ⟨S150000x20x3, .f32⟩
  | 56 => ⟨S150000x20x3, .f32⟩
  | 57 => ⟨S150000x20x9, .f32⟩
  | 58 => ⟨S150000x20x64, .f32⟩
  | 59 => ⟨S_, .f32⟩
  | 60 => ⟨S64, .f32⟩
  | 61 => ⟨S_, .f32⟩
  | 62 => ⟨S64, .f32⟩
  | 63 => ⟨S64, .f32⟩
  | 64 => ⟨S_, .i32⟩
  | 65 => ⟨S_, .f32⟩
  | 66 => ⟨S64, .f32⟩
  | 67 => ⟨S1x1x64, .f32⟩
  | 68 => ⟨S_, .f32⟩
  | 69 => ⟨S1x1x64, .f32⟩
  | 70 => ⟨S1x1x64, .f32⟩
  | 71 => ⟨S150000x20x64, .f32⟩
  | 72 => ⟨S150000x20x64, .f32⟩
  | 73 => ⟨S150000x20x64, .f32⟩
  | 74 => ⟨S_, .f32⟩
  | 75 => ⟨S_, .f32⟩
  | 76 => ⟨S_, .f32⟩
  | 77 => ⟨S_, .f32⟩
  | 78 => ⟨S64, .f32⟩
  | 79 => ⟨S64, .f32⟩
  | 80 => ⟨S64, .f32⟩
  | 81 => ⟨S_, .f32⟩
  | 82 => ⟨S_, .i1⟩
  | 83 => ⟨S_, .f32⟩
  | 84 => ⟨S_, .f32⟩
  | 85 => ⟨S64, .f32⟩
  | 86 => ⟨S64, .f32⟩
  | 87 => ⟨S1x1x64, .f32⟩
  | 88 => ⟨S150000x20x64, .f32⟩
  | 89 => ⟨S150000x20x64, .f32⟩
  | 90 => ⟨S_, .f32⟩
  | 91 => ⟨S64, .f32⟩
  | 92 => ⟨S64, .f32⟩
  | 93 => ⟨S64, .f32⟩
  | 94 => ⟨S1x1x64, .f32⟩
  | 95 => ⟨S150000x20x64, .f32⟩
  | 96 => ⟨S150000x20x64, .f32⟩
  | 97 => ⟨S1x1x64, .f32⟩
  | 98 => ⟨S150000x20x64, .f32⟩
  | 99 => ⟨S150000x20x64, .f32⟩
  | 100 => ⟨S1x1x64, .f32⟩
  | 101 => ⟨S150000x20x64, .f32⟩
  | 102 => ⟨S150000x20x64, .f32⟩
  | 103 => ⟨S_, .f32⟩
  | 104 => ⟨S150000x20x64, .f32⟩
  | 105 => ⟨S150000x20x64, .f32⟩
  | 106 => ⟨S_, .f32⟩
  | 107 => ⟨S150000x64, .f32⟩
  | 108 => ⟨S_, .i32⟩
  | 109 => ⟨S3, .i32⟩
  | 110 => ⟨S3, .i1⟩
  | 111 => ⟨S_, .i32⟩
  | 112 => ⟨S3, .i32⟩
  | 113 => ⟨S3, .i32⟩
  | 114 => ⟨S3, .i32⟩
  | 115 => ⟨S3x1, .i32⟩
  | 116 => ⟨S150000x3, .i32⟩
  | 117 => ⟨S3, .f32⟩
  | 118 => ⟨S3, .f32⟩
  | 119 => ⟨S3, .f32⟩
  | 120 => ⟨S3, .f32⟩
  | 121 => ⟨S3, .f32⟩
  | 122 => ⟨S_, .i32⟩
  | 123 => ⟨S2, .i32⟩
  | 124 => ⟨S2, .i1⟩
  | 125 => ⟨S_, .i32⟩
  | 126 => ⟨S2, .i32⟩
  | 127 => ⟨S2, .i32⟩
  | _ => ⟨S150000x20x5, .f32⟩

abbrev hbmTy0_1 (i : Nat) : BufTy := match i % 128 with
  | 0 => ⟨S2, .i32⟩
  | 1 => ⟨S2x1, .i32⟩
  | 2 => ⟨S2, .f32⟩
  | _ => ⟨S150000x20x5, .f32⟩

abbrev hbmTy (i : Nat) : BufTy := match i / 128 with
  | 0 => hbmTy0_0 i
  | 1 => hbmTy0_1 i
  | _ => ⟨S150000x20x5, .f32⟩

abbrev bufTy : (tb : Table) → Fin (tcTables nBuf tb) → BufTy
  | .hbm, ⟨i, _⟩ => hbmTy i
  | _, _ => ⟨S150000x20x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_c : Ref sig .tc := ⟨.hbm, 8, rfl⟩
abbrev main_c_1 : Ref sig .tc := ⟨.hbm, 9, rfl⟩
abbrev main_v0 : Ref sig .tc := ⟨.hbm, 10, rfl⟩
abbrev main_v1 : Ref sig .tc := ⟨.hbm, 11, rfl⟩
abbrev main_cst_2 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_6 : Ref sig .tc := ⟨.hbm, 59, rfl⟩
abbrev main_v45 : Ref sig .tc := ⟨.hbm, 60, rfl⟩
abbrev main_cst_7 : Ref sig .tc := ⟨.hbm, 61, rfl⟩
abbrev main_v46 : Ref sig .tc := ⟨.hbm, 62, rfl⟩
abbrev main_v47 : Ref sig .tc := ⟨.hbm, 63, rfl⟩
abbrev main_c_8 : Ref sig .tc := ⟨.hbm, 64, rfl⟩
abbrev main_call0_cst : Ref sig .tc := ⟨.hbm, 65, rfl⟩
abbrev main_call0_v0 : Ref sig .tc := ⟨.hbm, 66, rfl⟩
abbrev main_call0_v1 : Ref sig .tc := ⟨.hbm, 67, rfl⟩
abbrev main_call0_cst_0 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_cst_1 : Ref sig .tc := ⟨.hbm, 75, rfl⟩
abbrev main_call0_v8 : Ref sig .tc := ⟨.hbm, 76, rfl⟩
abbrev main_call0_cst_2 : Ref sig .tc := ⟨.hbm, 77, rfl⟩
abbrev main_call0_v9 : Ref sig .tc := ⟨.hbm, 78, rfl⟩
abbrev main_call0_v10 : Ref sig .tc := ⟨.hbm, 79, rfl⟩
abbrev main_call0_v11 : Ref sig .tc := ⟨.hbm, 80, rfl⟩
abbrev main_call0_cst_3 : Ref sig .tc := ⟨.hbm, 81, rfl⟩
abbrev main_call0_v12 : Ref sig .tc := ⟨.hbm, 82, rfl⟩
abbrev main_call0_cst_4 : Ref sig .tc := ⟨.hbm, 83, rfl⟩
abbrev main_call0_call0_v0 : Ref sig .tc := ⟨.hbm, 84, rfl⟩
abbrev main_call0_call0_v1 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_9 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_call1_cst : Ref sig .tc := ⟨.hbm, 103, rfl⟩
abbrev main_call1_v0 : Ref sig .tc := ⟨.hbm, 104, rfl⟩
abbrev main_v64 : Ref sig .tc := ⟨.hbm, 105, rfl⟩
abbrev main_cst_10 : Ref sig .tc := ⟨.hbm, 106, rfl⟩
abbrev main_v65 : Ref sig .tc := ⟨.hbm, 107, rfl⟩
abbrev main_c_11 : Ref sig .tc := ⟨.hbm, 108, rfl⟩
abbrev main_v66 : Ref sig .tc := ⟨.hbm, 109, rfl⟩
abbrev main_v67 : Ref sig .tc := ⟨.hbm, 110, rfl⟩
abbrev main_c_12 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_c_13 : Ref sig .tc := ⟨.hbm, 122, rfl⟩
abbrev main_v78 : Ref sig .tc := ⟨.hbm, 123, rfl⟩
abbrev main_v79 : Ref sig .tc := ⟨.hbm, 124, rfl⟩
abbrev main_c_14 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩

abbrev nD : Nat := 1
abbrev τ : Topo := Topo.v7x

variable {F : FTy → Type} [FloatOps F]

class Facts₀ : Prop where
  slices_S150000x20x5_S150000x20x3_0_0_0 : S150000x20x5.Slices ![0, 0, 0] S150000x20x3
  reducesTo_S150000x20x3_S150000x3_d1 : S150000x20x3.ReducesTo [1] S150000x3
  h_S_ : 0 < S_.numel
  bcast_S150000_S150000x1_0 : S150000.BroadcastsInDim S150000x1 (![0] : Fin 1 → Fin S150000x1.rank)
  bcast_S150000x1_S150000x3_0_1 : S150000x1.BroadcastsInDim S150000x3 (![0, 1] : Fin 2 → Fin S150000x3.rank)
  bcast_S150000x3_S150000x1x3_0_2 : S150000x3.BroadcastsInDim S150000x1x3 (![0, 2] : Fin 2 → Fin S150000x1x3.rank)
  bcast_S150000x1x3_S150000x20x3_0_1_2 : S150000x1x3.BroadcastsInDim S150000x20x3 (![0, 1, 2] : Fin 3 → Fin S150000x20x3.rank)
  slices_S150000x4_S150000x2_0_2 : S150000x4.Slices ![0, 2] S150000x2
  slices_S150000x20x3_S150000x20x2_0_0_0 : S150000x20x3.Slices ![0, 0, 0] S150000x20x2
  bcast_S_S150000x2 : S_.BroadcastsInDim S150000x2 (![] : Fin 0 → Fin S150000x2.rank)
  slices_S3_S2_0 : S3.Slices ![0] S2
  bcast_S2_S1x2_1 : S2.BroadcastsInDim S1x2 (![1] : Fin 1 → Fin S1x2.rank)
  bcast_S1x2_S150000x2_0_1 : S1x2.BroadcastsInDim S150000x2 (![0, 1] : Fin 2 → Fin S150000x2.rank)
  slices_S6_S2_0 : S6.Slices ![0] S2
  bcast_S150000x2_S150000x1x2_0_2 : S150000x2.BroadcastsInDim S150000x1x2 (![0, 2] : Fin 2 → Fin S150000x1x2.rank)
  bcast_S150000x1x2_S150000x20x2_0_1_2 : S150000x1x2.BroadcastsInDim S150000x20x2 (![0, 1, 2] : Fin 3 → Fin S150000x20x2.rank)
  slices_S150000x20x3_S150000x20x1_0_0_2 : S150000x20x3.Slices ![0, 0, 2] S150000x20x1
  shapeCasts_S150000x20x1_S150000x20 : S150000x20x1.ShapeCasts S150000x20
  slices_S3_S1_2 : S3.Slices ![2] S1
  shapeCasts_S1_S_ : S1.ShapeCasts S_
  slices_S6_S1_2 : S6.Slices ![2] S1
  bcast_S_S150000x20 : S_.BroadcastsInDim S150000x20 (![] : Fin 0 → Fin S150000x20.rank)
  bcast_S150000x20_S150000x20x1_0_1 : S150000x20.BroadcastsInDim S150000x20x1 (![0, 1] : Fin 2 → Fin S150000x20x1.rank)
  concatenates_S150000x20x2_S150000x20x1_S150000x20x3_d2 : Shape.Concatenates [S150000x20x2, S150000x20x1] S150000x20x3 2
  bcast_S_S150000x20x3 : S_.BroadcastsInDim S150000x20x3 (![] : Fin 0 → Fin S150000x20x3.rank)
  concatenates_S150000x20x3_S150000x20x3_S150000x20x3_S150000x20x9_d2 : Shape.Concatenates [S150000x20x3, S150000x20x3, S150000x20x3] S150000x20x9 2
  reducesTo_S150000x20x64_S64_d0_1 : S150000x20x64.ReducesTo [0, 1] S64
  bcast_S_S64 : S_.BroadcastsInDim S64 (![] : Fin 0 → Fin S64.rank)
  bcast_S64_S1x1x64_2 : S64.BroadcastsInDim S1x1x64 (![2] : Fin 1 → Fin S1x1x64.rank)
  bcast_S_S1x1x64 : S_.BroadcastsInDim S1x1x64 (![] : Fin 0 → Fin S1x1x64.rank)
  bcast_S1x1x64_S150000x20x64_0_1_2 : S1x1x64.BroadcastsInDim S150000x20x64 (![0, 1, 2] : Fin 3 → Fin S150000x20x64.rank)
  bcast_S_S150000x20x64 : S_.BroadcastsInDim S150000x20x64 (![] : Fin 0 → Fin S150000x20x64.rank)
  reducesTo_S150000x20x64_S150000x64_d1 : S150000x20x64.ReducesTo [1] S150000x64
  bcast_S_S3 : S_.BroadcastsInDim S3 (![] : Fin 0 → Fin S3.rank)
  bcast_S3_S3x1_0 : S3.BroadcastsInDim S3x1 (![0] : Fin 1 → Fin S3x1.rank)
  slices_S6_S3_3 : S6.Slices ![3] S3
  slices_S6_S3_0 : S6.Slices ![0] S3
  bcast_S_S2 : S_.BroadcastsInDim S2 (![] : Fin 0 → Fin S2.rank)
  bcast_S2_S2x1_0 : S2.BroadcastsInDim S2x1 (![0] : Fin 1 → Fin S2x1.rank)
  dot_S150000x20x9_S64x9_S150000x20x64_2_1_01_0_n_n_wf : DotDims.WF S150000x20x9 S64x9 S150000x20x64 [2] [1] [0, 1] [0] [] []
  gather_S150000x4_S3x1_S150000x3_0_1_n_n_1_1_1500001_wf : GatherDims.WF S150000x4 S3x1 S150000x3 [0] [1] [] [1] [] 1 ![150000, 1]
  gather_S3_S2x1_S2_n_0_n_n_0_1_1_wf : GatherDims.WF S3 S2x1 S2 [] [0] [] [0] [] 1 ![1]

variable [Facts₀]

def dot_S150000x20x9_S64x9_S150000x20x64_2_1_01_0_n_n : DotDims S150000x20x9 S64x9 S150000x20x64 where
  lhsContracting := [2]
  rhsContracting := [1]
  lhsNonContracting := [0, 1]
  rhsNonContracting := [0]
  lhsBatch := []
  rhsBatch := []
  wf := dot_S150000x20x9_S64x9_S150000x20x64_2_1_01_0_n_n_wf
def gather_S150000x4_S3x1_S150000x3_0_1_n_n_1_1_1500001 : GatherDims S150000x4 S3x1 S150000x3 where
  offsetDims := [0]
  collapsedSliceDims := [1]
  operandBatchingDims := []
  startIndicesBatchingDims := []
  startIndexMap := [1]
  indexVectorDim := 1
  sliceSizes := ![150000, 1]
  wf := gather_S150000x4_S3x1_S150000x3_0_1_n_n_1_1_1500001_wf
def gather_S3_S2x1_S2_n_0_n_n_0_1_1 : GatherDims S3 S2x1 S2 where
  offsetDims := []
  collapsedSliceDims := [0]
  operandBatchingDims := []
  startIndicesBatchingDims := []
  startIndexMap := [0]
  indexVectorDim := 1
  sliceSizes := ![1]
  wf := gather_S3_S2x1_S2_n_0_n_n_0_1_1_wf

class Facts : Prop extends Facts₀ where

variable [Facts]
-- ==== Proof.K.Reg0Runs.lean ====
/- The body of the first kernel on any whole staging memrefs, one triple per control case: at the first grid point
   both running sums are zeroed and then updated, at a middle point they are updated over what they held, at the last
   point they are updated and the two outputs (mean and variance) are stored from them. -/
import proofs.«129818_j66013647339880_2_alg».proof.Proof.Gen.Kernel.Launch
import proofs.«129818_j66013647339880_2_alg».proof.Proof.Gen.Kernel.Skeleton
import proofs.«129818_j66013647339880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The first running sum after a point, from the point's four input blocks and the sum before it. -/
def step7 (x1 : Vec F S512x20x5 .f32) (x2 : Vec F S512x1 .i32) (x3 : Vec F S512x4 .i32) (x4 : Vec F S9x64 .f32) (s : Vec F S1x64 .f32) : Vec F S1x64 .f32 :=
  k0_pay12 (k0_pay6 x1) (k0_pay7 x1 x2) (k0_pay8 x3) (k0_pay9 x1) (k0_pay10 x3) x4 s

/-- The second running sum (of squares) after a point. -/
def step8 (x1 : Vec F S512x20x5 .f32) (x2 : Vec F S512x1 .i32) (x3 : Vec F S512x4 .i32) (x4 : Vec F S9x64 .f32) (s : Vec F S1x64 .f32) : Vec F S1x64 .f32 :=
  k0_pay13 (k0_pay6 x1) (k0_pay7 x1 x2) (k0_pay8 x3) (k0_pay9 x1) (k0_pay10 x3) x4 s

/-- The body's first condition: the grid coordinate is zero. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- The body's second condition: the grid coordinate is the last. -/
abbrev cond0_1 (i : grid0.Coords) : Prop := k0_cond2 i = 1#1
theorem hcond0_1 : ∀ t : Fin cfg0.N, cond0_1 (grid0.coords t) ↔ t.val = 292 :=
  (by decide +kernel : ∀ t : Fin grid0.N, cond0_1 (grid0.coords t) ↔ t.val = 292)

/-- A whole-buffer store, last, leaves its payload: whatever the earlier stores and the prior contents were. -/
theorem read_writes_cons_unit (v : View sig .tc .vmem S1x64 .f32) (f : v.ty.Contents (Elt F))
    (inb : ∀ a, (![0, 0] : Fin S1x64.rank → Nat) a + S1x64.size a ≤ S1x64.size a) (w : Vec F S1x64 .f32)
    (L : List (View.Piece (Elt F) S1x64 .f32)) :
    v.read (Elt F) (v.writes (Elt F) f (⟨Rect.unit ![0, 0] S1x64.size inb, w⟩ :: L)) = w :=
  (View.read_writes_eq_canon _ _ _ (fun y => ⟨_, List.mem_cons.mpr (Or.inl rfl), View.mem_set_unit_zero hz2 inb y⟩)).trans
    (View.canon_cons_unit_zero hz2 inb w L)

set_option maxHeartbeats 4000000 in
/-- The first point: both running sums are zeroed, then updated; the outputs untouched. -/
theorem run0_A (c : Dev nD) (i : grid0.Coords) (arg1 : Memref sig .tc .vmem S512x20x5 .f32) (harg1 : arg1.IsWhole) (arg2 : Memref sig .tc .vmem S512x1 .i32) (harg2 : arg2.IsWhole) (arg3 : Memref sig .tc .vmem S512x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x1 : Vec F S512x20x5 .f32) (x2 : Vec F S512x1 .i32) (x3 : Vec F S512x4 .i32) (x4 : Vec F S9x64 .f32) (xi5 xi6 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xi6 ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xi6 ∗ owns (c : Thread nD τ) arg7 fullShare (step7 x1 x2 x3 x4 k0_pay3) ∗ owns (c : Thread nD τ) arg8 fullShare (step8 x1 x2 x3 x4 k0_pay4)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_cons_unit _ _ _ _ _).trans ?_
    sl_unfold_words
    simp only [step7, step8, View.readAt_eq_ld, harg1.read_unread, harg2.read_unread, harg3.read_unread, harg4.read_unread, harg7.read_unread, harg8.read_unread, View.ld_unit_zero (S := S512x20x5) hz3, View.ld_unit_zero (S := S512x1) hz2, View.ld_unit_zero (S := S512x4) hz2, View.ld_unit_zero (S := S9x64) hz2, View.ld_unit_zero (S := S1x64) hz2, View.readCov_unit_zero (S := S1x64) _ hz2]
  iexists _; isplitr
  swap; · iexact H8
  ipureintro
  refine (read_writes_cons_unit _ _ _ _ _).trans ?_
  sl_unfold_words
  simp only [step7, step8, View.readAt_eq_ld, harg1.read_unread, harg2.read_unread, harg3.read_unread, harg4.read_unread, harg7.read_unread, harg8.read_unread, View.ld_unit_zero (S := S512x20x5) hz3, View.ld_unit_zero (S := S512x1) hz2, View.ld_unit_zero (S := S512x4) hz2, View.ld_unit_zero (S := S9x64) hz2, View.ld_unit_zero (S := S1x64) hz2, View.readCov_unit_zero (S := S1x64) _ hz2]

set_option maxHeartbeats 4000000 in
/-- A middle point: neither condition holds; both running sums are updated over what they held, the outputs untouched. -/
theorem run0_B (c : Dev nD) (i : grid0.Coords) (arg1 : Memref sig .tc .vmem S512x20x5 .f32) (harg1 : arg1.IsWhole) (arg2 : Memref sig .tc .vmem S512x1 .i32) (harg2 : arg2.IsWhole) (arg3 : Memref sig .tc .vmem S512x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x1 : Vec F S512x20x5 .f32) (x2 : Vec F S512x1 .i32) (x3 : Vec F S512x4 .i32) (x4 : Vec F S9x64 .f32) (s7 s8 xi5 xi6 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xi6 ∗ owns (c : Thread nD τ) arg7 fullShare s7 ∗ owns (c : Thread nD τ) arg8 fullShare s8
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xi6 ∗ owns (c : Thread nD τ) arg7 fullShare (step7 x1 x2 x3 x4 s7) ∗ owns (c : Thread nD τ) arg8 fullShare (step8 x1 x2 x3 x4 s8)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_cons_unit _ _ _ _ _).trans ?_
    sl_unfold_words
    simp only [step7, step8, View.readAt_eq_ld, harg1.read_unread, harg2.read_unread, harg3.read_unread, harg4.read_unread, harg7.read_unread, harg8.read_unread, View.ld_unit_zero (S := S512x20x5) hz3, View.ld_unit_zero (S := S512x1) hz2, View.ld_unit_zero (S := S512x4) hz2, View.ld_unit_zero (S := S9x64) hz2, View.ld_unit_zero (S := S1x64) hz2, View.readCov_unit_zero (S := S1x64) _ hz2]
  iexists _; isplitr
  swap; · iexact H8
  ipureintro
  refine (read_writes_cons_unit _ _ _ _ _).trans ?_
  sl_unfold_words
  simp only [step7, step8, View.readAt_eq_ld, harg1.read_unread, harg2.read_unread, harg3.read_unread, harg4.read_unread, harg7.read_unread, harg8.read_unread, View.ld_unit_zero (S := S512x20x5) hz3, View.ld_unit_zero (S := S512x1) hz2, View.ld_unit_zero (S := S512x4) hz2, View.ld_unit_zero (S := S9x64) hz2, View.ld_unit_zero (S := S1x64) hz2, View.readCov_unit_zero (S := S1x64) _ hz2]

set_option maxHeartbeats 4000000 in
/-- The last point: both running sums are updated over what they held, and the two outputs are stored from them. -/
theorem run0_C (c : Dev nD) (i : grid0.Coords) (arg1 : Memref sig .tc .vmem S512x20x5 .f32) (harg1 : arg1.IsWhole) (arg2 : Memref sig .tc .vmem S512x1 .i32) (harg2 : arg2.IsWhole) (arg3 : Memref sig .tc .vmem S512x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x1 : Vec F S512x20x5 .f32) (x2 : Vec F S512x1 .i32) (x3 : Vec F S512x4 .i32) (x4 : Vec F S9x64 .f32) (s7 s8 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ owns (c : Thread nD τ) arg7 fullShare s7 ∗ owns (c : Thread nD τ) arg8 fullShare s8
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (k0_pay1 (step7 x1 x2 x3 x4 s7)) ∗ owns (c : Thread nD τ) arg6 fullShare (k0_pay2 (step7 x1 x2 x3 x4 s7) (step8 x1 x2 x3 x4 s8)) ∗ owns (c : Thread nD τ) arg7 fullShare (step7 x1 x2 x3 x4 s7) ∗ owns (c : Thread nD τ) arg8 fullShare (step8 x1 x2 x3 x4 s8)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4
  obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_writes_cons_unit _ _ _ _ _).trans ?_
    sl_unfold_words
    simp only [step7, step8, View.readAt_eq_ld, harg1.read_unread, harg2.read_unread, harg3.read_unread, harg4.read_unread, harg7.read_unread, harg8.read_unread, View.ld_unit_zero (S := S512x20x5) hz3, View.ld_unit_zero (S := S512x1) hz2, View.ld_unit_zero (S := S512x4) hz2, View.ld_unit_zero (S := S9x64) hz2, View.ld_unit_zero (S := S1x64) hz2, View.readCov_unit_zero (S := S1x64) _ hz2]
  isplitl [H6]
  · iexists _; isplitr
    swap; · iexact H6
    ipureintro
    refine (read_writes_cons_unit _ _ _ _ _).trans ?_
    sl_unfold_words
    simp only [step7, step8, View.readAt_eq_ld, harg1.read_unread, harg2.read_unread, harg3.read_unread, harg4.read_unread, harg7.read_unread, harg8.read_unread, View.ld_unit_zero (S := S512x20x5) hz3, View.ld_unit_zero (S := S512x1) hz2, View.ld_unit_zero (S := S512x4) hz2, View.ld_unit_zero (S := S9x64) hz2, View.ld_unit_zero (S := S1x64) hz2, View.readCov_unit_zero (S := S1x64) _ hz2]
  isplitl [H7]
  · iexists _; isplitr
    swap; · iexact H7
    ipureintro
    refine (read_writes_cons_unit _ _ _ _ _).trans ?_
    sl_unfold_words
    simp only [step7, step8, View.readAt_eq_ld, harg1.read_unread, harg2.read_unread, harg3.read_unread, harg4.read_unread, harg7.read_unread, harg8.read_unread, View.ld_unit_zero (S := S512x20x5) hz3, View.ld_unit_zero (S := S512x1) hz2, View.ld_unit_zero (S := S512x4) hz2, View.ld_unit_zero (S := S9x64) hz2, View.ld_unit_zero (S := S1x64) hz2, View.readCov_unit_zero (S := S1x64) _ hz2]
  iexists _; isplitr
  swap; · iexact H8
  ipureintro
  refine (read_writes_cons_unit _ _ _ _ _).trans ?_
  sl_unfold_words
  simp only [step7, step8, View.readAt_eq_ld, harg1.read_unread, harg2.read_unread, harg3.read_unread, harg4.read_unread, harg7.read_unread, harg8.read_unread, View.ld_unit_zero (S := S512x20x5) hz3, View.ld_unit_zero (S := S512x1) hz2, View.ld_unit_zero (S := S512x4) hz2, View.ld_unit_zero (S := S9x64) hz2, View.ld_unit_zero (S := S1x64) hz2, View.readCov_unit_zero (S := S1x64) _ hz2]

end Cert.Kernel.Hand

end
-- ==== Proof.K.Reg0.lean ====
/- The first kernel's region at any entry contents: the windows' blocks, the two running sums after each grid point
   (zero plus the first point's contribution, then each point's added), the invariant that carries them from point to
   point, the proof data, the body obligation at a generic point, and the two output arrays after the region (the
   mean and the variance of the running sums after the last point, written back once). -/
import proofs.«129818_j66013647339880_2_alg».proof.Proof.Gen.Kernel.Launch
import proofs.«129818_j66013647339880_2_alg».proof.Proof.Gen.Kernel.Skeleton
import proofs.«129818_j66013647339880_2_alg».proof.Proof.Gen.Kernel.Points
import proofs.«129818_j66013647339880_2_alg».proof.Proof.K.Reg0Runs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.Dat
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The two running sums after each point -/

/-- The two carried buffers after point `n`: zero plus the first point's contribution, then each point's added. -/
def scAt0 (c : Dev nD) : (n : ℕ) → n < cfg0.N → Vec F S1x64 .f32 × Vec F S1x64 .f32
  | 0, h => (step7 (iblk0 V c 0 ⟨0, h⟩) (iblk0 V c 1 ⟨0, h⟩) (iblk0 V c 2 ⟨0, h⟩) (iblk0 V c 3 ⟨0, h⟩) k0_pay3, step8 (iblk0 V c 0 ⟨0, h⟩) (iblk0 V c 1 ⟨0, h⟩) (iblk0 V c 2 ⟨0, h⟩) (iblk0 V c 3 ⟨0, h⟩) k0_pay4)
  | n + 1, h => (step7 (iblk0 V c 0 ⟨n + 1, h⟩) (iblk0 V c 1 ⟨n + 1, h⟩) (iblk0 V c 2 ⟨n + 1, h⟩) (iblk0 V c 3 ⟨n + 1, h⟩) (scAt0 c n (Nat.lt_of_succ_lt h)).1, step8 (iblk0 V c 0 ⟨n + 1, h⟩) (iblk0 V c 1 ⟨n + 1, h⟩) (iblk0 V c 2 ⟨n + 1, h⟩) (iblk0 V c 3 ⟨n + 1, h⟩) (scAt0 c n (Nat.lt_of_succ_lt h)).2)

theorem scAt0_zero (c : Dev nD) (t : Fin cfg0.N) (h0 : t.val = 0) :
    scAt0 V c t.val t.isLt = (step7 (iblk0 V c 0 t) (iblk0 V c 1 t) (iblk0 V c 2 t) (iblk0 V c 3 t) k0_pay3, step8 (iblk0 V c 0 t) (iblk0 V c 1 t) (iblk0 V c 2 t) (iblk0 V c 3 t) k0_pay4) := by
  obtain ⟨n, hn⟩ := t
  cases n with
  | zero => rfl
  | succ n => exact absurd h0 (Nat.succ_ne_zero n)

theorem scAt0_pos (c : Dev nD) (t : Fin cfg0.N) (h0 : t.val ≠ 0) :
    scAt0 V c t.val t.isLt = (step7 (iblk0 V c 0 t) (iblk0 V c 1 t) (iblk0 V c 2 t) (iblk0 V c 3 t) (scAt0 V c (t.val - 1) (Nat.lt_of_le_of_lt (Nat.sub_le _ _) t.isLt)).1, step8 (iblk0 V c 0 t) (iblk0 V c 1 t) (iblk0 V c 2 t) (iblk0 V c 3 t) (scAt0 V c (t.val - 1) (Nat.lt_of_le_of_lt (Nat.sub_le _ _) t.isLt)).2) := by
  obtain ⟨n, hn⟩ := t
  cases n with
  | zero => exact absurd rfl h0
  | succ n => rfl

/-! ## The invariant -/

/-- The two carried buffers as memrefs. -/
abbrev scM0_0 : Memref sig .tc .vmem S1x64 .f32 := Memref.whole cc0_scratch0
abbrev scM0_1 : Memref sig .tc .vmem S1x64 .f32 := Memref.whole cc0_scratch1

/-- The scoped buffers the body never touches (the other call's staging buffers), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

/-- The class's invariant with the two carried buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

/-- The invariant before position `n`: before the first point the class's; afterwards the two carried buffers at
    what the point before left, the rest at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare (scAt0 V c n hn).1 ∗ owns (c : Thread nD τ) scM0_1 fullShare (scAt0 V c n hn).2 ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (scAt0 V c n hn).1 ∗ owns (c : Thread nD τ) scM0_1 fullShare (scAt0 V c n hn).2 ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare (scAt0 V c (n - 1) (by omega)).1 ∗ owns (c : Thread nD τ) scM0_1 fullShare (scAt0 V c (n - 1) (by omega)).2 ∗ rest0 c) ∗ (∃ r, prngReg c r)) := by
  cases n with
  | zero => exact absurd rfl hz
  | succ n => rfl

/-! ## The proof data -/

/-- The proof data of the pipeline on core `c`: the arrays as the region finds them; after the body at point `t`
    each input's buffer at its block, the two outputs' at the mean and the variance of the running sums (consulted
    only at the last point, the only one that stores them); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (scAt0 V c t.val t.isLt).1
    | ⟨5, _⟩ => k0_pay2 (scAt0 V c t.val t.isLt).1 (scAt0 V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay1 (scAt0 V c t.val t.isLt).1 := by dsimp only [dat0]
theorem after0_5 (c : Dev nD) (t : Fin cfg0.N) : (dat0 V c).after 5 t = k0_pay2 (scAt0 V c t.val t.isLt).1 (scAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## Where the output windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the point is the first, a middle or the last one
    (`by_cases` on the closed forms), so that case's triple applies; the invariant hands the body the two carried
    buffers at what the point before left (at anything at the first point) and takes them back at this point's
    contents; the rest of the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 293 := lt_of_lt_of_eq t.isLt (show cfg0.N = 293 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 4 t (idleAt0_4 t hc1) (noFlush0_4 t hc1)]
    rw [Dat.leavesExact_idle (dat0 V c) 5 t (idleAt0_5 t hc1) (noFlush0_5 t hc1)]
    rw [scAt0_zero V c t h0]
    rw [PhiS_castSucc V c t, PhiS_zero V c _ _ h0, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply (run0_A c (grid0.coords t) _ _ _ _ _ _ _ _ _ _ _ _ _ _ _ _ hc0 hc1 (iblk0 V c 0 t) (iblk0 V c 1 t) (iblk0 V c 2 t) (iblk0 V c 3 t) _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 HR Hg]
    · isplitl [HS0 HS1 HR]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hc0 : ¬cond0_0 (grid0.coords t) := fun h => h0 ((hcond0_0 t).mp h)
    by_cases h1 : t.val = 292
    · have hc1 : cond0_1 (grid0.coords t) := (hcond0_1 t).mpr h1
      rw [show (dat0 V c).leavesExact 4 t = owns (c : Thread nD τ) (st0_4 t) fullShare ((dat0 V c).after 4 t) from by
        unfold Dat.leavesExact; rw [liveAt0_4 t hc1], after0_4]
      rw [show (dat0 V c).leavesExact 5 t = owns (c : Thread nD τ) (st0_5 t) fullShare ((dat0 V c).after 5 t) from by
        unfold Dat.leavesExact; rw [liveAt0_5 t hc1], after0_5]
      rw [scAt0_pos V c t h0]
      rw [PhiS_castSucc V c t, PhiS_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (run0_C c (grid0.coords t) _ _ _ _ _ _ _ _ _ _ _ _ _ _ _ _ hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond0_1 (grid0.coords t) := fun h => h1 ((hcond0_1 t).mp h)
      rw [Dat.leavesExact_idle (dat0 V c) 4 t (idleAt0_4 t hc1) (noFlush0_4 t hc1)]
      rw [Dat.leavesExact_idle (dat0 V c) 5 t (idleAt0_5 t hc1) (noFlush0_5 t hc1)]
      rw [scAt0_pos V c t h0]
      rw [PhiS_castSucc V c t, PhiS_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (run0_B c (grid0.coords t) _ _ _ _ _ _ _ _ _ _ _ _ _ _ _ _ hc0 hc1 (iblk0 V c 0 t) (iblk0 V c 1 t) (iblk0 V c 2 t) (iblk0 V c 3 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the carried buffers' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 293 := N_0; omega)

/-! ## The output arrays after the region -/

/-- The last grid point. -/
abbrev t292 : Fin cfg0.N := ⟨292, by decide⟩

/-- The first output array's final contents: the mean of the first running sum after the last point. -/
abbrev res4 (c : Dev nD) : Buf (Elt F) ((c : Thread nD τ).loc main_v7_0) := k0_pay1 (scAt0 V c 292 (by decide)).1
/-- The second output array's final contents: the variance from the two running sums after the last point. -/
abbrev res5 (c : Dev nD) : Buf (Elt F) ((c : Thread nD τ).loc main_v7_1) := k0_pay2 (scAt0 V c 292 (by decide)).1 (scAt0 V c 292 (by decide)).2

/-- The one write-back of window 4, at the last point, writes it: the one block read through zero offsets is the array. -/
theorem flushed_eq4 (c : Dev nD) (t : Fin cfg0.N) (hf : (cfg0.win 4).flush t = true) :
    (dat0 V c).flushed 4 t = ((cfg0.win 4).blk t).view.read (Elt F) (res4 V c) := by
  have hN : cfg0.N = 293 := N_0
  have h292 : t.val = 292 := by have := (flush0_4 t).mp hf; have := t.isLt; omega
  obtain rfl : t = t292 := Fin.ext h292
  show (cfg0.win 4).cut (grid0.coords t292) ((dat0 V c).after 4 t292) = _
  rw [after0_4]
  have hz' : (fun a => win0_4.index t292 a * main_v7_0.ty.shape.size a) = fun _ => 0 := funext fun a => by fin_cases a <;> decide
  exact (Memref.read_access_unit_zero (Elt F) main_v7_0 hz' (fun a => by rw [congrFun hz' a]; simp) (res4 V c)).symm

theorem flushed_eq5 (c : Dev nD) (t : Fin cfg0.N) (hf : (cfg0.win 5).flush t = true) :
    (dat0 V c).flushed 5 t = ((cfg0.win 5).blk t).view.read (Elt F) (res5 V c) := by
  have hN : cfg0.N = 293 := N_0
  have h292 : t.val = 292 := by have := (flush0_5 t).mp hf; have := t.isLt; omega
  obtain rfl : t = t292 := Fin.ext h292
  show (cfg0.win 5).cut (grid0.coords t292) ((dat0 V c).after 5 t292) = _
  rw [after0_5]
  have hz' : (fun a => win0_5.index t292 a * main_v7_1.ty.shape.size a) = fun _ => 0 := funext fun a => by fin_cases a <;> decide
  exact (Memref.read_access_unit_zero (Elt F) main_v7_1 hz' (fun a => by rw [congrFun hz' a]; simp) (res5 V c)).symm

/-- The first output array ends holding the mean of the first running sum after the last point: that point's block covers it. -/
theorem arr0_4 (c : Dev nD) : (dat0 V c).arrAt 4 cfg0.N = k0_pay1 (scAt0 V c 292 (by decide)).1 :=
  (dat0 V c).arrAt_eq_of_cover 4 (res4 V c) (flushed_eq4 V c) fun i =>
    ⟨t292, (flush0_4 t292).mpr rfl, by
      show i ∈ ((View.whole main_v7_0).slice (win0_4.rect t292)).set
      rw [View.set_slice_whole, Rect.mem_set_unit]
      intro a
      have h0 : (i 0 : Nat) < 1 := (i 0).isLt
      have h1 : (i 1 : Nat) < 64 := (i 1).isLt
      match a with
      | ⟨0, _⟩ => show win0_4.index t292 0 * win0_4.size 0 ≤ (i 0 : Nat) ∧ (i 0 : Nat) < win0_4.index t292 0 * win0_4.size 0 + win0_4.xsize (grid0.coords t292) 0
                  rw [show win0_4.index t292 0 * win0_4.size 0 = 0 from by decide +kernel, show win0_4.xsize (grid0.coords t292) 0 = 1 from by decide +kernel]; omega
      | ⟨1, _⟩ => show win0_4.index t292 1 * win0_4.size 1 ≤ (i 1 : Nat) ∧ (i 1 : Nat) < win0_4.index t292 1 * win0_4.size 1 + win0_4.xsize (grid0.coords t292) 1
                  rw [show win0_4.index t292 1 * win0_4.size 1 = 0 from by decide +kernel, show win0_4.xsize (grid0.coords t292) 1 = 64 from by decide +kernel]; omega⟩

/-- The second output array ends holding the variance from the two running sums after the last point. -/
theorem arr0_5 (c : Dev nD) : (dat0 V c).arrAt 5 cfg0.N = k0_pay2 (scAt0 V c 292 (by decide)).1 (scAt0 V c 292 (by decide)).2 :=
  (dat0 V c).arrAt_eq_of_cover 5 (res5 V c) (flushed_eq5 V c) fun i =>
    ⟨t292, (flush0_5 t292).mpr rfl, by
      show i ∈ ((View.whole main_v7_1).slice (win0_5.rect t292)).set
      rw [View.set_slice_whole, Rect.mem_set_unit]
      intro a
      have h0 : (i 0 : Nat) < 1 := (i 0).isLt
      have h1 : (i 1 : Nat) < 64 := (i 1).isLt
      match a with
      | ⟨0, _⟩ => show win0_5.index t292 0 * win0_5.size 0 ≤ (i 0 : Nat) ∧ (i 0 : Nat) < win0_5.index t292 0 * win0_5.size 0 + win0_5.xsize (grid0.coords t292) 0
                  rw [show win0_5.index t292 0 * win0_5.size 0 = 0 from by decide +kernel, show win0_5.xsize (grid0.coords t292) 0 = 1 from by decide +kernel]; omega
      | ⟨1, _⟩ => show win0_5.index t292 1 * win0_5.size 1 ≤ (i 1 : Nat) ∧ (i 1 : Nat) < win0_5.index t292 1 * win0_5.size 1 + win0_5.xsize (grid0.coords t292) 1
                  rw [show win0_5.index t292 1 * win0_5.size 1 = 0 from by decide +kernel, show win0_5.xsize (grid0.coords t292) 1 = 64 from by decide +kernel]; omega⟩

end Regions

end Cert.Kernel.Hand

end
-- ==== Proof.K.Reg1.lean ====
/- Region 1 of the kernel program (the normalising main kernel): what its body leaves in the output window's
   buffer at a grid point, as a function of the eight input windows' blocks there; the body's triple; the
   pipeline's proof data at a parameter `V` (the buffer contents when the region is entered); and the body
   obligation at every grid point. -/
import proofs.«129818_j66013647339880_2_alg».proof.Proof.Gen.Kernel.Launch
import proofs.«129818_j66013647339880_2_alg».proof.Proof.Gen.Kernel.Skeleton
import proofs.«129818_j66013647339880_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the point fetched it:
    an unfetched window's block index has not moved since the point that did. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the point fetched it:
    an unfetched window's block index has not moved since the point that did. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the point fetched it:
    an unfetched window's block index has not moved since the point that did. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not the point fetched it:
    an unfetched window's block index has not moved since the point that did. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether or not the point fetched it:
    an unfetched window's block index has not moved since the point that did. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether or not the point fetched it:
    an unfetched window's block index has not moved since the point that did. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether or not the point fetched it:
    an unfetched window's block index has not moved since the point that did. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, whether or not the point fetched it:
    an unfetched window's block index has not moved since the point that did. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole staging buffer -/

/-- The zero offsets of a whole-buffer access, as the constant function. -/
theorem zero2 : (![0, 0] : Fin 2 → ℕ) = fun _ => 0 := by
  funext a; fin_cases a <;> rfl
theorem zero3 : (![0, 0, 0] : Fin 3 → ℕ) = fun _ => 0 := by
  funext a; fin_cases a <;> rfl

abbrev rIn0 : Rect S512x20x5 := Rect.unit (s := S512x20x5) ![0, 0, 0] S512x20x5.size inb_S512x20x5_S512x20x5_0_0_0
abbrev rIn1 : Rect S512x1 := Rect.unit (s := S512x1) ![0, 0] S512x1.size inb_S512x1_S512x1_0_0
abbrev rIn2 : Rect S512x4 := Rect.unit (s := S512x4) ![0, 0] S512x4.size inb_S512x4_S512x4_0_0
abbrev rIn3 : Rect S9x64 := Rect.unit (s := S9x64) ![0, 0] S9x64.size inb_S9x64_S9x64_0_0
abbrev rRow : Rect S1x64 := Rect.unit (s := S1x64) ![0, 0] S1x64.size inb_S1x64_S1x64_0_0
abbrev rOut : Rect S512x64 := Rect.unit (s := S512x64) ![0, 0] S512x64.size inb_S512x64_S512x64_0_0

/-! ## What the body leaves in the output window's buffer -/

/-- The output window's staging buffer after the body, from the input windows' blocks: its one store, of the
    normalised, rectified and point-maximised features computed from the loads. -/
def out1_8 (x0 : Vec F S512x20x5 .f32) (x1 : Vec F S512x1 .i32) (x2 : Vec F S512x4 .i32) (x3 : Vec F S9x64 .f32)
    (x4 x5 x6 x7 : Vec F S1x64 .f32) : Vec F S512x64 .f32 :=
  View.canon [⟨rOut, k1_pay6 (k1_pay2 (View.ld x0 rIn0)) (k1_pay3 (View.ld x0 rIn0) (View.ld x1 rIn1))
    (k1_pay4 (View.ld x0 rIn0) (View.ld x2 rIn2)) (k1_pay5 (View.ld x0 rIn0) (View.ld x2 rIn2))
    (View.ld x3 rIn3) (View.ld x4 rRow) (View.ld x5 rRow) (View.ld x6 rRow) (View.ld x7 rRow)⟩]

/-- One whole store over whole loads leaves the payload of the blocks themselves. -/
theorem out1_8_eq (x0 : Vec F S512x20x5 .f32) (x1 : Vec F S512x1 .i32) (x2 : Vec F S512x4 .i32) (x3 : Vec F S9x64 .f32)
    (x4 x5 x6 x7 : Vec F S1x64 .f32) :
    out1_8 x0 x1 x2 x3 x4 x5 x6 x7
      = k1_pay6 (k1_pay2 x0) (k1_pay3 x0 x1) (k1_pay4 x0 x2) (k1_pay5 x0 x2) x3 x4 x5 x6 x7 := by
  unfold out1_8
  rw [View.canon_unit_zero (S := S512x64) zero2]
  simp only [View.ld_unit_zero (S := S512x20x5) zero3, View.ld_unit_zero (S := S512x1) zero2,
    View.ld_unit_zero (S := S512x4) zero2, View.ld_unit_zero (S := S9x64) zero2, View.ld_unit_zero (S := S1x64) zero2]

/-- Its store covers the buffer. -/
theorem cover1_8 (p0 : Vec F S512x64 .f32) (y : S512x64.Idx) :
    ∃ pc ∈ ([⟨rOut, p0⟩] : List (View.Piece (Elt F) S512x64 .f32)), y ∈ pc.1.set :=
  ⟨_, List.mem_singleton_self _, View.mem_set_unit_zero (S := S512x64) zero2 inb_S512x64_S512x64_0_0 y⟩

/-! ## The body's triple -/

set_option maxHeartbeats 4000000 in
/-- The kernel body on whole staging memrefs, the inputs' at contents `x0 … x7` and the output's at anything, runs to
    the continuation holding the inputs' as they were and the output's at `out1_8` of the inputs'. -/
theorem sound_kernel1 (c : Dev nD) (E : Set ℕ) (i : grid1.Coords)
    (arg1 : Memref sig .tc .vmem S512x20x5 .f32) (harg1 : arg1.IsWhole) (arg2 : Memref sig .tc .vmem S512x1 .i32) (harg2 : arg2.IsWhole)
    (arg3 : Memref sig .tc .vmem S512x4 .i32) (harg3 : arg3.IsWhole) (arg4 : Memref sig .tc .vmem S9x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S512x64 .f32) (harg9 : arg9.IsWhole)
    (x0 : Vec F S512x20x5 .f32) (x1 : Vec F S512x1 .i32) (x2 : Vec F S512x4 .i32) (x3 : Vec F S9x64 .f32)
    (x4 x5 x6 x7 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8 arg9 harg9) K := by
  simp only [cc1__main_kernel_eq_skeleton]; unfold cc1__main_kernel_skel
  simp only [k1_part1_eq_skeleton, k1_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_8 _)

/-! ## The pipeline's proof data -/

/-- The proof data of the region's pipeline on core `c`: the arrays as the region finds them; after the body at
    point `t` each input's buffer at its block and the output's at `out1_8` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) :
    (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t)
    (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Run.lean ====
/- The launch of @main over its ten segments: seven host stretches, the two kernel regions, the last host stretch.
   The buffers' contents at the regions' boundaries (entry0, exit0, entry1, exit1) and at the return (exitV), each
   region as a segment over the thread state "every unscoped buffer at the boundary's contents, the generator register
   at some state, nothing owed", and the run: every weakly fair execution terminates and every final memory holds each
   unscoped TensorCore buffer at exitV. -/
import proofs.«129818_j66013647339880_2_alg».proof.Proof.K.Reg0
import proofs.«129818_j66013647339880_2_alg».proof.Proof.K.Reg1
import proofs.«129818_j66013647339880_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ)

/-! # The buffers' contents at the two regions' boundaries -/

/-- Region 0's entry contents: the buffers after the seven host stretches, read at the TensorCore's references. -/
def entry0 : (c : Dev nD) → (b : Ref sig .tc) → Buf (Elt F) ((c : Thread nD τ).loc b) := fun c b => V7 m c b

/-- Region 0's exit contents: its two output arrays at what the write-backs leave, every other buffer as entered. -/
def exit0 (c : Dev nD) : Valuation τ sig (Elt F) :=
  Function.update (Function.update (V7 m c) main_v7_0 ((dat0 (entry0 m) c).arrAt 4 cfg0.N)) main_v7_1 ((dat0 (entry0 m) c).arrAt 5 cfg0.N)

/-- Region 1's entry contents: region 0's exit contents read at the TensorCore's references. -/
def entry1 : (c : Dev nD) → (b : Ref sig .tc) → Buf (Elt F) ((c : Thread nD τ).loc b) := fun c b => exit0 m c b

/-- Region 1's exit contents: its output array at what the write-backs leave, every other buffer as entered. -/
def exit1 (c : Dev nD) : Valuation τ sig (Elt F) :=
  Function.update (exit0 m c) main_v8 ((dat1 (entry1 m) c).arrAt 8 cfg1.N)

/-- The contents of every unscoped buffer when @main returns: the last host stretch over region 1's exit contents. -/
def exitV (c : Dev nD) : Valuation τ sig (Elt F) := StableHlo.after hostOps2 (exit1 m c)

/-! ## The definitions unfolded -/

theorem entry0_eq (c : Dev nD) (b : Ref sig .tc) : entry0 m c b = V7 m c (Proc.devRef .tc b) := rfl
theorem exit0_eq (c : Dev nD) : exit0 m c =
    Function.update (Function.update (V7 m c) main_v7_0 ((dat0 (entry0 m) c).arrAt 4 cfg0.N)) main_v7_1 ((dat0 (entry0 m) c).arrAt 5 cfg0.N) := rfl
theorem entry1_eq (c : Dev nD) (b : Ref sig .tc) : entry1 m c b = exit0 m c (Proc.devRef .tc b) := rfl
theorem exit1_eq (c : Dev nD) : exit1 m c = Function.update (exit0 m c) main_v8 ((dat1 (entry1 m) c).arrAt 8 cfg1.N) := rfl
theorem exitV_eq (c : Dev nD) : exitV m c = StableHlo.after hostOps2 (exit1 m c) := rfl

/-! ## The boundary contents, reference by reference -/

theorem entry1_v7_0 (c : Dev nD) : entry1 m c main_v7_0 = (dat0 (entry0 m) c).arrAt 4 cfg0.N := by
  unfold entry1 exit0
  rw [Function.update_of_ne (StableHlo.devRef_ne_of_ne (by decide) : (Proc.devRef .tc main_v7_0 : DevRef τ sig) ≠ Proc.devRef .tc main_v7_1),
    Function.update_self]
theorem entry1_v7_1 (c : Dev nD) : entry1 m c main_v7_1 = (dat0 (entry0 m) c).arrAt 5 cfg0.N := by
  unfold entry1 exit0
  rw [Function.update_self]
/-- Region 0 changes its two output arrays only. -/
theorem entry1_of (c : Dev nD) (r : Ref sig .tc) (h : r ∉ ([main_v7_0, main_v7_1] : List (Ref sig .tc))) : entry1 m c r = entry0 m c r := by
  unfold entry1 exit0 entry0
  rw [Function.update_of_ne (StableHlo.devRef_ne_of_ne (List.ne_of_not_mem_cons (List.not_mem_of_not_mem_cons h)) : (Proc.devRef .tc r : DevRef τ sig) ≠ Proc.devRef .tc main_v7_1),
    Function.update_of_ne (StableHlo.devRef_ne_of_ne (List.ne_of_not_mem_cons h) : (Proc.devRef .tc r : DevRef τ sig) ≠ Proc.devRef .tc main_v7_0)]
theorem exit1_v8 (c : Dev nD) : exit1 m c main_v8 = (dat1 (entry1 m) c).arrAt 8 cfg1.N := by
  unfold exit1
  rw [Function.update_self]
/-- Region 1 changes its output array only. -/
theorem exit1_of (c : Dev nD) (r : Ref sig .tc) (h : r ∉ ([main_v8] : List (Ref sig .tc))) : exit1 m c r = entry1 m c r := by
  unfold exit1 entry1
  rw [Function.update_of_ne (StableHlo.devRef_ne_of_ne (List.ne_of_not_mem_cons h) : (Proc.devRef .tc r : DevRef τ sig) ≠ Proc.devRef .tc main_v8)]
/-- The last host stretch changes what it writes only. -/
theorem exitV_of (c : Dev nD) (r : Ref sig .tc) (h : r ∉ hostOps2_W) : exitV m c r = exit1 m c r :=
  StableHlo.after_of_writes_sub hostOps2 _ hostOps2_writes h

/-! ## No item writes an argument -/

/-- A reference no host stretch writes and no region may change holds its launch contents when @main returns. -/
theorem exitV_launch (c : Dev nD) (r : Ref sig .tc) (h9 : r ∉ hostOps2_W) (h8 : r ∉ ([main_v8] : List (Ref sig .tc)))
    (h7 : r ∉ ([main_v7_0, main_v7_1] : List (Ref sig .tc))) (h6 : r ∉ hostOps0_6_W) (h5 : r ∉ hostOps0_5_W) (h4 : r ∉ hostOps0_4_W)
    (h3 : r ∉ hostOps0_3_W) (h2 : r ∉ hostOps0_2_W) (h1 : r ∉ hostOps0_1_W) (h0 : r ∉ hostOps0_W) :
    exitV m c (Proc.devRef .tc r) = m ((c : Thread nD τ).loc r) :=
  (exitV_of m c r h9).trans <| (exit1_of m c r h8).trans <| (entry1_of m c r h7).trans <| (V7_of m c r h6).trans <|
    (V6_of m c r h5).trans <| (V5_of m c r h4).trans <| (V4_of m c r h3).trans <| (V3_of m c r h2).trans <|
    (V2_of m c r h1).trans <| (V1_of m c r h0).trans rfl

theorem exitV_arg0 (c : Dev nD) : exitV m c (Proc.devRef .tc main_arg0) = m ((c : Thread nD τ).loc main_arg0) :=
  exitV_launch m c main_arg0 (by decide) (by decide) (by decide) (by decide) (by decide) (by decide) (by decide) (by decide) (by decide) (by decide)
theorem exitV_arg1 (c : Dev nD) : exitV m c (Proc.devRef .tc main_arg1) = m ((c : Thread nD τ).loc main_arg1) :=
  exitV_launch m c main_arg1 (by decide) (by decide) (by decide) (by decide) (by decide) (by decide) (by decide) (by decide) (by decide) (by decide)
theorem exitV_arg2 (c : Dev nD) : exitV m c (Proc.devRef .tc main_arg2) = m ((c : Thread nD τ).loc main_arg2) :=
  exitV_launch m c main_arg2 (by decide) (by decide) (by decide) (by decide) (by decide) (by decide) (by decide) (by decide) (by decide) (by decide)
theorem exitV_arg3 (c : Dev nD) : exitV m c (Proc.devRef .tc main_arg3) = m ((c : Thread nD τ).loc main_arg3) :=
  exitV_launch m c main_arg3 (by decide) (by decide) (by decide) (by decide) (by decide) (by decide) (by decide) (by decide) (by decide) (by decide)
theorem exitV_arg4 (c : Dev nD) : exitV m c (Proc.devRef .tc main_arg4) = m ((c : Thread nD τ).loc main_arg4) :=
  exitV_launch m c main_arg4 (by decide) (by decide) (by decide) (by decide) (by decide) (by decide) (by decide) (by decide) (by decide) (by decide)
theorem exitV_arg5 (c : Dev nD) : exitV m c (Proc.devRef .tc main_arg5) = m ((c : Thread nD τ).loc main_arg5) :=
  exitV_launch m c main_arg5 (by decide) (by decide) (by decide) (by decide) (by decide) (by decide) (by decide) (by decide) (by decide) (by decide)

/-! # The run: @main's ten segments from the launch to the return -/

/-- The windows' arrays that region 0 may change are its two outputs' (windows 4 and 5). -/
theorem hF0 (c : Dev nD) (w : Fin cfg0.W) : (dat0 (entry0 m) c).arrAt w cfg0.N = entry1 m c (Pipeline.arrRef spec0 w) :=
  match w with
  | ⟨0, _⟩ => (((dat0 (entry0 m) c).arrAt_in 0 rfl _).trans (A_eq0 (entry0 m) c 0)).trans (entry1_of m c _ (by decide)).symm
  | ⟨1, _⟩ => (((dat0 (entry0 m) c).arrAt_in 1 rfl _).trans (A_eq0 (entry0 m) c 1)).trans (entry1_of m c _ (by decide)).symm
  | ⟨2, _⟩ => (((dat0 (entry0 m) c).arrAt_in 2 rfl _).trans (A_eq0 (entry0 m) c 2)).trans (entry1_of m c _ (by decide)).symm
  | ⟨3, _⟩ => (((dat0 (entry0 m) c).arrAt_in 3 rfl _).trans (A_eq0 (entry0 m) c 3)).trans (entry1_of m c _ (by decide)).symm
  | ⟨4, _⟩ => (entry1_v7_0 m c).symm
  | ⟨5, _⟩ => (entry1_v7_1 m c).symm
theorem hrest0 (c : Dev nD) : ∀ b, b ∉ Finset.univ.image (Pipeline.arrRef spec0) → entry1 m c b = entry0 m c b := fun b hb =>
  entry1_of m c b fun h => by
    rcases List.mem_cons.mp h with rfl | h
    · exact hb (Finset.mem_image.mpr ⟨4, Finset.mem_univ _, rfl⟩)
    · rcases List.mem_cons.mp h with rfl | h
      · exact hb (Finset.mem_image.mpr ⟨5, Finset.mem_univ _, rfl⟩)
      · exact absurd h (List.not_mem_nil)

/-- Region 1's exit contents read at the TensorCore's references. -/
abbrev after1 : (c : Dev nD) → (b : Ref sig .tc) → Buf (Elt F) ((c : Thread nD τ).loc b) := fun c b => exit1 m c b
/-- The window's array that region 1 may change is its output's (window 8). -/
theorem hF1 (c : Dev nD) (w : Fin cfg1.W) : (dat1 (entry1 m) c).arrAt w cfg1.N = after1 m c (Pipeline.arrRef spec1 w) :=
  match w with
  | ⟨0, _⟩ => (((dat1 (entry1 m) c).arrAt_in 0 rfl _).trans (A_eq1 (entry1 m) c 0)).trans (exit1_of m c _ (by decide)).symm
  | ⟨1, _⟩ => (((dat1 (entry1 m) c).arrAt_in 1 rfl _).trans (A_eq1 (entry1 m) c 1)).trans (exit1_of m c _ (by decide)).symm
  | ⟨2, _⟩ => (((dat1 (entry1 m) c).arrAt_in 2 rfl _).trans (A_eq1 (entry1 m) c 2)).trans (exit1_of m c _ (by decide)).symm
  | ⟨3, _⟩ => (((dat1 (entry1 m) c).arrAt_in 3 rfl _).trans (A_eq1 (entry1 m) c 3)).trans (exit1_of m c _ (by decide)).symm
  | ⟨4, _⟩ => (((dat1 (entry1 m) c).arrAt_in 4 rfl _).trans (A_eq1 (entry1 m) c 4)).trans (exit1_of m c _ (by decide)).symm
  | ⟨5, _⟩ => (((dat1 (entry1 m) c).arrAt_in 5 rfl _).trans (A_eq1 (entry1 m) c 5)).trans (exit1_of m c _ (by decide)).symm
  | ⟨6, _⟩ => (((dat1 (entry1 m) c).arrAt_in 6 rfl _).trans (A_eq1 (entry1 m) c 6)).trans (exit1_of m c _ (by decide)).symm
  | ⟨7, _⟩ => (((dat1 (entry1 m) c).arrAt_in 7 rfl _).trans (A_eq1 (entry1 m) c 7)).trans (exit1_of m c _ (by decide)).symm
  | ⟨8, _⟩ => (exit1_v8 m c).symm
theorem hrest1 (c : Dev nD) : ∀ b, b ∉ Finset.univ.image (Pipeline.arrRef spec1) → after1 m c b = entry1 m c b := fun b hb =>
  exit1_of m c b fun h => by
    rcases List.mem_cons.mp h with rfl | h
    · exact hb (Finset.mem_image.mpr ⟨8, Finset.mem_univ _, rfl⟩)
    · exact absurd h (List.not_mem_nil)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- The same beside every item. -/
abbrev E : Fin 3 → Dev nD → sProp 𝕄 := fun _ c => R (F := F) c
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator register at
    some state. -/
abbrev Tₙ (c : Dev nD) : sProp 𝕄 := iprop(StableHlo.held (c : Thread nD τ) (Pipeline.ucRefs τ sig) (exitV m c) ∗ ∃ r, prngReg c r)
/-- Item 9: the last host stretch over the unscoped buffers from region 1's exit contents. -/
def seg9 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (exit1 m) R

/-! ## The regions as segments -/

set_option backward.isDefEq.respectTransparency.types false in
/-- Region 0 (custom_call 0) over the thread state: entered from every unscoped buffer at its entry contents, left at its
    exit contents. Its arrays are split out of the unscoped buffers and put back at the exit contents; the generator
    register goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (exit0 m c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun w => A_eq0 (entry0 m) c w
    rw [show (unscopedBufs c (entry0 m c) : sProp 𝕄) = StableHlo.held (c : Thread nD τ) (Pipeline.ucRefs τ sig) (V7 m c)
      from Pipeline.unscopedBufs_held c (V7 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (entry0 m) c)
    unfold Pipeline.ΦA
    iintro ⟨Hp, -, Hr⟩
    isplitl [Hr]; · iexact Hr
    iexact Hp
  hout c := by
    rw [Pipeline.ownSems0_none]
    refine BIBase.Entails.trans (hout0 (entry0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (entry1 m c) ((pdats m 0 c).arrAt · cfg0.N) (hF0 m c) (hrest0 m c)
    rw [show (unscopedBufs c (entry1 m c) : sProp 𝕄) = StableHlo.held (c : Thread nD τ) (Pipeline.ucRefs τ sig) (exit0 m c)
      from Pipeline.unscopedBufs_held c (exit0 m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (custom_call 1) over the thread state: entered from every unscoped buffer at its entry contents, left at its
    exit contents. Its arrays are split out of the unscoped buffers and put back at the exit contents; the generator
    register goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L lv 1 fun _ _ => rfl
  pre c := iprop(StableHlo.held (c : Thread nD τ) (Pipeline.ucRefs τ sig) (exit0 m c) ∗ R c)
  post c := iprop(StableHlo.held (c : Thread nD τ) (Pipeline.ucRefs τ sig) (exit1 m c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun w => A_eq1 (entry1 m) c w
    rw [show (unscopedBufs c (entry1 m c) : sProp 𝕄) = StableHlo.held (c : Thread nD τ) (Pipeline.ucRefs τ sig) (exit0 m c)
      from Pipeline.unscopedBufs_held c (exit0 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (after1 m c) ((pdats m 1 c).arrAt · cfg1.N) (hF1 m c) (hrest1 m c)
    rw [show (unscopedBufs c (after1 m c) : sProp 𝕄) = StableHlo.held (c : Thread nD τ) (Pipeline.ucRefs τ sig) (exit1 m c)
      from Pipeline.unscopedBufs_held c (exit1 m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten segments in order: the seven host stretches, the two regions, the last host stretch. -/
abbrev segs : List (Pipeline.Seg (pcfgs (F := F)) adm (pdats m) () defs₀ 𝒱₀ L lv) :=
  [ .host (seg0 m 𝒱₀ L lv E), .host (seg1 m 𝒱₀ L lv E), .host (seg2 m 𝒱₀ L lv E), .host (seg3 m 𝒱₀ L lv E),
    .host (seg4 m 𝒱₀ L lv E), .host (seg5 m 𝒱₀ L lv E), .host (seg6 m 𝒱₀ L lv E),
    .region (reg0 m), .region (reg1 m), .host (seg9 m) ]

set_option backward.isDefEq.respectTransparency.types false in
/-- THE RUN. From any memory with zero counters every weakly fair execution of @main on the TensorCores terminates,
    nothing faulting, and every final memory holds each unscoped TensorCore buffer at the return's contents. -/
theorem run_full (ρ : Dev nD → PrngReg) :
    θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = exitV m c (Proc.devRef .tc b)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun c => by
        change (iprop(StableHlo.held (c : Thread nD τ) (Pipeline.ucRefs τ sig) (exitV m c) ∗ R c) : sProp 𝕄)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = exitV m c b)
    (hfin := fun c s' => by
      iintro ⟨⟨Hh, -⟩, HSI⟩
      unfold StableHlo.held
      imodintro
      iapply (pointsTo_read_all (Pipeline.ucRefs τ sig) (fun b => (((c : Thread nD τ)).1, b)) (exitV m c) s')
      isplitl [Hh] <;> iassumption)
    (hQ := fun s h c b hb => h c _ (mem_uc b hb))

end Cert.Kernel.Hand

end
-- ==== Proof.KI.Reg0Runs.lean ====
/- The body of the first kernel on any whole staging memrefs, one triple per control case: at the first grid point
   both running sums are zeroed and then updated, at a middle point they are updated over what they held, at the last
   point they are updated and the two outputs (mean and variance) are stored from them. -/
import proofs.«129818_j66013647339880_2_alg».proof.Proof.Gen.KernelIdeal.Launch
import proofs.«129818_j66013647339880_2_alg».proof.Proof.Gen.KernelIdeal.Skeleton
import proofs.«129818_j66013647339880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer rectangle, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The first running sum after a point, from the point's four input blocks and the sum before it. -/
def step7 (x1 : Vec F S512x20x5 .f32) (x2 : Vec F S512x1 .i32) (x3 : Vec F S512x4 .i32) (x4 : Vec F S9x64 .f32) (s : Vec F S1x64 .f32) : Vec F S1x64 .f32 :=
  k0_pay12 (k0_pay6 x1) (k0_pay7 x1 x2) (k0_pay8 x3) (k0_pay9 x1) (k0_pay10 x3) x4 s

/-- The second running sum (of squares) after a point. -/
def step8 (x1 : Vec F S512x20x5 .f32) (x2 : Vec F S512x1 .i32) (x3 : Vec F S512x4 .i32) (x4 : Vec F S9x64 .f32) (s : Vec F S1x64 .f32) : Vec F S1x64 .f32 :=
  k0_pay13 (k0_pay6 x1) (k0_pay7 x1 x2) (k0_pay8 x3) (k0_pay9 x1) (k0_pay10 x3) x4 s

/-- The body's first condition: the grid coordinate is zero. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- The body's second condition: the grid coordinate is the last. -/
abbrev cond0_1 (i : grid0.Coords) : Prop := k0_cond2 i = 1#1
theorem hcond0_1 : ∀ t : Fin cfg0.N, cond0_1 (grid0.coords t) ↔ t.val = 292 :=
  (by decide +kernel : ∀ t : Fin grid0.N, cond0_1 (grid0.coords t) ↔ t.val = 292)

/-- A whole-buffer store, last, leaves its payload: whatever the earlier stores and the prior contents were. -/
theorem read_writes_cons_unit (v : View sig .tc .vmem S1x64 .f32) (f : v.ty.Contents (Elt F))
    (inb : ∀ a, (![0, 0] : Fin S1x64.rank → Nat) a + S1x64.size a ≤ S1x64.size a) (w : Vec F S1x64 .f32)
    (L : List (View.Piece (Elt F) S1x64 .f32)) :
    v.read (Elt F) (v.writes (Elt F) f (⟨Rect.unit ![0, 0] S1x64.size inb, w⟩ :: L)) = w :=
  (View.read_writes_eq_canon _ _ _ (fun y => ⟨_, List.mem_cons.mpr (Or.inl rfl), View.mem_set_unit_zero hz2 inb y⟩)).trans
    (View.canon_cons_unit_zero hz2 inb w L)

set_option maxHeartbeats 4000000 in
/-- The first point: both running sums are zeroed, then updated; the outputs untouched. -/
theorem run0_A (c : Dev nD) (i : grid0.Coords) (arg1 : Memref sig .tc .vmem S512x20x5 .f32) (harg1 : arg1.IsWhole) (arg2 : Memref sig .tc .vmem S512x1 .i32) (harg2 : arg2.IsWhole) (arg3 : Memref sig .tc .vmem S512x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : cond0_0 i) (hc1 : ¬cond0_1 i)
    (x1 : Vec F S512x20x5 .f32) (x2 : Vec F S512x1 .i32) (x3 : Vec F S512x4 .i32) (x4 : Vec F S9x64 .f32) (xi5 xi6 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xi6 ∗ (∃ d, owns (c : Thread nD τ) arg7 fullShare d) ∗ (∃ d, owns (c : Thread nD τ) arg8 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xi6 ∗ owns (c : Thread nD τ) arg7 fullShare (step7 x1 x2 x3 x4 k0_pay3) ∗ owns (c : Thread nD τ) arg8 fullShare (step8 x1 x2 x3 x4 k0_pay4)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_cons_unit _ _ _ _ _).trans ?_
    sl_unfold_words
    simp only [step7, step8, View.readAt_eq_ld, harg1.read_unread, harg2.read_unread, harg3.read_unread, harg4.read_unread, harg7.read_unread, harg8.read_unread, View.ld_unit_zero (S := S512x20x5) hz3, View.ld_unit_zero (S := S512x1) hz2, View.ld_unit_zero (S := S512x4) hz2, View.ld_unit_zero (S := S9x64) hz2, View.ld_unit_zero (S := S1x64) hz2, View.readCov_unit_zero (S := S1x64) _ hz2]
  iexists _; isplitr
  swap; · iexact H8
  ipureintro
  refine (read_writes_cons_unit _ _ _ _ _).trans ?_
  sl_unfold_words
  simp only [step7, step8, View.readAt_eq_ld, harg1.read_unread, harg2.read_unread, harg3.read_unread, harg4.read_unread, harg7.read_unread, harg8.read_unread, View.ld_unit_zero (S := S512x20x5) hz3, View.ld_unit_zero (S := S512x1) hz2, View.ld_unit_zero (S := S512x4) hz2, View.ld_unit_zero (S := S9x64) hz2, View.ld_unit_zero (S := S1x64) hz2, View.readCov_unit_zero (S := S1x64) _ hz2]

set_option maxHeartbeats 4000000 in
/-- A middle point: neither condition holds; both running sums are updated over what they held, the outputs untouched. -/
theorem run0_B (c : Dev nD) (i : grid0.Coords) (arg1 : Memref sig .tc .vmem S512x20x5 .f32) (harg1 : arg1.IsWhole) (arg2 : Memref sig .tc .vmem S512x1 .i32) (harg2 : arg2.IsWhole) (arg3 : Memref sig .tc .vmem S512x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : ¬cond0_1 i)
    (x1 : Vec F S512x20x5 .f32) (x2 : Vec F S512x1 .i32) (x3 : Vec F S512x4 .i32) (x4 : Vec F S9x64 .f32) (s7 s8 xi5 xi6 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xi6 ∗ owns (c : Thread nD τ) arg7 fullShare s7 ∗ owns (c : Thread nD τ) arg8 fullShare s8
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare xi5 ∗ owns (c : Thread nD τ) arg6 fullShare xi6 ∗ owns (c : Thread nD τ) arg7 fullShare (step7 x1 x2 x3 x4 s7) ∗ owns (c : Thread nD τ) arg8 fullShare (step8 x1 x2 x3 x4 s8)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4
  obtain rfl := harg5.eq_unread hf5; obtain rfl := harg6.eq_unread hf6; obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr
    swap; · iexact H7
    ipureintro
    refine (read_writes_cons_unit _ _ _ _ _).trans ?_
    sl_unfold_words
    simp only [step7, step8, View.readAt_eq_ld, harg1.read_unread, harg2.read_unread, harg3.read_unread, harg4.read_unread, harg7.read_unread, harg8.read_unread, View.ld_unit_zero (S := S512x20x5) hz3, View.ld_unit_zero (S := S512x1) hz2, View.ld_unit_zero (S := S512x4) hz2, View.ld_unit_zero (S := S9x64) hz2, View.ld_unit_zero (S := S1x64) hz2, View.readCov_unit_zero (S := S1x64) _ hz2]
  iexists _; isplitr
  swap; · iexact H8
  ipureintro
  refine (read_writes_cons_unit _ _ _ _ _).trans ?_
  sl_unfold_words
  simp only [step7, step8, View.readAt_eq_ld, harg1.read_unread, harg2.read_unread, harg3.read_unread, harg4.read_unread, harg7.read_unread, harg8.read_unread, View.ld_unit_zero (S := S512x20x5) hz3, View.ld_unit_zero (S := S512x1) hz2, View.ld_unit_zero (S := S512x4) hz2, View.ld_unit_zero (S := S9x64) hz2, View.ld_unit_zero (S := S1x64) hz2, View.readCov_unit_zero (S := S1x64) _ hz2]

set_option maxHeartbeats 4000000 in
/-- The last point: both running sums are updated over what they held, and the two outputs are stored from them. -/
theorem run0_C (c : Dev nD) (i : grid0.Coords) (arg1 : Memref sig .tc .vmem S512x20x5 .f32) (harg1 : arg1.IsWhole) (arg2 : Memref sig .tc .vmem S512x1 .i32) (harg2 : arg2.IsWhole) (arg3 : Memref sig .tc .vmem S512x4 .i32) (harg3 : arg3.IsWhole) (arg4 : Memref sig .tc .vmem S9x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S1x64 .f32) (harg7 : arg7.IsWhole) (arg8 : Memref sig .tc .vmem S1x64 .f32) (harg8 : arg8.IsWhole) (hc0 : ¬cond0_0 i) (hc1 : cond0_1 i)
    (x1 : Vec F S512x20x5 .f32) (x2 : Vec F S512x1 .i32) (x3 : Vec F S512x4 .i32) (x4 : Vec F S9x64 .f32) (s7 s8 : Vec F S1x64 .f32) (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ owns (c : Thread nD τ) arg7 fullShare s7 ∗ owns (c : Thread nD τ) arg8 fullShare s8
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (k0_pay1 (step7 x1 x2 x3 x4 s7)) ∗ owns (c : Thread nD τ) arg6 fullShare (k0_pay2 (step7 x1 x2 x3 x4 s7) (step8 x1 x2 x3 x4 s8)) ∗ owns (c : Thread nD τ) arg7 fullShare (step7 x1 x2 x3 x4 s7) ∗ owns (c : Thread nD τ) arg8 fullShare (step8 x1 x2 x3 x4 s8)) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8) K := by
  simp only [cc0__stats_kernel_eq_skeleton]; unfold cc0__stats_kernel_skel
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, Hk⟩
  obtain rfl := harg1.eq_unread hf1; obtain rfl := harg2.eq_unread hf2; obtain rfl := harg3.eq_unread hf3; obtain rfl := harg4.eq_unread hf4
  obtain rfl := harg7.eq_unread hf7; obtain rfl := harg8.eq_unread hf8
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    refine (read_writes_cons_unit _ _ _ _ _).trans ?_
    sl_unfold_words
    simp only [step7, step8, View.readAt_eq_ld, harg1.read_unread, harg2.read_unread, harg3.read_unread, harg4.read_unread, harg7.read_unread, harg8.read_unread, View.ld_unit_zero (S := S512x20x5) hz3, View.ld_unit_zero (S := S512x1) hz2, View.ld_unit_zero (S := S512x4) hz2, View.ld_unit_zero (S := S9x64) hz2, View.ld_unit_zero (S := S1x64) hz2, View.readCov_unit_zero (S := S1x64) _ hz2]
  isplitl [H6]
  · iexists _; isplitr
    swap; · iexact H6
    ipureintro
    refine (read_writes_cons_unit _ _ _ _ _).trans ?_
    sl_unfold_words
    simp only [step7, step8, View.readAt_eq_ld, harg1.read_unread, harg2.read_unread, harg3.read_unread, harg4.read_unread, harg7.read_unread, harg8.read_unread, View.ld_unit_zero (S := S512x20x5) hz3, View.ld_unit_zero (S := S512x1) hz2, View.ld_unit_zero (S := S512x4) hz2, View.ld_unit_zero (S := S9x64) hz2, View.ld_unit_zero (S := S1x64) hz2, View.readCov_unit_zero (S := S1x64) _ hz2]
  isplitl [H7]
  · iexists _; isplitr
    swap; · iexact H7
    ipureintro
    refine (read_writes_cons_unit _ _ _ _ _).trans ?_
    sl_unfold_words
    simp only [step7, step8, View.readAt_eq_ld, harg1.read_unread, harg2.read_unread, harg3.read_unread, harg4.read_unread, harg7.read_unread, harg8.read_unread, View.ld_unit_zero (S := S512x20x5) hz3, View.ld_unit_zero (S := S512x1) hz2, View.ld_unit_zero (S := S512x4) hz2, View.ld_unit_zero (S := S9x64) hz2, View.ld_unit_zero (S := S1x64) hz2, View.readCov_unit_zero (S := S1x64) _ hz2]
  iexists _; isplitr
  swap; · iexact H8
  ipureintro
  refine (read_writes_cons_unit _ _ _ _ _).trans ?_
  sl_unfold_words
  simp only [step7, step8, View.readAt_eq_ld, harg1.read_unread, harg2.read_unread, harg3.read_unread, harg4.read_unread, harg7.read_unread, harg8.read_unread, View.ld_unit_zero (S := S512x20x5) hz3, View.ld_unit_zero (S := S512x1) hz2, View.ld_unit_zero (S := S512x4) hz2, View.ld_unit_zero (S := S9x64) hz2, View.ld_unit_zero (S := S1x64) hz2, View.readCov_unit_zero (S := S1x64) _ hz2]

end Cert.KernelIdeal.Hand

end
-- ==== Proof.KI.Reg0.lean ====
/- The first kernel's region at any entry contents: the windows' blocks, the two running sums after each grid point
   (zero plus the first point's contribution, then each point's added), the invariant that carries them from point to
   point, the proof data, the body obligation at a generic point, and the two output arrays after the region (the
   mean and the variance of the running sums after the last point, written back once). -/
import proofs.«129818_j66013647339880_2_alg».proof.Proof.Gen.KernelIdeal.Launch
import proofs.«129818_j66013647339880_2_alg».proof.Proof.Gen.KernelIdeal.Skeleton
import proofs.«129818_j66013647339880_2_alg».proof.Proof.Gen.KernelIdeal.Points
import proofs.«129818_j66013647339880_2_alg».proof.Proof.KI.Reg0Runs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Pipeline.Dat
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The two running sums after each point -/

/-- The two carried buffers after point `n`: zero plus the first point's contribution, then each point's added. -/
def scAt0 (c : Dev nD) : (n : ℕ) → n < cfg0.N → Vec F S1x64 .f32 × Vec F S1x64 .f32
  | 0, h => (step7 (iblk0 V c 0 ⟨0, h⟩) (iblk0 V c 1 ⟨0, h⟩) (iblk0 V c 2 ⟨0, h⟩) (iblk0 V c 3 ⟨0, h⟩) k0_pay3, step8 (iblk0 V c 0 ⟨0, h⟩) (iblk0 V c 1 ⟨0, h⟩) (iblk0 V c 2 ⟨0, h⟩) (iblk0 V c 3 ⟨0, h⟩) k0_pay4)
  | n + 1, h => (step7 (iblk0 V c 0 ⟨n + 1, h⟩) (iblk0 V c 1 ⟨n + 1, h⟩) (iblk0 V c 2 ⟨n + 1, h⟩) (iblk0 V c 3 ⟨n + 1, h⟩) (scAt0 c n (Nat.lt_of_succ_lt h)).1, step8 (iblk0 V c 0 ⟨n + 1, h⟩) (iblk0 V c 1 ⟨n + 1, h⟩) (iblk0 V c 2 ⟨n + 1, h⟩) (iblk0 V c 3 ⟨n + 1, h⟩) (scAt0 c n (Nat.lt_of_succ_lt h)).2)

theorem scAt0_zero (c : Dev nD) (t : Fin cfg0.N) (h0 : t.val = 0) :
    scAt0 V c t.val t.isLt = (step7 (iblk0 V c 0 t) (iblk0 V c 1 t) (iblk0 V c 2 t) (iblk0 V c 3 t) k0_pay3, step8 (iblk0 V c 0 t) (iblk0 V c 1 t) (iblk0 V c 2 t) (iblk0 V c 3 t) k0_pay4) := by
  obtain ⟨n, hn⟩ := t
  cases n with
  | zero => rfl
  | succ n => exact absurd h0 (Nat.succ_ne_zero n)

theorem scAt0_pos (c : Dev nD) (t : Fin cfg0.N) (h0 : t.val ≠ 0) :
    scAt0 V c t.val t.isLt = (step7 (iblk0 V c 0 t) (iblk0 V c 1 t) (iblk0 V c 2 t) (iblk0 V c 3 t) (scAt0 V c (t.val - 1) (Nat.lt_of_le_of_lt (Nat.sub_le _ _) t.isLt)).1, step8 (iblk0 V c 0 t) (iblk0 V c 1 t) (iblk0 V c 2 t) (iblk0 V c 3 t) (scAt0 V c (t.val - 1) (Nat.lt_of_le_of_lt (Nat.sub_le _ _) t.isLt)).2) := by
  obtain ⟨n, hn⟩ := t
  cases n with
  | zero => exact absurd rfl h0
  | succ n => rfl

/-! ## The invariant -/

/-- The two carried buffers as memrefs. -/
abbrev scM0_0 : Memref sig .tc .vmem S1x64 .f32 := Memref.whole cc0_scratch0
abbrev scM0_1 : Memref sig .tc .vmem S1x64 .f32 := Memref.whole cc0_scratch1

/-- The scoped buffers the body never touches (the other call's staging buffers), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

/-- The class's invariant with the two carried buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 c) ∗ (∃ r, prngReg c r)) := by
  unfold Pipeline.ΦA rest0; rw [scopedRest0_eq]; simp only [scM0_0, scM0_1, owns_whole]; try rfl

/-- The invariant before position `n`: before the first point the class's; afterwards the two carried buffers at
    what the point before left, the rest at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare (scAt0 V c n hn).1 ∗ owns (c : Thread nD τ) scM0_1 fullShare (scAt0 V c n hn).2 ∗ rest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (scAt0 V c n hn).1 ∗ owns (c : Thread nD τ) scM0_1 fullShare (scAt0 V c n hn).2 ∗ rest0 c) ∗ (∃ r, prngReg c r)) := rfl

theorem PhiS_pos (c : Dev nD) (n : ℕ) (h : n ≤ cfg0.N) (hz : n ≠ 0) :
    PhiS V c n h = iprop(iprop(owns (c : Thread nD τ) scM0_0 fullShare (scAt0 V c (n - 1) (by omega)).1 ∗ owns (c : Thread nD τ) scM0_1 fullShare (scAt0 V c (n - 1) (by omega)).2 ∗ rest0 c) ∗ (∃ r, prngReg c r)) := by
  cases n with
  | zero => exact absurd rfl hz
  | succ n => rfl

/-! ## The proof data -/

/-- The proof data of the pipeline on core `c`: the arrays as the region finds them; after the body at point `t`
    each input's buffer at its block, the two outputs' at the mean and the variance of the running sums (consulted
    only at the last point, the only one that stores them); the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (scAt0 V c t.val t.isLt).1
    | ⟨5, _⟩ => k0_pay2 (scAt0 V c t.val t.isLt).1 (scAt0 V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = k0_pay1 (scAt0 V c t.val t.isLt).1 := by dsimp only [dat0]
theorem after0_5 (c : Dev nD) (t : Fin cfg0.N) : (dat0 V c).after 5 t = k0_pay2 (scAt0 V c t.val t.isLt).1 (scAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## Where the output windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 4800000 in
/-- The body at any point: the inputs' memrefs hold their blocks; the point is the first, a middle or the last one
    (`by_cases` on the closed forms), so that case's triple applies; the invariant hands the body the two carried
    buffers at what the point before left (at anything at the first point) and takes them back at this point's
    contents; the rest of the invariant and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 293 := lt_of_lt_of_eq t.isLt (show cfg0.N = 293 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 4 t (idleAt0_4 t hc1) (noFlush0_4 t hc1)]
    rw [Dat.leavesExact_idle (dat0 V c) 5 t (idleAt0_5 t hc1) (noFlush0_5 t hc1)]
    rw [scAt0_zero V c t h0]
    rw [PhiS_castSucc V c t, PhiS_zero V c _ _ h0, PhiA0_eq]
    iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
    iapply (run0_A c (grid0.coords t) _ _ _ _ _ _ _ _ _ _ _ _ _ _ _ _ hc0 hc1 (iblk0 V c 0 t) (iblk0 V c 1 t) (iblk0 V c 2 t) (iblk0 V c 3 t) _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1 HR Hg]
    · isplitl [HS0 HS1 HR]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · have hc0 : ¬cond0_0 (grid0.coords t) := fun h => h0 ((hcond0_0 t).mp h)
    by_cases h1 : t.val = 292
    · have hc1 : cond0_1 (grid0.coords t) := (hcond0_1 t).mpr h1
      rw [show (dat0 V c).leavesExact 4 t = owns (c : Thread nD τ) (st0_4 t) fullShare ((dat0 V c).after 4 t) from by
        unfold Dat.leavesExact; rw [liveAt0_4 t hc1], after0_4]
      rw [show (dat0 V c).leavesExact 5 t = owns (c : Thread nD τ) (st0_5 t) fullShare ((dat0 V c).after 5 t) from by
        unfold Dat.leavesExact; rw [liveAt0_5 t hc1], after0_5]
      rw [scAt0_pos V c t h0]
      rw [PhiS_castSucc V c t, PhiS_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (run0_C c (grid0.coords t) _ _ _ _ _ _ _ _ _ _ _ _ _ _ _ _ hc0 hc1 (iblk0 V c 0 t) (iblk0 V c 1 t) (iblk0 V c 2 t) (iblk0 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      iexact H5
    · have hc1 : ¬cond0_1 (grid0.coords t) := fun h => h1 ((hcond0_1 t).mp h)
      rw [Dat.leavesExact_idle (dat0 V c) 4 t (idleAt0_4 t hc1) (noFlush0_4 t hc1)]
      rw [Dat.leavesExact_idle (dat0 V c) 5 t (idleAt0_5 t hc1) (noFlush0_5 t hc1)]
      rw [scAt0_pos V c t h0]
      rw [PhiS_castSucc V c t, PhiS_pos V c _ _ h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩⟩
      iapply (run0_B c (grid0.coords t) _ _ _ _ _ _ _ _ _ _ _ _ _ _ _ _ hc0 hc1 (iblk0 V c 0 t) (iblk0 V c 1 t) (iblk0 V c 2 t) (iblk0 V c 3 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the carried buffers' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 293 := N_0; omega)

/-! ## The output arrays after the region -/

/-- The last grid point. -/
abbrev t292 : Fin cfg0.N := ⟨292, by decide⟩

/-- The first output array's final contents: the mean of the first running sum after the last point. -/
abbrev res4 (c : Dev nD) : Buf (Elt F) ((c : Thread nD τ).loc main_v7_0) := k0_pay1 (scAt0 V c 292 (by decide)).1
/-- The second output array's final contents: the variance from the two running sums after the last point. -/
abbrev res5 (c : Dev nD) : Buf (Elt F) ((c : Thread nD τ).loc main_v7_1) := k0_pay2 (scAt0 V c 292 (by decide)).1 (scAt0 V c 292 (by decide)).2

/-- The one write-back of window 4, at the last point, writes it: the one block read through zero offsets is the array. -/
theorem flushed_eq4 (c : Dev nD) (t : Fin cfg0.N) (hf : (cfg0.win 4).flush t = true) :
    (dat0 V c).flushed 4 t = ((cfg0.win 4).blk t).view.read (Elt F) (res4 V c) := by
  have hN : cfg0.N = 293 := N_0
  have h292 : t.val = 292 := by have := (flush0_4 t).mp hf; have := t.isLt; omega
  obtain rfl : t = t292 := Fin.ext h292
  show (cfg0.win 4).cut (grid0.coords t292) ((dat0 V c).after 4 t292) = _
  rw [after0_4]
  have hz' : (fun a => win0_4.index t292 a * main_v7_0.ty.shape.size a) = fun _ => 0 := funext fun a => by fin_cases a <;> decide
  exact (Memref.read_access_unit_zero (Elt F) main_v7_0 hz' (fun a => by rw [congrFun hz' a]; simp) (res4 V c)).symm

theorem flushed_eq5 (c : Dev nD) (t : Fin cfg0.N) (hf : (cfg0.win 5).flush t = true) :
    (dat0 V c).flushed 5 t = ((cfg0.win 5).blk t).view.read (Elt F) (res5 V c) := by
  have hN : cfg0.N = 293 := N_0
  have h292 : t.val = 292 := by have := (flush0_5 t).mp hf; have := t.isLt; omega
  obtain rfl : t = t292 := Fin.ext h292
  show (cfg0.win 5).cut (grid0.coords t292) ((dat0 V c).after 5 t292) = _
  rw [after0_5]
  have hz' : (fun a => win0_5.index t292 a * main_v7_1.ty.shape.size a) = fun _ => 0 := funext fun a => by fin_cases a <;> decide
  exact (Memref.read_access_unit_zero (Elt F) main_v7_1 hz' (fun a => by rw [congrFun hz' a]; simp) (res5 V c)).symm

/-- The first output array ends holding the mean of the first running sum after the last point: that point's block covers it. -/
theorem arr0_4 (c : Dev nD) : (dat0 V c).arrAt 4 cfg0.N = k0_pay1 (scAt0 V c 292 (by decide)).1 :=
  (dat0 V c).arrAt_eq_of_cover 4 (res4 V c) (flushed_eq4 V c) fun i =>
    ⟨t292, (flush0_4 t292).mpr rfl, by
      show i ∈ ((View.whole main_v7_0).slice (win0_4.rect t292)).set
      rw [View.set_slice_whole, Rect.mem_set_unit]
      intro a
      have h0 : (i 0 : Nat) < 1 := (i 0).isLt
      have h1 : (i 1 : Nat) < 64 := (i 1).isLt
      match a with
      | ⟨0, _⟩ => show win0_4.index t292 0 * win0_4.size 0 ≤ (i 0 : Nat) ∧ (i 0 : Nat) < win0_4.index t292 0 * win0_4.size 0 + win0_4.xsize (grid0.coords t292) 0
                  rw [show win0_4.index t292 0 * win0_4.size 0 = 0 from by decide +kernel, show win0_4.xsize (grid0.coords t292) 0 = 1 from by decide +kernel]; omega
      | ⟨1, _⟩ => show win0_4.index t292 1 * win0_4.size 1 ≤ (i 1 : Nat) ∧ (i 1 : Nat) < win0_4.index t292 1 * win0_4.size 1 + win0_4.xsize (grid0.coords t292) 1
                  rw [show win0_4.index t292 1 * win0_4.size 1 = 0 from by decide +kernel, show win0_4.xsize (grid0.coords t292) 1 = 64 from by decide +kernel]; omega⟩

/-- The second output array ends holding the variance from the two running sums after the last point. -/
theorem arr0_5 (c : Dev nD) : (dat0 V c).arrAt 5 cfg0.N = k0_pay2 (scAt0 V c 292 (by decide)).1 (scAt0 V c 292 (by decide)).2 :=
  (dat0 V c).arrAt_eq_of_cover 5 (res5 V c) (flushed_eq5 V c) fun i =>
    ⟨t292, (flush0_5 t292).mpr rfl, by
      show i ∈ ((View.whole main_v7_1).slice (win0_5.rect t292)).set
      rw [View.set_slice_whole, Rect.mem_set_unit]
      intro a
      have h0 : (i 0 : Nat) < 1 := (i 0).isLt
      have h1 : (i 1 : Nat) < 64 := (i 1).isLt
      match a with
      | ⟨0, _⟩ => show win0_5.index t292 0 * win0_5.size 0 ≤ (i 0 : Nat) ∧ (i 0 : Nat) < win0_5.index t292 0 * win0_5.size 0 + win0_5.xsize (grid0.coords t292) 0
                  rw [show win0_5.index t292 0 * win0_5.size 0 = 0 from by decide +kernel, show win0_5.xsize (grid0.coords t292) 0 = 1 from by decide +kernel]; omega
      | ⟨1, _⟩ => show win0_5.index t292 1 * win0_5.size 1 ≤ (i 1 : Nat) ∧ (i 1 : Nat) < win0_5.index t292 1 * win0_5.size 1 + win0_5.xsize (grid0.coords t292) 1
                  rw [show win0_5.index t292 1 * win0_5.size 1 = 0 from by decide +kernel, show win0_5.xsize (grid0.coords t292) 1 = 64 from by decide +kernel]; omega⟩

end Regions

end Cert.KernelIdeal.Hand

end
-- ==== Proof.KI.Reg1.lean ====
/- Region 1 of the kernel program (the normalising main kernel): what its body leaves in the output window's
   buffer at a grid point, as a function of the eight input windows' blocks there; the body's triple; the
   pipeline's proof data at a parameter `V` (the buffer contents when the region is entered); and the body
   obligation at every grid point. -/
import proofs.«129818_j66013647339880_2_alg».proof.Proof.Gen.KernelIdeal.Launch
import proofs.«129818_j66013647339880_2_alg».proof.Proof.Gen.KernelIdeal.Skeleton
import proofs.«129818_j66013647339880_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether or not the point fetched it:
    an unfetched window's block index has not moved since the point that did. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether or not the point fetched it:
    an unfetched window's block index has not moved since the point that did. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether or not the point fetched it:
    an unfetched window's block index has not moved since the point that did. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether or not the point fetched it:
    an unfetched window's block index has not moved since the point that did. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether or not the point fetched it:
    an unfetched window's block index has not moved since the point that did. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, whether or not the point fetched it:
    an unfetched window's block index has not moved since the point that did. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, whether or not the point fetched it:
    an unfetched window's block index has not moved since the point that did. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, whether or not the point fetched it:
    an unfetched window's block index has not moved since the point that did. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole staging buffer -/

/-- The zero offsets of a whole-buffer access, as the constant function. -/
theorem zero2 : (![0, 0] : Fin 2 → ℕ) = fun _ => 0 := by
  funext a; fin_cases a <;> rfl
theorem zero3 : (![0, 0, 0] : Fin 3 → ℕ) = fun _ => 0 := by
  funext a; fin_cases a <;> rfl

abbrev rIn0 : Rect S512x20x5 := Rect.unit (s := S512x20x5) ![0, 0, 0] S512x20x5.size inb_S512x20x5_S512x20x5_0_0_0
abbrev rIn1 : Rect S512x1 := Rect.unit (s := S512x1) ![0, 0] S512x1.size inb_S512x1_S512x1_0_0
abbrev rIn2 : Rect S512x4 := Rect.unit (s := S512x4) ![0, 0] S512x4.size inb_S512x4_S512x4_0_0
abbrev rIn3 : Rect S9x64 := Rect.unit (s := S9x64) ![0, 0] S9x64.size inb_S9x64_S9x64_0_0
abbrev rRow : Rect S1x64 := Rect.unit (s := S1x64) ![0, 0] S1x64.size inb_S1x64_S1x64_0_0
abbrev rOut : Rect S512x64 := Rect.unit (s := S512x64) ![0, 0] S512x64.size inb_S512x64_S512x64_0_0

/-! ## What the body leaves in the output window's buffer -/

/-- The output window's staging buffer after the body, from the input windows' blocks: its one store, of the
    normalised, rectified and point-maximised features computed from the loads. -/
def out1_8 (x0 : Vec F S512x20x5 .f32) (x1 : Vec F S512x1 .i32) (x2 : Vec F S512x4 .i32) (x3 : Vec F S9x64 .f32)
    (x4 x5 x6 x7 : Vec F S1x64 .f32) : Vec F S512x64 .f32 :=
  View.canon [⟨rOut, k1_pay6 (k1_pay2 (View.ld x0 rIn0)) (k1_pay3 (View.ld x0 rIn0) (View.ld x1 rIn1))
    (k1_pay4 (View.ld x0 rIn0) (View.ld x2 rIn2)) (k1_pay5 (View.ld x0 rIn0) (View.ld x2 rIn2))
    (View.ld x3 rIn3) (View.ld x4 rRow) (View.ld x5 rRow) (View.ld x6 rRow) (View.ld x7 rRow)⟩]

/-- One whole store over whole loads leaves the payload of the blocks themselves. -/
theorem out1_8_eq (x0 : Vec F S512x20x5 .f32) (x1 : Vec F S512x1 .i32) (x2 : Vec F S512x4 .i32) (x3 : Vec F S9x64 .f32)
    (x4 x5 x6 x7 : Vec F S1x64 .f32) :
    out1_8 x0 x1 x2 x3 x4 x5 x6 x7
      = k1_pay6 (k1_pay2 x0) (k1_pay3 x0 x1) (k1_pay4 x0 x2) (k1_pay5 x0 x2) x3 x4 x5 x6 x7 := by
  unfold out1_8
  rw [View.canon_unit_zero (S := S512x64) zero2]
  simp only [View.ld_unit_zero (S := S512x20x5) zero3, View.ld_unit_zero (S := S512x1) zero2,
    View.ld_unit_zero (S := S512x4) zero2, View.ld_unit_zero (S := S9x64) zero2, View.ld_unit_zero (S := S1x64) zero2]

/-- Its store covers the buffer. -/
theorem cover1_8 (p0 : Vec F S512x64 .f32) (y : S512x64.Idx) :
    ∃ pc ∈ ([⟨rOut, p0⟩] : List (View.Piece (Elt F) S512x64 .f32)), y ∈ pc.1.set :=
  ⟨_, List.mem_singleton_self _, View.mem_set_unit_zero (S := S512x64) zero2 inb_S512x64_S512x64_0_0 y⟩

/-! ## The body's triple -/

set_option maxHeartbeats 4000000 in
/-- The kernel body on whole staging memrefs, the inputs' at contents `x0 … x7` and the output's at anything, runs to
    the continuation holding the inputs' as they were and the output's at `out1_8` of the inputs'. -/
theorem sound_kernel1 (c : Dev nD) (E : Set ℕ) (i : grid1.Coords)
    (arg1 : Memref sig .tc .vmem S512x20x5 .f32) (harg1 : arg1.IsWhole) (arg2 : Memref sig .tc .vmem S512x1 .i32) (harg2 : arg2.IsWhole)
    (arg3 : Memref sig .tc .vmem S512x4 .i32) (harg3 : arg3.IsWhole) (arg4 : Memref sig .tc .vmem S9x64 .f32) (harg4 : arg4.IsWhole)
    (arg5 : Memref sig .tc .vmem S1x64 .f32) (harg5 : arg5.IsWhole) (arg6 : Memref sig .tc .vmem S1x64 .f32) (harg6 : arg6.IsWhole)
    (arg7 : Memref sig .tc .vmem S1x64 .f32) (harg7 : arg7.IsWhole) (arg8 : Memref sig .tc .vmem S1x64 .f32) (harg8 : arg8.IsWhole)
    (arg9 : Memref sig .tc .vmem S512x64 .f32) (harg9 : arg9.IsWhole)
    (x0 : Vec F S512x20x5 .f32) (x1 : Vec F S512x1 .i32) (x2 : Vec F S512x4 .i32) (x3 : Vec F S9x64 .f32)
    (x4 x5 x6 x7 : Vec F S1x64 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out1_8 x0 x1 x2 x3 x4 x5 x6 x7)) -∗ K ⟨⟩))
      ⊢ wp frame (wpE (defs₀ (F := F)) Variants.none c none) E
          (cc1__main_kernel i arg1 harg1 arg2 harg2 arg3 harg3 arg4 harg4 arg5 harg5 arg6 harg6 arg7 harg7 arg8 harg8 arg9 harg9) K := by
  simp only [cc1__main_kernel_eq_skeleton]; unfold cc1__main_kernel_skel
  simp only [k1_part1_eq_skeleton, k1_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover1_8 _)

/-! ## The pipeline's proof data -/

/-- The proof data of the region's pipeline on core `c`: the arrays as the region finds them; after the body at
    point `t` each input's buffer at its block and the output's at `out1_8` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (iblk1 V c 4 t) (iblk1 V c 5 t) (iblk1 V c 6 t) (iblk1 V c 7 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) :
    (dat1 V c).after 8 t = out1_8 (iblk1 V c 0 t) (iblk1 V c 1 t) (iblk1 V c 2 t) (iblk1 V c 3 t) (iblk1 V c 4 t) (iblk1 V c 5 t) (iblk1 V c 6 t) (iblk1 V c 7 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel1 c Set.univ _ _ _ _ _ _ _ _ _ _ _ _ _ _ _ _ _ _ _ (iblk1 V c 0 t) (iblk1 V c 1 t) (iblk1 V c 2 t) (iblk1 V c 3 t)
    (iblk1 V c 4 t) (iblk1 V c 5 t) (iblk1 V c 6 t) (iblk1 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Run.lean ====
/- The launch of @main over its ten segments: seven host stretches, the two kernel regions, the last host stretch.
   The buffers' contents at the regions' boundaries (entry0, exit0, entry1, exit1) and at the return (exitV), each
   region as a segment over the thread state "every unscoped buffer at the boundary's contents, the generator register
   at some state, nothing owed", and the run: every weakly fair execution terminates and every final memory holds each
   unscoped TensorCore buffer at exitV. -/
import proofs.«129818_j66013647339880_2_alg».proof.Proof.KI.Reg0
import proofs.«129818_j66013647339880_2_alg».proof.Proof.KI.Reg1
import proofs.«129818_j66013647339880_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! # The buffers' contents at the two regions' boundaries -/

/-- Region 0's entry contents: the buffers after the seven host stretches, read at the TensorCore's references. -/
def entry0 : (c : Dev nD) → (b : Ref sig .tc) → Buf (Elt F) ((c : Thread nD τ).loc b) := fun c b => V7 m c b

/-- Region 0's exit contents: its two output arrays at what the write-backs leave, every other buffer as entered. -/
def exit0 (c : Dev nD) : Valuation τ sig (Elt F) :=
  Function.update (Function.update (V7 m c) main_v7_0 ((dat0 (entry0 m) c).arrAt 4 cfg0.N)) main_v7_1 ((dat0 (entry0 m) c).arrAt 5 cfg0.N)

/-- Region 1's entry contents: region 0's exit contents read at the TensorCore's references. -/
def entry1 : (c : Dev nD) → (b : Ref sig .tc) → Buf (Elt F) ((c : Thread nD τ).loc b) := fun c b => exit0 m c b

/-- Region 1's exit contents: its output array at what the write-backs leave, every other buffer as entered. -/
def exit1 (c : Dev nD) : Valuation τ sig (Elt F) :=
  Function.update (exit0 m c) main_v8 ((dat1 (entry1 m) c).arrAt 8 cfg1.N)

/-- The contents of every unscoped buffer when @main returns: the last host stretch over region 1's exit contents. -/
def exitV (c : Dev nD) : Valuation τ sig (Elt F) := StableHlo.after hostOps2 (exit1 m c)

/-! ## The definitions unfolded -/

theorem entry0_eq (c : Dev nD) (b : Ref sig .tc) : entry0 m c b = V7 m c (Proc.devRef .tc b) := rfl
theorem exit0_eq (c : Dev nD) : exit0 m c =
    Function.update (Function.update (V7 m c) main_v7_0 ((dat0 (entry0 m) c).arrAt 4 cfg0.N)) main_v7_1 ((dat0 (entry0 m) c).arrAt 5 cfg0.N) := rfl
theorem entry1_eq (c : Dev nD) (b : Ref sig .tc) : entry1 m c b = exit0 m c (Proc.devRef .tc b) := rfl
theorem exit1_eq (c : Dev nD) : exit1 m c = Function.update (exit0 m c) main_v8 ((dat1 (entry1 m) c).arrAt 8 cfg1.N) := rfl
theorem exitV_eq (c : Dev nD) : exitV m c = StableHlo.after hostOps2 (exit1 m c) := rfl

/-! ## The boundary contents, reference by reference -/

theorem entry1_v7_0 (c : Dev nD) : entry1 m c main_v7_0 = (dat0 (entry0 m) c).arrAt 4 cfg0.N := by
  unfold entry1 exit0
  rw [Function.update_of_ne (StableHlo.devRef_ne_of_ne (by decide) : (Proc.devRef .tc main_v7_0 : DevRef τ sig) ≠ Proc.devRef .tc main_v7_1),
    Function.update_self]
theorem entry1_v7_1 (c : Dev nD) : entry1 m c main_v7_1 = (dat0 (entry0 m) c).arrAt 5 cfg0.N := by
  unfold entry1 exit0
  rw [Function.update_self]
/-- Region 0 changes its two output arrays only. -/
theorem entry1_of (c : Dev nD) (r : Ref sig .tc) (h : r ∉ ([main_v7_0, main_v7_1] : List (Ref sig .tc))) : entry1 m c r = entry0 m c r := by
  unfold entry1 exit0 entry0
  rw [Function.update_of_ne (StableHlo.devRef_ne_of_ne (List.ne_of_not_mem_cons (List.not_mem_of_not_mem_cons h)) : (Proc.devRef .tc r : DevRef τ sig) ≠ Proc.devRef .tc main_v7_1),
    Function.update_of_ne (StableHlo.devRef_ne_of_ne (List.ne_of_not_mem_cons h) : (Proc.devRef .tc r : DevRef τ sig) ≠ Proc.devRef .tc main_v7_0)]
theorem exit1_v8 (c : Dev nD) : exit1 m c main_v8 = (dat1 (entry1 m) c).arrAt 8 cfg1.N := by
  unfold exit1
  rw [Function.update_self]
/-- Region 1 changes its output array only. -/
theorem exit1_of (c : Dev nD) (r : Ref sig .tc) (h : r ∉ ([main_v8] : List (Ref sig .tc))) : exit1 m c r = entry1 m c r := by
  unfold exit1 entry1
  rw [Function.update_of_ne (StableHlo.devRef_ne_of_ne (List.ne_of_not_mem_cons h) : (Proc.devRef .tc r : DevRef τ sig) ≠ Proc.devRef .tc main_v8)]
/-- The last host stretch changes what it writes only. -/
theorem exitV_of (c : Dev nD) (r : Ref sig .tc) (h : r ∉ hostOps2_W) : exitV m c r = exit1 m c r :=
  StableHlo.after_of_writes_sub hostOps2 _ hostOps2_writes h

/-! ## No item writes an argument -/

/-- A reference no host stretch writes and no region may change holds its launch contents when @main returns. -/
theorem exitV_launch (c : Dev nD) (r : Ref sig .tc) (h9 : r ∉ hostOps2_W) (h8 : r ∉ ([main_v8] : List (Ref sig .tc)))
    (h7 : r ∉ ([main_v7_0, main_v7_1] : List (Ref sig .tc))) (h6 : r ∉ hostOps0_6_W) (h5 : r ∉ hostOps0_5_W) (h4 : r ∉ hostOps0_4_W)
    (h3 : r ∉ hostOps0_3_W) (h2 : r ∉ hostOps0_2_W) (h1 : r ∉ hostOps0_1_W) (h0 : r ∉ hostOps0_W) :
    exitV m c (Proc.devRef .tc r) = m ((c : Thread nD τ).loc r) :=
  (exitV_of m c r h9).trans <| (exit1_of m c r h8).trans <| (entry1_of m c r h7).trans <| (V7_of m c r h6).trans <|
    (V6_of m c r h5).trans <| (V5_of m c r h4).trans <| (V4_of m c r h3).trans <| (V3_of m c r h2).trans <|
    (V2_of m c r h1).trans <| (V1_of m c r h0).trans rfl

theorem exitV_arg0 (c : Dev nD) : exitV m c (Proc.devRef .tc main_arg0) = m ((c : Thread nD τ).loc main_arg0) :=
  exitV_launch m c main_arg0 (by decide) (by decide) (by decide) (by decide) (by decide) (by decide) (by decide) (by decide) (by decide) (by decide)
theorem exitV_arg1 (c : Dev nD) : exitV m c (Proc.devRef .tc main_arg1) = m ((c : Thread nD τ).loc main_arg1) :=
  exitV_launch m c main_arg1 (by decide) (by decide) (by decide) (by decide) (by decide) (by decide) (by decide) (by decide) (by decide) (by decide)
theorem exitV_arg2 (c : Dev nD) : exitV m c (Proc.devRef .tc main_arg2) = m ((c : Thread nD τ).loc main_arg2) :=
  exitV_launch m c main_arg2 (by decide) (by decide) (by decide) (by decide) (by decide) (by decide) (by decide) (by decide) (by decide) (by decide)
theorem exitV_arg3 (c : Dev nD) : exitV m c (Proc.devRef .tc main_arg3) = m ((c : Thread nD τ).loc main_arg3) :=
  exitV_launch m c main_arg3 (by decide) (by decide) (by decide) (by decide) (by decide) (by decide) (by decide) (by decide) (by decide) (by decide)
theorem exitV_arg4 (c : Dev nD) : exitV m c (Proc.devRef .tc main_arg4) = m ((c : Thread nD τ).loc main_arg4) :=
  exitV_launch m c main_arg4 (by decide) (by decide) (by decide) (by decide) (by decide) (by decide) (by decide) (by decide) (by decide) (by decide)
theorem exitV_arg5 (c : Dev nD) : exitV m c (Proc.devRef .tc main_arg5) = m ((c : Thread nD τ).loc main_arg5) :=
  exitV_launch m c main_arg5 (by decide) (by decide) (by decide) (by decide) (by decide) (by decide) (by decide) (by decide) (by decide) (by decide)

/-! # The run: @main's ten segments from the launch to the return -/

/-- The windows' arrays that region 0 may change are its two outputs' (windows 4 and 5). -/
theorem hF0 (c : Dev nD) (w : Fin cfg0.W) : (dat0 (entry0 m) c).arrAt w cfg0.N = entry1 m c (Pipeline.arrRef spec0 w) :=
  match w with
  | ⟨0, _⟩ => (((dat0 (entry0 m) c).arrAt_in 0 rfl _).trans (A_eq0 (entry0 m) c 0)).trans (entry1_of m c _ (by decide)).symm
  | ⟨1, _⟩ => (((dat0 (entry0 m) c).arrAt_in 1 rfl _).trans (A_eq0 (entry0 m) c 1)).trans (entry1_of m c _ (by decide)).symm
  | ⟨2, _⟩ => (((dat0 (entry0 m) c).arrAt_in 2 rfl _).trans (A_eq0 (entry0 m) c 2)).trans (entry1_of m c _ (by decide)).symm
  | ⟨3, _⟩ => (((dat0 (entry0 m) c).arrAt_in 3 rfl _).trans (A_eq0 (entry0 m) c 3)).trans (entry1_of m c _ (by decide)).symm
  | ⟨4, _⟩ => (entry1_v7_0 m c).symm
  | ⟨5, _⟩ => (entry1_v7_1 m c).symm
theorem hrest0 (c : Dev nD) : ∀ b, b ∉ Finset.univ.image (Pipeline.arrRef spec0) → entry1 m c b = entry0 m c b := fun b hb =>
  entry1_of m c b fun h => by
    rcases List.mem_cons.mp h with rfl | h
    · exact hb (Finset.mem_image.mpr ⟨4, Finset.mem_univ _, rfl⟩)
    · rcases List.mem_cons.mp h with rfl | h
      · exact hb (Finset.mem_image.mpr ⟨5, Finset.mem_univ _, rfl⟩)
      · exact absurd h (List.not_mem_nil)

/-- Region 1's exit contents read at the TensorCore's references. -/
abbrev after1 : (c : Dev nD) → (b : Ref sig .tc) → Buf (Elt F) ((c : Thread nD τ).loc b) := fun c b => exit1 m c b
/-- The window's array that region 1 may change is its output's (window 8). -/
theorem hF1 (c : Dev nD) (w : Fin cfg1.W) : (dat1 (entry1 m) c).arrAt w cfg1.N = after1 m c (Pipeline.arrRef spec1 w) :=
  match w with
  | ⟨0, _⟩ => (((dat1 (entry1 m) c).arrAt_in 0 rfl _).trans (A_eq1 (entry1 m) c 0)).trans (exit1_of m c _ (by decide)).symm
  | ⟨1, _⟩ => (((dat1 (entry1 m) c).arrAt_in 1 rfl _).trans (A_eq1 (entry1 m) c 1)).trans (exit1_of m c _ (by decide)).symm
  | ⟨2, _⟩ => (((dat1 (entry1 m) c).arrAt_in 2 rfl _).trans (A_eq1 (entry1 m) c 2)).trans (exit1_of m c _ (by decide)).symm
  | ⟨3, _⟩ => (((dat1 (entry1 m) c).arrAt_in 3 rfl _).trans (A_eq1 (entry1 m) c 3)).trans (exit1_of m c _ (by decide)).symm
  | ⟨4, _⟩ => (((dat1 (entry1 m) c).arrAt_in 4 rfl _).trans (A_eq1 (entry1 m) c 4)).trans (exit1_of m c _ (by decide)).symm
  | ⟨5, _⟩ => (((dat1 (entry1 m) c).arrAt_in 5 rfl _).trans (A_eq1 (entry1 m) c 5)).trans (exit1_of m c _ (by decide)).symm
  | ⟨6, _⟩ => (((dat1 (entry1 m) c).arrAt_in 6 rfl _).trans (A_eq1 (entry1 m) c 6)).trans (exit1_of m c _ (by decide)).symm
  | ⟨7, _⟩ => (((dat1 (entry1 m) c).arrAt_in 7 rfl _).trans (A_eq1 (entry1 m) c 7)).trans (exit1_of m c _ (by decide)).symm
  | ⟨8, _⟩ => (exit1_v8 m c).symm
theorem hrest1 (c : Dev nD) : ∀ b, b ∉ Finset.univ.image (Pipeline.arrRef spec1) → after1 m c b = entry1 m c b := fun b hb =>
  exit1_of m c b fun h => by
    rcases List.mem_cons.mp h with rfl | h
    · exact hb (Finset.mem_image.mpr ⟨8, Finset.mem_univ _, rfl⟩)
    · exact absurd h (List.not_mem_nil)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (entry0 m) c
  | ⟨1, _⟩ => fun c => dat1 (entry1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- The same beside every item. -/
abbrev E : Fin 3 → Dev nD → sProp 𝕄 := fun _ c => R (F := F) c
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator register at
    some state. -/
abbrev Tₙ (c : Dev nD) : sProp 𝕄 := iprop(StableHlo.held (c : Thread nD τ) (Pipeline.ucRefs τ sig) (exitV m c) ∗ ∃ r, prngReg c r)
/-- Item 9: the last host stretch over the unscoped buffers from region 1's exit contents. -/
def seg9 : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (exit1 m) R

/-! ## The regions as segments -/

set_option backward.isDefEq.respectTransparency.types false in
/-- Region 0 (custom_call 0) over the thread state: entered from every unscoped buffer at its entry contents, left at its
    exit contents. Its arrays are split out of the unscoped buffers and put back at the exit contents; the generator
    register goes into the invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (entry0 m) c).loose
  hwaits := Pipeline.hwaits_of_owed_zero _ _ _ _ L lv 0 fun _ _ => rfl
  pre c := iprop(StableHlo.held (c : Thread nD τ) (Pipeline.ucRefs τ sig) (V7 m c) ∗ R c)
  post c := iprop(StableHlo.held (c : Thread nD τ) (Pipeline.ucRefs τ sig) (exit0 m c) ∗ R c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun w => A_eq0 (entry0 m) c w
    rw [show (unscopedBufs c (entry0 m c) : sProp 𝕄) = StableHlo.held (c : Thread nD τ) (Pipeline.ucRefs τ sig) (V7 m c)
      from Pipeline.unscopedBufs_held c (V7 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (entry0 m) c)
    unfold Pipeline.ΦA
    iintro ⟨Hp, -, Hr⟩
    isplitl [Hr]; · iexact Hr
    iexact Hp
  hout c := by
    rw [Pipeline.ownSems0_none]
    refine BIBase.Entails.trans (hout0 (entry0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (entry1 m c) ((pdats m 0 c).arrAt · cfg0.N) (hF0 m c) (hrest0 m c)
    rw [show (unscopedBufs c (entry1 m c) : sProp 𝕄) = StableHlo.held (c : Thread nD τ) (Pipeline.ucRefs τ sig) (exit0 m c)
      from Pipeline.unscopedBufs_held c (exit0 m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 (custom_call 1) over the thread state: entered from every unscoped buffer at its entry contents, left at its
    exit contents. Its arrays are split out of the unscoped buffers and put back at the exit contents; the generator
    register goes into the invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (entry1 m) c).loose
  hwaits := Pipeline.hwaits_of_owed_zero _ _ _ _ L lv 1 fun _ _ => rfl
  pre c := iprop(StableHlo.held (c : Thread nD τ) (Pipeline.ucRefs τ sig) (exit0 m c) ∗ R c)
  post c := iprop(StableHlo.held (c : Thread nD τ) (Pipeline.ucRefs τ sig) (exit1 m c) ∗ R c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun w => A_eq1 (entry1 m) c w
    rw [show (unscopedBufs c (entry1 m c) : sProp 𝕄) = StableHlo.held (c : Thread nD τ) (Pipeline.ucRefs τ sig) (exit0 m c)
      from Pipeline.unscopedBufs_held c (exit0 m c)] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (after1 m c) ((pdats m 1 c).arrAt · cfg1.N) (hF1 m c) (hrest1 m c)
    rw [show (unscopedBufs c (after1 m c) : sProp 𝕄) = StableHlo.held (c : Thread nD τ) (Pipeline.ucRefs τ sig) (exit1 m c)
      from Pipeline.unscopedBufs_held c (exit1 m c)] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten segments in order: the seven host stretches, the two regions, the last host stretch. -/
abbrev segs : List (Pipeline.Seg (pcfgs (F := F)) adm (pdats m) () defs₀ 𝒱₀ L lv) :=
  [ .host (seg0 m 𝒱₀ L lv E), .host (seg1 m 𝒱₀ L lv E), .host (seg2 m 𝒱₀ L lv E), .host (seg3 m 𝒱₀ L lv E),
    .host (seg4 m 𝒱₀ L lv E), .host (seg5 m 𝒱₀ L lv E), .host (seg6 m 𝒱₀ L lv E),
    .region (reg0 m), .region (reg1 m), .host (seg9 m) ]

set_option backward.isDefEq.respectTransparency.types false in
/-- THE RUN. From any memory with zero counters every weakly fair execution of @main on the TensorCores terminates,
    nothing faulting, and every final memory holds each unscoped TensorCore buffer at the return's contents. -/
theorem run_full (ρ : Dev nD → PrngReg) :
    θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = exitV m c (Proc.devRef .tc b)) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun c => by
        change (iprop(StableHlo.held (c : Thread nD τ) (Pipeline.ucRefs τ sig) (exitV m c) ∗ R c) : sProp 𝕄)
          ⊢ iprop(Tₙ m c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = exitV m c b)
    (hfin := fun c s' => by
      iintro ⟨⟨Hh, -⟩, HSI⟩
      unfold StableHlo.held
      imodintro
      iapply (pointsTo_read_all (Pipeline.ucRefs τ sig) (fun b => (((c : Thread nD τ)).1, b)) (exitV m c) s')
      isplitl [Hh] <;> iassumption)
    (hQ := fun s h c b hb => h c _ (mem_uc b hb))

end Cert.KernelIdeal.Hand

end
-- ==== Proof.Spec.lean ====
/-
  The mathematics both programs compute, written once over the extended reals, index by index.

  A pillar p holds 20 points of 5 features; only the first three (x, y, z) are used. With
  S(p,k) the sum over the pillar's points of feature k and d(p) a per-pillar divisor, a point's
  nine-vector is: its three features; the three offsets from the voxel's centre, each times the
  indicator "the feature is non-zero"; the three offsets from S(p,k)/d(p), times the same indicator.
  The linear layer contracts the nine-vector with a row of the 64 x 9 weight. Batch normalisation
  uses the mean and the variance of the linear output over all 150000 x 20 points, then scale,
  shift, a clamp at zero, and the maximum over a pillar's points.

  The two programs differ in three places: the divisor d(p) (the point count clamped below at one,
  against the point count itself), the variance (mean of squares minus squared mean, clamped at
  zero, against the mean of squared deviations), and the affine step (x * s + (b - m * s) against
  ((x - m) * r) * g + b with s = r * g).
-/
import Idealize.ShloMosaic.PureOps.Ideal
import Idealize.ShloMosaic.Lib.ValueIdx

noncomputable section

namespace Cert.Spec

open Idealize.ShloMosaic Idealize.ShloMosaic.ValueIdx

/-- The extended real an f32 word denotes. -/
abbrev lit (w : BitVec 32) : EReal := Ideal.ofBits .f32 w

/-- The arrays' shapes, over a number of pillars R (150000 as given; 150016 once padded to whole blocks of 512). -/
abbrev SFeat (R : ℕ) : Shape := ⟨3, ![R, 20, 5]⟩
abbrev SCnt (R : ℕ) : Shape := ⟨1, ![R]⟩
abbrev SCrd (R : ℕ) : Shape := ⟨2, ![R, 4]⟩
abbrev SW : Shape := ⟨2, ![64, 9]⟩
abbrev SCh : Shape := ⟨1, ![64]⟩
abbrev SOut : Shape := ⟨2, ![150000, 64]⟩

/-- A one-column array of counts read as a vector. -/
def colOf {R : ℕ} (x : (⟨2, ![R, 1]⟩ : Shape).Idx → BitVec 32) : (SCnt R).Idx → BitVec 32 :=
  fun i => x (ix2 (n0 := R) (n1 := 1) (i 0) 0)

/-- The transposed weight (9 x 64) read as the weight (64 x 9). -/
def wOf (x : (⟨2, ![9, 64]⟩ : Shape).Idx → EReal) : SW.Idx → EReal :=
  fun i => x (ix2 (n0 := 9) (n1 := 64) (i 1) (i 0))

/-- A one-row array (1 x 64) read as a vector of 64. -/
def rowOf (x : (⟨2, ![1, 64]⟩ : Shape).Idx → EReal) : SCh.Idx → EReal :=
  fun i => x (ix2 (n0 := 1) (n1 := 64) 0 (i 0))

/-! ### Per point: generic in the number of pillars -/
section
variable {R : ℕ} (a0 : (SFeat R).Idx → EReal) (a1 : (SCnt R).Idx → BitVec 32) (a2 : (SCrd R).Idx → BitVec 32)
  (a3 : SW.Idx → EReal)

/-- Feature k (0, 1, 2) of point n of pillar p. -/
def feat (p : Fin R) (n : Fin 20) (k : Fin 3) : EReal := a0 (ix3 p n ⟨k.val, by omega⟩)

/-- The pillar's sum of feature k over its 20 points. -/
def fsum (p : Fin R) (k : Fin 3) : EReal := ∑ n : Fin 20, feat a0 p n k

/-- The pillar's point count, as a real. -/
def cnt (p : Fin R) : EReal := (((a1 (ix1 p)).toInt : ℝ) : EReal)

/-- The point count clamped below at one. -/
def cntK (p : Fin R) : EReal := max (cnt a1 p) (lit 0x3F800000#32)

/-- Coordinate column j (batch, z, y, x) of pillar p, as a real. -/
def crd (p : Fin R) (j : Fin 4) : EReal := (((a2 (ix2 p j)).toInt : ℝ) : EReal)

/-- The voxel's centre along axis k: (column + 1/2) * 0.16 + origin for x (column 3) and y (column 2), the
    constant -1 for z. -/
def ctr (p : Fin R) : Fin 3 → EReal
  | ⟨0, _⟩ => (crd a2 p 3 + lit 0x3F000000#32) * lit 0x3E23D70A#32 + lit 0x00000000#32
  | ⟨1, _⟩ => (crd a2 p 2 + lit 0x3F000000#32) * lit 0x3E23D70A#32 + lit 0xC2200000#32
  | ⟨_ + 2, _⟩ => lit 0xBF800000#32

/-- The indicator of a non-zero value. -/
def msk (x : EReal) : EReal := if x = 0 then 0 else 1

/-- The nine-vector of point n of pillar p, over the per-pillar divisor den. -/
def x9 (den : Fin R → EReal) (p : Fin R) (n : Fin 20) (j : Fin 9) : EReal :=
  if h : j.val < 3 then feat a0 p n ⟨j.val, h⟩
  else if h2 : j.val < 6 then
    (feat a0 p n ⟨j.val - 3, by omega⟩ - ctr a2 p ⟨j.val - 3, by omega⟩) * msk (feat a0 p n ⟨j.val - 3, by omega⟩)
  else
    (feat a0 p n ⟨j.val - 6, by omega⟩ - Ideal.div (fsum a0 p ⟨j.val - 6, by omega⟩) (den p)) * msk (feat a0 p n ⟨j.val - 6, by omega⟩)

/-- The linear layer: channel o of point n of pillar p. -/
def lin (den : Fin R → EReal) (p : Fin R) (n : Fin 20) (o : Fin 64) : EReal :=
  ∑ j : Fin 9, x9 a0 a2 den p n j * a3 (ix2 o j)

/-- The sum of channel o over all points of all R pillars. -/
def tot (den : Fin R → EReal) (o : Fin 64) : EReal :=
  ∑ p : Fin R, ∑ n : Fin 20, lin a0 a2 a3 den p n o

/-- The sum of the squares of channel o over all points of all pillars. -/
def totsq (den : Fin R → EReal) (o : Fin 64) : EReal :=
  ∑ p : Fin R, ∑ n : Fin 20, lin a0 a2 a3 den p n o * lin a0 a2 a3 den p n o

end

/-! ### The batch statistics and the results, at the 150000 pillars given -/
section
variable (a0 : (SFeat 150000).Idx → EReal) (a1 : (SCnt 150000).Idx → BitVec 32) (a2 : (SCrd 150000).Idx → BitVec 32)
  (a3 : SW.Idx → EReal) (a4 a5 : SCh.Idx → EReal)

/-- The number of points, 3,000,000, as the f32 word both programs carry. -/
abbrev nPts : EReal := lit 0x4A371B00#32
/-- The variance's offset, the f32 word nearest 0.001 that both programs carry. -/
abbrev eps : EReal := lit 0x3A83126F#32

/-! ### The kernel's side -/

def meanK (o : Fin 64) : EReal := Ideal.div (tot a0 a2 a3 (cntK a1) o) nPts
def varK (o : Fin 64) : EReal :=
  max (Ideal.div (totsq a0 a2 a3 (cntK a1) o) nPts - meanK a0 a1 a2 a3 o * meanK a0 a1 a2 a3 o) (lit 0x00000000#32)
def scaleK (o : Fin 64) : EReal := Ideal.rsqrt (varK a0 a1 a2 a3 o + eps) * a4 (ix1 o)
def shiftK (o : Fin 64) : EReal := a5 (ix1 o) - meanK a0 a1 a2 a3 o * scaleK a0 a1 a2 a3 a4 o
/-- The kernel's result at (p, o): the maximum over the pillar's points of the clamped affine image. -/
def outK (i : SOut.Idx) : EReal :=
  (Finset.univ : Finset (Fin 20)).fold max (lit 0xFF800000#32) fun n =>
    max (lin a0 a2 a3 (cntK a1) (i 0) n (i 1) * scaleK a0 a1 a2 a3 a4 (i 1) + shiftK a0 a1 a2 a3 a4 a5 (i 1)) (lit 0x00000000#32)

/-! ### The reference's side -/

def meanR (o : Fin 64) : EReal := Ideal.div (tot a0 a2 a3 (cnt a1) o) nPts
def varR (o : Fin 64) : EReal :=
  Ideal.div (∑ p : Fin 150000, ∑ n : Fin 20,
    (lin a0 a2 a3 (cnt a1) p n o - meanR a0 a1 a2 a3 o) * (lin a0 a2 a3 (cnt a1) p n o - meanR a0 a1 a2 a3 o)) nPts
/-- The reference's result at (p, o). -/
def outR (i : SOut.Idx) : EReal :=
  (Finset.univ : Finset (Fin 20)).fold max (lit 0xFF800000#32) fun n =>
    max ((lin a0 a2 a3 (cnt a1) (i 0) n (i 1) - meanR a0 a1 a2 a3 (i 1)) * Ideal.rsqrt (varR a0 a1 a2 a3 (i 1) + eps) * a4 (ix1 (i 1))
      + a5 (ix1 (i 1))) (lit 0x00000000#32)

end

end Cert.Spec

end
-- ==== Proof.KI.Host.lean ====
/-
  The host side of the kernel program, at an index.

  Before the first kernel the program pads the three per-pillar arrays from 150000 to 150016 rows (16 rows of
  zeros for the features and the coordinates, 16 ones for the point counts), reshapes the counts to a column,
  transposes the weight and reshapes the two per-channel vectors to rows. After the second kernel it keeps the
  first 150000 rows of the result, gathers three coordinate columns and computes a two-entry grid size.

  Shown here: what each kernel window's array holds when the kernels are entered, as the printed operation
  applied to the arguments and read at an index (a row below 150000 is the argument's row, a row from 150000 on
  is the padding value); and what the host tail leaves, from any buffer contents.
-/
import proofs.«129818_j66013647339880_2_alg».proof.Proof.Gen.KernelIdeal.Regions
import proofs.«129818_j66013647339880_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws

set_option maxRecDepth 16384

noncomputable section

namespace Cert.KernelIdeal.HandV

open Idealize.ShloMosaic Idealize.ShloMosaic.TcCoe Idealize.ShloMosaic.ValueIdx
open Idealize.ShloMosaic.StableHlo
open Cert.KernelIdeal Cert.KernelIdeal.Gen

variable {F : FTy → Type} [FloatOps F]
variable (m : (ℓ : Loc nD τ sig) → Buf (Elt F) ℓ)

/-! ## The kernels' window arrays at entry -/

/-- The features, padded by 16 rows of zeros. -/
theorem V7_main_v0 (c : Dev nD) :
    (V7 m c main_v0 : S150016x20x5.Idx → F .f32)
      = pad S150016x20x5 ![0, 0, 0] ![16, 0, 0] ![0, 0, 0] (m ((c : Thread nD τ).loc main_arg0) : S150000x20x5.Idx → F .f32)
          (constant S_ .f32 0x00000000#32 : S_.Idx → F .f32) pads_S150000x20x5_S150016x20x5_0160_000_000 h_S_ := by
  refine (V7_of m c main_v0 (by decide)).trans ?_
  refine (V6_of m c main_v0 (by decide)).trans ?_
  refine (V5_of m c main_v0 (by decide)).trans ?_
  refine (V4_of m c main_v0 (by decide)).trans ?_
  refine (V3_of m c main_v0 (by decide)).trans ?_
  show StableHlo.after hostOps0_1 (V1 m c) (Proc.devRef .tc main_v0) = _
  dsimp only [hostOps0_1]
  after_results
  try rfl

/-- The point counts, padded by 16 ones, as a column. -/
theorem V7_main_v2 (c : Dev nD) :
    (V7 m c main_v2 : S150016x1.Idx → BitVec 32)
      = shapeCast S150016x1 (pad S150016 ![0] ![16] ![0] (m ((c : Thread nD τ).loc main_arg1) : S150000.Idx → BitVec 32)
          (constantI S_ 32 1#32 : S_.Idx → BitVec 32) pads_S150000_S150016_0160 h_S_) shapeCasts_S150016_S150016x1 := by
  refine (V7_of m c main_v2 (by decide)).trans ?_
  refine (V6_of m c main_v2 (by decide)).trans ?_
  show StableHlo.after hostOps0_4 (V4 m c) (Proc.devRef .tc main_v2) = _
  dsimp only [hostOps0_4]
  after_results
  try rfl

/-- The coordinates, padded by 16 rows of zeros. -/
theorem V7_main_v3 (c : Dev nD) :
    (V7 m c main_v3 : S150016x4.Idx → BitVec 32)
      = pad S150016x4 ![0, 0] ![16, 0] ![0, 0] (m ((c : Thread nD τ).loc main_arg2) : S150000x4.Idx → BitVec 32)
          (constantI S_ 32 0#32 : S_.Idx → BitVec 32) pads_S150000x4_S150016x4_0160_000 h_S_ := by
  refine (V7_of m c main_v3 (by decide)).trans ?_
  show StableHlo.after hostOps0_5 (V5 m c) (Proc.devRef .tc main_v3) = _
  dsimp only [hostOps0_5]
  after_results
  try rfl

/-- The weight, transposed. -/
theorem V7_main_v4 (c : Dev nD) :
    (V7 m c main_v4 : S9x64.Idx → F .f32)
      = transpose S9x64 [1, 0] (m ((c : Thread nD τ).loc main_arg3) : S64x9.Idx → F .f32) transposes_S64x9_S9x64_1_0 := by
  show StableHlo.after hostOps0_6 (V6 m c) (Proc.devRef .tc main_v4) = _
  dsimp only [hostOps0_6]
  after_results
  try rfl

/-- The scale vector, as a row. -/
theorem V7_main_v5 (c : Dev nD) :
    (V7 m c main_v5 : S1x64.Idx → F .f32)
      = shapeCast S1x64 (m ((c : Thread nD τ).loc main_arg4) : S64.Idx → F .f32) shapeCasts_S64_S1x64 := by
  show StableHlo.after hostOps0_6 (V6 m c) (Proc.devRef .tc main_v5) = _
  dsimp only [hostOps0_6]
  after_results
  try rfl

/-- The shift vector, as a row. -/
theorem V7_main_v6 (c : Dev nD) :
    (V7 m c main_v6 : S1x64.Idx → F .f32)
      = shapeCast S1x64 (m ((c : Thread nD τ).loc main_arg5) : S64.Idx → F .f32) shapeCasts_S64_S1x64 := by
  show StableHlo.after hostOps0_6 (V6 m c) (Proc.devRef .tc main_v6) = _
  dsimp only [hostOps0_6]
  after_results
  try rfl

/-- The four constant tables the host tail reads are as the first stretch wrote them. -/
theorem V7_main_c (c : Dev nD) : (V7 m c main_c : S3.Idx → BitVec 32) = fun i => lit0 (S3.rowMajor i) := by
  refine (V7_of m c main_c (by decide)).trans ?_
  refine (V6_of m c main_c (by decide)).trans ?_
  refine (V5_of m c main_c (by decide)).trans ?_
  refine (V4_of m c main_c (by decide)).trans ?_
  refine (V3_of m c main_c (by decide)).trans ?_
  refine (V2_of m c main_c (by decide)).trans ?_
  show StableHlo.after hostOps0 (V0 m c) (Proc.devRef .tc main_c) = _
  dsimp only [hostOps0]
  after_results
  try rfl
theorem V7_main_cst (c : Dev nD) : (V7 m c main_cst : S6.Idx → F .f32) = fun i => FloatOps.ofBits .f32 (lit1 (S6.rowMajor i)) := by
  refine (V7_of m c main_cst (by decide)).trans ?_
  refine (V6_of m c main_cst (by decide)).trans ?_
  refine (V5_of m c main_cst (by decide)).trans ?_
  refine (V4_of m c main_cst (by decide)).trans ?_
  refine (V3_of m c main_cst (by decide)).trans ?_
  refine (V2_of m c main_cst (by decide)).trans ?_
  show StableHlo.after hostOps0 (V0 m c) (Proc.devRef .tc main_cst) = _
  dsimp only [hostOps0]
  after_results
  try rfl
theorem V7_main_cst_0 (c : Dev nD) : (V7 m c main_cst_0 : S3.Idx → F .f32) = fun i => FloatOps.ofBits .f32 (lit2 (S3.rowMajor i)) := by
  refine (V7_of m c main_cst_0 (by decide)).trans ?_
  refine (V6_of m c main_cst_0 (by decide)).trans ?_
  refine (V5_of m c main_cst_0 (by decide)).trans ?_
  refine (V4_of m c main_cst_0 (by decide)).trans ?_
  refine (V3_of m c main_cst_0 (by decide)).trans ?_
  refine (V2_of m c main_cst_0 (by decide)).trans ?_
  show StableHlo.after hostOps0 (V0 m c) (Proc.devRef .tc main_cst_0) = _
  dsimp only [hostOps0]
  after_results
  try rfl
theorem V7_main_c_1 (c : Dev nD) : (V7 m c main_c_1 : S2.Idx → BitVec 32) = fun i => lit3 (S2.rowMajor i) := by
  refine (V7_of m c main_c_1 (by decide)).trans ?_
  refine (V6_of m c main_c_1 (by decide)).trans ?_
  refine (V5_of m c main_c_1 (by decide)).trans ?_
  refine (V4_of m c main_c_1 (by decide)).trans ?_
  refine (V3_of m c main_c_1 (by decide)).trans ?_
  refine (V2_of m c main_c_1 (by decide)).trans ?_
  show StableHlo.after hostOps0 (V0 m c) (Proc.devRef .tc main_c_1) = _
  dsimp only [hostOps0]
  after_results
  try rfl

/-! ## The window arrays read at an index -/

section AtIndex

/-- The padded counts' column, read as a vector: a given pillar's count below row 150000, one from there on. -/
theorem colOf_main_v2_apply (c : Dev nD) (q : Fin 150016) :
    Cert.Spec.colOf (V7 m c main_v2 : S150016x1.Idx → BitVec 32) (ix1 q)
      = if h : q.val < 150000 then (m ((c : Thread nD τ).loc main_arg1) : S150000.Idx → BitVec 32) (ix1 (⟨q.val, h⟩ : Fin 150000))
        else 1#32 := by
  show (V7 m c main_v2 : S150016x1.Idx → BitVec 32) (ix2 q (0 : Fin 1)) = _
  refine (congrFun (V7_main_v2 m c) _).trans ?_
  refine (shapeCast_apply _ _ (ix2 q (0 : Fin 1)) (ix1 q) ?_).trans ?_
  · rw [Shape.rowMajor_val_one, Shape.rowMajor_val_two]
    show q.val = q.val * 1 + 0
    omega
  · by_cases h : q.val < 150000
    · rw [dif_pos h]
      refine pad_apply_of_inside _ _ _ _ _ _ _ _ (ix1 (⟨q.val, h⟩ : Fin 150000)) fun a => ?_
      match a with
      | ⟨0, _⟩ => show q.val = 0 + q.val * (0 + 1); omega
    · rw [dif_neg h]
      refine (pad_apply_of_not_inside _ _ _ _ _ _ _ _ (⟨0, by decide⟩ : Fin S150000.rank) ?_).trans rfl
      show ¬(0 ≤ q.val ∧ (q.val - 0) % (0 + 1) = 0 ∧ (q.val - 0) / (0 + 1) < 150000)
      omega

/-- The padded coordinates: a given pillar's row below row 150000, zeros from there on. -/
theorem main_v3_apply (c : Dev nD) (q : Fin 150016) (j : Fin 4) :
    (V7 m c main_v3 : S150016x4.Idx → BitVec 32) (ix2 q j)
      = if h : q.val < 150000 then (m ((c : Thread nD τ).loc main_arg2) : S150000x4.Idx → BitVec 32) (ix2 (⟨q.val, h⟩ : Fin 150000) j)
        else 0#32 := by
  refine (congrFun (V7_main_v3 m c) _).trans ?_
  by_cases h : q.val < 150000
  · rw [dif_pos h]
    refine pad_apply_of_inside _ _ _ _ _ _ _ _ (ix2 (⟨q.val, h⟩ : Fin 150000) j) fun a => ?_
    match a with
    | ⟨0, _⟩ => show q.val = 0 + q.val * (0 + 1); omega
    | ⟨1, _⟩ => show j.val = 0 + j.val * (0 + 1); omega
  · rw [dif_neg h]
    refine (pad_apply_of_not_inside _ _ _ _ _ _ _ _ (⟨0, by decide⟩ : Fin S150000x4.rank) ?_).trans rfl
    show ¬(0 ≤ q.val ∧ (q.val - 0) % (0 + 1) = 0 ∧ (q.val - 0) / (0 + 1) < 150000)
    omega

end AtIndex

section AtIndexIdeal
variable (mI : (ℓ : Loc nD τ sig) → Buf (Elt Ideal) ℓ)

/-- The padded features: a given pillar's entry below row 150000, zero from there on. -/
theorem main_v0_apply (c : Dev nD) (q : Fin 150016) (n : Fin 20) (k : Fin 5) :
    (V7 mI c main_v0 : S150016x20x5.Idx → EReal) (ix3 q n k)
      = (if h : q.val < 150000 then (mI ((c : Thread nD τ).loc main_arg0) : S150000x20x5.Idx → EReal) (ix3 (⟨q.val, h⟩ : Fin 150000) n k)
        else 0 : EReal) := by
  refine (congrFun (V7_main_v0 mI c) _).trans ?_
  by_cases h : q.val < 150000
  · rw [dif_pos h]
    refine pad_apply_of_inside _ _ _ _ _ _ _ _ (ix3 (⟨q.val, h⟩ : Fin 150000) n k) fun a => ?_
    match a with
    | ⟨0, _⟩ => show q.val = 0 + q.val * (0 + 1); omega
    | ⟨1, _⟩ => show n.val = 0 + n.val * (0 + 1); omega
    | ⟨2, _⟩ => show k.val = 0 + k.val * (0 + 1); omega
  · rw [dif_neg h]
    refine (pad_apply_of_not_inside _ _ _ _ _ _ _ _ (⟨0, by decide⟩ : Fin S150000x20x5.rank) ?_).trans ?_
    · show ¬(0 ≤ q.val ∧ (q.val - 0) % (0 + 1) = 0 ∧ (q.val - 0) / (0 + 1) < 150000)
      omega
    · exact Ideal.ofBits_zero_f32

/-- The transposed weight read back is the weight. -/
theorem wOf_main_v4 (c : Dev nD) :
    Cert.Spec.wOf (V7 mI c main_v4 : S9x64.Idx → EReal) = (mI ((c : Thread nD τ).loc main_arg3) : S64x9.Idx → EReal) := by
  funext i
  obtain ⟨o, j, rfl⟩ : ∃ (o : Fin 64) (j : Fin 9), i = ix2 o j := ⟨i 0, i 1, eq_ix2 i⟩
  show (V7 mI c main_v4 : S9x64.Idx → EReal) (ix2 j o) = _
  refine (congrFun (V7_main_v4 mI c) _).trans ?_
  refine transpose_apply _ _ _ (ix2 j o) (ix2 o j) fun b => ?_
  match b with
  | ⟨0, _⟩ => rfl
  | ⟨1, _⟩ => rfl

/-- The scale row read as a vector is the scale. -/
theorem rowOf_main_v5 (c : Dev nD) :
    Cert.Spec.rowOf (V7 mI c main_v5 : S1x64.Idx → EReal) = (mI ((c : Thread nD τ).loc main_arg4) : S64.Idx → EReal) := by
  funext i
  obtain ⟨o, rfl⟩ : ∃ o : Fin 64, i = ix1 o := ⟨i 0, eq_ix1 i⟩
  show (V7 mI c main_v5 : S1x64.Idx → EReal) (ix2 (0 : Fin 1) o) = _
  refine (congrFun (V7_main_v5 mI c) _).trans ?_
  refine shapeCast_apply _ _ (ix2 (0 : Fin 1) o) (ix1 o) ?_
  rw [Shape.rowMajor_val_one, Shape.rowMajor_val_two]
  show o.val = 0 * 64 + o.val
  omega

/-- The shift row read as a vector is the shift. -/
theorem rowOf_main_v6 (c : Dev nD) :
    Cert.Spec.rowOf (V7 mI c main_v6 : S1x64.Idx → EReal) = (mI ((c : Thread nD τ).loc main_arg5) : S64.Idx → EReal) := by
  funext i
  obtain ⟨o, rfl⟩ : ∃ o : Fin 64, i = ix1 o := ⟨i 0, eq_ix1 i⟩
  show (V7 mI c main_v6 : S1x64.Idx → EReal) (ix2 (0 : Fin 1) o) = _
  refine (congrFun (V7_main_v6 mI c) _).trans ?_
  refine shapeCast_apply _ _ (ix2 (0 : Fin 1) o) (ix1 o) ?_
  rw [Shape.rowMajor_val_one, Shape.rowMajor_val_two]
  show o.val = 0 * 64 + o.val
  omega

end AtIndexIdeal

/-! ## The host tail, from any buffer contents -/

section Tail
variable (W : Valuation τ sig (Elt F))

/-- The result: the first 150000 rows of the second kernel's output. -/
theorem tail_main_v9 :
    (StableHlo.after hostOps2 W main_v9 : S150000x64.Idx → F .f32)
      = extractStridedSlice S150000x64 ![0, 0] (W main_v8 : S150016x64.Idx → F .f32) slices_S150016x64_S150000x64_0_0 := by
  show StableHlo.after hostOps2 W (Proc.devRef .tc main_v9) = _
  dsimp only [hostOps2]
  after_results_simp
  try rfl

/-- The three coordinate columns gathered from the coordinates argument. -/
theorem tail_main_v16 :
    (StableHlo.after hostOps2 W main_v16 : S150000x3.Idx → BitVec 32)
      = Host.gather gather_S150000x4_S3x1_S150000x3_0_1_n_n_1_1_1500001 (W main_arg2 : S150000x4.Idx → BitVec 32)
          (broadcastInDim S3x1 ![0] bcast_S3_S3x1_0
            (select (cmpi .slt (W main_c : S3.Idx → BitVec 32) (broadcastInDim S3 ![] bcast_S_S3 (constantI S_ 32 0#32)))
              (addi (W main_c : S3.Idx → BitVec 32) (broadcastInDim S3 ![] bcast_S_S3 (constantI S_ 32 4#32)))
              (W main_c : S3.Idx → BitVec 32))) := by
  show StableHlo.after hostOps2 W (Proc.devRef .tc main_v16) = _
  dsimp only [hostOps2]
  after_results_simp
  try rfl

set_option maxHeartbeats 4000000 in
/-- The two-entry grid size computed from the constant tables. -/
theorem tail_main_v28 :
    (StableHlo.after hostOps2 W main_v28 : S2.Idx → F .f32)
      = Host.gather gather_S3_S2x1_S2_n_0_n_n_0_1_1
          (Host.ceil (Host.divf
            (subf (extractStridedSlice S3 ![3] (W main_cst : S6.Idx → F .f32) slices_S6_S3_3)
                  (extractStridedSlice S3 ![0] (W main_cst : S6.Idx → F .f32) slices_S6_S3_0))
            (W main_cst_0 : S3.Idx → F .f32)))
          (broadcastInDim S2x1 ![0] bcast_S2_S2x1_0
            (select (cmpi .slt (W main_c_1 : S2.Idx → BitVec 32) (broadcastInDim S2 ![] bcast_S_S2 (constantI S_ 32 0#32)))
              (addi (W main_c_1 : S2.Idx → BitVec 32) (broadcastInDim S2 ![] bcast_S_S2 (constantI S_ 32 3#32)))
              (W main_c_1 : S2.Idx → BitVec 32))) := by
  show StableHlo.after hostOps2 W (Proc.devRef .tc main_v28) = _
  dsimp only [hostOps2]
  after_results_simp
  try rfl

/-- The result read at an index: row p, channel o of the second kernel's output. -/
theorem tail_main_v9_apply (p : Fin 150000) (o : Fin 64) :
    (StableHlo.after hostOps2 W main_v9 : S150000x64.Idx → F .f32) (ix2 p o)
      = (W main_v8 : S150016x64.Idx → F .f32) (ix2 (⟨p.val, by omega⟩ : Fin 150016) o) := by
  rw [tail_main_v9]
  refine extractStridedSlice_apply _ _ _ _ _ fun a => ?_
  match a with
  | ⟨0, _⟩ => show p.val = 0 + p.val; omega
  | ⟨1, _⟩ => show o.val = 0 + o.val; omega

end Tail

end Cert.KernelIdeal.HandV
end
-- ==== Proof.KI.LinBlock.lean ====
/- Layout and contraction read at an index, at the ideal values: what the two kernels' shared operations — the
   nine-feature concatenation, the rows-by-weights product, the non-zero indicator, the sum over all rows of a
   block, and the small reshapes and broadcasts around them — compute at explicit coordinates. -/
import proofs.«129818_j66013647339880_2_alg».proof.Proof.Gen.KernelIdeal.Skeleton
import proofs.«129818_j66013647339880_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.HandV

open Idealize.ShloMosaic Idealize.ShloMosaic.ValueIdx
open Cert.KernelIdeal Cert.KernelIdeal.Gen

/-! ## Three pieces laid side by side along the last axis -/

section Concat
variable {α : Type}

/-- Three blocks of three features side by side: feature `j` of nine is feature `j`, `j - 3` or `j - 6` of the first,
    second or third block. -/
theorem concat9_apply (A B C : S512x20x3.Idx → α) (r : Fin 512) (n : Fin 20) (j : Fin 9) :
    concatenate S512x20x9 2 [⟨S512x20x3, A⟩, ⟨S512x20x3, B⟩, ⟨S512x20x3, C⟩]
        concatenates_S512x20x3_S512x20x3_S512x20x3_S512x20x9_d2 (ix3 r n j)
      = if h : j.val < 3 then A (ix3 r n ⟨j.val, h⟩)
        else if h2 : j.val < 6 then B (ix3 r n ⟨j.val - 3, by omega⟩)
        else C (ix3 r n ⟨j.val - 6, by omega⟩) := by
  have hj := j.isLt
  split_ifs with h h2
  · exact concatenate_apply_piece (α := α) (2 : Fin S512x20x9.rank) [⟨S512x20x3, A⟩, ⟨S512x20x3, B⟩, ⟨S512x20x3, C⟩] concatenates_S512x20x3_S512x20x3_S512x20x3_S512x20x9_d2 (ix3 r n j)
      0 (by show (0 : ℕ) < 3; omega) S512x20x3 A rfl rfl 0 rfl (ix3 r n ⟨j.val, h⟩)
      (fun b => match b with | ⟨0, _⟩ => fun _ => rfl | ⟨1, _⟩ => fun _ => rfl | ⟨2, _⟩ => fun hb => absurd rfl hb)
      (Nat.zero_add _)
  · exact concatenate_apply_piece (α := α) (2 : Fin S512x20x9.rank) [⟨S512x20x3, A⟩, ⟨S512x20x3, B⟩, ⟨S512x20x3, C⟩] concatenates_S512x20x3_S512x20x3_S512x20x3_S512x20x9_d2 (ix3 r n j)
      1 (by show (1 : ℕ) < 3; omega) S512x20x3 B rfl rfl 3 rfl (ix3 r n ⟨j.val - 3, by omega⟩)
      (fun b => match b with | ⟨0, _⟩ => fun _ => rfl | ⟨1, _⟩ => fun _ => rfl | ⟨2, _⟩ => fun hb => absurd rfl hb)
      (by show 3 + (j.val - 3) = j.val; omega)
  · exact concatenate_apply_piece (α := α) (2 : Fin S512x20x9.rank) [⟨S512x20x3, A⟩, ⟨S512x20x3, B⟩, ⟨S512x20x3, C⟩] concatenates_S512x20x3_S512x20x3_S512x20x3_S512x20x9_d2 (ix3 r n j)
      2 (by show (2 : ℕ) < 3; omega) S512x20x3 C rfl rfl 6 rfl (ix3 r n ⟨j.val - 6, by omega⟩)
      (fun b => match b with | ⟨0, _⟩ => fun _ => rfl | ⟨1, _⟩ => fun _ => rfl | ⟨2, _⟩ => fun hb => absurd rfl hb)
      (by show 6 + (j.val - 6) = j.val; omega)

/-- Three single columns side by side: column `k` of three is the one column of the `k`-th piece. -/
theorem concat3_apply (A B C : S512x20x1.Idx → α) (r : Fin 512) (n : Fin 20) (k : Fin 3) :
    concatenate S512x20x3 2 [⟨S512x20x1, A⟩, ⟨S512x20x1, B⟩, ⟨S512x20x1, C⟩]
        concatenates_S512x20x1_S512x20x1_S512x20x1_S512x20x3_d2 (ix3 r n k)
      = if k.val = 0 then A (ix3 r n (0 : Fin 1))
        else if k.val = 1 then B (ix3 r n (0 : Fin 1))
        else C (ix3 r n (0 : Fin 1)) := by
  have hk := k.isLt
  split_ifs with h h2
  · exact concatenate_apply_piece (α := α) (2 : Fin S512x20x3.rank) [⟨S512x20x1, A⟩, ⟨S512x20x1, B⟩, ⟨S512x20x1, C⟩] concatenates_S512x20x1_S512x20x1_S512x20x1_S512x20x3_d2 (ix3 r n k)
      0 (by show (0 : ℕ) < 3; omega) S512x20x1 A rfl rfl 0 rfl (ix3 r n (0 : Fin 1))
      (fun b => match b with | ⟨0, _⟩ => fun _ => rfl | ⟨1, _⟩ => fun _ => rfl | ⟨2, _⟩ => fun hb => absurd rfl hb)
      (by show 0 + 0 = k.val; omega)
  · exact concatenate_apply_piece (α := α) (2 : Fin S512x20x3.rank) [⟨S512x20x1, A⟩, ⟨S512x20x1, B⟩, ⟨S512x20x1, C⟩] concatenates_S512x20x1_S512x20x1_S512x20x1_S512x20x3_d2 (ix3 r n k)
      1 (by show (1 : ℕ) < 3; omega) S512x20x1 B rfl rfl 1 rfl (ix3 r n (0 : Fin 1))
      (fun b => match b with | ⟨0, _⟩ => fun _ => rfl | ⟨1, _⟩ => fun _ => rfl | ⟨2, _⟩ => fun hb => absurd rfl hb)
      (by show 1 + 0 = k.val; omega)
  · exact concatenate_apply_piece (α := α) (2 : Fin S512x20x3.rank) [⟨S512x20x1, A⟩, ⟨S512x20x1, B⟩, ⟨S512x20x1, C⟩] concatenates_S512x20x1_S512x20x1_S512x20x1_S512x20x3_d2 (ix3 r n k)
      2 (by show (2 : ℕ) < 3; omega) S512x20x1 C rfl rfl 2 rfl (ix3 r n (0 : Fin 1))
      (fun b => match b with | ⟨0, _⟩ => fun _ => rfl | ⟨1, _⟩ => fun _ => rfl | ⟨2, _⟩ => fun hb => absurd rfl hb)
      (by show 2 + 0 = k.val; omega)

end Concat

/-! ## The rows-by-weights product -/

section Rows

/-- The product's operand indices at a result index and the `k`-th contraction position: the left operand's row is
    the result's row, -/
theorem lhs_row (j : S10240x64.Idx) (q : dot_S10240x9_S9x64_S10240x64_1_0_0_1_n_n.contr.Idx) :
    (dot_S10240x9_S9x64_S10240x64_1_0_0_1_n_n.lhsIdx j q 0).val = (j 0).val := rfl
/-- its column is `k`; -/
theorem lhs_col (j : S10240x64.Idx) (k : Fin 9) :
    (dot_S10240x9_S9x64_S10240x64_1_0_0_1_n_n.lhsIdx j
      ((contrEquiv1 dot_S10240x9_S9x64_S10240x64_1_0_0_1_n_n 9 rfl rfl).symm k) 1).val = k.val :=
  (DotDims.lhsIdx_val_of_single _ rfl j _).trans (contrEquiv1_symm_val dot_S10240x9_S9x64_S10240x64_1_0_0_1_n_n 9 rfl rfl k)
/-- the right operand's row is `k`, -/
theorem rhs_row (j : S10240x64.Idx) (k : Fin 9) :
    (dot_S10240x9_S9x64_S10240x64_1_0_0_1_n_n.rhsIdx j
      ((contrEquiv1 dot_S10240x9_S9x64_S10240x64_1_0_0_1_n_n 9 rfl rfl).symm k) 0).val = k.val :=
  (DotDims.rhsIdx_val_of_single _ rfl j _).trans (contrEquiv1_symm_val dot_S10240x9_S9x64_S10240x64_1_0_0_1_n_n 9 rfl rfl k)
/-- its column the result's column. -/
theorem rhs_col (j : S10240x64.Idx) (q : dot_S10240x9_S9x64_S10240x64_1_0_0_1_n_n.contr.Idx) :
    (dot_S10240x9_S9x64_S10240x64_1_0_0_1_n_n.rhsIdx j q 1).val = (j 1).val := rfl

/-- The product of the 10240 flattened rows with the weights, at flattened row `20 r + n` and channel `o`: the
    contraction of point `n` of pillar `r`'s nine features with the weights' column `o`. -/
theorem matmul_rows_apply (X : FVec Ideal S512x20x9 .f32) (wt : Vec Ideal S9x64 .f32) (r : Fin 512) (n : Fin 20) (o : Fin 64)
    (R : Fin 10240) (hR : R.val = 20 * r.val + n.val) :
    matmul (φ₁ := .f32) (φ₂ := .f32) dot_S10240x9_S9x64_S10240x64_1_0_0_1_n_n (some .fp32)
        (shapeCast S10240x9 X shapeCasts_S512x20x9_S10240x9)
        (shapeCast S9x64 wt shapeCasts_S9x64_S9x64) (constant S10240x64 .f32 0x00000000#32) (ix2 R o)
      = ∑ j : Fin 9, X (ix3 r n j) * wt (ix2 j o) := by
  refine (Ideal.matmul_constant_zero_apply (φ₁ := .f32) (φ₂ := .f32) dot_S10240x9_S9x64_S10240x64_1_0_0_1_n_n (some .fp32) _ _ (ix2 R o)).trans ?_
  rw [← Equiv.sum_comp (contrEquiv1 dot_S10240x9_S9x64_S10240x64_1_0_0_1_n_n 9 rfl rfl).symm]
  refine Finset.sum_congr rfl fun k _ => ?_
  congr 1
  · refine shapeCast_apply X _ _ (ix3 r n k) ?_
    rw [Shape.rowMajor_val_three, Shape.rowMajor_val_two, lhs_row, lhs_col]
    show (r.val * 20 + n.val) * 9 + k.val = R.val * 9 + k.val
    rw [hR, Nat.mul_comm 20 r.val]
  · refine shapeCast_apply wt _ _ (ix2 k o) ?_
    rw [Shape.rowMajor_val_two, Shape.rowMajor_val_two, rhs_row, rhs_col]

/-- The same read through the reshape to pillars by points by channels. -/
theorem lin_rows_apply (X : FVec Ideal S512x20x9 .f32) (wt : Vec Ideal S9x64 .f32) (r : Fin 512) (n : Fin 20) (o : Fin 64) :
    shapeCast S512x20x64 (matmul (φ₁ := .f32) (φ₂ := .f32) dot_S10240x9_S9x64_S10240x64_1_0_0_1_n_n (some .fp32)
        (shapeCast S10240x9 X shapeCasts_S512x20x9_S10240x9)
        (shapeCast S9x64 wt shapeCasts_S9x64_S9x64) (constant S10240x64 .f32 0x00000000#32)) shapeCasts_S10240x64_S512x20x64 (ix3 r n o)
      = ∑ j : Fin 9, X (ix3 r n j) * wt (ix2 j o) := by
  refine (shapeCast_apply _ shapeCasts_S10240x64_S512x20x64 (ix3 r n o)
    (ix2 (⟨20 * r.val + n.val, by have := r.isLt; have := n.isLt; omega⟩ : Fin 10240) o) ?_).trans
    (matmul_rows_apply X wt r n o _ rfl)
  rw [Shape.rowMajor_val_three, Shape.rowMajor_val_two]
  show (20 * r.val + n.val) * 64 + o.val = (r.val * 20 + n.val) * 64 + o.val
  rw [Nat.mul_comm 20 r.val]

/-- And through the further reshape back to flattened rows. -/
theorem lin_flat_apply (X : FVec Ideal S512x20x9 .f32) (wt : Vec Ideal S9x64 .f32) (r : Fin 512) (n : Fin 20) (o : Fin 64)
    (R : Fin 10240) (hR : R.val = 20 * r.val + n.val) :
    shapeCast S10240x64 (shapeCast S512x20x64 (matmul (φ₁ := .f32) (φ₂ := .f32) dot_S10240x9_S9x64_S10240x64_1_0_0_1_n_n (some .fp32)
        (shapeCast S10240x9 X shapeCasts_S512x20x9_S10240x9)
        (shapeCast S9x64 wt shapeCasts_S9x64_S9x64) (constant S10240x64 .f32 0x00000000#32)) shapeCasts_S10240x64_S512x20x64)
        shapeCasts_S512x20x64_S10240x64 (ix2 R o)
      = ∑ j : Fin 9, X (ix3 r n j) * wt (ix2 j o) := by
  refine (shapeCast_apply _ shapeCasts_S512x20x64_S10240x64 (ix2 R o) (ix3 r n o) ?_).trans (lin_rows_apply X wt r n o)
  rw [Shape.rowMajor_val_three, Shape.rowMajor_val_two]
  show (r.val * 20 + n.val) * 64 + o.val = R.val * 64 + o.val
  rw [hR, Nat.mul_comm 20 r.val]

end Rows

/-! ## The non-zero indicator -/

section Mask
variable {s : Shape}

/-- "Ordered and not equal" against zero, widened and converted: one where the value is not zero, zero where it is. -/
theorem mask_apply (v z : FVec Ideal s .f32) (h : 1 < 32) (i : s.Idx) (hz : z i = 0) :
    (sitofp .f32 (extui 32 (cmpf .one v z) h) : FVec Ideal s .f32) i = Cert.Spec.msk (v i) := by
  rw [sitofp_apply, extui_apply, cmpf_apply, Ideal.cmpf_def, hz]
  unfold Cert.Spec.msk Ideal.cmp
  by_cases hv : v i = 0
  · rw [if_pos hv]
    simp only [hv, ne_eq, not_true_eq_false, decide_false, BitVec.ofBool_false, BitVec.setWidth_zero]
    show (((0#32 : BitVec 32).toInt : ℝ) : EReal) = 0
    rw [show (0#32 : BitVec 32).toInt = 0 by decide, Int.cast_zero, EReal.coe_zero]
  · rw [if_neg hv]
    simp only [ne_eq, hv, not_false_eq_true, decide_true, BitVec.ofBool_true]
    show ((((1#1 : BitVec 1).setWidth 32).toInt : ℝ) : EReal) = 1
    rw [show ((1#1 : BitVec 1).setWidth 32).toInt = 1 by decide, Int.cast_one, EReal.coe_one]

/-- The same with the zero the kernels compare against: the splat of the zero word. -/
theorem mask_zero_apply (v : FVec Ideal s .f32) (h : 1 < 32) (i : s.Idx) :
    (sitofp .f32 (extui 32 (cmpf .one v (broadcast s (Scalar.ofBits (F := Ideal) .f32 0x00000000#32))) h) : FVec Ideal s .f32) i
      = Cert.Spec.msk (v i) :=
  mask_apply v _ h i Ideal.ofBits_zero_f32

end Mask

/-! ## The sum over all rows of a block, pillar by pillar -/

section LaneSum

/-- The 10240 flattened rows are the 512 pillars' 20 points. -/
def rowEquiv : Fin 512 × Fin 20 ≃ Fin 10240 := finProdFinEquiv

theorem rowEquiv_val (p : Fin 512 × Fin 20) : (rowEquiv p).val = 20 * p.1.val + p.2.val := by
  show p.2.val + 20 * p.1.val = _
  omega

/-- The sum of a channel over the 10240 flattened rows is the double sum over pillars and points. -/
theorem lane_sum_apply (M : FVec Ideal S10240x64 .f32) (hacc : (0x00000000#32 : BitVec 32) = 0x00000000#32) (o : Fin 64) :
    multiReduction .add [0] S64 M 0x00000000#32 reduces_S10240x64_S64 (.inl rfl) hacc (ix1 o)
      = ∑ r : Fin 512, ∑ n : Fin 20,
          M (ix2 (⟨20 * r.val + n.val, by have := r.isLt; have := n.isLt; omega⟩ : Fin 10240) o) := by
  refine (Ideal.multiReduction_add_single M 0x00000000#32 reduces_S10240x64_S64 (.inl rfl) hacc (ix1 o)).trans ?_
  rw [← Fintype.sum_prod_type']
  refine (Fintype.sum_equiv rowEquiv _ _ fun p => ?_).symm
  refine congrArg M (funext fun a => ?_)
  match a with
  | ⟨0, _⟩ => exact Fin.ext (rowEquiv_val p).symm
  | ⟨1, _⟩ => rfl

end LaneSum

/-! ## The small reshapes, broadcasts, slices and per-pillar reductions around them -/

section Casts
variable {α : Type}

/-- Points by one column, read as points. -/
theorem cast_pn1_pn_apply (v : S512x20x1.Idx → α) (r : Fin 512) (n : Fin 20) :
    shapeCast S512x20 v shapeCasts_S512x20x1_S512x20 (ix2 r n) = v (ix3 r n (0 : Fin 1)) :=
  shapeCast_apply v _ _ _ (by
    rw [Shape.rowMajor_val_three, Shape.rowMajor_val_two]
    show (r.val * 20 + n.val) * 1 + 0 = r.val * 20 + n.val
    omega)

/-- Points, read as points by one column. -/
theorem cast_pn_pn1_apply (v : S512x20.Idx → α) (r : Fin 512) (n : Fin 20) (u : Fin 1) :
    shapeCast S512x20x1 v shapeCasts_S512x20_S512x20x1 (ix3 r n u) = v (ix2 r n) :=
  shapeCast_apply v _ _ _ (by
    have hu : u.val = 0 := by omega
    rw [Shape.rowMajor_val_three, Shape.rowMajor_val_two]
    show r.val * 20 + n.val = (r.val * 20 + n.val) * 1 + u.val
    omega)

/-- One value per pillar, read as a column. -/
theorem cast_p_p1_apply (v : S512.Idx → α) (r : Fin 512) (u : Fin 1) :
    shapeCast S512x1 v shapeCasts_S512_S512x1 (ix2 r u) = v (ix1 r) :=
  shapeCast_apply v _ _ _ (by
    have hu : u.val = 0 := by omega
    rw [Shape.rowMajor_val_two, Shape.rowMajor_val_one]
    show r.val = r.val * 1 + u.val
    omega)

/-- A column, read as one value per pillar. -/
theorem cast_p1_p_apply (v : S512x1.Idx → α) (r : Fin 512) :
    shapeCast S512 v shapeCasts_S512x1_S512 (ix1 r) = v (ix2 r (0 : Fin 1)) :=
  shapeCast_apply v _ _ _ (by
    rw [Shape.rowMajor_val_two, Shape.rowMajor_val_one]
    show r.val * 1 + 0 = r.val
    omega)

/-- A column spread over the pillar's twenty points. -/
theorem bcast_p1_pn_apply (v : S512x1.Idx → α) (r : Fin 512) (n : Fin 20) :
    broadcastTo S512x20 v broadcasts_S512x1_S512x20 (ix2 r n) = v (ix2 r (0 : Fin 1)) :=
  broadcastTo_apply v _ _ _ fun a => match a with | ⟨0, _⟩ => rfl | ⟨1, _⟩ => rfl

/-- A column spread over three features. -/
theorem bcast_p1_p3_apply (v : S512x1.Idx → α) (r : Fin 512) (k : Fin 3) :
    broadcastTo S512x3 v broadcasts_S512x1_S512x3 (ix2 r k) = v (ix2 r (0 : Fin 1)) :=
  broadcastTo_apply v _ _ _ fun a => match a with | ⟨0, _⟩ => rfl | ⟨1, _⟩ => rfl

/-- Pillars by features, with a unit point axis put in. -/
theorem cast_p3_p13_apply (v : S512x3.Idx → α) (r : Fin 512) (u : Fin 1) (k : Fin 3) :
    shapeCast S512x1x3 v shapeCasts_S512x3_S512x1x3 (ix3 r u k) = v (ix2 r k) :=
  shapeCast_apply v _ _ _ (by
    have hu : u.val = 0 := by omega
    rw [Shape.rowMajor_val_three, Shape.rowMajor_val_two]
    show r.val * 3 + k.val = (r.val * 1 + u.val) * 3 + k.val
    omega)

/-- One row of features per pillar, spread over its twenty points. -/
theorem bcast_p13_pn3_apply (v : S512x1x3.Idx → α) (r : Fin 512) (n : Fin 20) (k : Fin 3) :
    broadcastTo S512x20x3 v broadcasts_S512x1x3_S512x20x3 (ix3 r n k) = v (ix3 r (0 : Fin 1) k) :=
  broadcastTo_apply v _ _ _ fun a => match a with | ⟨0, _⟩ => rfl | ⟨1, _⟩ => rfl | ⟨2, _⟩ => rfl

/-- One row of channels, with a second unit axis put in. -/
theorem cast_1c_11c_apply (v : S1x64.Idx → α) (u u' : Fin 1) (o : Fin 64) :
    shapeCast S1x1x64 v shapeCasts_S1x64_S1x1x64 (ix3 u u' o) = v (ix2 (0 : Fin 1) o) :=
  shapeCast_apply v _ _ _ (by
    have hu : u.val = 0 := by omega
    have hu' : u'.val = 0 := by omega
    rw [Shape.rowMajor_val_three, Shape.rowMajor_val_two]
    show 0 * 64 + o.val = (u.val * 1 + u'.val) * 64 + o.val
    omega)

/-- One row of channels spread over every point of every pillar. -/
theorem bcast_11c_pnc_apply (v : S1x1x64.Idx → α) (r : Fin 512) (n : Fin 20) (o : Fin 64) :
    broadcastTo S512x20x64 v broadcasts_S1x1x64_S512x20x64 (ix3 r n o) = v (ix3 (0 : Fin 1) (0 : Fin 1) o) :=
  broadcastTo_apply v _ _ _ fun a => match a with | ⟨0, _⟩ => rfl | ⟨1, _⟩ => rfl | ⟨2, _⟩ => rfl

/-- The channels, read as one row. -/
theorem cast_c_1c_apply (v : S64.Idx → α) (u : Fin 1) (o : Fin 64) :
    shapeCast S1x64 v shapeCasts_S64_S1x64 (ix2 u o) = v (ix1 o) :=
  shapeCast_a_1a_apply v _ u o

/-- The first three of a point's five features. -/
theorem slice_feat_apply (v : S512x20x5.Idx → α) (r : Fin 512) (n : Fin 20) (k : Fin 3) :
    extractStridedSlice S512x20x3 ![0, 0, 0] v slices_S512x20x5_o0_0_0_S512x20x3 (ix3 r n k)
      = v (ix3 r n (⟨k.val, by omega⟩ : Fin 5)) :=
  extractStridedSlice_apply _ v _ _ _ fun a => match a with
    | ⟨0, _⟩ => (Nat.zero_add _).symm | ⟨1, _⟩ => (Nat.zero_add _).symm | ⟨2, _⟩ => (Nat.zero_add _).symm

/-- One of a point's three features, as a single column. -/
theorem slice_col0_apply (v : S512x20x3.Idx → α) (r : Fin 512) (n : Fin 20) (u : Fin 1) :
    extractStridedSlice S512x20x1 ![0, 0, 0] v slices_S512x20x3_o0_0_0_S512x20x1 (ix3 r n u) = v (ix3 r n (0 : Fin 3)) :=
  extractStridedSlice_apply _ v _ _ _ fun a => match a with
    | ⟨0, _⟩ => (Nat.zero_add _).symm | ⟨1, _⟩ => (Nat.zero_add _).symm
    | ⟨2, _⟩ => by show (0 : ℕ) = 0 + u.val; omega
theorem slice_col1_apply (v : S512x20x3.Idx → α) (r : Fin 512) (n : Fin 20) (u : Fin 1) :
    extractStridedSlice S512x20x1 ![0, 0, 1] v slices_S512x20x3_o0_0_1_S512x20x1 (ix3 r n u) = v (ix3 r n (1 : Fin 3)) :=
  extractStridedSlice_apply _ v _ _ _ fun a => match a with
    | ⟨0, _⟩ => (Nat.zero_add _).symm | ⟨1, _⟩ => (Nat.zero_add _).symm
    | ⟨2, _⟩ => by show (1 : ℕ) = 1 + u.val; omega
theorem slice_col2_apply (v : S512x20x3.Idx → α) (r : Fin 512) (n : Fin 20) (u : Fin 1) :
    extractStridedSlice S512x20x1 ![0, 0, 2] v slices_S512x20x3_o0_0_2_S512x20x1 (ix3 r n u) = v (ix3 r n (2 : Fin 3)) :=
  extractStridedSlice_apply _ v _ _ _ fun a => match a with
    | ⟨0, _⟩ => (Nat.zero_add _).symm | ⟨1, _⟩ => (Nat.zero_add _).symm
    | ⟨2, _⟩ => by show (2 : ℕ) = 2 + u.val; omega

/-- One of a pillar's four coordinate words, as a single column. -/
theorem slice_crd3_apply (v : S512x4.Idx → α) (r : Fin 512) (u : Fin 1) :
    extractStridedSlice S512x1 ![0, 3] v slices_S512x4_o0_3_S512x1 (ix2 r u) = v (ix2 r (3 : Fin 4)) :=
  extractStridedSlice_apply _ v _ _ _ fun a => match a with
    | ⟨0, _⟩ => (Nat.zero_add _).symm
    | ⟨1, _⟩ => by show (3 : ℕ) = 3 + u.val; omega
theorem slice_crd2_apply (v : S512x4.Idx → α) (r : Fin 512) (u : Fin 1) :
    extractStridedSlice S512x1 ![0, 2] v slices_S512x4_o0_2_S512x1 (ix2 r u) = v (ix2 r (2 : Fin 4)) :=
  extractStridedSlice_apply _ v _ _ _ fun a => match a with
    | ⟨0, _⟩ => (Nat.zero_add _).symm
    | ⟨1, _⟩ => by show (2 : ℕ) = 2 + u.val; omega

end Casts

section PillarReductions

/-- A feature summed over a pillar's twenty points. -/
theorem pillar_sum_apply (v : FVec Ideal S512x20x3 .f32) (hacc : (0x00000000#32 : BitVec 32) = 0x00000000#32) (r : Fin 512) (k : Fin 3) :
    multiReduction .add [1] S512x3 v 0x00000000#32 reduces_S512x20x3_S512x3 (.inl rfl) hacc (ix2 r k)
      = ∑ n : Fin 20, v (ix3 r n k) := by
  refine (Ideal.multiReduction_add_single v 0x00000000#32 reduces_S512x20x3_S512x3 (.inl rfl) hacc (ix2 r k)).trans ?_
  refine Finset.sum_congr rfl fun n _ => congrArg v (funext fun a => ?_)
  match a with
  | ⟨0, _⟩ => rfl
  | ⟨1, _⟩ => rfl
  | ⟨2, _⟩ => rfl

/-- A channel's maximum over a pillar's twenty points, from the least value. -/
theorem pillar_max_apply (v : FVec Ideal S512x20x64 .f32) (hacc : (0xFF800000#32 : BitVec 32) = 0xFF800000#32) (r : Fin 512) (o : Fin 64) :
    multiReduction .maximumf [1] S512x64 v 0xFF800000#32 reduces_S512x20x64_S512x64 (.inl rfl) hacc (ix2 r o)
      = (Finset.univ : Finset (Fin 20)).fold max (Ideal.ofBits .f32 0xFF800000#32) fun n => v (ix3 r n o) := by
  refine (Ideal.multiReduction_maximumf_single v 0xFF800000#32 reduces_S512x20x64_S512x64 (.inl rfl) hacc (ix2 r o)).trans ?_
  refine congrArg ((Finset.univ : Finset (Fin 20)).fold max (Ideal.ofBits .f32 0xFF800000#32)) (funext fun n => ?_)
  refine congrArg v (funext fun a => ?_)
  match a with
  | ⟨0, _⟩ => rfl
  | ⟨1, _⟩ => rfl
  | ⟨2, _⟩ => rfl

end PillarReductions

end Cert.KernelIdeal.HandV

end
-- ==== Proof.KI.Val1.lean ====
/- Region 1 (the normalising main kernel) read at the extended reals: what its body's stored value is at an index
   of a block, as the shared specification's linear layer, affine step, clamp and maximum over the pillar's points; and
   the output array after the region, row by row, as the same function of the region's input arrays. -/
import proofs.«129818_j66013647339880_2_alg».proof.Proof.Gen.KernelIdeal.Skeleton
import proofs.«129818_j66013647339880_2_alg».proof.Proof.Spec
import proofs.«129818_j66013647339880_2_alg».proof.Proof.KI.Reg1
import proofs.«129818_j66013647339880_2_alg».proof.Proof.KI.LinBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandV

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

/-! ## The specification's arrays read off the kernel's -/

/-- The scale of channel o: the reciprocal root of the variance plus the offset, times the gain. -/
def scOf (v g : Spec.SCh.Idx → EReal) (o : Fin 64) : EReal :=
  Ideal.rsqrt (v (ix1 o) + Spec.eps) * g (ix1 o)

/-- The shift of channel o: the bias minus the mean times the scale. -/
def shOf (m v g b : Spec.SCh.Idx → EReal) (o : Fin 64) : EReal :=
  b (ix1 o) - m (ix1 o) * scOf v g o

/-- Channel o of pillar p of the result: the maximum over the pillar's points of the clamped affine image of the linear
    layer (the divisor the point count clamped below at one), over any number of pillars. -/
def rowOut {R : ℕ} (a0 : (Spec.SFeat R).Idx → EReal) (a1 : (Spec.SCnt R).Idx → BitVec 32) (a2 : (Spec.SCrd R).Idx → BitVec 32)
    (a3 : Spec.SW.Idx → EReal) (sc sh : Fin 64 → EReal) (p : Fin R) (o : Fin 64) : EReal :=
  (Finset.univ : Finset (Fin 20)).fold max (Spec.lit 0xFF800000#32) fun n =>
    max (Spec.lin a0 a2 a3 (Spec.cntK a1) p n o * sc o + sh o) (Spec.lit 0x00000000#32)

/-- A row of the result reads its pillar's features, count and coordinates only. -/
theorem rowOut_congr {R R' : ℕ} (a0 : (Spec.SFeat R).Idx → EReal) (a0' : (Spec.SFeat R').Idx → EReal)
    (a1 : (Spec.SCnt R).Idx → BitVec 32) (a1' : (Spec.SCnt R').Idx → BitVec 32)
    (a2 : (Spec.SCrd R).Idx → BitVec 32) (a2' : (Spec.SCrd R').Idx → BitVec 32)
    (a3 : Spec.SW.Idx → EReal) (sc sh : Fin 64 → EReal) (p : Fin R) (p' : Fin R') (o : Fin 64)
    (h0 : ∀ (n : Fin 20) (k : Fin 5), a0 (ix3 p n k) = a0' (ix3 p' n k)) (h1 : a1 (ix1 p) = a1' (ix1 p'))
    (h2 : ∀ j : Fin 4, a2 (ix2 p j) = a2' (ix2 p' j)) :
    rowOut a0 a1 a2 a3 sc sh p o = rowOut a0' a1' a2' a3 sc sh p' o := by
  have hf : ∀ n k, Spec.feat a0 p n k = Spec.feat a0' p' n k := fun n k => h0 n _
  have hs : ∀ k, Spec.fsum a0 p k = Spec.fsum a0' p' k := fun k => Finset.sum_congr rfl fun n _ => hf n k
  have hc : Spec.cntK a1 p = Spec.cntK a1' p' := by unfold Spec.cntK Spec.cnt; rw [h1]
  have hcr : ∀ j, Spec.crd a2 p j = Spec.crd a2' p' j := fun j => by unfold Spec.crd; rw [h2]
  have hct : ∀ k, Spec.ctr a2 p k = Spec.ctr a2' p' k := fun k => by
    match k with
    | ⟨0, _⟩ => show (Spec.crd a2 p 3 + _) * _ + _ = (Spec.crd a2' p' 3 + _) * _ + _; rw [hcr]
    | ⟨1, _⟩ => show (Spec.crd a2 p 2 + _) * _ + _ = (Spec.crd a2' p' 2 + _) * _ + _; rw [hcr]
    | ⟨_ + 2, _⟩ => rfl
  have hx : ∀ n j, Spec.x9 a0 a2 (Spec.cntK a1) p n j = Spec.x9 a0' a2' (Spec.cntK a1') p' n j := fun n j => by
    unfold Spec.x9; simp only [hf, hs, hc, hct]
  unfold rowOut Spec.lin
  simp only [hx]

/-! ## The body's stored value at an index of a block -/

section Payload
variable (x0 : Vec Ideal S512x20x5 .f32) (x1 : Vec Ideal S512x1 .i32) (x2 : Vec Ideal S512x4 .i32)

/-- The first three of a point's five features. -/
theorem pay2_at (r : Fin 512) (n : Fin 20) (k : Fin 3) : k1_pay2 x0 (ix3 r n k) = Spec.feat (R := 512) x0 r n k := by
  unfold k1_pay2
  rw [shapeCast_self]
  exact slice_feat_apply x0 r n k

/-- The offset of a feature from the pillar's mean over its clamped count. -/
theorem pay3_at (r : Fin 512) (n : Fin 20) (k : Fin 3) :
    k1_pay3 x0 x1 (ix3 r n k)
      = Spec.feat (R := 512) x0 r n k - Ideal.div (Spec.fsum (R := 512) x0 r k) (Spec.cntK (Spec.colOf x1) r) := by
  unfold k1_pay3
  dsimp only
  rw [subf_apply, pay2_at, bcast_p13_pn3_apply, cast_p3_p13_apply, divf_apply]
  congr 2
  · refine (pillar_sum_apply _ rfl r k).trans ?_
    exact Finset.sum_congr rfl fun n' _ => pay2_at x0 r n' k
  · rw [bcast_p1_p3_apply, maximumf_apply, sitofp_apply, shapeCast_self, broadcast_apply]
    rfl

/-- A column of a point's three features, as a [512, 20] array. -/
theorem col_at (c : ℕ) (k : Fin 3) (hk : k.val = c) (h : S512x20x3.Slices ![0, 0, c] S512x20x1) (r : Fin 512) (n : Fin 20) :
    shapeCast S512x20 (extractStridedSlice S512x20x1 ![0, 0, c] (k1_pay2 x0) h) shapeCasts_S512x20x1_S512x20 (ix2 r n)
      = Spec.feat (R := 512) x0 r n k := by
  rw [cast_pn1_pn_apply]
  refine (extractStridedSlice_apply _ _ h (ix3 r n (0 : Fin 1)) (ix3 r n k) fun a => ?_).trans (pay2_at x0 r n k)
  match a with
  | ⟨0, _⟩ => exact (Nat.zero_add _).symm
  | ⟨1, _⟩ => exact (Nat.zero_add _).symm
  | ⟨2, _⟩ => exact hk.trans (Nat.add_zero _).symm

/-- A coordinate column of the block, converted, as a [512] vector. -/
theorem crd_at (c : ℕ) (j : Fin 4) (hj : j.val = c) (h : S512x4.Slices ![0, c] S512x1) (r : Fin 512) :
    sitofp (F := Ideal) .f32 (shapeCast S512 (extractStridedSlice S512x1 ![0, c] (k1_pay1 (F := Ideal) x2) h) shapeCasts_S512x1_S512) (ix1 r)
      = Spec.crd (R := 512) x2 r j := by
  rw [sitofp_apply, cast_p1_p_apply]
  unfold k1_pay1
  rw [shapeCast_self, slice2_axis1_apply c x2 h r 0 j (hj.trans (Nat.add_zero _).symm)]
  rfl

/-- The offset of the first feature from the voxel's centre. -/
theorem pay4_at (r : Fin 512) (n : Fin 20) :
    k1_pay4 x0 x2 (ix2 r n) = Spec.feat (R := 512) x0 r n 0 - Spec.ctr (R := 512) x2 r 0 := by
  unfold k1_pay4
  rw [subf_apply, bcast_p1_pn_apply, cast_p_p1_apply, addf_apply, mulf_apply, addf_apply, broadcast_apply, broadcast_apply, broadcast_apply]
  rw [col_at x0 0 (0 : Fin 3) rfl slices_S512x20x3_o0_0_0_S512x20x1 r n, crd_at x2 3 (3 : Fin 4) rfl slices_S512x4_o0_3_S512x1 r]
  rfl

/-- The offset of the second feature from the voxel's centre. -/
theorem pay5_at (r : Fin 512) (n : Fin 20) :
    k1_pay5 x0 x2 (ix2 r n) = Spec.feat (R := 512) x0 r n 1 - Spec.ctr (R := 512) x2 r 1 := by
  unfold k1_pay5
  rw [subf_apply, bcast_p1_pn_apply, cast_p_p1_apply, addf_apply, mulf_apply, addf_apply, broadcast_apply, broadcast_apply, broadcast_apply]
  rw [col_at x0 1 (1 : Fin 3) rfl slices_S512x20x3_o0_0_1_S512x20x1 r n, crd_at x2 2 (2 : Fin 4) rfl slices_S512x4_o0_2_S512x1 r]
  rfl

/-- The three offsets from the voxel's centre, side by side. -/
theorem ctr3_at (r : Fin 512) (n : Fin 20) (k : Fin 3) :
    concatenate S512x20x3 2 [⟨S512x20x1, shapeCast S512x20x1 (k1_pay4 x0 x2) shapeCasts_S512x20_S512x20x1⟩,
        ⟨S512x20x1, shapeCast S512x20x1 (k1_pay5 x0 x2) shapeCasts_S512x20_S512x20x1⟩,
        ⟨S512x20x1, shapeCast S512x20x1 (subf (shapeCast S512x20 (extractStridedSlice S512x20x1 ![0, 0, 2] (k1_pay2 x0)
          slices_S512x20x3_o0_0_2_S512x20x1) shapeCasts_S512x20x1_S512x20) (broadcast S512x20 (Scalar.ofBits (F := Ideal) .f32 0xBF800000#32)))
          shapeCasts_S512x20_S512x20x1⟩]
        concatenates_S512x20x1_S512x20x1_S512x20x1_S512x20x3_d2 (ix3 r n k)
      = Spec.feat (R := 512) x0 r n k - Spec.ctr (R := 512) x2 r k := by
  rw [concat3_apply]
  match k with
  | ⟨0, _⟩ => rw [if_pos rfl, cast_pn_pn1_apply]; exact pay4_at x0 x2 r n
  | ⟨1, _⟩ => rw [if_neg (show ¬ (1 : ℕ) = 0 by decide), if_pos rfl, cast_pn_pn1_apply]; exact pay5_at x0 x2 r n
  | ⟨2, _⟩ =>
    rw [if_neg (show ¬ (2 : ℕ) = 0 by decide), if_neg (show ¬ (2 : ℕ) = 1 by decide), cast_pn_pn1_apply, subf_apply, broadcast_apply,
      col_at x0 2 (2 : Fin 3) rfl slices_S512x20x3_o0_0_2_S512x20x1 r n]
    rfl

end Payload

/-- The main kernel's stored value at row r and channel o of a block, from the eight blocks it loads. -/
theorem pay6_at (x0 : Vec Ideal S512x20x5 .f32) (x1 : Vec Ideal S512x1 .i32) (x2 : Vec Ideal S512x4 .i32)
    (x3 : Vec Ideal S9x64 .f32) (x4 x5 x6 x7 : Vec Ideal S1x64 .f32) (r : Fin 512) (o : Fin 64) :
    k1_pay6 (k1_pay2 x0) (k1_pay3 x0 x1) (k1_pay4 x0 x2) (k1_pay5 x0 x2) x3 x4 x5 x6 x7 (ix2 r o)
      = rowOut (R := 512) x0 (Spec.colOf x1) x2 (Spec.wOf x3) (scOf (Spec.rowOf x5) (Spec.rowOf x6))
          (shOf (Spec.rowOf x4) (Spec.rowOf x5) (Spec.rowOf x6) (Spec.rowOf x7)) r o := by
  unfold k1_pay6
  refine (pillar_max_apply _ rfl r o).trans ?_
  unfold rowOut
  congr 1
  funext n
  rw [maximumf_apply, addf_apply, mulf_apply, broadcast_apply, bcast_11c_pnc_apply, bcast_11c_pnc_apply,
    cast_1c_11c_apply, cast_1c_11c_apply, shapeCast_self x4, shapeCast_self x5, shapeCast_self x6, shapeCast_self x7]
  show max (_ * scOf (Spec.rowOf x5) (Spec.rowOf x6) o + shOf (Spec.rowOf x4) (Spec.rowOf x5) (Spec.rowOf x6) (Spec.rowOf x7) o)
    (Spec.lit 0x00000000#32) = _
  congr 3
  refine (lin_rows_apply _ x3 r n o).trans ?_
  unfold Spec.lin
  refine Finset.sum_congr rfl fun j _ => ?_
  congr 1
  rw [concat9_apply]
  unfold Spec.x9
  split_ifs with h h2
  · exact pay2_at x0 r n _
  · rw [mulf_apply, mask_zero_apply, pay2_at, ctr3_at]
  · rw [mulf_apply, mask_zero_apply, pay2_at, pay3_at]

/-! ## The output array after the region -/

section Array
variable (V : (c : Dev nD) → (b : Ref sig .tc) → Buf (Elt Ideal) ((c : Thread nD τ).loc b))

/-- The blocked windows' block index at point t is t on the row axis and zero on the others. -/
theorem idx_facts1 : ∀ t : Fin cfg1.N,
    win1_0.index t (0 : Fin 3) = t.val ∧ win1_0.index t (1 : Fin 3) = 0 ∧ win1_0.index t (2 : Fin 3) = 0
    ∧ win1_1.index t (0 : Fin 2) = t.val ∧ win1_1.index t (1 : Fin 2) = 0
    ∧ win1_2.index t (0 : Fin 2) = t.val ∧ win1_2.index t (1 : Fin 2) = 0
    ∧ win1_8.index t (0 : Fin 2) = t.val ∧ win1_8.index t (1 : Fin 2) = 0 :=
  (by decide +kernel : ∀ t : Fin grid1.N, _)

/-- The feature window's block at point t is rows 512 t … 512 t + 511 of its array. -/
theorem blk0_apply (c : Dev nD) (t : Fin cfg1.N) (r : Fin 512) (n : Fin 20) (k : Fin 5) (q : Fin 150016)
    (hq : q.val = t.val * 512 + r.val) :
    (iblk1 V c 0 t : S512x20x5.Idx → EReal) (ix3 r n k) = (V c main_v0 : S150016x20x5.Idx → EReal) (ix3 q n k) := by
  obtain ⟨e0, e1, e2, -⟩ := idx_facts1 t
  unfold iblk1
  rw [View.read_apply]
  show (V c main_v0 : S150016x20x5.Idx → EReal) _ = _
  congr 1
  funext a; apply Fin.ext
  match a with
  | ⟨0, _⟩ => show win1_0.index t (0 : Fin 3) * 512 + 1 * r.val = q.val; omega
  | ⟨1, _⟩ => show win1_0.index t (1 : Fin 3) * 20 + 1 * n.val = n.val; omega
  | ⟨2, _⟩ => show win1_0.index t (2 : Fin 3) * 5 + 1 * k.val = k.val; omega

/-- The count window's block likewise. -/
theorem blk1_apply (c : Dev nD) (t : Fin cfg1.N) (r : Fin 512) (u : Fin 1) (q : Fin 150016)
    (hq : q.val = t.val * 512 + r.val) :
    (iblk1 V c 1 t : S512x1.Idx → BitVec 32) (ix2 r u) = (V c main_v2 : S150016x1.Idx → BitVec 32) (ix2 q u) := by
  obtain ⟨-, -, -, e0, e1, -⟩ := idx_facts1 t
  unfold iblk1
  rw [View.read_apply]
  show (V c main_v2 : S150016x1.Idx → BitVec 32) _ = _
  congr 1
  funext a; apply Fin.ext
  match a with
  | ⟨0, _⟩ => show win1_1.index t (0 : Fin 2) * 512 + 1 * r.val = q.val; omega
  | ⟨1, _⟩ => show win1_1.index t (1 : Fin 2) * 1 + 1 * u.val = u.val; omega

/-- The coordinate window's block likewise. -/
theorem blk2_apply (c : Dev nD) (t : Fin cfg1.N) (r : Fin 512) (j : Fin 4) (q : Fin 150016)
    (hq : q.val = t.val * 512 + r.val) :
    (iblk1 V c 2 t : S512x4.Idx → BitVec 32) (ix2 r j) = (V c main_v3 : S150016x4.Idx → BitVec 32) (ix2 q j) := by
  obtain ⟨-, -, -, -, -, e0, e1, -⟩ := idx_facts1 t
  unfold iblk1
  rw [View.read_apply]
  show (V c main_v3 : S150016x4.Idx → BitVec 32) _ = _
  congr 1
  funext a; apply Fin.ext
  match a with
  | ⟨0, _⟩ => show win1_2.index t (0 : Fin 2) * 512 + 1 * r.val = q.val; omega
  | ⟨1, _⟩ => show win1_2.index t (1 : Fin 2) * 4 + 1 * j.val = j.val; omega

/-- The weight's window is its whole array at every point. -/
theorem blk3_eq (c : Dev nD) (t : Fin cfg1.N) : (iblk1 V c 3 t : S9x64.Idx → EReal) = (V c main_v4 : S9x64.Idx → EReal) := by
  funext j
  unfold iblk1
  rw [View.read_apply]
  show (V c main_v4 : S9x64.Idx → EReal) _ = _
  congr 1
  funext a; apply Fin.ext
  match a with
  | ⟨0, _⟩ => show win1_3.index t (0 : Fin 2) * 9 + 1 * (j 0).val = (j 0).val; rw [show win1_3.index t (0 : Fin 2) = 0 from rfl]; omega
  | ⟨1, _⟩ => show win1_3.index t (1 : Fin 2) * 64 + 1 * (j 1).val = (j 1).val; rw [show win1_3.index t (1 : Fin 2) = 0 from rfl]; omega

/-- The four row windows (mean, variance, gain, bias) are their whole arrays at every point. -/
theorem blk4_eq (c : Dev nD) (t : Fin cfg1.N) : (iblk1 V c 4 t : S1x64.Idx → EReal) = (V c main_v7_0 : S1x64.Idx → EReal) := by
  funext j
  unfold iblk1
  rw [View.read_apply]
  show (V c main_v7_0 : S1x64.Idx → EReal) _ = _
  congr 1
  funext a; apply Fin.ext
  match a with
  | ⟨0, _⟩ => show win1_4.index t (0 : Fin 2) * 1 + 1 * (j 0).val = (j 0).val; rw [show win1_4.index t (0 : Fin 2) = 0 from rfl]; omega
  | ⟨1, _⟩ => show win1_4.index t (1 : Fin 2) * 64 + 1 * (j 1).val = (j 1).val; rw [show win1_4.index t (1 : Fin 2) = 0 from rfl]; omega
theorem blk5_eq (c : Dev nD) (t : Fin cfg1.N) : (iblk1 V c 5 t : S1x64.Idx → EReal) = (V c main_v7_1 : S1x64.Idx → EReal) := by
  funext j
  unfold iblk1
  rw [View.read_apply]
  show (V c main_v7_1 : S1x64.Idx → EReal) _ = _
  congr 1
  funext a; apply Fin.ext
  match a with
  | ⟨0, _⟩ => show win1_5.index t (0 : Fin 2) * 1 + 1 * (j 0).val = (j 0).val; rw [show win1_5.index t (0 : Fin 2) = 0 from rfl]; omega
  | ⟨1, _⟩ => show win1_5.index t (1 : Fin 2) * 64 + 1 * (j 1).val = (j 1).val; rw [show win1_5.index t (1 : Fin 2) = 0 from rfl]; omega
theorem blk6_eq (c : Dev nD) (t : Fin cfg1.N) : (iblk1 V c 6 t : S1x64.Idx → EReal) = (V c main_v5 : S1x64.Idx → EReal) := by
  funext j
  unfold iblk1
  rw [View.read_apply]
  show (V c main_v5 : S1x64.Idx → EReal) _ = _
  congr 1
  funext a; apply Fin.ext
  match a with
  | ⟨0, _⟩ => show win1_6.index t (0 : Fin 2) * 1 + 1 * (j 0).val = (j 0).val; rw [show win1_6.index t (0 : Fin 2) = 0 from rfl]; omega
  | ⟨1, _⟩ => show win1_6.index t (1 : Fin 2) * 64 + 1 * (j 1).val = (j 1).val; rw [show win1_6.index t (1 : Fin 2) = 0 from rfl]; omega
theorem blk7_eq (c : Dev nD) (t : Fin cfg1.N) : (iblk1 V c 7 t : S1x64.Idx → EReal) = (V c main_v6 : S1x64.Idx → EReal) := by
  funext j
  unfold iblk1
  rw [View.read_apply]
  show (V c main_v6 : S1x64.Idx → EReal) _ = _
  congr 1
  funext a; apply Fin.ext
  match a with
  | ⟨0, _⟩ => show win1_7.index t (0 : Fin 2) * 1 + 1 * (j 0).val = (j 0).val; rw [show win1_7.index t (0 : Fin 2) = 0 from rfl]; omega
  | ⟨1, _⟩ => show win1_7.index t (1 : Fin 2) * 64 + 1 * (j 1).val = (j 1).val; rw [show win1_7.index t (1 : Fin 2) = 0 from rfl]; omega

/-- The output array as one function of the region's input arrays, row by row. -/
def G8 (c : Dev nD) : S150016x64.Idx → EReal := fun i =>
  rowOut (R := 150016) (V c main_v0 : S150016x20x5.Idx → EReal) (Spec.colOf (V c main_v2 : S150016x1.Idx → BitVec 32))
    (V c main_v3 : S150016x4.Idx → BitVec 32) (Spec.wOf (V c main_v4 : S9x64.Idx → EReal))
    (scOf (Spec.rowOf (V c main_v7_1 : S1x64.Idx → EReal)) (Spec.rowOf (V c main_v5 : S1x64.Idx → EReal)))
    (shOf (Spec.rowOf (V c main_v7_0 : S1x64.Idx → EReal)) (Spec.rowOf (V c main_v7_1 : S1x64.Idx → EReal))
      (Spec.rowOf (V c main_v5 : S1x64.Idx → EReal)) (Spec.rowOf (V c main_v6 : S1x64.Idx → EReal)))
    ⟨(i 0).val, idx2_lt0 i⟩ ⟨(i 1).val, idx2_lt1 i⟩

/-- What point t writes back is block t of that function. -/
theorem flushed8_eq (c : Dev nD) (t : Fin cfg1.N) :
    (dat1 V c).flushed 8 t = ((cfg1.win 8).blk t).view.read (Elt Ideal) (G8 V c) := by
  show (cfg1.win 8).cut (grid1.coords t) ((dat1 V c).after 8 t) = _
  rw [after1_8, out1_8_eq]
  obtain ⟨-, -, -, -, -, -, -, e0, e1⟩ := idx_facts1 t
  funext j
  obtain ⟨r, o, rfl⟩ : ∃ (r : Fin 512) (o : Fin 64), j = ix2 r o := ⟨j 0, j 1, eq_ix2 j⟩
  have hN : cfg1.N = 293 := N_1
  have hq : t.val * 512 + r.val < 150016 := by have := t.isLt; have := r.isLt; omega
  rw [View.read_apply]
  have hemb : ((cfg1.win 8).blk t).view.emb (ix2 r o) = (ix2 (⟨t.val * 512 + r.val, hq⟩ : Fin 150016) o : S150016x64.Idx) := by
    funext a; apply Fin.ext
    match a with
    | ⟨0, _⟩ => show win1_8.index t (0 : Fin 2) * 512 + 1 * r.val = t.val * 512 + r.val; omega
    | ⟨1, _⟩ => show win1_8.index t (1 : Fin 2) * 64 + 1 * o.val = o.val; omega
  rw [hemb]
  show k1_pay6 (F := Ideal) _ _ _ _ _ _ _ _ _ (ix2 r o) = G8 V c (ix2 (⟨t.val * 512 + r.val, hq⟩ : Fin 150016) o)
  rw [pay6_at, blk3_eq, blk4_eq, blk5_eq, blk6_eq, blk7_eq]
  exact rowOut_congr _ _ _ _ _ _ _ _ _ r ⟨t.val * 512 + r.val, hq⟩ o
    (fun n k => blk0_apply V c t r n k _ rfl) (blk1_apply V c t r 0 _ rfl) (fun j => blk2_apply V c t r j _ rfl)

/-- An index of the array is in point t's block iff each coordinate is in the block's range on its axis. -/
theorem mem_blk8 (t : Fin cfg1.N) (i : S150016x64.Idx) :
    i ∈ ((cfg1.win 8).blk t).view.set ↔ ∀ a : Fin 2, win1_8.index t a * S512x64.size a ≤ (i a).val
      ∧ (i a).val < win1_8.index t a * S512x64.size a + S512x64.size a := by
  show i ∈ ((View.whole main_v8).slice (win1_8.rect t)).set ↔ _
  rw [View.set_slice_whole, Rect.mem_set_unit]
  exact Iff.rfl

/-- The blocks cover the array: row q is in the block of point q / 512. -/
theorem cover8 (i : S150016x64.Idx) : ∃ t : Fin cfg1.N, (cfg1.win 8).flush t = true ∧ i ∈ ((cfg1.win 8).blk t).view.set := by
  have hN : cfg1.N = 293 := N_1
  have h0 : (i 0).val < 150016 := idx2_lt0 i
  have h1 : (i 1).val < 64 := idx2_lt1 i
  refine ⟨⟨(i 0).val / 512, by rw [hN]; omega⟩, flush1_8 _, ?_⟩
  rw [mem_blk8]
  obtain ⟨-, -, -, -, -, -, -, e0, e1⟩ := idx_facts1 ⟨(i 0).val / 512, by rw [hN]; omega⟩
  intro a
  match a with
  | ⟨0, _⟩ =>
    show win1_8.index _ (0 : Fin 2) * 512 ≤ (i 0).val ∧ (i 0).val < win1_8.index _ (0 : Fin 2) * 512 + 512
    rw [e0]; show (i 0).val / 512 * 512 ≤ (i 0).val ∧ (i 0).val < (i 0).val / 512 * 512 + 512; omega
  | ⟨1, _⟩ =>
    show win1_8.index _ (1 : Fin 2) * 64 ≤ (i 1).val ∧ (i 1).val < win1_8.index _ (1 : Fin 2) * 64 + 64
    rw [e1]; omega

/-- The output array after the region's 293 points. -/
theorem final8 (c : Dev nD) : (dat1 V c).arrAt 8 cfg1.N = G8 V c :=
  (dat1 V c).arrAt_eq_of_cover 8 (G8 V c) (fun t _ => flushed8_eq V c t) cover8

/-- Row q, channel o of the output array after the region's 293 points, from the region's input arrays as it finds them. -/
theorem out_array (c : Dev nD) (q : Fin 150016) (o : Fin 64) :
    ((dat1 V c).arrAt 8 cfg1.N : S150016x64.Idx → EReal) (ix2 q o)
      = rowOut (R := 150016) (V c main_v0 : S150016x20x5.Idx → EReal) (Spec.colOf (V c main_v2 : S150016x1.Idx → BitVec 32))
          (V c main_v3 : S150016x4.Idx → BitVec 32) (Spec.wOf (V c main_v4 : S9x64.Idx → EReal))
          (scOf (Spec.rowOf (V c main_v7_1 : S1x64.Idx → EReal)) (Spec.rowOf (V c main_v5 : S1x64.Idx → EReal)))
          (shOf (Spec.rowOf (V c main_v7_0 : S1x64.Idx → EReal)) (Spec.rowOf (V c main_v7_1 : S1x64.Idx → EReal))
            (Spec.rowOf (V c main_v5 : S1x64.Idx → EReal)) (Spec.rowOf (V c main_v6 : S1x64.Idx → EReal))) q o := by
  rw [final8]
  rfl

end Array

end Cert.KernelIdeal.HandV

end
-- ==== Proof.KI.Val0.lean ====
/- The statistics region's values over the extended reals: what one grid point adds to the two carried
   channel sums, the final division and clamp, and, by induction over the grid points, the two sums over all
   points of all padded pillars. -/
import proofs.«129818_j66013647339880_2_alg».proof.Proof.Gen.KernelIdeal.Skeleton
import proofs.«129818_j66013647339880_2_alg».proof.Proof.Spec
import Idealize.ShloMosaic.PureOps.Ideal.Laws
import Idealize.ShloMosaic.Lib.ValueIdx
import Idealize.ShloMosaic.Lib.ValueLayout
import Idealize.ShloMosaic.Lib.Pipeline.Value
import proofs.«129818_j66013647339880_2_alg».proof.Proof.KI.LinBlock

set_option maxRecDepth 16384

noncomputable section

namespace Cert.KernelIdeal.HandV

open Idealize.ShloMosaic Idealize.ShloMosaic.ValueIdx
open Cert.KernelIdeal Cert.KernelIdeal.Gen
open scoped BigOperators

/-! ## The final division and clamp, and the zeroed accumulators -/

/-- The stored mean: the carried sum over the number of points. -/
theorem pay1_apply (s : Vec Ideal S1x64 .f32) (i : S1x64.Idx) :
    k0_pay1 s i = Ideal.div (s i) Spec.nPts := rfl

/-- The stored variance: mean of squares less squared mean, clamped below at zero. -/
theorem pay2_apply (s7 s8 : Vec Ideal S1x64 .f32) (i : S1x64.Idx) :
    k0_pay2 s7 s8 i
      = max (Ideal.div (s8 i) Spec.nPts - Ideal.div (s7 i) Spec.nPts * Ideal.div (s7 i) Spec.nPts) (Spec.lit 0x00000000#32) := rfl

/-- The first accumulator starts at zero. -/
theorem pay3_apply (i : S1x64.Idx) : k0_pay3 (F := Ideal) i = 0 := by
  unfold k0_pay3
  rw [shapeCast_self]
  exact Ideal.ofBits_zero_f32

/-- The second accumulator starts at zero. -/
theorem pay4_apply (i : S1x64.Idx) : k0_pay4 (F := Ideal) i = 0 := by
  unfold k0_pay4
  rw [shapeCast_self]
  exact Ideal.ofBits_zero_f32

/-! ## The specification at a pillar reads only that pillar's data -/

/-- Two sets of arrays that agree on one pillar's features, coordinates and divisor give that pillar's points the
    same linear output. -/
theorem lin_congr {R R' : ℕ} (a0 : (Spec.SFeat R).Idx → EReal) (a0' : (Spec.SFeat R').Idx → EReal)
    (a2 : (Spec.SCrd R).Idx → BitVec 32) (a2' : (Spec.SCrd R').Idx → BitVec 32) (a3 : Spec.SW.Idx → EReal)
    (den : Fin R → EReal) (den' : Fin R' → EReal) (p : Fin R) (p' : Fin R')
    (h0 : ∀ (n : Fin 20) (k : Fin 5), a0 (ix3 p n k) = a0' (ix3 p' n k))
    (h2 : ∀ j : Fin 4, a2 (ix2 p j) = a2' (ix2 p' j)) (hd : den p = den' p') (n : Fin 20) (o : Fin 64) :
    Spec.lin a0 a2 a3 den p n o = Spec.lin a0' a2' a3 den' p' n o := by
  have hf : ∀ (n : Fin 20) (k : Fin 3), Spec.feat a0 p n k = Spec.feat a0' p' n k := fun n k => h0 n _
  have hs : ∀ k : Fin 3, Spec.fsum a0 p k = Spec.fsum a0' p' k := fun k =>
    Finset.sum_congr rfl fun n _ => hf n k
  have hc : ∀ k : Fin 3, Spec.ctr a2 p k = Spec.ctr a2' p' k := by
    intro k
    match k with
    | ⟨0, _⟩ => simp only [Spec.ctr, Spec.crd, h2]
    | ⟨1, _⟩ => simp only [Spec.ctr, Spec.crd, h2]
    | ⟨2, _⟩ => rfl
  unfold Spec.lin
  refine Finset.sum_congr rfl fun j _ => ?_
  unfold Spec.x9
  simp only [hf, hs, hc, hd]

/-! ## One grid point -/

section Block
variable (x1 : Vec Ideal S512x20x5 .f32) (x2 : Vec Ideal S512x1 .i32) (x3 : Vec Ideal S512x4 .i32)
  (x4 : Vec Ideal S9x64 .f32)

/-- The three features kept of the five. -/
theorem pay6_apply (r : Fin 512) (n : Fin 20) (k : Fin 3) :
    k0_pay6 x1 (ix3 r n k) = Spec.feat (R := 512) x1 r n k := by
  unfold k0_pay6
  rw [shapeCast_self]
  exact slice_feat_apply x1 r n k

/-- The first feature as a matrix over pillars and points. -/
theorem pay9_apply (r : Fin 512) (n : Fin 20) :
    k0_pay9 x1 (ix2 r n) = Spec.feat (R := 512) x1 r n 0 := by
  unfold k0_pay9
  exact (cast_pn1_pn_apply _ r n).trans ((slice_col0_apply _ r n 0).trans (pay6_apply x1 r n 0))

/-- The voxel's centre along y. -/
theorem pay8_apply (r : Fin 512) :
    k0_pay8 x3 (ix1 r) = Spec.ctr (R := 512) x3 r 1 := by
  unfold k0_pay8 k0_pay5
  rw [shapeCast_self]
  show (FloatOps.sitofp .f32 (shapeCast S512 (extractStridedSlice S512x1 ![0, 2] x3 _) _ (ix1 r)) + _) * _ + _ = _
  rw [cast_p1_p_apply, slice_crd2_apply]
  rfl

/-- The voxel's centre along x, repeated over the pillar's points. -/
theorem pay10_apply (r : Fin 512) (n : Fin 20) :
    k0_pay10 x3 (ix2 r n) = Spec.ctr (R := 512) x3 r 0 := by
  unfold k0_pay10 k0_pay5
  rw [shapeCast_self]
  refine (bcast_p1_pn_apply _ r n).trans ((cast_p_p1_apply _ r 0).trans ?_)
  show (FloatOps.sitofp .f32 (shapeCast S512 (extractStridedSlice S512x1 ![0, 3] x3 _) _ (ix1 r)) + _) * _ + _ = _
  rw [cast_p1_p_apply, slice_crd3_apply]
  rfl

/-- The offset of a feature from the pillar's mean over the clamped count. -/
theorem pay7_apply (r : Fin 512) (n : Fin 20) (k : Fin 3) :
    k0_pay7 x1 x2 (ix3 r n k)
      = Spec.feat (R := 512) x1 r n k
        - Ideal.div (Spec.fsum (R := 512) x1 r k) (Spec.cntK (Spec.colOf x2) r) := by
  unfold k0_pay7
  rw [shapeCast_self]
  show k0_pay6 x1 (ix3 r n k) - broadcastTo S512x20x3 _ _ (ix3 r n k) = _
  rw [bcast_p13_pn3_apply, cast_p3_p13_apply, pay6_apply]
  show _ - Ideal.div (multiReduction .add [1] S512x3 (k0_pay6 x1) 0x00000000#32 _ _ _ (ix2 r k))
    (broadcastTo S512x3 _ _ (ix2 r k)) = _
  rw [bcast_p1_p3_apply]
  refine congrArg (Spec.feat (R := 512) x1 r n k - ·) ?_
  exact congrArg₂ Ideal.div
    ((pillar_sum_apply (k0_pay6 x1) rfl r k).trans (Finset.sum_congr rfl fun m _ => pay6_apply x1 r m k)) rfl

/-- The linear output of the block's 10240 points, as the kernel computes it (row 20 r + n is point n of pillar r). -/
abbrev linK : FVec Ideal S10240x64 .f32 :=
  k0_pay11 (k0_pay6 x1) (k0_pay7 x1 x2) (k0_pay8 x3) (k0_pay9 x1) (k0_pay10 x3) x4

/-- The block's linear output is the specification's, over the block's 512 pillars, with the clamped count as divisor. -/
theorem lin_block (r : Fin 512) (n : Fin 20) (o : Fin 64) :
    linK x1 x2 x3 x4 (ix2 ⟨20 * r.val + n.val, by omega⟩ o)
      = Spec.lin (R := 512) x1 x3 (Spec.wOf x4) (Spec.cntK (Spec.colOf x2)) r n o := by
  unfold linK k0_pay11
  refine (lin_flat_apply _ x4 r n o _ rfl).trans ?_
  unfold Spec.lin
  refine Finset.sum_congr rfl fun j _ => ?_
  refine congrArg₂ (· * ·) ?_ rfl
  rw [concat9_apply]
  unfold Spec.x9
  split_ifs with h h2
  · exact pay6_apply x1 r n ⟨j.val, h⟩
  · generalize (⟨j.val - 3, by omega⟩ : Fin 3) = k
    refine congrArg₂ (· * ·) ?_
      ((mask_zero_apply (k0_pay6 x1) natLt_1_32 (ix3 r n k)).trans (congrArg Spec.msk (pay6_apply x1 r n k)))
    rw [concat3_apply]
    split_ifs with e0 e1
    · obtain rfl : k = (0 : Fin 3) := Fin.ext e0
      refine (cast_pn_pn1_apply _ r n 0).trans ?_
      show k0_pay9 x1 (ix2 r n) - k0_pay10 x3 (ix2 r n) = _
      rw [pay9_apply, pay10_apply]
    · obtain rfl : k = (1 : Fin 3) := Fin.ext e1
      refine (cast_pn_pn1_apply _ r n 0).trans ?_
      show shapeCast S512x20 _ _ (ix2 r n) - broadcastTo S512x20 _ _ (ix2 r n) = _
      rw [cast_pn1_pn_apply, slice_col1_apply, pay6_apply, bcast_p1_pn_apply, cast_p_p1_apply, pay8_apply]
    · have hk := k.isLt
      obtain rfl : k = (2 : Fin 3) := Fin.ext (by show k.val = 2; omega)
      refine (cast_pn_pn1_apply _ r n 0).trans ?_
      show shapeCast S512x20 _ _ (ix2 r n) - _ = _
      rw [cast_pn1_pn_apply, slice_col2_apply, pay6_apply]
      rfl
  · generalize (⟨j.val - 6, by omega⟩ : Fin 3) = k
    exact congrArg₂ (· * ·) (pay7_apply x1 x2 r n k)
      ((mask_zero_apply (k0_pay6 x1) natLt_1_32 (ix3 r n k)).trans (congrArg Spec.msk (pay6_apply x1 r n k)))

/-- The first carried sum after the point: what it held plus the block's linear outputs. -/
theorem step7_apply (s : Vec Ideal S1x64 .f32) (o : Fin 64) :
    k0_pay12 (k0_pay6 x1) (k0_pay7 x1 x2) (k0_pay8 x3) (k0_pay9 x1) (k0_pay10 x3) x4 s (ix2 0 o)
      = s (ix2 0 o) + ∑ r : Fin 512, ∑ n : Fin 20,
          Spec.lin (R := 512) x1 x3 (Spec.wOf x4) (Spec.cntK (Spec.colOf x2)) r n o := by
  unfold k0_pay12
  rw [shapeCast_self]
  show s (ix2 0 o) + _ = _
  rw [cast_c_1c_apply]
  refine congrArg (s (ix2 0 o) + ·) ?_
  refine (lane_sum_apply _ rfl o).trans ?_
  exact Finset.sum_congr rfl fun r _ => Finset.sum_congr rfl fun n _ => lin_block x1 x2 x3 x4 r n o

/-- The second carried sum after the point: what it held plus the squares of the block's linear outputs. -/
theorem step8_apply (s : Vec Ideal S1x64 .f32) (o : Fin 64) :
    k0_pay13 (k0_pay6 x1) (k0_pay7 x1 x2) (k0_pay8 x3) (k0_pay9 x1) (k0_pay10 x3) x4 s (ix2 0 o)
      = s (ix2 0 o) + ∑ r : Fin 512, ∑ n : Fin 20,
          Spec.lin (R := 512) x1 x3 (Spec.wOf x4) (Spec.cntK (Spec.colOf x2)) r n o
            * Spec.lin (R := 512) x1 x3 (Spec.wOf x4) (Spec.cntK (Spec.colOf x2)) r n o := by
  unfold k0_pay13
  rw [shapeCast_self]
  show s (ix2 0 o) + _ = _
  rw [cast_c_1c_apply]
  refine congrArg (s (ix2 0 o) + ·) ?_
  refine (lane_sum_apply _ rfl o).trans ?_
  refine Finset.sum_congr rfl fun r _ => Finset.sum_congr rfl fun n _ => ?_
  show linK x1 x2 x3 x4 _ * linK x1 x2 x3 x4 _ = _
  rw [lin_block x1 x2 x3 x4 r n o]

end Block

/-! ## All grid points -/

/-- The 150016 padded pillars are 293 blocks of 512. -/
def pillarEquiv : Fin 293 × Fin 512 ≃ Fin 150016 where
  toFun p := ⟨512 * p.1.val + p.2.val, by have := p.1.isLt; have := p.2.isLt; omega⟩
  invFun q := (⟨q.val / 512, by have := q.isLt; omega⟩, ⟨q.val % 512, Nat.mod_lt _ (by decide)⟩)
  left_inv p := by
    have h1 := p.1.isLt
    have h2 := p.2.isLt
    refine Prod.ext (Fin.ext ?_) (Fin.ext ?_)
    · show (512 * p.1.val + p.2.val) / 512 = p.1.val
      omega
    · show (512 * p.1.val + p.2.val) % 512 = p.2.val
      omega
  right_inv q := Fin.ext (by show 512 * (q.val / 512) + q.val % 512 = q.val; omega)

/-- A sum over the padded pillars, block by block. -/
theorem sum_pillars (f : Fin 150016 → EReal) :
    ∑ q : Fin 150016, f q
      = ∑ t : Fin 293, ∑ r : Fin 512, f ⟨512 * t.val + r.val, by have := t.isLt; have := r.isLt; omega⟩ := by
  rw [← Equiv.sum_comp pillarEquiv f, Fintype.sum_prod_type]
  rfl

section Grid
variable (A0 : S150016x20x5.Idx → EReal) (A1 : S150016x1.Idx → BitVec 32) (A2 : S150016x4.Idx → BitVec 32)
  (A3 : S9x64.Idx → EReal)

/-- Rows 512 t … 512 t + 511 of the padded features. -/
def blkF (t : Fin 293) : Vec Ideal S512x20x5 .f32 := fun y =>
  A0 (ix3 (n0 := 150016) (n1 := 20) (n2 := 5)
    ⟨512 * t.val + (y 0).val, by have h : (y 0).val < 512 := (y 0).isLt; have := t.isLt; omega⟩ (y 1) (y 2))

/-- Rows 512 t … 512 t + 511 of the padded count column. -/
def blkN (t : Fin 293) : Vec Ideal S512x1 .i32 := fun y =>
  A1 (ix2 (n0 := 150016) (n1 := 1)
    ⟨512 * t.val + (y 0).val, by have h : (y 0).val < 512 := (y 0).isLt; have := t.isLt; omega⟩ (y 1))

/-- Rows 512 t … 512 t + 511 of the padded coordinates. -/
def blkC (t : Fin 293) : Vec Ideal S512x4 .i32 := fun y =>
  A2 (ix2 (n0 := 150016) (n1 := 4)
    ⟨512 * t.val + (y 0).val, by have h : (y 0).val < 512 := (y 0).isLt; have := t.isLt; omega⟩ (y 1))

/-- The specification over a block's 512 pillars is the specification over all pillars, at the block's rows. -/
theorem lin_blk (t : Fin 293) (r : Fin 512) (n : Fin 20) (o : Fin 64) :
    Spec.lin (R := 512) (blkF A0 t) (blkC A2 t) (Spec.wOf A3) (Spec.cntK (Spec.colOf (blkN A1 t))) r n o
      = Spec.lin (R := 150016) A0 A2 (Spec.wOf A3) (Spec.cntK (Spec.colOf A1))
          ⟨512 * t.val + r.val, by have := t.isLt; have := r.isLt; omega⟩ n o :=
  lin_congr _ _ _ _ _ _ _ _ _ (fun _ _ => rfl) (fun _ => rfl) rfl n o

/-- The linear outputs summed over the pillars of block t. -/
def blockTot (t : Fin 293) (o : Fin 64) : EReal :=
  ∑ r : Fin 512, ∑ n : Fin 20, Spec.lin (R := 150016) A0 A2 (Spec.wOf A3) (Spec.cntK (Spec.colOf A1))
    ⟨512 * t.val + r.val, by have := t.isLt; have := r.isLt; omega⟩ n o

/-- Their squares summed over the pillars of block t. -/
def blockTotSq (t : Fin 293) (o : Fin 64) : EReal :=
  ∑ r : Fin 512, ∑ n : Fin 20,
    Spec.lin (R := 150016) A0 A2 (Spec.wOf A3) (Spec.cntK (Spec.colOf A1))
        ⟨512 * t.val + r.val, by have := t.isLt; have := r.isLt; omega⟩ n o
      * Spec.lin (R := 150016) A0 A2 (Spec.wOf A3) (Spec.cntK (Spec.colOf A1))
        ⟨512 * t.val + r.val, by have := t.isLt; have := r.isLt; omega⟩ n o

/-- One grid point adds its block's total to the first carried sum. -/
theorem step7_blk (t : Fin 293) (s : Vec Ideal S1x64 .f32) (o : Fin 64) :
    k0_pay12 (k0_pay6 (blkF A0 t)) (k0_pay7 (blkF A0 t) (blkN A1 t)) (k0_pay8 (blkC A2 t)) (k0_pay9 (blkF A0 t))
        (k0_pay10 (blkC A2 t)) A3 s (ix2 0 o)
      = s (ix2 0 o) + blockTot A0 A1 A2 A3 t o := by
  rw [step7_apply]
  unfold blockTot
  exact congrArg (s (ix2 0 o) + ·) (Finset.sum_congr rfl fun r _ => Finset.sum_congr rfl fun n _ => lin_blk A0 A1 A2 A3 t r n o)

/-- One grid point adds its block's total of squares to the second carried sum. -/
theorem step8_blk (t : Fin 293) (s : Vec Ideal S1x64 .f32) (o : Fin 64) :
    k0_pay13 (k0_pay6 (blkF A0 t)) (k0_pay7 (blkF A0 t) (blkN A1 t)) (k0_pay8 (blkC A2 t)) (k0_pay9 (blkF A0 t))
        (k0_pay10 (blkC A2 t)) A3 s (ix2 0 o)
      = s (ix2 0 o) + blockTotSq A0 A1 A2 A3 t o := by
  rw [step8_apply]
  unfold blockTotSq
  exact congrArg (s (ix2 0 o) + ·) (Finset.sum_congr rfl fun r _ => Finset.sum_congr rfl fun n _ => by
    rw [lin_blk A0 A1 A2 A3 t r n o])

/-- The totals over all blocks are the totals over all padded pillars. -/
theorem sum_blockTot (o : Fin 64) :
    ∑ t : Fin 293, blockTot A0 A1 A2 A3 t o = Spec.tot (R := 150016) A0 A2 (Spec.wOf A3) (Spec.cntK (Spec.colOf A1)) o := by
  unfold Spec.tot blockTot
  exact (sum_pillars fun q => ∑ n : Fin 20, Spec.lin (R := 150016) A0 A2 (Spec.wOf A3) (Spec.cntK (Spec.colOf A1)) q n o).symm

theorem sum_blockTotSq (o : Fin 64) :
    ∑ t : Fin 293, blockTotSq A0 A1 A2 A3 t o = Spec.totsq (R := 150016) A0 A2 (Spec.wOf A3) (Spec.cntK (Spec.colOf A1)) o := by
  unfold Spec.totsq blockTotSq
  exact (sum_pillars fun q => ∑ n : Fin 20,
    Spec.lin (R := 150016) A0 A2 (Spec.wOf A3) (Spec.cntK (Spec.colOf A1)) q n o
      * Spec.lin (R := 150016) A0 A2 (Spec.wOf A3) (Spec.cntK (Spec.colOf A1)) q n o).symm

/-- A pair of sums carried over the grid points — zero, then each point's step — holds after point n the totals
    of blocks 0 … n. -/
theorem carried_sums (S : (n : ℕ) → n < 293 → Vec Ideal S1x64 .f32 × Vec Ideal S1x64 .f32)
    (h7_0 : ∀ (h : 0 < 293) (o : Fin 64), (S 0 h).1 (ix2 0 o) = blockTot A0 A1 A2 A3 ⟨0, h⟩ o)
    (h8_0 : ∀ (h : 0 < 293) (o : Fin 64), (S 0 h).2 (ix2 0 o) = blockTotSq A0 A1 A2 A3 ⟨0, h⟩ o)
    (h7_s : ∀ (n : ℕ) (h : n + 1 < 293) (o : Fin 64),
      (S (n + 1) h).1 (ix2 0 o) = (S n (Nat.lt_of_succ_lt h)).1 (ix2 0 o) + blockTot A0 A1 A2 A3 ⟨n + 1, h⟩ o)
    (h8_s : ∀ (n : ℕ) (h : n + 1 < 293) (o : Fin 64),
      (S (n + 1) h).2 (ix2 0 o) = (S n (Nat.lt_of_succ_lt h)).2 (ix2 0 o) + blockTotSq A0 A1 A2 A3 ⟨n + 1, h⟩ o)
    (o : Fin 64) :
    ∀ (n : ℕ) (h : n < 293),
      (S n h).1 (ix2 0 o) = ∑ t : Fin (n + 1), blockTot A0 A1 A2 A3 ⟨t.val, by have := t.isLt; omega⟩ o
      ∧ (S n h).2 (ix2 0 o) = ∑ t : Fin (n + 1), blockTotSq A0 A1 A2 A3 ⟨t.val, by have := t.isLt; omega⟩ o
  | 0, h => by
    refine ⟨(h7_0 h o).trans ?_, (h8_0 h o).trans ?_⟩
    · exact (Fin.sum_univ_one fun t : Fin 1 => blockTot A0 A1 A2 A3 ⟨t.val, by have := t.isLt; omega⟩ o).symm
    · exact (Fin.sum_univ_one fun t : Fin 1 => blockTotSq A0 A1 A2 A3 ⟨t.val, by have := t.isLt; omega⟩ o).symm
  | n + 1, h => by
    obtain ⟨ih7, ih8⟩ := carried_sums S h7_0 h8_0 h7_s h8_s o n (Nat.lt_of_succ_lt h)
    refine ⟨(h7_s n h o).trans ?_, (h8_s n h o).trans ?_⟩
    · rw [ih7]
      exact (Fin.sum_univ_castSucc fun t : Fin (n + 1 + 1) =>
        blockTot A0 A1 A2 A3 ⟨t.val, by have := t.isLt; omega⟩ o).symm
    · rw [ih8]
      exact (Fin.sum_univ_castSucc fun t : Fin (n + 1 + 1) =>
        blockTotSq A0 A1 A2 A3 ⟨t.val, by have := t.isLt; omega⟩ o).symm

end Grid

end Cert.KernelIdeal.HandV

end
-- ==== Proof.KI.Val0b.lean ====
/- The statistics region's two carried sums after the last grid point, and the two arrays it writes, over the
   padded input arrays as the region finds them. -/
import proofs.«129818_j66013647339880_2_alg».proof.Proof.KI.Reg0
import proofs.«129818_j66013647339880_2_alg».proof.Proof.KI.Val0

set_option maxRecDepth 16384

noncomputable section

namespace Cert.KernelIdeal.HandV

open Idealize.ShloMosaic Idealize.ShloMosaic.ValueIdx Idealize.ShloMosaic.TcCoe
open Idealize.SL.Sem
open Cert.KernelIdeal Cert.KernelIdeal.Gen Cert.KernelIdeal.Hand
open scoped BigOperators

section Region0
variable (V : (c : Dev nD) → (b : Ref sig .tc) → Buf (Elt Ideal) ((c : Thread nD τ).loc b)) (c : Dev nD)

/-! ## The padded input arrays as the region finds them, and their blocks -/

/-- The padded features, point counts, coordinates and the transposed weight. -/
abbrev arrF : S150016x20x5.Idx → EReal := V c (Pipeline.arrRef spec0 0)
abbrev arrN : S150016x1.Idx → BitVec 32 := V c (Pipeline.arrRef spec0 1)
abbrev arrC : S150016x4.Idx → BitVec 32 := V c (Pipeline.arrRef spec0 2)
abbrev arrW : S9x64.Idx → EReal := V c (Pipeline.arrRef spec0 3)

/-- Where each window's block sits at a grid point: the three row-blocked windows at block t of the rows, the
    weight whole. -/
theorem idx_facts0 : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- The feature window's block at point t is rows 512 t … 512 t + 511. -/
theorem iblk0_0 (t : Fin cfg0.N) : iblk0 V c 0 t = blkF (arrF V c) t := by
  obtain ⟨e0, e1, e2, -⟩ := idx_facts0 t
  funext y
  show V c (Pipeline.arrRef spec0 0) (((cfg0.win 0).blk t).view.emb y) = V c (Pipeline.arrRef spec0 0) _
  refine congrArg _ (funext fun a => Fin.ext ?_)
  match a with
  | ⟨0, _⟩ => show win0_0.index t (0 : Fin 3) * 512 + 1 * (y 0).val = 512 * t.val + (y 0).val; omega
  | ⟨1, _⟩ => show win0_0.index t (1 : Fin 3) * 20 + 1 * (y 1).val = (y 1).val; omega
  | ⟨2, _⟩ => show win0_0.index t (2 : Fin 3) * 5 + 1 * (y 2).val = (y 2).val; omega

/-- The count window's block at point t. -/
theorem iblk0_1 (t : Fin cfg0.N) : iblk0 V c 1 t = blkN (arrN V c) t := by
  obtain ⟨-, -, -, e0, e1, -⟩ := idx_facts0 t
  funext y
  show V c (Pipeline.arrRef spec0 1) (((cfg0.win 1).blk t).view.emb y) = V c (Pipeline.arrRef spec0 1) _
  refine congrArg _ (funext fun a => Fin.ext ?_)
  match a with
  | ⟨0, _⟩ => show win0_1.index t (0 : Fin 2) * 512 + 1 * (y 0).val = 512 * t.val + (y 0).val; omega
  | ⟨1, _⟩ => show win0_1.index t (1 : Fin 2) * 1 + 1 * (y 1).val = (y 1).val; omega

/-- The coordinate window's block at point t. -/
theorem iblk0_2 (t : Fin cfg0.N) : iblk0 V c 2 t = blkC (arrC V c) t := by
  obtain ⟨-, -, -, -, -, e0, e1, -⟩ := idx_facts0 t
  funext y
  show V c (Pipeline.arrRef spec0 2) (((cfg0.win 2).blk t).view.emb y) = V c (Pipeline.arrRef spec0 2) _
  refine congrArg _ (funext fun a => Fin.ext ?_)
  match a with
  | ⟨0, _⟩ => show win0_2.index t (0 : Fin 2) * 512 + 1 * (y 0).val = 512 * t.val + (y 0).val; omega
  | ⟨1, _⟩ => show win0_2.index t (1 : Fin 2) * 4 + 1 * (y 1).val = (y 1).val; omega

/-- The weight window's block is the whole weight at every point. -/
theorem iblk0_3 (t : Fin cfg0.N) : iblk0 V c 3 t = arrW V c := by
  obtain ⟨-, -, -, -, -, -, -, e0, e1⟩ := idx_facts0 t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 9 + 1 * (y 0).val = (y 0).val; omega
  | ⟨1, _⟩ => show win0_3.index t (1 : Fin 2) * 64 + 1 * (y 1).val = (y 1).val; omega

/-! ## The two carried sums after the last point -/

/-- After the last grid point the carried sums are the sums, over all points of all padded pillars, of the
    linear output and of its square. -/
theorem sums_val (o : Fin 64) :
    (scAt0 V c 292 (by decide)).1 (ix2 0 o)
        = Spec.tot (R := 150016) (arrF V c) (arrC V c) (Spec.wOf (arrW V c)) (Spec.cntK (Spec.colOf (arrN V c))) o
      ∧ (scAt0 V c 292 (by decide)).2 (ix2 0 o)
        = Spec.totsq (R := 150016) (arrF V c) (arrC V c) (Spec.wOf (arrW V c)) (Spec.cntK (Spec.colOf (arrN V c))) o := by
  obtain ⟨h1, h2⟩ := carried_sums (arrF V c) (arrN V c) (arrC V c) (arrW V c) (scAt0 V c)
    (fun h o => by
      show step7 (iblk0 V c 0 ⟨0, h⟩) (iblk0 V c 1 ⟨0, h⟩) (iblk0 V c 2 ⟨0, h⟩) (iblk0 V c 3 ⟨0, h⟩) (k0_pay3 (F := Ideal)) (ix2 0 o) = _
      rw [iblk0_0, iblk0_1, iblk0_2, iblk0_3]
      unfold step7
      refine (step7_blk (arrF V c) (arrN V c) (arrC V c) (arrW V c) ⟨0, h⟩ _ o).trans ?_
      rw [pay3_apply, zero_add])
    (fun h o => by
      show step8 (iblk0 V c 0 ⟨0, h⟩) (iblk0 V c 1 ⟨0, h⟩) (iblk0 V c 2 ⟨0, h⟩) (iblk0 V c 3 ⟨0, h⟩) (k0_pay4 (F := Ideal)) (ix2 0 o) = _
      rw [iblk0_0, iblk0_1, iblk0_2, iblk0_3]
      unfold step8
      refine (step8_blk (arrF V c) (arrN V c) (arrC V c) (arrW V c) ⟨0, h⟩ _ o).trans ?_
      rw [pay4_apply, zero_add])
    (fun n h o => by
      show step7 (iblk0 V c 0 ⟨n + 1, h⟩) (iblk0 V c 1 ⟨n + 1, h⟩) (iblk0 V c 2 ⟨n + 1, h⟩) (iblk0 V c 3 ⟨n + 1, h⟩)
        (scAt0 V c n (Nat.lt_of_succ_lt h)).1 (ix2 0 o) = _
      rw [iblk0_0, iblk0_1, iblk0_2, iblk0_3]
      unfold step7
      exact step7_blk _ _ _ _ _ _ o)
    (fun n h o => by
      show step8 (iblk0 V c 0 ⟨n + 1, h⟩) (iblk0 V c 1 ⟨n + 1, h⟩) (iblk0 V c 2 ⟨n + 1, h⟩) (iblk0 V c 3 ⟨n + 1, h⟩)
        (scAt0 V c n (Nat.lt_of_succ_lt h)).2 (ix2 0 o) = _
      rw [iblk0_0, iblk0_1, iblk0_2, iblk0_3]
      unfold step8
      exact step8_blk _ _ _ _ _ _ o)
    o 292 (by decide)
  exact ⟨h1.trans (sum_blockTot _ _ _ _ o), h2.trans (sum_blockTotSq _ _ _ _ o)⟩

/-! ## The two arrays the region writes -/

/-- The stored mean, channel by channel. -/
theorem mean_val :
    k0_pay1 (scAt0 V c 292 (by decide)).1
      = fun i => Ideal.div (Spec.tot (R := 150016) (arrF V c) (arrC V c) (Spec.wOf (arrW V c))
          (Spec.cntK (Spec.colOf (arrN V c))) (i 1)) Spec.nPts := by
  funext i
  obtain ⟨a, o, rfl⟩ : ∃ (a : Fin 1) (o : Fin 64), i = ix2 a o := ⟨i 0, i 1, eq_ix2 i⟩
  obtain rfl : a = 0 := Subsingleton.elim _ _
  rw [pay1_apply, (sums_val V c o).1]

/-- The stored variance, channel by channel. -/
theorem var_val :
    k0_pay2 (scAt0 V c 292 (by decide)).1 (scAt0 V c 292 (by decide)).2
      = fun i => max
          (Ideal.div (Spec.totsq (R := 150016) (arrF V c) (arrC V c) (Spec.wOf (arrW V c))
              (Spec.cntK (Spec.colOf (arrN V c))) (i 1)) Spec.nPts
            - Ideal.div (Spec.tot (R := 150016) (arrF V c) (arrC V c) (Spec.wOf (arrW V c))
                (Spec.cntK (Spec.colOf (arrN V c))) (i 1)) Spec.nPts
              * Ideal.div (Spec.tot (R := 150016) (arrF V c) (arrC V c) (Spec.wOf (arrW V c))
                (Spec.cntK (Spec.colOf (arrN V c))) (i 1)) Spec.nPts)
          (Spec.lit 0x00000000#32) := by
  funext i
  obtain ⟨a, o, rfl⟩ : ∃ (a : Fin 1) (o : Fin 64), i = ix2 a o := ⟨i 0, i 1, eq_ix2 i⟩
  obtain rfl : a = 0 := Subsingleton.elim _ _
  rw [pay2_apply, (sums_val V c o).1, (sums_val V c o).2]

end Region0

end Cert.KernelIdeal.HandV

end
-- ==== Proof.KI.Pad.lean ====
/- The padded pillars contribute nothing. The pillars are padded from 150000 to 150016 with all-zero features, count
   one and zero coordinates: at a pillar given, the linear layer over the padded arrays is the linear layer over the
   arrays given; at a padded pillar every entry of the nine-vector is zero (a zero feature; an offset times the
   indicator of a zero feature), so the linear layer is zero; hence the two sums over all points of all pillars are
   the same over the padded arrays as over the arrays given. -/
import proofs.«129818_j66013647339880_2_alg».proof.Proof.Spec
import Mathlib.Algebra.BigOperators.Fin
import Mathlib.Data.EReal.Inv

noncomputable section

namespace Cert.KernelIdeal.HandV

open Idealize.ShloMosaic Idealize.ShloMosaic.ValueIdx
open Cert.Spec
open scoped BigOperators

/-- A sum over m + k indices whose last k terms vanish and whose first m terms are those of g is the sum of g. -/
theorem sum_pad {m k : ℕ} (f : Fin (m + k) → EReal) (g : Fin m → EReal)
    (hlt : ∀ (q : Fin (m + k)) (h : q.val < m), f q = g ⟨q.val, h⟩)
    (hge : ∀ q : Fin (m + k), m ≤ q.val → f q = 0) : ∑ q, f q = ∑ p, g p := by
  rw [Fin.sum_univ_add]
  have hz : ∑ i : Fin k, f (Fin.natAdd m i) = 0 :=
    Finset.sum_eq_zero fun i _ => hge _ (by simp [Fin.natAdd])
  rw [hz, add_zero]
  exact Finset.sum_congr rfl fun i _ => hlt (Fin.castAdd k i) i.isLt

section
variable (P0 : (SFeat 150016).Idx → EReal) (P1 : (SCnt 150016).Idx → BitVec 32) (P2 : (SCrd 150016).Idx → BitVec 32)
  (a0 : (SFeat 150000).Idx → EReal) (a1 : (SCnt 150000).Idx → BitVec 32) (a2 : (SCrd 150000).Idx → BitVec 32)
  (w : SW.Idx → EReal)
  (h0 : ∀ (q : Fin 150016) (n : Fin 20) (k : Fin 5), P0 (ix3 q n k) = if h : q.val < 150000 then a0 (ix3 ⟨q.val, h⟩ n k) else 0)
  (h1 : ∀ q : Fin 150016, P1 (ix1 q) = if h : q.val < 150000 then a1 (ix1 ⟨q.val, h⟩) else 1#32)
  (h2 : ∀ (q : Fin 150016) (j : Fin 4), P2 (ix2 q j) = if h : q.val < 150000 then a2 (ix2 ⟨q.val, h⟩ j) else 0#32)

include h0 in
/-- At a pillar given, a padded feature is the feature given. -/
theorem feat_pad_lt (q : Fin 150016) (hq : q.val < 150000) (n : Fin 20) (k : Fin 3) :
    feat P0 q n k = feat a0 ⟨q.val, hq⟩ n k := by
  unfold feat; rw [h0, dif_pos hq]

include h0 in
/-- At a padded pillar every feature is zero. -/
theorem feat_pad_ge (q : Fin 150016) (hq : 150000 ≤ q.val) (n : Fin 20) (k : Fin 3) :
    feat P0 q n k = 0 := by
  unfold feat; rw [h0, dif_neg (Nat.not_lt.mpr hq)]

include h0 in
theorem fsum_pad_lt (q : Fin 150016) (hq : q.val < 150000) (k : Fin 3) :
    fsum P0 q k = fsum a0 ⟨q.val, hq⟩ k := by
  unfold fsum; exact Finset.sum_congr rfl fun n _ => feat_pad_lt P0 a0 h0 q hq n k

include h1 in
theorem cntK_pad_lt (q : Fin 150016) (hq : q.val < 150000) :
    cntK P1 q = cntK a1 ⟨q.val, hq⟩ := by
  unfold cntK cnt; rw [h1, dif_pos hq]

include h2 in
theorem crd_pad_lt (q : Fin 150016) (hq : q.val < 150000) (j : Fin 4) :
    crd P2 q j = crd a2 ⟨q.val, hq⟩ j := by
  unfold crd; rw [h2, dif_pos hq]

include h2 in
theorem ctr_pad_lt (q : Fin 150016) (hq : q.val < 150000) (k : Fin 3) :
    ctr P2 q k = ctr a2 ⟨q.val, hq⟩ k := by
  match k with
  | ⟨0, _⟩ =>
    show (crd P2 q 3 + lit 0x3F000000#32) * lit 0x3E23D70A#32 + lit 0x00000000#32
      = (crd a2 ⟨q.val, hq⟩ 3 + lit 0x3F000000#32) * lit 0x3E23D70A#32 + lit 0x00000000#32
    rw [crd_pad_lt P2 a2 h2 q hq]
  | ⟨1, _⟩ =>
    show (crd P2 q 2 + lit 0x3F000000#32) * lit 0x3E23D70A#32 + lit 0xC2200000#32
      = (crd a2 ⟨q.val, hq⟩ 2 + lit 0x3F000000#32) * lit 0x3E23D70A#32 + lit 0xC2200000#32
    rw [crd_pad_lt P2 a2 h2 q hq]
  | ⟨_ + 2, _⟩ => rfl

include h0 h1 h2 in
/-- At a pillar given, the nine-vector over the padded arrays is the nine-vector over the arrays given. -/
theorem x9_pad_lt (q : Fin 150016) (hq : q.val < 150000) (n : Fin 20) (j : Fin 9) :
    x9 P0 P2 (cntK P1) q n j = x9 a0 a2 (cntK a1) ⟨q.val, hq⟩ n j := by
  unfold x9
  simp only [feat_pad_lt P0 a0 h0 q hq, fsum_pad_lt P0 a0 h0 q hq, ctr_pad_lt P2 a2 h2 q hq, cntK_pad_lt P1 a1 h1 q hq]

include h0 h1 h2 in
/-- (A) At a pillar given, the linear layer over the padded arrays is the linear layer over the arrays given. -/
theorem lin_pad_lt (q : Fin 150016) (hq : q.val < 150000) (n : Fin 20) (o : Fin 64) :
    lin P0 P2 w (cntK P1) q n o = lin a0 a2 w (cntK a1) ⟨q.val, hq⟩ n o := by
  unfold lin
  exact Finset.sum_congr rfl fun j _ => by rw [x9_pad_lt P0 P1 P2 a0 a1 a2 h0 h1 h2 q hq n j]

/-- The indicator of zero is zero. -/
theorem msk_zero : msk 0 = 0 := if_pos rfl

include h0 in
/-- At a padded pillar every entry of the nine-vector is zero, whatever the divisor. -/
theorem x9_pad_ge (den : Fin 150016 → EReal) (q : Fin 150016) (hq : 150000 ≤ q.val) (n : Fin 20) (j : Fin 9) :
    x9 P0 P2 den q n j = 0 := by
  unfold x9
  split
  · exact feat_pad_ge P0 a0 h0 q hq n _
  · split
    · rw [feat_pad_ge P0 a0 h0 q hq n _, msk_zero, mul_zero]
    · rw [feat_pad_ge P0 a0 h0 q hq n _, msk_zero, mul_zero]

include h0 in
/-- (B) At a padded pillar the linear layer is zero. -/
theorem lin_pad_ge (q : Fin 150016) (hq : 150000 ≤ q.val) (n : Fin 20) (o : Fin 64) :
    lin P0 P2 w (cntK P1) q n o = 0 := by
  unfold lin
  exact Finset.sum_eq_zero fun j _ => by rw [x9_pad_ge P0 P2 a0 h0 (cntK P1) q hq n j, zero_mul]

include h0 h1 h2 in
/-- (C) The sum of a channel over all points of all pillars is the same over the padded arrays. -/
theorem tot_pad (o : Fin 64) : tot P0 P2 w (cntK P1) o = tot a0 a2 w (cntK a1) o := by
  unfold tot
  exact sum_pad (m := 150000) (k := 16)
    (fun q : Fin 150016 => ∑ n : Fin 20, lin P0 P2 w (cntK P1) q n o)
    (fun p : Fin 150000 => ∑ n : Fin 20, lin a0 a2 w (cntK a1) p n o)
    (fun q hq => Finset.sum_congr rfl fun n _ => lin_pad_lt P0 P1 P2 a0 a1 a2 w h0 h1 h2 q hq n o)
    (fun q hq => Finset.sum_eq_zero fun n _ => lin_pad_ge P0 P1 P2 a0 w h0 q hq n o)

include h0 h1 h2 in
/-- (C) The sum of the squares of a channel over all points of all pillars is the same over the padded arrays. -/
theorem totsq_pad (o : Fin 64) : totsq P0 P2 w (cntK P1) o = totsq a0 a2 w (cntK a1) o := by
  unfold totsq
  exact sum_pad (m := 150000) (k := 16)
    (fun q : Fin 150016 => ∑ n : Fin 20, lin P0 P2 w (cntK P1) q n o * lin P0 P2 w (cntK P1) q n o)
    (fun p : Fin 150000 => ∑ n : Fin 20, lin a0 a2 w (cntK a1) p n o * lin a0 a2 w (cntK a1) p n o)
    (fun q hq => Finset.sum_congr rfl fun n _ => by rw [lin_pad_lt P0 P1 P2 a0 a1 a2 w h0 h1 h2 q hq n o])
    (fun q hq => Finset.sum_eq_zero fun n _ => by rw [lin_pad_ge P0 P1 P2 a0 w h0 q hq n o, mul_zero])

end

end Cert.KernelIdeal.HandV

end
-- ==== Proof.KI.Value.lean ====
/- The kernel program's result array as a value: at every index the array @main returns is the specification's
   (Spec.outK) over the six arrays given. The last host stretch slices the second region's output array; that array
   is, row by row, the clamped affine image of the linear layer over the region's entry arrays; those are the host
   stretches' padded arrays and the first region's stored mean and variance, which are the specification's over the
   arrays given. -/
import proofs.«129818_j66013647339880_2_alg».proof.Proof.KI.Run
import proofs.«129818_j66013647339880_2_alg».proof.Proof.KI.Host
import proofs.«129818_j66013647339880_2_alg».proof.Proof.KI.Val1
import proofs.«129818_j66013647339880_2_alg».proof.Proof.KI.Val0b
import proofs.«129818_j66013647339880_2_alg».proof.Proof.KI.Pad
import proofs.«129818_j66013647339880_2_alg».proof.Proof.Spec

set_option maxRecDepth 16384

noncomputable section

namespace Cert.KernelIdeal.HandV

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (m : (ℓ : Loc nD τ sig) → Buf (Elt Ideal) ℓ) (c : Dev nD)

/-! # The kernel program's result array as a value -/

/-- The six arrays given, as the specification reads them. -/
abbrev arg0 : (Spec.SFeat 150000).Idx → EReal := (m ((c : Thread nD τ).loc main_arg0) : S150000x20x5.Idx → EReal)
abbrev arg1 : (Spec.SCnt 150000).Idx → BitVec 32 := (m ((c : Thread nD τ).loc main_arg1) : S150000.Idx → BitVec 32)
abbrev arg2 : (Spec.SCrd 150000).Idx → BitVec 32 := (m ((c : Thread nD τ).loc main_arg2) : S150000x4.Idx → BitVec 32)
abbrev arg3 : Spec.SW.Idx → EReal := (m ((c : Thread nD τ).loc main_arg3) : S64x9.Idx → EReal)
abbrev arg4 : Spec.SCh.Idx → EReal := (m ((c : Thread nD τ).loc main_arg4) : S64.Idx → EReal)
abbrev arg5 : Spec.SCh.Idx → EReal := (m ((c : Thread nD τ).loc main_arg5) : S64.Idx → EReal)

/-- The padded arrays the two regions read: the host stretches' results. -/
abbrev pad0 : (Spec.SFeat 150016).Idx → EReal := (V7 m c main_v0 : S150016x20x5.Idx → EReal)
abbrev pad1 : (Spec.SCnt 150016).Idx → BitVec 32 := Spec.colOf (V7 m c main_v2 : S150016x1.Idx → BitVec 32)
abbrev pad2 : (Spec.SCrd 150016).Idx → BitVec 32 := (V7 m c main_v3 : S150016x4.Idx → BitVec 32)

/-- Region 1 enters with every array but region 0's two outputs as the host stretches left it. -/
theorem entry1_in (r : Ref sig .tc) (h : r ∉ ([main_v7_0, main_v7_1] : List (Ref sig .tc))) : entry1 m c r = V7 m c r :=
  entry1_of m c r h

/-! ## The batch statistics region 0 leaves -/

/-- The sum of a channel over the padded arrays is the sum over the arrays given. -/
theorem tot_given (o : Fin 64) :
    Spec.tot (R := 150016) (pad0 m c) (pad2 m c) (Spec.wOf (V7 m c main_v4 : S9x64.Idx → EReal)) (Spec.cntK (pad1 m c)) o
      = Spec.tot (arg0 m c) (arg2 m c) (arg3 m c) (Spec.cntK (arg1 m c)) o := by
  rw [wOf_main_v4]
  exact tot_pad (pad0 m c) (pad1 m c) (pad2 m c) (arg0 m c) (arg1 m c) (arg2 m c) (arg3 m c)
    (main_v0_apply m c) (colOf_main_v2_apply m c) (main_v3_apply m c) o
theorem totsq_given (o : Fin 64) :
    Spec.totsq (R := 150016) (pad0 m c) (pad2 m c) (Spec.wOf (V7 m c main_v4 : S9x64.Idx → EReal)) (Spec.cntK (pad1 m c)) o
      = Spec.totsq (arg0 m c) (arg2 m c) (arg3 m c) (Spec.cntK (arg1 m c)) o := by
  rw [wOf_main_v4]
  exact totsq_pad (pad0 m c) (pad1 m c) (pad2 m c) (arg0 m c) (arg1 m c) (arg2 m c) (arg3 m c)
    (main_v0_apply m c) (colOf_main_v2_apply m c) (main_v3_apply m c) o

/-- The mean region 0 stores is the specification's. -/
theorem mean_at (o : Fin 64) :
    Spec.rowOf (entry1 m c main_v7_0 : S1x64.Idx → EReal) (ix1 o) = Spec.meanK (arg0 m c) (arg1 m c) (arg2 m c) (arg3 m c) o := by
  show (entry1 m c main_v7_0 : S1x64.Idx → EReal) (ix2 (0 : Fin 1) o) = _
  rw [entry1_v7_0, arr0_4, mean_val]
  exact congrArg (fun x => Ideal.div x Spec.nPts) (tot_given m c o)

/-- The variance region 0 stores is the specification's. -/
theorem var_at (o : Fin 64) :
    Spec.rowOf (entry1 m c main_v7_1 : S1x64.Idx → EReal) (ix1 o) = Spec.varK (arg0 m c) (arg1 m c) (arg2 m c) (arg3 m c) o := by
  show (entry1 m c main_v7_1 : S1x64.Idx → EReal) (ix2 (0 : Fin 1) o) = _
  rw [entry1_v7_1, arr0_5, var_val]
  unfold Spec.varK Spec.meanK
  rw [← tot_given m c o, ← totsq_given m c o]
  rfl

/-! ## The scale and the shift region 1 applies -/

theorem sc_at (o : Fin 64) :
    scOf (Spec.rowOf (entry1 m c main_v7_1 : S1x64.Idx → EReal)) (Spec.rowOf (entry1 m c main_v5 : S1x64.Idx → EReal)) o
      = Spec.scaleK (arg0 m c) (arg1 m c) (arg2 m c) (arg3 m c) (arg4 m c) o := by
  unfold scOf Spec.scaleK
  rw [var_at, entry1_in m c main_v5 (by decide), rowOf_main_v5]
theorem sh_at (o : Fin 64) :
    shOf (Spec.rowOf (entry1 m c main_v7_0 : S1x64.Idx → EReal)) (Spec.rowOf (entry1 m c main_v7_1 : S1x64.Idx → EReal))
        (Spec.rowOf (entry1 m c main_v5 : S1x64.Idx → EReal)) (Spec.rowOf (entry1 m c main_v6 : S1x64.Idx → EReal)) o
      = Spec.shiftK (arg0 m c) (arg1 m c) (arg2 m c) (arg3 m c) (arg4 m c) (arg5 m c) o := by
  unfold shOf Spec.shiftK
  rw [sc_at, mean_at, entry1_in m c main_v6 (by decide), rowOf_main_v6]

/-- The linear layer over region 1's entry arrays, at a pillar given, is the linear layer over the arrays given. -/
theorem lin_at (p : Fin 150000) (n : Fin 20) (o : Fin 64) :
    Spec.lin (R := 150016) (entry1 m c main_v0 : S150016x20x5.Idx → EReal) (entry1 m c main_v3 : S150016x4.Idx → BitVec 32)
        (Spec.wOf (entry1 m c main_v4 : S9x64.Idx → EReal)) (Spec.cntK (Spec.colOf (entry1 m c main_v2 : S150016x1.Idx → BitVec 32)))
        (⟨p.val, by omega⟩ : Fin 150016) n o
      = Spec.lin (arg0 m c) (arg2 m c) (arg3 m c) (Spec.cntK (arg1 m c)) p n o := by
  rw [entry1_in m c main_v0 (by decide), entry1_in m c main_v3 (by decide), entry1_in m c main_v4 (by decide),
    entry1_in m c main_v2 (by decide), wOf_main_v4]
  exact lin_pad_lt (pad0 m c) (pad1 m c) (pad2 m c) (arg0 m c) (arg1 m c) (arg2 m c) (arg3 m c)
    (main_v0_apply m c) (colOf_main_v2_apply m c) (main_v3_apply m c) ⟨p.val, by omega⟩ p.isLt n o

/-! ## The result array -/

/-- The result at (p, o) is the second region's output array at row p. -/
theorem out_at (p : Fin 150000) (o : Fin 64) :
    (exitV m c (Proc.devRef .tc main_v9) : S150000x64.Idx → EReal) (ix2 p o)
      = ((dat1 (entry1 m) c).arrAt 8 cfg1.N : S150016x64.Idx → EReal) (ix2 (⟨p.val, by omega⟩ : Fin 150016) o) := by
  rw [exitV_eq]
  refine (tail_main_v9_apply (exit1 m c) p o).trans ?_
  rw [exit1_v8]

/-- A row of the second region's output over its entry arrays, at a pillar given, is the specification's. -/
theorem row_at (p : Fin 150000) (o : Fin 64) :
    rowOut (R := 150016) (entry1 m c main_v0 : S150016x20x5.Idx → EReal) (Spec.colOf (entry1 m c main_v2 : S150016x1.Idx → BitVec 32))
        (entry1 m c main_v3 : S150016x4.Idx → BitVec 32) (Spec.wOf (entry1 m c main_v4 : S9x64.Idx → EReal))
        (scOf (Spec.rowOf (entry1 m c main_v7_1 : S1x64.Idx → EReal)) (Spec.rowOf (entry1 m c main_v5 : S1x64.Idx → EReal)))
        (shOf (Spec.rowOf (entry1 m c main_v7_0 : S1x64.Idx → EReal)) (Spec.rowOf (entry1 m c main_v7_1 : S1x64.Idx → EReal))
          (Spec.rowOf (entry1 m c main_v5 : S1x64.Idx → EReal)) (Spec.rowOf (entry1 m c main_v6 : S1x64.Idx → EReal)))
        (⟨p.val, by omega⟩ : Fin 150016) o
      = Cert.Spec.outK (arg0 m c) (arg1 m c) (arg2 m c) (arg3 m c) (arg4 m c) (arg5 m c) (ix2 p o) := by
  unfold rowOut Spec.outK
  refine Finset.fold_congr fun n _ => ?_
  rw [lin_at m c p n o, sc_at, sh_at]

/-- The result array: the specification's, index by index. -/
theorem out_value :
    (exitV m c (Proc.devRef .tc main_v9) : S150000x64.Idx → EReal)
      = Cert.Spec.outK (arg0 m c) (arg1 m c) (arg2 m c) (arg3 m c) (arg4 m c) (arg5 m c) := by
  funext i
  obtain ⟨p, o, rfl⟩ : ∃ (p : Fin 150000) (o : Fin 64), i = ix2 p o := ⟨i 0, i 1, eq_ix2 i⟩
  exact (out_at m c p o).trans ((out_array (entry1 m) c _ o).trans (row_at m c p o))

end Cert.KernelIdeal.HandV

end
-- ==== Proof.Ref.Stages.lean ====
/-
  The reference program's values, one definition per printed operation: each tensor value of the
  program as a function of the six argument arrays, the operation's function applied to the
  definitions of its operands. The functions the program calls (the variance with its guarded
  select, the clamp at zero) are unfolded at their call sites, each of their values under the name
  of the buffer the call gives it.
-/
import proofs.«129818_j66013647339880_2_alg».proof.ReferenceIdeal

noncomputable section

namespace Cert.ReferenceIdeal.Hand

open Idealize.ShloMosaic Idealize.SL.Sem
open Cert.ReferenceIdeal Cert.ReferenceIdeal.Facts₀ Cert.ReferenceIdeal.Facts

variable {F : FTy → Type} [FloatOps F] [Facts]

def val_cst : FVec F S3 .f32 :=
  fun i => FloatOps.ofBits .f32 (lit0 (S3.rowMajor i))

def val_cst_0 : FVec F S6 .f32 :=
  fun i => FloatOps.ofBits .f32 (lit1 (S6.rowMajor i))

def val_c : IVec S3 32 :=
  fun i => lit2 (S3.rowMajor i)

def val_c_1 : IVec S2 32 :=
  fun i => lit3 (S2.rowMajor i)

def val_v0 (a0 : FVec F S150000x20x5 .f32) : FVec F S150000x20x3 .f32 :=
  extractStridedSlice S150000x20x3 ![0, 0, 0] a0 slices_S150000x20x5_S150000x20x3_0_0_0

def val_v1 (a1 : IVec S150000 32) : FVec F S150000 .f32 :=
  sitofp .f32 a1

def val_cst_2 : FVec F S_ .f32 :=
  constant S_ .f32 0x00000000#32

def val_v2 (a0 : FVec F S150000x20x5 .f32) : FVec F S150000x3 .f32 :=
  Host.reduceAdd (val_v0 a0) val_cst_2 reducesTo_S150000x20x3_S150000x3_d1 h_S_

def val_v3 (a1 : IVec S150000 32) : FVec F S150000x1 .f32 :=
  broadcastInDim S150000x1 ![0] bcast_S150000_S150000x1_0 (val_v1 a1)

def val_v4 (a1 : IVec S150000 32) : FVec F S150000x3 .f32 :=
  broadcastInDim S150000x3 ![0, 1] bcast_S150000x1_S150000x3_0_1 (val_v3 a1)

def val_v5 (a0 : FVec F S150000x20x5 .f32) (a1 : IVec S150000 32) : FVec F S150000x3 .f32 :=
  Host.divf (val_v2 a0) (val_v4 a1)

def val_v6 (a0 : FVec F S150000x20x5 .f32) (a1 : IVec S150000 32) : FVec F S150000x1x3 .f32 :=
  broadcastInDim S150000x1x3 ![0, 2] bcast_S150000x3_S150000x1x3_0_2 (val_v5 a0 a1)

def val_v7 (a0 : FVec F S150000x20x5 .f32) (a1 : IVec S150000 32) : FVec F S150000x20x3 .f32 :=
  broadcastInDim S150000x20x3 ![0, 1, 2] bcast_S150000x1x3_S150000x20x3_0_1_2 (val_v6 a0 a1)

def val_v8 (a0 : FVec F S150000x20x5 .f32) (a1 : IVec S150000 32) : FVec F S150000x20x3 .f32 :=
  subf (val_v0 a0) (val_v7 a0 a1)

def val_v9 (a2 : IVec S150000x4 32) : IVec S150000x2 32 :=
  extractStridedSlice S150000x2 ![0, 2] a2 slices_S150000x4_S150000x2_0_2

def val_v10 (a2 : IVec S150000x4 32) : FVec F S150000x2 .f32 :=
  sitofp .f32 (val_v9 a2)

def val_v11 (a2 : IVec S150000x4 32) : FVec F S150000x2 .f32 :=
  Host.reverse [1] (val_v10 a2)

def val_v12 (a0 : FVec F S150000x20x5 .f32) : FVec F S150000x20x2 .f32 :=
  extractStridedSlice S150000x20x2 ![0, 0, 0] (val_v0 a0) slices_S150000x20x3_S150000x20x2_0_0_0

def val_cst_3 : FVec F S_ .f32 :=
  constant S_ .f32 0x3F000000#32

def val_v13 : FVec F S150000x2 .f32 :=
  broadcastInDim S150000x2 ![] bcast_S_S150000x2 val_cst_3

def val_v14 (a2 : IVec S150000x4 32) : FVec F S150000x2 .f32 :=
  addf (val_v11 a2) val_v13

def val_v15 : FVec F S2 .f32 :=
  extractStridedSlice S2 ![0] val_cst slices_S3_S2_0

def val_v16 : FVec F S1x2 .f32 :=
  broadcastInDim S1x2 ![1] bcast_S2_S1x2_1 val_v15

def val_v17 : FVec F S150000x2 .f32 :=
  broadcastInDim S150000x2 ![0, 1] bcast_S1x2_S150000x2_0_1 val_v16

def val_v18 (a2 : IVec S150000x4 32) : FVec F S150000x2 .f32 :=
  mulf (val_v14 a2) val_v17

def val_v19 : FVec F S2 .f32 :=
  extractStridedSlice S2 ![0] val_cst_0 slices_S6_S2_0

def val_v20 : FVec F S1x2 .f32 :=
  broadcastInDim S1x2 ![1] bcast_S2_S1x2_1 val_v19

def val_v21 : FVec F S150000x2 .f32 :=
  broadcastInDim S150000x2 ![0, 1] bcast_S1x2_S150000x2_0_1 val_v20

def val_v22 (a2 : IVec S150000x4 32) : FVec F S150000x2 .f32 :=
  addf (val_v18 a2) val_v21

def val_v23 (a2 : IVec S150000x4 32) : FVec F S150000x1x2 .f32 :=
  broadcastInDim S150000x1x2 ![0, 2] bcast_S150000x2_S150000x1x2_0_2 (val_v22 a2)

def val_v24 (a2 : IVec S150000x4 32) : FVec F S150000x20x2 .f32 :=
  broadcastInDim S150000x20x2 ![0, 1, 2] bcast_S150000x1x2_S150000x20x2_0_1_2 (val_v23 a2)

def val_v25 (a0 : FVec F S150000x20x5 .f32) (a2 : IVec S150000x4 32) : FVec F S150000x20x2 .f32 :=
  subf (val_v12 a0) (val_v24 a2)

def val_v26 (a0 : FVec F S150000x20x5 .f32) : FVec F S150000x20x1 .f32 :=
  extractStridedSlice S150000x20x1 ![0, 0, 2] (val_v0 a0) slices_S150000x20x3_S150000x20x1_0_0_2

def val_v27 (a0 : FVec F S150000x20x5 .f32) : FVec F S150000x20 .f32 :=
  shapeCast S150000x20 (val_v26 a0) shapeCasts_S150000x20x1_S150000x20

def val_v28 : FVec F S1 .f32 :=
  extractStridedSlice S1 ![2] val_cst slices_S3_S1_2

def val_v29 : FVec F S_ .f32 :=
  shapeCast S_ val_v28 shapeCasts_S1_S_

def val_cst_4 : FVec F S_ .f32 :=
  constant S_ .f32 0x3F000000#32

def val_v30 : FVec F S_ .f32 :=
  mulf val_cst_4 val_v29

def val_v31 : FVec F S1 .f32 :=
  extractStridedSlice S1 ![2] val_cst_0 slices_S6_S1_2

def val_v32 : FVec F S_ .f32 :=
  shapeCast S_ val_v31 shapeCasts_S1_S_

def val_v33 : FVec F S_ .f32 :=
  addf val_v30 val_v32

def val_v34 : FVec F S150000x20 .f32 :=
  broadcastInDim S150000x20 ![] bcast_S_S150000x20 val_v33

def val_v35 (a0 : FVec F S150000x20x5 .f32) : FVec F S150000x20 .f32 :=
  subf (val_v27 a0) val_v34

def val_v36 (a0 : FVec F S150000x20x5 .f32) : FVec F S150000x20x1 .f32 :=
  broadcastInDim S150000x20x1 ![0, 1] bcast_S150000x20_S150000x20x1_0_1 (val_v35 a0)

def val_v37 (a0 : FVec F S150000x20x5 .f32) (a2 : IVec S150000x4 32) : FVec F S150000x20x3 .f32 :=
  concatenate S150000x20x3 2 [⟨S150000x20x2, (val_v25 a0 a2)⟩, ⟨S150000x20x1, (val_v36 a0)⟩] concatenates_S150000x20x2_S150000x20x1_S150000x20x3_d2

def val_cst_5 : FVec F S_ .f32 :=
  constant S_ .f32 0x00000000#32

def val_v38 : FVec F S150000x20x3 .f32 :=
  broadcastInDim S150000x20x3 ![] bcast_S_S150000x20x3 val_cst_5

def val_v39 (a0 : FVec F S150000x20x5 .f32) : IVec S150000x20x3 1 :=
  cmpf .une (val_v0 a0) val_v38

def val_v40 (a0 : FVec F S150000x20x5 .f32) : FVec F S150000x20x3 .f32 :=
  uitofp .f32 (val_v39 a0)

def val_v41 (a0 : FVec F S150000x20x5 .f32) (a2 : IVec S150000x4 32) : FVec F S150000x20x3 .f32 :=
  mulf (val_v37 a0 a2) (val_v40 a0)

def val_v42 (a0 : FVec F S150000x20x5 .f32) (a1 : IVec S150000 32) : FVec F S150000x20x3 .f32 :=
  mulf (val_v8 a0 a1) (val_v40 a0)

def val_v43 (a0 : FVec F S150000x20x5 .f32) (a1 : IVec S150000 32) (a2 : IVec S150000x4 32) : FVec F S150000x20x9 .f32 :=
  concatenate S150000x20x9 2 [⟨S150000x20x3, (val_v0 a0)⟩, ⟨S150000x20x3, (val_v41 a0 a2)⟩, ⟨S150000x20x3, (val_v42 a0 a1)⟩] concatenates_S150000x20x3_S150000x20x3_S150000x20x3_S150000x20x9_d2

def val_v44 (a0 : FVec F S150000x20x5 .f32) (a1 : IVec S150000 32) (a2 : IVec S150000x4 32) (a3 : FVec F S64x9 .f32) : FVec F S150000x20x64 .f32 :=
  Host.dotGeneral dot_S150000x20x9_S64x9_S150000x20x64_2_1_01_0_n_n none (val_v43 a0 a1 a2) a3

def val_cst_6 : FVec F S_ .f32 :=
  constant S_ .f32 0x00000000#32

def val_v45 (a0 : FVec F S150000x20x5 .f32) (a1 : IVec S150000 32) (a2 : IVec S150000x4 32) (a3 : FVec F S64x9 .f32) : FVec F S64 .f32 :=
  Host.reduceAdd (val_v44 a0 a1 a2 a3) val_cst_6 reducesTo_S150000x20x64_S64_d0_1 h_S_

def val_cst_7 : FVec F S_ .f32 :=
  constant S_ .f32 0x4A371B00#32

def val_v46 : FVec F S64 .f32 :=
  broadcastInDim S64 ![] bcast_S_S64 val_cst_7

def val_v47 (a0 : FVec F S150000x20x5 .f32) (a1 : IVec S150000 32) (a2 : IVec S150000x4 32) (a3 : FVec F S64x9 .f32) : FVec F S64 .f32 :=
  Host.divf (val_v45 a0 a1 a2 a3) val_v46

def val_c_8 : IVec S_ 32 :=
  constantI S_ 32 0#32

def val_call0_cst : FVec F S_ .f32 :=
  constant S_ .f32 0x00000000#32

def val_call0_v0 (a0 : FVec F S150000x20x5 .f32) (a1 : IVec S150000 32) (a2 : IVec S150000x4 32) (a3 : FVec F S64x9 .f32) : FVec F S64 .f32 :=
  Host.reduceAdd (val_v44 a0 a1 a2 a3) val_call0_cst reducesTo_S150000x20x64_S64_d0_1 h_S_

def val_call0_v1 (a0 : FVec F S150000x20x5 .f32) (a1 : IVec S150000 32) (a2 : IVec S150000x4 32) (a3 : FVec F S64x9 .f32) : FVec F S1x1x64 .f32 :=
  broadcastInDim S1x1x64 ![2] bcast_S64_S1x1x64_2 (val_call0_v0 a0 a1 a2 a3)

def val_call0_cst_0 : FVec F S_ .f32 :=
  constant S_ .f32 0x4A371B00#32

def val_call0_v2 : FVec F S1x1x64 .f32 :=
  broadcastInDim S1x1x64 ![] bcast_S_S1x1x64 val_call0_cst_0

def val_call0_v3 (a0 : FVec F S150000x20x5 .f32) (a1 : IVec S150000 32) (a2 : IVec S150000x4 32) (a3 : FVec F S64x9 .f32) : FVec F S1x1x64 .f32 :=
  Host.divf (val_call0_v1 a0 a1 a2 a3) val_call0_v2

def val_call0_v4 (a0 : FVec F S150000x20x5 .f32) (a1 : IVec S150000 32) (a2 : IVec S150000x4 32) (a3 : FVec F S64x9 .f32) : FVec F S150000x20x64 .f32 :=
  broadcastInDim S150000x20x64 ![0, 1, 2] bcast_S1x1x64_S150000x20x64_0_1_2 (val_call0_v3 a0 a1 a2 a3)

def val_call0_v5 (a0 : FVec F S150000x20x5 .f32) (a1 : IVec S150000 32) (a2 : IVec S150000x4 32) (a3 : FVec F S64x9 .f32) : FVec F S150000x20x64 .f32 :=
  subf (val_v44 a0 a1 a2 a3) (val_call0_v4 a0 a1 a2 a3)

def val_call0_v6 (a0 : FVec F S150000x20x5 .f32) (a1 : IVec S150000 32) (a2 : IVec S150000x4 32) (a3 : FVec F S64x9 .f32) : FVec F S150000x20x64 .f32 :=
  mulf (val_call0_v5 a0 a1 a2 a3) (val_call0_v5 a0 a1 a2 a3)

def val_call0_v7 : FVec F S_ .f32 :=
  sitofp .f32 val_c_8

def val_call0_cst_1 : FVec F S_ .f32 :=
  constant S_ .f32 0x4A371B00#32

def val_call0_v8 : FVec F S_ .f32 :=
  subf val_call0_cst_1 val_call0_v7

def val_call0_cst_2 : FVec F S_ .f32 :=
  constant S_ .f32 0x00000000#32

def val_call0_v9 (a0 : FVec F S150000x20x5 .f32) (a1 : IVec S150000 32) (a2 : IVec S150000x4 32) (a3 : FVec F S64x9 .f32) : FVec F S64 .f32 :=
  Host.reduceAdd (val_call0_v6 a0 a1 a2 a3) val_call0_cst_2 reducesTo_S150000x20x64_S64_d0_1 h_S_

def val_call0_v10 : FVec F S64 .f32 :=
  broadcastInDim S64 ![] bcast_S_S64 val_call0_v8

def val_call0_v11 (a0 : FVec F S150000x20x5 .f32) (a1 : IVec S150000 32) (a2 : IVec S150000x4 32) (a3 : FVec F S64x9 .f32) : FVec F S64 .f32 :=
  Host.divf (val_call0_v9 a0 a1 a2 a3) val_call0_v10

def val_call0_cst_3 : FVec F S_ .f32 :=
  constant S_ .f32 0x00000000#32

def val_call0_v12 : IVec S_ 1 :=
  cmpf (F := F) .ogt (val_call0_v8 (F := F)) (val_call0_cst_3 (F := F))

def val_call0_cst_4 : FVec F S_ .f32 :=
  constant S_ .f32 0x7FC00000#32

def val_call0_call0_v0 : FVec F S_ .f32 :=
  id val_call0_cst_4

def val_call0_call0_v1 : FVec F S64 .f32 :=
  broadcastInDim S64 ![] bcast_S_S64 val_call0_call0_v0

def val_v48 (a0 : FVec F S150000x20x5 .f32) (a1 : IVec S150000 32) (a2 : IVec S150000x4 32) (a3 : FVec F S64x9 .f32) : FVec F S64 .f32 :=
  select (broadcastInDim S64 ![] bcast_S_S64 (val_call0_v12 (F := F))) (val_call0_v11 a0 a1 a2 a3) val_call0_call0_v1

def val_v49 (a0 : FVec F S150000x20x5 .f32) (a1 : IVec S150000 32) (a2 : IVec S150000x4 32) (a3 : FVec F S64x9 .f32) : FVec F S1x1x64 .f32 :=
  broadcastInDim S1x1x64 ![2] bcast_S64_S1x1x64_2 (val_v47 a0 a1 a2 a3)

def val_v50 (a0 : FVec F S150000x20x5 .f32) (a1 : IVec S150000 32) (a2 : IVec S150000x4 32) (a3 : FVec F S64x9 .f32) : FVec F S150000x20x64 .f32 :=
  broadcastInDim S150000x20x64 ![0, 1, 2] bcast_S1x1x64_S150000x20x64_0_1_2 (val_v49 a0 a1 a2 a3)

def val_v51 (a0 : FVec F S150000x20x5 .f32) (a1 : IVec S150000 32) (a2 : IVec S150000x4 32) (a3 : FVec F S64x9 .f32) : FVec F S150000x20x64 .f32 :=
  subf (val_v44 a0 a1 a2 a3) (val_v50 a0 a1 a2 a3)

def val_cst_9 : FVec F S_ .f32 :=
  constant S_ .f32 0x3A83126F#32

def val_v52 : FVec F S64 .f32 :=
  broadcastInDim S64 ![] bcast_S_S64 val_cst_9

def val_v53 (a0 : FVec F S150000x20x5 .f32) (a1 : IVec S150000 32) (a2 : IVec S150000x4 32) (a3 : FVec F S64x9 .f32) : FVec F S64 .f32 :=
  addf (val_v48 a0 a1 a2 a3) val_v52

def val_v54 (a0 : FVec F S150000x20x5 .f32) (a1 : IVec S150000 32) (a2 : IVec S150000x4 32) (a3 : FVec F S64x9 .f32) : FVec F S64 .f32 :=
  Host.rsqrt (val_v53 a0 a1 a2 a3)

def val_v55 (a0 : FVec F S150000x20x5 .f32) (a1 : IVec S150000 32) (a2 : IVec S150000x4 32) (a3 : FVec F S64x9 .f32) : FVec F S1x1x64 .f32 :=
  broadcastInDim S1x1x64 ![2] bcast_S64_S1x1x64_2 (val_v54 a0 a1 a2 a3)

def val_v56 (a0 : FVec F S150000x20x5 .f32) (a1 : IVec S150000 32) (a2 : IVec S150000x4 32) (a3 : FVec F S64x9 .f32) : FVec F S150000x20x64 .f32 :=
  broadcastInDim S150000x20x64 ![0, 1, 2] bcast_S1x1x64_S150000x20x64_0_1_2 (val_v55 a0 a1 a2 a3)

def val_v57 (a0 : FVec F S150000x20x5 .f32) (a1 : IVec S150000 32) (a2 : IVec S150000x4 32) (a3 : FVec F S64x9 .f32) : FVec F S150000x20x64 .f32 :=
  mulf (val_v51 a0 a1 a2 a3) (val_v56 a0 a1 a2 a3)

def val_v58 (a4 : FVec F S64 .f32) : FVec F S1x1x64 .f32 :=
  broadcastInDim S1x1x64 ![2] bcast_S64_S1x1x64_2 a4

def val_v59 (a4 : FVec F S64 .f32) : FVec F S150000x20x64 .f32 :=
  broadcastInDim S150000x20x64 ![0, 1, 2] bcast_S1x1x64_S150000x20x64_0_1_2 (val_v58 a4)

def val_v60 (a0 : FVec F S150000x20x5 .f32) (a1 : IVec S150000 32) (a2 : IVec S150000x4 32) (a3 : FVec F S64x9 .f32) (a4 : FVec F S64 .f32) : FVec F S150000x20x64 .f32 :=
  mulf (val_v57 a0 a1 a2 a3) (val_v59 a4)

def val_v61 (a5 : FVec F S64 .f32) : FVec F S1x1x64 .f32 :=
  broadcastInDim S1x1x64 ![2] bcast_S64_S1x1x64_2 a5

def val_v62 (a5 : FVec F S64 .f32) : FVec F S150000x20x64 .f32 :=
  broadcastInDim S150000x20x64 ![0, 1, 2] bcast_S1x1x64_S150000x20x64_0_1_2 (val_v61 a5)

def val_v63 (a0 : FVec F S150000x20x5 .f32) (a1 : IVec S150000 32) (a2 : IVec S150000x4 32) (a3 : FVec F S64x9 .f32) (a4 : FVec F S64 .f32) (a5 : FVec F S64 .f32) : FVec F S150000x20x64 .f32 :=
  addf (val_v60 a0 a1 a2 a3 a4) (val_v62 a5)

def val_call1_cst : FVec F S_ .f32 :=
  constant S_ .f32 0x00000000#32

def val_call1_v0 : FVec F S150000x20x64 .f32 :=
  broadcastInDim S150000x20x64 ![] bcast_S_S150000x20x64 val_call1_cst

def val_v64 (a0 : FVec F S150000x20x5 .f32) (a1 : IVec S150000 32) (a2 : IVec S150000x4 32) (a3 : FVec F S64x9 .f32) (a4 : FVec F S64 .f32) (a5 : FVec F S64 .f32) : FVec F S150000x20x64 .f32 :=
  maximumf (val_v63 a0 a1 a2 a3 a4 a5) val_call1_v0

def val_cst_10 : FVec F S_ .f32 :=
  constant S_ .f32 0xFF800000#32

def val_v65 (a0 : FVec F S150000x20x5 .f32) (a1 : IVec S150000 32) (a2 : IVec S150000x4 32) (a3 : FVec F S64x9 .f32) (a4 : FVec F S64 .f32) (a5 : FVec F S64 .f32) : FVec F S150000x64 .f32 :=
  Host.reduce FloatOps.maximumf (val_v64 a0 a1 a2 a3 a4 a5) val_cst_10 reducesTo_S150000x20x64_S150000x64_d1 h_S_

def val_c_11 : IVec S_ 32 :=
  constantI S_ 32 0#32

def val_v66 : IVec S3 32 :=
  broadcastInDim S3 ![] bcast_S_S3 val_c_11

def val_v67 : IVec S3 1 :=
  cmpi .slt val_c val_v66

def val_c_12 : IVec S_ 32 :=
  constantI S_ 32 4#32

def val_v68 : IVec S3 32 :=
  broadcastInDim S3 ![] bcast_S_S3 val_c_12

def val_v69 : IVec S3 32 :=
  addi val_c val_v68

def val_v70 : IVec S3 32 :=
  select val_v67 val_v69 val_c

def val_v71 : IVec S3x1 32 :=
  broadcastInDim S3x1 ![0] bcast_S3_S3x1_0 val_v70

def val_v72 (a2 : IVec S150000x4 32) : IVec S150000x3 32 :=
  Host.gather gather_S150000x4_S3x1_S150000x3_0_1_n_n_1_1_1500001 a2 val_v71

def val_v73 : FVec F S3 .f32 :=
  extractStridedSlice S3 ![3] val_cst_0 slices_S6_S3_3

def val_v74 : FVec F S3 .f32 :=
  extractStridedSlice S3 ![0] val_cst_0 slices_S6_S3_0

def val_v75 : FVec F S3 .f32 :=
  subf val_v73 val_v74

def val_v76 : FVec F S3 .f32 :=
  Host.divf val_v75 val_cst

def val_v77 : FVec F S3 .f32 :=
  Host.ceil val_v76

def val_c_13 : IVec S_ 32 :=
  constantI S_ 32 0#32

def val_v78 : IVec S2 32 :=
  broadcastInDim S2 ![] bcast_S_S2 val_c_13

def val_v79 : IVec S2 1 :=
  cmpi .slt val_c_1 val_v78

def val_c_14 : IVec S_ 32 :=
  constantI S_ 32 3#32

def val_v80 : IVec S2 32 :=
  broadcastInDim S2 ![] bcast_S_S2 val_c_14

def val_v81 : IVec S2 32 :=
  addi val_c_1 val_v80

def val_v82 : IVec S2 32 :=
  select val_v79 val_v81 val_c_1

def val_v83 : IVec S2x1 32 :=
  broadcastInDim S2x1 ![0] bcast_S2_S2x1_0 val_v82

def val_v84 : FVec F S2 .f32 :=
  Host.gather gather_S3_S2x1_S2_n_0_n_n_0_1_1 val_v77 val_v83

end Cert.ReferenceIdeal.Hand

end
-- ==== Proof.KI.HostRef.lean ====
/-
  The kernel program's host tail against the reference program's values.

  After the kernels, both programs gather the same three coordinate columns from the coordinates argument and
  compute the same two-entry grid size from the same constant tables: the two printed chains of operations are
  the same, over each program's own copies of the tables and of the shape facts.
-/
import proofs.«129818_j66013647339880_2_alg».proof.Proof.KI.Host
import proofs.«129818_j66013647339880_2_alg».proof.Proof.Gen.ReferenceIdeal
import proofs.«129818_j66013647339880_2_alg».proof.Proof.Ref.Stages

set_option maxRecDepth 16384

noncomputable section

namespace Cert.KernelIdeal.HandV

open Idealize.ShloMosaic Idealize.ShloMosaic.TcCoe Idealize.ShloMosaic.ValueIdx
open Idealize.ShloMosaic.StableHlo
open Cert.KernelIdeal Cert.KernelIdeal.Gen

variable {F : FTy → Type} [FloatOps F]
variable (W : Valuation τ sig (Elt F))

/-- The gathered coordinate columns are the reference program's, when the index table is as the first stretch wrote it. -/
theorem tail_main_v16_ref (hc : (W main_c : S3.Idx → BitVec 32) = fun i => lit0 (S3.rowMajor i)) :
    (StableHlo.after hostOps2 W main_v16 : S150000x3.Idx → BitVec 32)
      = Cert.ReferenceIdeal.Hand.val_v72 (W main_arg2 : S150000x4.Idx → BitVec 32) := by
  refine (tail_main_v16 W).trans ?_
  rw [hc]
  rfl

/-- The grid size is the reference program's, when the three constant tables are as the first stretch wrote them. -/
theorem tail_main_v28_ref
    (hcst : (W main_cst : S6.Idx → F .f32) = fun i => FloatOps.ofBits .f32 (lit1 (S6.rowMajor i)))
    (hcst0 : (W main_cst_0 : S3.Idx → F .f32) = fun i => FloatOps.ofBits .f32 (lit2 (S3.rowMajor i)))
    (hc1 : (W main_c_1 : S2.Idx → BitVec 32) = fun i => lit3 (S2.rowMajor i)) :
    (StableHlo.after hostOps2 W main_v28 : S2.Idx → F .f32) = Cert.ReferenceIdeal.Hand.val_v84 (F := F) := by
  refine (tail_main_v28 W).trans ?_
  rw [hcst, hcst0, hc1]
  rfl

end Cert.KernelIdeal.HandV
end
-- ==== Proof.KI.ValueHost.lean ====
/-
  The kernel program's two small results: the three gathered coordinate columns and the two-entry grid size
  that the host tail leaves are the reference program's values of the same names.

  The host tail reads the coordinates argument and four constant tables. No kernel and no later host
  operation writes any of them, so when the tail runs they hold what the launch and the first host
  operations put there; the tail's two chains of operations are then the reference program's.
-/
import proofs.«129818_j66013647339880_2_alg».proof.Proof.KI.Run
import proofs.«129818_j66013647339880_2_alg».proof.Proof.KI.Host
import proofs.«129818_j66013647339880_2_alg».proof.Proof.KI.HostRef

set_option maxRecDepth 16384

noncomputable section

namespace Cert.KernelIdeal.HandV

open Idealize.ShloMosaic Idealize.ShloMosaic.TcCoe Idealize.ShloMosaic.ValueIdx
open Idealize.ShloMosaic.StableHlo
open Cert.KernelIdeal Cert.KernelIdeal.Gen Cert.KernelIdeal.Hand

variable {F : FTy → Type} [FloatOps F]
variable (m : (ℓ : Loc nD τ sig) → Buf (Elt F) ℓ)

/-! ## What the tail reads is what the launch and the first host operations left -/

/-- A reference neither kernel may change holds, when the tail runs, what it held when the kernels were entered. -/
theorem exit1_entry (c : Dev nD) (r : Ref sig .tc) (h8 : r ∉ ([main_v8] : List (Ref sig .tc)))
    (h7 : r ∉ ([main_v7_0, main_v7_1] : List (Ref sig .tc))) : exit1 m c r = V7 m c r :=
  (exit1_of m c r h8).trans <| (entry1_of m c r h7).trans (entry0_eq m c r)

theorem exit1_main_arg2 (c : Dev nD) : exit1 m c main_arg2 = m ((c : Thread nD τ).loc main_arg2) :=
  (exit1_entry m c main_arg2 (by decide) (by decide)).trans <| (V7_of m c main_arg2 (by decide)).trans <|
    (V6_of m c main_arg2 (by decide)).trans <| (V5_of m c main_arg2 (by decide)).trans <| (V4_of m c main_arg2 (by decide)).trans <|
    (V3_of m c main_arg2 (by decide)).trans <| (V2_of m c main_arg2 (by decide)).trans <| (V1_of m c main_arg2 (by decide)).trans rfl

theorem exit1_main_c (c : Dev nD) : (exit1 m c main_c : S3.Idx → BitVec 32) = fun i => lit0 (S3.rowMajor i) :=
  (exit1_entry m c main_c (by decide) (by decide)).trans (V7_main_c m c)
theorem exit1_main_cst (c : Dev nD) : (exit1 m c main_cst : S6.Idx → F .f32) = fun i => FloatOps.ofBits .f32 (lit1 (S6.rowMajor i)) :=
  (exit1_entry m c main_cst (by decide) (by decide)).trans (V7_main_cst m c)
theorem exit1_main_cst_0 (c : Dev nD) : (exit1 m c main_cst_0 : S3.Idx → F .f32) = fun i => FloatOps.ofBits .f32 (lit2 (S3.rowMajor i)) :=
  (exit1_entry m c main_cst_0 (by decide) (by decide)).trans (V7_main_cst_0 m c)
theorem exit1_main_c_1 (c : Dev nD) : (exit1 m c main_c_1 : S2.Idx → BitVec 32) = fun i => lit3 (S2.rowMajor i) :=
  (exit1_entry m c main_c_1 (by decide) (by decide)).trans (V7_main_c_1 m c)

/-! ## The two results -/

/-- The gathered coordinate columns are the reference program's. -/
theorem coords_value (c : Dev nD) :
    (exitV m c (Proc.devRef .tc main_v16) : S150000x3.Idx → BitVec 32)
      = Cert.ReferenceIdeal.Hand.val_v72 (m ((c : Thread nD τ).loc main_arg2) : S150000x4.Idx → BitVec 32) := by
  show (StableHlo.after hostOps2 (exit1 m c) main_v16 : S150000x3.Idx → BitVec 32) = _
  refine (tail_main_v16_ref (exit1 m c) (exit1_main_c m c)).trans ?_
  exact congrArg Cert.ReferenceIdeal.Hand.val_v72 (exit1_main_arg2 m c)

/-- The grid size is the reference program's. -/
theorem grid_value (c : Dev nD) :
    (exitV m c (Proc.devRef .tc main_v28) : S2.Idx → F .f32) = Cert.ReferenceIdeal.Hand.val_v84 (F := F) := by
  show (StableHlo.after hostOps2 (exit1 m c) main_v28 : S2.Idx → F .f32) = _
  exact tail_main_v28_ref (exit1 m c) (exit1_main_cst m c) (exit1_main_cst_0 m c) (exit1_main_c_1 m c)

/-- The grid size over the extended reals. -/
theorem grid_value_ideal (mI : (ℓ : Loc nD τ sig) → Buf (Elt Ideal) ℓ) (c : Dev nD) :
    (exitV mI c (Proc.devRef .tc main_v28) : S2.Idx → EReal) = Cert.ReferenceIdeal.Hand.val_v84 (F := Ideal) :=
  grid_value mI c

end Cert.KernelIdeal.HandV
end
-- ==== Proof.Ref.Run.lean ====
import proofs.«129818_j66013647339880_2_alg».proof.Proof.Gen.ReferenceIdeal
import proofs.«129818_j66013647339880_2_alg».proof.Proof.Ref.Stages
import Idealize.ShloMosaic.Lib.StableHlo.Run
import Mathlib.Data.List.Forall2
import Mathlib.Data.List.Basic

/-!
The reference program's run: @main as ONE straight line of its 125 host operations (the three
outlined functions written at their call sites over the calls' buffer records), the run of that line, and, for every
value of the program, the equation giving its final contents as its operation applied to the final contents of its
operands. The line is single-assignment — each operation writes one buffer, no buffer is written twice, an operand is
written before its use or never — which is what lets a value be read at the END of the run rather than just after its
operation.
-/

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## A single-assignment line, in general -/

section Line

variable {τ : Topo} {sig : RefSig} {Val : EltTy → Type}

/-- The line `ops` writes, operation by operation, exactly the references `W`. -/
abbrev Writes (ops : List (HloOp τ sig Val)) (W : List (Ref sig .tc)) : Prop :=
  List.Forall₂ (fun op w => op.writes = {Proc.devRef (τ := τ) .tc w}) ops W

/-- The fold over two lines, one after the other. -/
theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- The fold split at position `k`. -/
theorem after_take_drop (ops : List (HloOp τ sig Val)) (k : Nat) (V : Valuation τ sig Val) :
    after ops V = after (ops.drop k) (after (ops.take k) V) := by
  conv_lhs => rw [← List.take_append_drop k ops]
  exact after_app _ _ _

/-- A reference the line does not write keeps its contents. -/
theorem after_frame : ∀ {ops : List (HloOp τ sig Val)} {W : List (Ref sig .tc)}, Writes ops W →
    ∀ {r : Ref sig .tc}, r ∉ W → ∀ V : Valuation τ sig Val, after ops V (Proc.devRef .tc r) = V (Proc.devRef .tc r)
  | _, _, .nil, _, _, _ => rfl
  | _, _, .cons (a := op) (b := w) hw h, r, hr, V => by
    rw [after_cons, after_frame h (fun hm => hr (List.mem_cons_of_mem _ hm)), op.result_of_not_mem]
    rw [hw, Finset.mem_singleton]
    exact devRef_ne_of_ne fun he => hr (he ▸ List.mem_cons_self ..)

/-- The suffix from position `k` writes the suffix of the written references. -/
theorem Writes.drop {ops : List (HloOp τ sig Val)} {W : List (Ref sig .tc)} (h : Writes ops W) (k : Nat) :
    Writes (ops.drop k) (W.drop k) := List.forall₂_drop k h

/-- A reference not written from position `k` on is, at the end, what it was before position `k`. -/
theorem frame_at {ops : List (HloOp τ sig Val)} {W : List (Ref sig .tc)} (h : Writes ops W) (k : Nat)
    {a : Ref sig .tc} (ha : a ∉ W.drop k) (V : Valuation τ sig Val) :
    after ops V (Proc.devRef .tc a) = after (ops.take k) V (Proc.devRef .tc a) := by
  rw [after_take_drop ops k V]; exact after_frame (h.drop k) ha _

/-- The operation at position `k`: a reference not written after it is, at the end, the operation's result over the
    contents before it. -/
theorem stage_at {ops : List (HloOp τ sig Val)} {W : List (Ref sig .tc)} (h : Writes ops W) (k : Nat)
    {op : HloOp τ sig Val} {post : List (HloOp τ sig Val)} (hk : ops.drop k = op :: post)
    {y : Ref sig .tc} (hy : y ∉ W.drop (k + 1)) (V : Valuation τ sig Val) :
    after ops V (Proc.devRef .tc y) = op.result (after (ops.take k) V) (Proc.devRef .tc y) := by
  have hpost : ops.drop (k + 1) = post := by
    have := congrArg List.tail hk
    rwa [List.tail_drop, List.tail_cons] at this
  rw [after_take_drop ops k V, hk, after_cons]
  exact after_frame (hpost ▸ h.drop (k + 1)) hy _

theorem stage_nullary {ops : List (HloOp τ sig Val)} {W : List (Ref sig .tc)} (h : Writes ops W) (k : Nat)
    {y : Ref sig .tc} {v : y.ty.Contents Val} {hy} {post : List (HloOp τ sig Val)}
    (hk : ops.drop k = nullary y v hy :: post) (h1 : y ∉ W.drop (k + 1)) (V : Valuation τ sig Val) :
    after ops V (Proc.devRef .tc y) = v := by
  rw [stage_at h k hk h1]; exact nullary_result ..

theorem stage_unary {ops : List (HloOp τ sig Val)} {W : List (Ref sig .tc)} (h : Writes ops W) (k : Nat)
    {x y : Ref sig .tc} {f : x.ty.Contents Val → y.ty.Contents Val} {hx hy} {post : List (HloOp τ sig Val)}
    (hk : ops.drop k = unary x y f hx hy :: post) (h1 : y ∉ W.drop (k + 1)) (h2 : x ∉ W.drop k) (V : Valuation τ sig Val) :
    after ops V (Proc.devRef .tc y) = f (after ops V (Proc.devRef .tc x)) := by
  rw [stage_at h k hk h1, frame_at h k h2]; exact unary_result ..

theorem stage_binary {ops : List (HloOp τ sig Val)} {W : List (Ref sig .tc)} (h : Writes ops W) (k : Nat)
    {a b y : Ref sig .tc} {f : a.ty.Contents Val → b.ty.Contents Val → y.ty.Contents Val} {ha hb hy} {post : List (HloOp τ sig Val)}
    (hk : ops.drop k = binary a b y f ha hb hy :: post) (h1 : y ∉ W.drop (k + 1)) (h2 : a ∉ W.drop k) (h3 : b ∉ W.drop k)
    (V : Valuation τ sig Val) :
    after ops V (Proc.devRef .tc y) = f (after ops V (Proc.devRef .tc a)) (after ops V (Proc.devRef .tc b)) := by
  rw [stage_at h k hk h1, frame_at h k h2, frame_at h k h3]; exact binary_result ..

theorem stage_ternary {ops : List (HloOp τ sig Val)} {W : List (Ref sig .tc)} (h : Writes ops W) (k : Nat)
    {c a b y : Ref sig .tc} {f : c.ty.Contents Val → a.ty.Contents Val → b.ty.Contents Val → y.ty.Contents Val} {hc ha hb hy}
    {post : List (HloOp τ sig Val)}
    (hk : ops.drop k = ternary c a b y f hc ha hb hy :: post) (h1 : y ∉ W.drop (k + 1)) (h2 : c ∉ W.drop k) (h3 : a ∉ W.drop k)
    (h4 : b ∉ W.drop k) (V : Valuation τ sig Val) :
    after ops V (Proc.devRef .tc y)
      = f (after ops V (Proc.devRef .tc c)) (after ops V (Proc.devRef .tc a)) (after ops V (Proc.devRef .tc b)) := by
  rw [stage_at h k hk h1, frame_at h k h2, frame_at h k h3, frame_at h k h4]; exact ternary_result ..

theorem stage_reshape {ops : List (HloOp τ sig Val)} {W : List (Ref sig .tc)} (h : Writes ops W) (k : Nat)
    {x y : Ref sig .tc} {he : x.ty.elt = y.ty.elt} {hn : x.ty.shape.ShapeCasts y.ty.shape} {hx hy} {post : List (HloOp τ sig Val)}
    (hk : ops.drop k = reshape x y he hn hx hy :: post) (h1 : y ∉ W.drop (k + 1)) (h2 : x ∉ W.drop k) (V : Valuation τ sig Val) :
    after ops V (Proc.devRef .tc y) = fun i => he ▸ shapeCast y.ty.shape (after ops V (Proc.devRef .tc x)) hn i := by
  rw [stage_at h k hk h1, frame_at h k h2]; exact reshape_result ..

theorem stage_nary {ops : List (HloOp τ sig Val)} {W : List (Ref sig .tc)} (h : Writes ops W) (k : Nat)
    {n : Nat} {xs : Fin n → Ref sig .tc} {y : Ref sig .tc} {f : ((j : Fin n) → (xs j).ty.Contents Val) → y.ty.Contents Val} {hxs hy}
    {post : List (HloOp τ sig Val)}
    (hk : ops.drop k = nary xs y f hxs hy :: post) (h1 : y ∉ W.drop (k + 1)) (h2 : ∀ j, xs j ∉ W.drop k) (V : Valuation τ sig Val) :
    after ops V (Proc.devRef .tc y) = f (fun j => after ops V (Proc.devRef .tc (xs j))) := by
  rw [stage_at h k hk h1, nary_result]
  exact congrArg f (funext fun j => (frame_at h k (h2 j) V).symm)

end Line

variable {F : FTy → Type} [FloatOps F]

/-! ## @main as one line -/

/-- Statements 1 to 44 of @main: the constant tables, the slice of the three coordinates, the per-pillar mean and the offsets from it, the offsets from the pillar's centre (the two planar ones, then the vertical one). -/
abbrev opsA0 : List (HloOp τ sig (Elt F)) :=
  [ nullary main_cst (fun i => FloatOps.ofBits .f32 (lit0 (S3.rowMajor i))),
    nullary main_cst_0 (fun i => FloatOps.ofBits .f32 (lit1 (S6.rowMajor i))),
    nullary main_c (fun i => lit2 (S3.rowMajor i)),
    nullary main_c_1 (fun i => lit3 (S2.rowMajor i)),
    unary main_arg0 main_v0 ((extractStridedSlice S150000x20x3 ![0, 0, 0] · slices_S150000x20x5_S150000x20x3_0_0_0) : (⟨S150000x20x5, .f32⟩ : BufTy).Contents (Elt F) → (⟨S150000x20x3, .f32⟩ : BufTy).Contents (Elt F)),
    unary main_arg1 main_v1 (sitofp .f32 : (⟨S150000, .i32⟩ : BufTy).Contents (Elt F) → (⟨S150000, .f32⟩ : BufTy).Contents (Elt F)),
    nullary main_cst_2 (constant S_ .f32 0x00000000#32),
    binary main_v0 main_cst_2 main_v2 ((fun x v => Host.reduceAdd x v reducesTo_S150000x20x3_S150000x3_d1 h_S_) : (⟨S150000x20x3, .f32⟩ : BufTy).Contents (Elt F) → (⟨S_, .f32⟩ : BufTy).Contents (Elt F) → (⟨S150000x3, .f32⟩ : BufTy).Contents (Elt F)),
    unary main_v1 main_v3 (broadcastInDim S150000x1 ![0] bcast_S150000_S150000x1_0 : (⟨S150000, .f32⟩ : BufTy).Contents (Elt F) → (⟨S150000x1, .f32⟩ : BufTy).Contents (Elt F)),
    unary main_v3 main_v4 (broadcastInDim S150000x3 ![0, 1] bcast_S150000x1_S150000x3_0_1 : (⟨S150000x1, .f32⟩ : BufTy).Contents (Elt F) → (⟨S150000x3, .f32⟩ : BufTy).Contents (Elt F)),
    binary main_v2 main_v4 main_v5 (Host.divf : (⟨S150000x3, .f32⟩ : BufTy).Contents (Elt F) → (⟨S150000x3, .f32⟩ : BufTy).Contents (Elt F) → (⟨S150000x3, .f32⟩ : BufTy).Contents (Elt F)),
    unary main_v5 main_v6 (broadcastInDim S150000x1x3 ![0, 2] bcast_S150000x3_S150000x1x3_0_2 : (⟨S150000x3, .f32⟩ : BufTy).Contents (Elt F) → (⟨S150000x1x3, .f32⟩ : BufTy).Contents (Elt F)),
    unary main_v6 main_v7 (broadcastInDim S150000x20x3 ![0, 1, 2] bcast_S150000x1x3_S150000x20x3_0_1_2 : (⟨S150000x1x3, .f32⟩ : BufTy).Contents (Elt F) → (⟨S150000x20x3, .f32⟩ : BufTy).Contents (Elt F)),
    binary main_v0 main_v7 main_v8 (subf : (⟨S150000x20x3, .f32⟩ : BufTy).Contents (Elt F) → (⟨S150000x20x3, .f32⟩ : BufTy).Contents (Elt F) → (⟨S150000x20x3, .f32⟩ : BufTy).Contents (Elt F)),
    unary main_arg2 main_v9 ((extractStridedSlice S150000x2 ![0, 2] · slices_S150000x4_S150000x2_0_2) : (⟨S150000x4, .i32⟩ : BufTy).Contents (Elt F) → (⟨S150000x2, .i32⟩ : BufTy).Contents (Elt F)),
    unary main_v9 main_v10 (sitofp .f32 : (⟨S150000x2, .i32⟩ : BufTy).Contents (Elt F) → (⟨S150000x2, .f32⟩ : BufTy).Contents (Elt F)),
    unary main_v10 main_v11 (Host.reverse [1] : (⟨S150000x2, .f32⟩ : BufTy).Contents (Elt F) → (⟨S150000x2, .f32⟩ : BufTy).Contents (Elt F)),
    unary main_v0 main_v12 ((extractStridedSlice S150000x20x2 ![0, 0, 0] · slices_S150000x20x3_S150000x20x2_0_0_0) : (⟨S150000x20x3, .f32⟩ : BufTy).Contents (Elt F) → (⟨S150000x20x2, .f32⟩ : BufTy).Contents (Elt F)),
    nullary main_cst_3 (constant S_ .f32 0x3F000000#32),
    unary main_cst_3 main_v13 (broadcastInDim S150000x2 ![] bcast_S_S150000x2 : (⟨S_, .f32⟩ : BufTy).Contents (Elt F) → (⟨S150000x2, .f32⟩ : BufTy).Contents (Elt F)),
    binary main_v11 main_v13 main_v14 (addf : (⟨S150000x2, .f32⟩ : BufTy).Contents (Elt F) → (⟨S150000x2, .f32⟩ : BufTy).Contents (Elt F) → (⟨S150000x2, .f32⟩ : BufTy).Contents (Elt F)),
    unary main_cst main_v15 ((extractStridedSlice S2 ![0] · slices_S3_S2_0) : (⟨S3, .f32⟩ : BufTy).Contents (Elt F) → (⟨S2, .f32⟩ : BufTy).Contents (Elt F)),
    unary main_v15 main_v16 (broadcastInDim S1x2 ![1] bcast_S2_S1x2_1 : (⟨S2, .f32⟩ : BufTy).Contents (Elt F) → (⟨S1x2, .f32⟩ : BufTy).Contents (Elt F)),
    unary main_v16 main_v17 (broadcastInDim S150000x2 ![0, 1] bcast_S1x2_S150000x2_0_1 : (⟨S1x2, .f32⟩ : BufTy).Contents (Elt F) → (⟨S150000x2, .f32⟩ : BufTy).Contents (Elt F)),
    binary main_v14 main_v17 main_v18 (mulf : (⟨S150000x2, .f32⟩ : BufTy).Contents (Elt F) → (⟨S150000x2, .f32⟩ : BufTy).Contents (Elt F) → (⟨S150000x2, .f32⟩ : BufTy).Contents (Elt F)),
    unary main_cst_0 main_v19 ((extractStridedSlice S2 ![0] · slices_S6_S2_0) : (⟨S6, .f32⟩ : BufTy).Contents (Elt F) → (⟨S2, .f32⟩ : BufTy).Contents (Elt F)),
    unary main_v19 main_v20 (broadcastInDim S1x2 ![1] bcast_S2_S1x2_1 : (⟨S2, .f32⟩ : BufTy).Contents (Elt F) → (⟨S1x2, .f32⟩ : BufTy).Contents (Elt F)),
    unary main_v20 main_v21 (broadcastInDim S150000x2 ![0, 1] bcast_S1x2_S150000x2_0_1 : (⟨S1x2, .f32⟩ : BufTy).Contents (Elt F) → (⟨S150000x2, .f32⟩ : BufTy).Contents (Elt F)),
    binary main_v18 main_v21 main_v22 (addf : (⟨S150000x2, .f32⟩ : BufTy).Contents (Elt F) → (⟨S150000x2, .f32⟩ : BufTy).Contents (Elt F) → (⟨S150000x2, .f32⟩ : BufTy).Contents (Elt F)),
    unary main_v22 main_v23 (broadcastInDim S150000x1x2 ![0, 2] bcast_S150000x2_S150000x1x2_0_2 : (⟨S150000x2, .f32⟩ : BufTy).Contents (Elt F) → (⟨S150000x1x2, .f32⟩ : BufTy).Contents (Elt F)),
    unary main_v23 main_v24 (broadcastInDim S150000x20x2 ![0, 1, 2] bcast_S150000x1x2_S150000x20x2_0_1_2 : (⟨S150000x1x2, .f32⟩ : BufTy).Contents (Elt F) → (⟨S150000x20x2, .f32⟩ : BufTy).Contents (Elt F)),
    binary main_v12 main_v24 main_v25 (subf : (⟨S150000x20x2, .f32⟩ : BufTy).Contents (Elt F) → (⟨S150000x20x2, .f32⟩ : BufTy).Contents (Elt F) → (⟨S150000x20x2, .f32⟩ : BufTy).Contents (Elt F)),
    unary main_v0 main_v26 ((extractStridedSlice S150000x20x1 ![0, 0, 2] · slices_S150000x20x3_S150000x20x1_0_0_2) : (⟨S150000x20x3, .f32⟩ : BufTy).Contents (Elt F) → (⟨S150000x20x1, .f32⟩ : BufTy).Contents (Elt F)),
    reshape main_v26 main_v27 rfl shapeCasts_S150000x20x1_S150000x20,
    unary main_cst main_v28 ((extractStridedSlice S1 ![2] · slices_S3_S1_2) : (⟨S3, .f32⟩ : BufTy).Contents (Elt F) → (⟨S1, .f32⟩ : BufTy).Contents (Elt F)),
    reshape main_v28 main_v29 rfl shapeCasts_S1_S_,
    nullary main_cst_4 (constant S_ .f32 0x3F000000#32),
    binary main_cst_4 main_v29 main_v30 (mulf : (⟨S_, .f32⟩ : BufTy).Contents (Elt F) → (⟨S_, .f32⟩ : BufTy).Contents (Elt F) → (⟨S_, .f32⟩ : BufTy).Contents (Elt F)),
    unary main_cst_0 main_v31 ((extractStridedSlice S1 ![2] · slices_S6_S1_2) : (⟨S6, .f32⟩ : BufTy).Contents (Elt F) → (⟨S1, .f32⟩ : BufTy).Contents (Elt F)),
    reshape main_v31 main_v32 rfl shapeCasts_S1_S_,
    binary main_v30 main_v32 main_v33 (addf : (⟨S_, .f32⟩ : BufTy).Contents (Elt F) → (⟨S_, .f32⟩ : BufTy).Contents (Elt F) → (⟨S_, .f32⟩ : BufTy).Contents (Elt F)),
    unary main_v33 main_v34 (broadcastInDim S150000x20 ![] bcast_S_S150000x20 : (⟨S_, .f32⟩ : BufTy).Contents (Elt F) → (⟨S150000x20, .f32⟩ : BufTy).Contents (Elt F)),
    binary main_v27 main_v34 main_v35 (subf : (⟨S150000x20, .f32⟩ : BufTy).Contents (Elt F) → (⟨S150000x20, .f32⟩ : BufTy).Contents (Elt F) → (⟨S150000x20, .f32⟩ : BufTy).Contents (Elt F)),
    unary main_v35 main_v36 (broadcastInDim S150000x20x1 ![0, 1] bcast_S150000x20_S150000x20x1_0_1 : (⟨S150000x20, .f32⟩ : BufTy).Contents (Elt F) → (⟨S150000x20x1, .f32⟩ : BufTy).Contents (Elt F)) ]

/-- Statements 45 to 51: the centre offsets concatenated, the mask of the nonzero coordinates, the two masked offsets. -/
abbrev opsA1 : List (HloOp τ sig (Elt F)) :=
  [ binary main_v25 main_v36 main_v37 ((fun a b => concatenate S150000x20x3 2 [⟨S150000x20x2, a⟩, ⟨S150000x20x1, b⟩] concatenates_S150000x20x2_S150000x20x1_S150000x20x3_d2) : (⟨S150000x20x2, .f32⟩ : BufTy).Contents (Elt F) → (⟨S150000x20x1, .f32⟩ : BufTy).Contents (Elt F) → (⟨S150000x20x3, .f32⟩ : BufTy).Contents (Elt F)),
    nullary main_cst_5 (constant S_ .f32 0x00000000#32),
    unary main_cst_5 main_v38 (broadcastInDim S150000x20x3 ![] bcast_S_S150000x20x3 : (⟨S_, .f32⟩ : BufTy).Contents (Elt F) → (⟨S150000x20x3, .f32⟩ : BufTy).Contents (Elt F)),
    binary main_v0 main_v38 main_v39 (cmpf .une : (⟨S150000x20x3, .f32⟩ : BufTy).Contents (Elt F) → (⟨S150000x20x3, .f32⟩ : BufTy).Contents (Elt F) → (⟨S150000x20x3, .i1⟩ : BufTy).Contents (Elt F)),
    unary main_v39 main_v40 (uitofp .f32 : (⟨S150000x20x3, .i1⟩ : BufTy).Contents (Elt F) → (⟨S150000x20x3, .f32⟩ : BufTy).Contents (Elt F)),
    binary main_v37 main_v40 main_v41 (mulf : (⟨S150000x20x3, .f32⟩ : BufTy).Contents (Elt F) → (⟨S150000x20x3, .f32⟩ : BufTy).Contents (Elt F) → (⟨S150000x20x3, .f32⟩ : BufTy).Contents (Elt F)),
    binary main_v8 main_v40 main_v42 (mulf : (⟨S150000x20x3, .f32⟩ : BufTy).Contents (Elt F) → (⟨S150000x20x3, .f32⟩ : BufTy).Contents (Elt F) → (⟨S150000x20x3, .f32⟩ : BufTy).Contents (Elt F)) ]

/-- Statements 52 to 59 and the variance function inlined at its call: the nine features concatenated, the linear layer, its mean over all points, and the variance with its guard (the inner selection inlined in turn). -/
abbrev opsA2 : List (HloOp τ sig (Elt F)) :=
  [ nary ![main_v0, main_v41, main_v42] main_v43 (fun u => concatenate S150000x20x9 2 [⟨S150000x20x3, u 0⟩, ⟨S150000x20x3, u 1⟩, ⟨S150000x20x3, u 2⟩] concatenates_S150000x20x3_S150000x20x3_S150000x20x3_S150000x20x9_d2),
    binary main_v43 main_arg3 main_v44 ((fun l r => Host.dotGeneral dot_S150000x20x9_S64x9_S150000x20x64_2_1_01_0_n_n none l r) : (⟨S150000x20x9, .f32⟩ : BufTy).Contents (Elt F) → (⟨S64x9, .f32⟩ : BufTy).Contents (Elt F) → (⟨S150000x20x64, .f32⟩ : BufTy).Contents (Elt F)),
    nullary main_cst_6 (constant S_ .f32 0x00000000#32),
    binary main_v44 main_cst_6 main_v45 ((fun x v => Host.reduceAdd x v reducesTo_S150000x20x64_S64_d0_1 h_S_) : (⟨S150000x20x64, .f32⟩ : BufTy).Contents (Elt F) → (⟨S_, .f32⟩ : BufTy).Contents (Elt F) → (⟨S64, .f32⟩ : BufTy).Contents (Elt F)),
    nullary main_cst_7 (constant S_ .f32 0x4A371B00#32),
    unary main_cst_7 main_v46 (broadcastInDim S64 ![] bcast_S_S64 : (⟨S_, .f32⟩ : BufTy).Contents (Elt F) → (⟨S64, .f32⟩ : BufTy).Contents (Elt F)),
    binary main_v45 main_v46 main_v47 (Host.divf : (⟨S64, .f32⟩ : BufTy).Contents (Elt F) → (⟨S64, .f32⟩ : BufTy).Contents (Elt F) → (⟨S64, .f32⟩ : BufTy).Contents (Elt F)),
    nullary main_c_8 (constantI S_ 32 0#32),
    TRef.nullary main_call0.cst (constant S_ .f32 0x00000000#32),
    TRef.binary (TRef.of main_v44 : TRef sig ⟨S150000x20x64, .f32⟩) main_call0.cst main_call0.v0 (fun x v => Host.reduceAdd x v reducesTo_S150000x20x64_S64_d0_1 h_S_),
    TRef.unary main_call0.v0 main_call0.v1 (broadcastInDim S1x1x64 ![2] bcast_S64_S1x1x64_2),
    TRef.nullary main_call0.cst_0 (constant S_ .f32 0x4A371B00#32),
    TRef.unary main_call0.cst_0 main_call0.v2 (broadcastInDim S1x1x64 ![] bcast_S_S1x1x64),
    TRef.binary main_call0.v1 main_call0.v2 main_call0.v3 Host.divf,
    TRef.unary main_call0.v3 main_call0.v4 (broadcastInDim S150000x20x64 ![0, 1, 2] bcast_S1x1x64_S150000x20x64_0_1_2),
    TRef.binary (TRef.of main_v44 : TRef sig ⟨S150000x20x64, .f32⟩) main_call0.v4 main_call0.v5 subf,
    TRef.binary main_call0.v5 main_call0.v5 main_call0.v6 mulf,
    TRef.unary (TRef.of main_c_8 : TRef sig ⟨S_, .i32⟩) main_call0.v7 (sitofp .f32),
    TRef.nullary main_call0.cst_1 (constant S_ .f32 0x4A371B00#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S150000x20x64_S64_d0_1 h_S_),
    TRef.unary main_call0.v8 main_call0.v10 (broadcastInDim S64 ![] bcast_S_S64),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S64 ![] bcast_S_S64),
    TRef.ternary main_call0.v12 main_call0.v11 main_call0.call0.v1 main_call0.call0.v2 (fun p a b => select (broadcastInDim S64 ![] bcast_S_S64 p) a b) ]

/-- Statements 61 to 103: the normalisation, scale and shift, the rectifier inlined at its call, the maximum over each pillar's points, the gather of three coordinate columns, and the grid-size computation. -/
abbrev opsB : List (HloOp τ sig (Elt F)) :=
  [ unary main_v47 main_v49 (broadcastInDim S1x1x64 ![2] bcast_S64_S1x1x64_2 : (⟨S64, .f32⟩ : BufTy).Contents (Elt F) → (⟨S1x1x64, .f32⟩ : BufTy).Contents (Elt F)),
    unary main_v49 main_v50 (broadcastInDim S150000x20x64 ![0, 1, 2] bcast_S1x1x64_S150000x20x64_0_1_2 : (⟨S1x1x64, .f32⟩ : BufTy).Contents (Elt F) → (⟨S150000x20x64, .f32⟩ : BufTy).Contents (Elt F)),
    binary main_v44 main_v50 main_v51 (subf : (⟨S150000x20x64, .f32⟩ : BufTy).Contents (Elt F) → (⟨S150000x20x64, .f32⟩ : BufTy).Contents (Elt F) → (⟨S150000x20x64, .f32⟩ : BufTy).Contents (Elt F)),
    nullary main_cst_9 (constant S_ .f32 0x3A83126F#32),
    unary main_cst_9 main_v52 (broadcastInDim S64 ![] bcast_S_S64 : (⟨S_, .f32⟩ : BufTy).Contents (Elt F) → (⟨S64, .f32⟩ : BufTy).Contents (Elt F)),
    binary main_v48 main_v52 main_v53 (addf : (⟨S64, .f32⟩ : BufTy).Contents (Elt F) → (⟨S64, .f32⟩ : BufTy).Contents (Elt F) → (⟨S64, .f32⟩ : BufTy).Contents (Elt F)),
    unary main_v53 main_v54 (Host.rsqrt : (⟨S64, .f32⟩ : BufTy).Contents (Elt F) → (⟨S64, .f32⟩ : BufTy).Contents (Elt F)),
    unary main_v54 main_v55 (broadcastInDim S1x1x64 ![2] bcast_S64_S1x1x64_2 : (⟨S64, .f32⟩ : BufTy).Contents (Elt F) → (⟨S1x1x64, .f32⟩ : BufTy).Contents (Elt F)),
    unary main_v55 main_v56 (broadcastInDim S150000x20x64 ![0, 1, 2] bcast_S1x1x64_S150000x20x64_0_1_2 : (⟨S1x1x64, .f32⟩ : BufTy).Contents (Elt F) → (⟨S150000x20x64, .f32⟩ : BufTy).Contents (Elt F)),
    binary main_v51 main_v56 main_v57 (mulf : (⟨S150000x20x64, .f32⟩ : BufTy).Contents (Elt F) → (⟨S150000x20x64, .f32⟩ : BufTy).Contents (Elt F) → (⟨S150000x20x64, .f32⟩ : BufTy).Contents (Elt F)),
    unary main_arg4 main_v58 (broadcastInDim S1x1x64 ![2] bcast_S64_S1x1x64_2 : (⟨S64, .f32⟩ : BufTy).Contents (Elt F) → (⟨S1x1x64, .f32⟩ : BufTy).Contents (Elt F)),
    unary main_v58 main_v59 (broadcastInDim S150000x20x64 ![0, 1, 2] bcast_S1x1x64_S150000x20x64_0_1_2 : (⟨S1x1x64, .f32⟩ : BufTy).Contents (Elt F) → (⟨S150000x20x64, .f32⟩ : BufTy).Contents (Elt F)),
    binary main_v57 main_v59 main_v60 (mulf : (⟨S150000x20x64, .f32⟩ : BufTy).Contents (Elt F) → (⟨S150000x20x64, .f32⟩ : BufTy).Contents (Elt F) → (⟨S150000x20x64, .f32⟩ : BufTy).Contents (Elt F)),
    unary main_arg5 main_v61 (broadcastInDim S1x1x64 ![2] bcast_S64_S1x1x64_2 : (⟨S64, .f32⟩ : BufTy).Contents (Elt F) → (⟨S1x1x64, .f32⟩ : BufTy).Contents (Elt F)),
    unary main_v61 main_v62 (broadcastInDim S150000x20x64 ![0, 1, 2] bcast_S1x1x64_S150000x20x64_0_1_2 : (⟨S1x1x64, .f32⟩ : BufTy).Contents (Elt F) → (⟨S150000x20x64, .f32⟩ : BufTy).Contents (Elt F)),
    binary main_v60 main_v62 main_v63 (addf : (⟨S150000x20x64, .f32⟩ : BufTy).Contents (Elt F) → (⟨S150000x20x64, .f32⟩ : BufTy).Contents (Elt F) → (⟨S150000x20x64, .f32⟩ : BufTy).Contents (Elt F)),
    TRef.nullary main_call1.cst (constant S_ .f32 0x00000000#32),
    TRef.unary main_call1.cst main_call1.v0 (broadcastInDim S150000x20x64 ![] bcast_S_S150000x20x64),
    TRef.binary (TRef.of main_v63 : TRef sig ⟨S150000x20x64, .f32⟩) main_call1.v0 main_call1.v1 maximumf,
    nullary main_cst_10 (constant S_ .f32 0xFF800000#32),
    binary main_v64 main_cst_10 main_v65 ((fun x v => Host.reduce FloatOps.maximumf x v reducesTo_S150000x20x64_S150000x64_d1 h_S_) : (⟨S150000x20x64, .f32⟩ : BufTy).Contents (Elt F) → (⟨S_, .f32⟩ : BufTy).Contents (Elt F) → (⟨S150000x64, .f32⟩ : BufTy).Contents (Elt F)),
    nullary main_c_11 (constantI S_ 32 0#32),
    unary main_c_11 main_v66 (broadcastInDim S3 ![] bcast_S_S3 : (⟨S_, .i32⟩ : BufTy).Contents (Elt F) → (⟨S3, .i32⟩ : BufTy).Contents (Elt F)),
    binary main_c main_v66 main_v67 (cmpi .slt : (⟨S3, .i32⟩ : BufTy).Contents (Elt F) → (⟨S3, .i32⟩ : BufTy).Contents (Elt F) → (⟨S3, .i1⟩ : BufTy).Contents (Elt F)),
    nullary main_c_12 (constantI S_ 32 4#32),
    unary main_c_12 main_v68 (broadcastInDim S3 ![] bcast_S_S3 : (⟨S_, .i32⟩ : BufTy).Contents (Elt F) → (⟨S3, .i32⟩ : BufTy).Contents (Elt F)),
    binary main_c main_v68 main_v69 (addi : (⟨S3, .i32⟩ : BufTy).Contents (Elt F) → (⟨S3, .i32⟩ : BufTy).Contents (Elt F) → (⟨S3, .i32⟩ : BufTy).Contents (Elt F)),
    ternary main_v67 main_v69 main_c main_v70 (select : (⟨S3, .i1⟩ : BufTy).Contents (Elt F) → (⟨S3, .i32⟩ : BufTy).Contents (Elt F) → (⟨S3, .i32⟩ : BufTy).Contents (Elt F) → (⟨S3, .i32⟩ : BufTy).Contents (Elt F)),
    unary main_v70 main_v71 (broadcastInDim S3x1 ![0] bcast_S3_S3x1_0 : (⟨S3, .i32⟩ : BufTy).Contents (Elt F) → (⟨S3x1, .i32⟩ : BufTy).Contents (Elt F)),
    binary main_arg2 main_v71 main_v72 ((fun x i => Host.gather gather_S150000x4_S3x1_S150000x3_0_1_n_n_1_1_1500001 x i) : (⟨S150000x4, .i32⟩ : BufTy).Contents (Elt F) → (⟨S3x1, .i32⟩ : BufTy).Contents (Elt F) → (⟨S150000x3, .i32⟩ : BufTy).Contents (Elt F)),
    unary main_cst_0 main_v73 ((extractStridedSlice S3 ![3] · slices_S6_S3_3) : (⟨S6, .f32⟩ : BufTy).Contents (Elt F) → (⟨S3, .f32⟩ : BufTy).Contents (Elt F)),
    unary main_cst_0 main_v74 ((extractStridedSlice S3 ![0] · slices_S6_S3_0) : (⟨S6, .f32⟩ : BufTy).Contents (Elt F) → (⟨S3, .f32⟩ : BufTy).Contents (Elt F)),
    binary main_v73 main_v74 main_v75 (subf : (⟨S3, .f32⟩ : BufTy).Contents (Elt F) → (⟨S3, .f32⟩ : BufTy).Contents (Elt F) → (⟨S3, .f32⟩ : BufTy).Contents (Elt F)),
    binary main_v75 main_cst main_v76 (Host.divf : (⟨S3, .f32⟩ : BufTy).Contents (Elt F) → (⟨S3, .f32⟩ : BufTy).Contents (Elt F) → (⟨S3, .f32⟩ : BufTy).Contents (Elt F)),
    unary main_v76 main_v77 (Host.ceil : (⟨S3, .f32⟩ : BufTy).Contents (Elt F) → (⟨S3, .f32⟩ : BufTy).Contents (Elt F)),
    nullary main_c_13 (constantI S_ 32 0#32),
    unary main_c_13 main_v78 (broadcastInDim S2 ![] bcast_S_S2 : (⟨S_, .i32⟩ : BufTy).Contents (Elt F) → (⟨S2, .i32⟩ : BufTy).Contents (Elt F)),
    binary main_c_1 main_v78 main_v79 (cmpi .slt : (⟨S2, .i32⟩ : BufTy).Contents (Elt F) → (⟨S2, .i32⟩ : BufTy).Contents (Elt F) → (⟨S2, .i1⟩ : BufTy).Contents (Elt F)),
    nullary main_c_14 (constantI S_ 32 3#32),
    unary main_c_14 main_v80 (broadcastInDim S2 ![] bcast_S_S2 : (⟨S_, .i32⟩ : BufTy).Contents (Elt F) → (⟨S2, .i32⟩ : BufTy).Contents (Elt F)),
    binary main_c_1 main_v80 main_v81 (addi : (⟨S2, .i32⟩ : BufTy).Contents (Elt F) → (⟨S2, .i32⟩ : BufTy).Contents (Elt F) → (⟨S2, .i32⟩ : BufTy).Contents (Elt F)),
    ternary main_v79 main_v81 main_c_1 main_v82 (select : (⟨S2, .i1⟩ : BufTy).Contents (Elt F) → (⟨S2, .i32⟩ : BufTy).Contents (Elt F) → (⟨S2, .i32⟩ : BufTy).Contents (Elt F) → (⟨S2, .i32⟩ : BufTy).Contents (Elt F)),
    unary main_v82 main_v83 (broadcastInDim S2x1 ![0] bcast_S2_S2x1_0 : (⟨S2, .i32⟩ : BufTy).Contents (Elt F) → (⟨S2x1, .i32⟩ : BufTy).Contents (Elt F)),
    binary main_v77 main_v83 main_v84 ((fun x i => Host.gather gather_S3_S2x1_S2_n_0_n_n_0_1_1 x i) : (⟨S3, .f32⟩ : BufTy).Contents (Elt F) → (⟨S2x1, .i32⟩ : BufTy).Contents (Elt F) → (⟨S2, .f32⟩ : BufTy).Contents (Elt F)) ]

/-- @main's 125 operations, in order. -/
abbrev ops : List (HloOp τ sig (Elt F)) := opsA0 ++ opsA1 ++ opsA2 ++ opsB

/-- The reference each operation writes, in order. -/
abbrev written : List (Ref sig .tc) :=
  [ main_cst, main_cst_0, main_c, main_c_1, main_v0, main_v1, main_cst_2, main_v2,
    main_v3, main_v4, main_v5, main_v6, main_v7, main_v8, main_v9, main_v10,
    main_v11, main_v12, main_cst_3, main_v13, main_v14, main_v15, main_v16, main_v17,
    main_v18, main_v19, main_v20, main_v21, main_v22, main_v23, main_v24, main_v25,
    main_v26, main_v27, main_v28, main_v29, main_cst_4, main_v30, main_v31, main_v32,
    main_v33, main_v34, main_v35, main_v36, main_v37, main_cst_5, main_v38, main_v39,
    main_v40, main_v41, main_v42, main_v43, main_v44, main_cst_6, main_v45, main_cst_7,
    main_v46, main_v47, main_c_8, main_call0_cst, main_call0_v0, main_call0_v1, main_call0_cst_0, main_call0_v2,
    main_call0_v3, main_call0_v4, main_call0_v5, main_call0_v6, main_call0_v7, main_call0_cst_1, main_call0_v8, main_call0_cst_2,
    main_call0_v9, main_call0_v10, main_call0_v11, main_call0_cst_3, main_call0_v12, main_call0_cst_4, main_call0_call0_v0, main_call0_call0_v1,
    main_v48, main_v49, main_v50, main_v51, main_cst_9, main_v52, main_v53, main_v54,
    main_v55, main_v56, main_v57, main_v58, main_v59, main_v60, main_v61, main_v62,
    main_v63, main_call1_cst, main_call1_v0, main_v64, main_cst_10, main_v65, main_c_11, main_v66,
    main_v67, main_c_12, main_v68, main_v69, main_v70, main_v71, main_v72, main_v73,
    main_v74, main_v75, main_v76, main_v77, main_c_13, main_v78, main_v79, main_c_14,
    main_v80, main_v81, main_v82, main_v83, main_v84 ]

/-! ## The line's bookkeeping: what it writes, that it stays on the TensorCore's buffers, that it determines its results -/

set_option maxRecDepth 8192 in
/-- Operation by operation the line writes `written`: each builder's `writes` is the singleton of its result. -/
theorem writes_ops : Writes (τ := τ) (ops (F := F)) written := by
  repeat (first | exact List.Forall₂.nil | refine List.Forall₂.cons rfl ?_)

theorem opsA0_sub : (opsA0 : List (HloOp τ sig (Elt F))).Forall fun op => op.bufs ⊆ tcRefs τ sig :=
  ⟨nullary_bufs_sub .., nullary_bufs_sub .., nullary_bufs_sub .., nullary_bufs_sub .., unary_bufs_sub .., unary_bufs_sub ..,
    nullary_bufs_sub .., binary_bufs_sub .., unary_bufs_sub .., unary_bufs_sub .., binary_bufs_sub .., unary_bufs_sub ..,
    unary_bufs_sub .., binary_bufs_sub .., unary_bufs_sub .., unary_bufs_sub .., unary_bufs_sub .., unary_bufs_sub ..,
    nullary_bufs_sub .., unary_bufs_sub .., binary_bufs_sub .., unary_bufs_sub .., unary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., reshape_bufs_sub .., unary_bufs_sub .., reshape_bufs_sub ..,
    nullary_bufs_sub .., binary_bufs_sub .., unary_bufs_sub .., reshape_bufs_sub .., binary_bufs_sub .., unary_bufs_sub ..,
    binary_bufs_sub .., unary_bufs_sub ..⟩
theorem opsA0_fresh : (opsA0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

theorem opsA1_sub : (opsA1 : List (HloOp τ sig (Elt F))).Forall fun op => op.bufs ⊆ tcRefs τ sig :=
  ⟨binary_bufs_sub .., nullary_bufs_sub .., unary_bufs_sub .., binary_bufs_sub .., unary_bufs_sub .., binary_bufs_sub ..,
    binary_bufs_sub ..⟩
theorem opsA1_fresh : (opsA1 : List (HloOp τ sig (Elt F))).Forall fun op => op.fresh = ∅ :=
  ⟨rfl, rfl, rfl, rfl, rfl, rfl, rfl⟩

theorem opsA2_sub : (opsA2 : List (HloOp τ sig (Elt F))).Forall fun op => op.bufs ⊆ tcRefs τ sig :=
  ⟨nary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..⟩
theorem opsA2_fresh : (opsA2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

theorem opsB_sub : (opsB : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub ..⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

theorem ops_sub : (ops : List (HloOp τ sig (Elt F))).Forall fun op => op.bufs ⊆ tcRefs τ sig :=
  List.forall_append.mpr ⟨List.forall_append.mpr ⟨List.forall_append.mpr ⟨opsA0_sub, opsA1_sub⟩, opsA2_sub⟩, opsB_sub⟩

theorem ops_fresh : ∀ op ∈ (ops : List (HloOp τ sig (Elt F))), op.fresh = ∅ :=
  List.forall_iff_forall_mem.mp
    (List.forall_append.mpr ⟨List.forall_append.mpr ⟨List.forall_append.mpr ⟨opsA0_fresh, opsA1_fresh⟩, opsA2_fresh⟩, opsB_fresh⟩)

theorem scopedRefs_eq : (Finset.univ.filter fun b : Ref sig .tc => b.isScoped) = ∅ := by decide
theorem scopedSems_eq : (Finset.univ.filter fun sm : SemLoc sig => sm.isScoped .tc) = ∅ := by decide

/-! ## @main is the line -/

set_option maxRecDepth 8192 in
set_option maxHeartbeats 4000000 in
/-- The first window with the variance function unfolded at its call (and the selection inside it). -/
theorem main_part0_eq (c : Dev nD) : main_part0 (F := F) c = seq (opsA0 ++ opsA1 ++ opsA2) := by
  simp only [main_part0, fn_var.body, fn_where.body, opsA0, opsA1, opsA2, List.cons_append, List.nil_append, seq, bind_assoc, pure_bind]

set_option maxRecDepth 8192 in
set_option maxHeartbeats 4000000 in
/-- The second window with the rectifier unfolded at its call. -/
theorem main_part1_eq (c : Dev nD) : main_part1 (F := F) c = seq opsB := by
  simp only [main_part1, fn_relu.body, seq, bind_assoc, pure_bind]

/-- @main is its two windows in order, so the whole line. -/
theorem main_eq (c : Dev nD) : main (F := F) c = seq ops := by
  show (main_part0 (F := F) c >>= fun _ => main_part1 (F := F) c) = seq ((opsA0 ++ opsA1 ++ opsA2) ++ opsB)
  rw [main_part0_eq, main_part1_eq]
  exact (seq_append _ _).symm

/-! ## The run -/

/-- The device's buffers when @main has run from memory `m`: the line's fold over the launch contents. -/
def exitV (m : (ℓ : Loc nD τ sig) → Buf (Elt F) ℓ) (c : Dev nD) : Valuation τ sig (Elt F) :=
  after ops (fun b => m (c, b))

/-- On every device, for any float values, from any memory with zero counters: every weakly fair execution of @main
    terminates with every TensorCore buffer at `exitV`. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = exitV m c (Proc.devRef .tc b) :=
  run_seq scopedRefs_eq scopedSems_eq defs main (fun _ => ops) main_eq (fun _ => ops_sub) m ρ (fun _ => ops_fresh)

/-! ## The arguments are not written -/

theorem exitV_arg0 (m : (ℓ : Loc nD τ sig) → Buf (Elt F) ℓ) (c : Dev nD) :
    exitV m c (Proc.devRef .tc main_arg0) = m ((c.tc : Thread nD τ).loc main_arg0) :=
  after_frame writes_ops (by decide) _

theorem exitV_arg1 (m : (ℓ : Loc nD τ sig) → Buf (Elt F) ℓ) (c : Dev nD) :
    exitV m c (Proc.devRef .tc main_arg1) = m ((c.tc : Thread nD τ).loc main_arg1) :=
  after_frame writes_ops (by decide) _

theorem exitV_arg2 (m : (ℓ : Loc nD τ sig) → Buf (Elt F) ℓ) (c : Dev nD) :
    exitV m c (Proc.devRef .tc main_arg2) = m ((c.tc : Thread nD τ).loc main_arg2) :=
  after_frame writes_ops (by decide) _

theorem exitV_arg3 (m : (ℓ : Loc nD τ sig) → Buf (Elt F) ℓ) (c : Dev nD) :
    exitV m c (Proc.devRef .tc main_arg3) = m ((c.tc : Thread nD τ).loc main_arg3) :=
  after_frame writes_ops (by decide) _

theorem exitV_arg4 (m : (ℓ : Loc nD τ sig) → Buf (Elt F) ℓ) (c : Dev nD) :
    exitV m c (Proc.devRef .tc main_arg4) = m ((c.tc : Thread nD τ).loc main_arg4) :=
  after_frame writes_ops (by decide) _

theorem exitV_arg5 (m : (ℓ : Loc nD τ sig) → Buf (Elt F) ℓ) (c : Dev nD) :
    exitV m c (Proc.devRef .tc main_arg5) = m ((c.tc : Thread nD τ).loc main_arg5) :=
  after_frame writes_ops (by decide) _

/-! ## Every value at the end of the run: its operation over its operands' final contents

One equation per operation of the line, in program order. The operation at position `k` writes its result, which no
later operation writes; its operands are written before position `k` or never; so at the END of the run the result is
the operation's function of the operands' contents at the end of the run. -/

theorem exitV_main_cst (m : (ℓ : Loc nD τ sig) → Buf (Elt F) ℓ) (c : Dev nD) :
    exitV m c (Proc.devRef .tc main_cst) = (fun i => FloatOps.ofBits .f32 (lit0 (S3.rowMajor i)) : (⟨S3, .f32⟩ : BufTy).Contents (Elt F)) :=
  (stage_nullary writes_ops 0 (y := main_cst) rfl (by decide) _).trans rfl

theorem exitV_main_cst_0 (m : (ℓ : Loc nD τ sig) → Buf (Elt F) ℓ) (c : Dev nD) :
    exitV m c (Proc.devRef .tc main_cst_0) = (fun i => FloatOps.ofBits .f32 (lit1 (S6.rowMajor i)) : (⟨S6, .f32⟩ : BufTy).Contents (Elt F)) :=
  (stage_nullary writes_ops 1 (y := main_cst_0) rfl (by decide) _).trans rfl

theorem exitV_main_c (m : (ℓ : Loc nD τ sig) → Buf (Elt F) ℓ) (c : Dev nD) :
    exitV m c (Proc.devRef .tc main_c) = (fun i => lit2 (S3.rowMajor i) : (⟨S3, .i32⟩ : BufTy).Contents (Elt F)) :=
  (stage_nullary writes_ops 2 (y := main_c) rfl (by decide) _).trans rfl

theorem exitV_main_c_1 (m : (ℓ : Loc nD τ sig) → Buf (Elt F) ℓ) (c : Dev nD) :
    exitV m c (Proc.devRef .tc main_c_1) = (fun i => lit3 (S2.rowMajor i) : (⟨S2, .i32⟩ : BufTy).Contents (Elt F)) :=
  (stage_nullary writes_ops 3 (y := main_c_1) rfl (by decide) _).trans rfl

theorem exitV_main_v0 (m : (ℓ : Loc nD τ sig) → Buf (Elt F) ℓ) (c : Dev nD) :
    exitV m c (Proc.devRef .tc main_v0) = ((extractStridedSlice S150000x20x3 ![0, 0, 0] · slices_S150000x20x5_S150000x20x3_0_0_0) : (⟨S150000x20x5, .f32⟩ : BufTy).Contents (Elt F) → (⟨S150000x20x3, .f32⟩ : BufTy).Contents (Elt F)) (exitV m c (Proc.devRef .tc main_arg0)) :=
  (stage_unary writes_ops 4 (x := main_arg0) (y := main_v0) rfl (by decide) (by decide) _).trans rfl

theorem exitV_main_v1 (m : (ℓ : Loc nD τ sig) → Buf (Elt F) ℓ) (c : Dev nD) :
    exitV m c (Proc.devRef .tc main_v1) = (sitofp .f32 : (⟨S150000, .i32⟩ : BufTy).Contents (Elt F) → (⟨S150000, .f32⟩ : BufTy).Contents (Elt F)) (exitV m c (Proc.devRef .tc main_arg1)) :=
  (stage_unary writes_ops 5 (x := main_arg1) (y := main_v1) rfl (by decide) (by decide) _).trans rfl

theorem exitV_main_cst_2 (m : (ℓ : Loc nD τ sig) → Buf (Elt F) ℓ) (c : Dev nD) :
    exitV m c (Proc.devRef .tc main_cst_2) = (constant S_ .f32 0x00000000#32 : (⟨S_, .f32⟩ : BufTy).Contents (Elt F)) :=
  (stage_nullary writes_ops 6 (y := main_cst_2) rfl (by decide) _).trans rfl

theorem exitV_main_v2 (m : (ℓ : Loc nD τ sig) → Buf (Elt F) ℓ) (c : Dev nD) :
    exitV m c (Proc.devRef .tc main_v2) = ((fun x v => Host.reduceAdd x v reducesTo_S150000x20x3_S150000x3_d1 h_S_) : (⟨S150000x20x3, .f32⟩ : BufTy).Contents (Elt F) → (⟨S_, .f32⟩ : BufTy).Contents (Elt F) → (⟨S150000x3, .f32⟩ : BufTy).Contents (Elt F)) (exitV m c (Proc.devRef .tc main_v0)) (exitV m c (Proc.devRef .tc main_cst_2)) :=
  (stage_binary writes_ops 7 (a := main_v0) (b := main_cst_2) (y := main_v2) rfl (by decide) (by decide) (by decide) _).trans rfl

theorem exitV_main_v3 (m : (ℓ : Loc nD τ sig) → Buf (Elt F) ℓ) (c : Dev nD) :
    exitV m c (Proc.devRef .tc main_v3) = (broadcastInDim S150000x1 ![0] bcast_S150000_S150000x1_0 : (⟨S150000, .f32⟩ : BufTy).Contents (Elt F) → (⟨S150000x1, .f32⟩ : BufTy).Contents (Elt F)) (exitV m c (Proc.devRef .tc main_v1)) :=
  (stage_unary writes_ops 8 (x := main_v1) (y := main_v3) rfl (by decide) (by decide) _).trans rfl

theorem exitV_main_v4 (m : (ℓ : Loc nD τ sig) → Buf (Elt F) ℓ) (c : Dev nD) :
    exitV m c (Proc.devRef .tc main_v4) = (broadcastInDim S150000x3 ![0, 1] bcast_S150000x1_S150000x3_0_1 : (⟨S150000x1, .f32⟩ : BufTy).Contents (Elt F) → (⟨S150000x3, .f32⟩ : BufTy).Contents (Elt F)) (exitV m c (Proc.devRef .tc main_v3)) :=
  (stage_unary writes_ops 9 (x := main_v3) (y := main_v4) rfl (by decide) (by decide) _).trans rfl

theorem exitV_main_v5 (m : (ℓ : Loc nD τ sig) → Buf (Elt F) ℓ) (c : Dev nD) :
    exitV m c (Proc.devRef .tc main_v5) = (Host.divf : (⟨S150000x3, .f32⟩ : BufTy).Contents (Elt F) → (⟨S150000x3, .f32⟩ : BufTy).Contents (Elt F) → (⟨S150000x3, .f32⟩ : BufTy).Contents (Elt F)) (exitV m c (Proc.devRef .tc main_v2)) (exitV m c (Proc.devRef .tc main_v4)) :=
  (stage_binary writes_ops 10 (a := main_v2) (b := main_v4) (y := main_v5) rfl (by decide) (by decide) (by decide) _).trans rfl

theorem exitV_main_v6 (m : (ℓ : Loc nD τ sig) → Buf (Elt F) ℓ) (c : Dev nD) :
    exitV m c (Proc.devRef .tc main_v6) = (broadcastInDim S150000x1x3 ![0, 2] bcast_S150000x3_S150000x1x3_0_2 : (⟨S150000x3, .f32⟩ : BufTy).Contents (Elt F) → (⟨S150000x1x3, .f32⟩ : BufTy).Contents (Elt F)) (exitV m c (Proc.devRef .tc main_v5)) :=
  (stage_unary writes_ops 11 (x := main_v5) (y := main_v6) rfl (by decide) (by decide) _).trans rfl

theorem exitV_main_v7 (m : (ℓ : Loc nD τ sig) → Buf (Elt F) ℓ) (c : Dev nD) :
    exitV m c (Proc.devRef .tc main_v7) = (broadcastInDim S150000x20x3 ![0, 1, 2] bcast_S150000x1x3_S150000x20x3_0_1_2 : (⟨S150000x1x3, .f32⟩ : BufTy).Contents (Elt F) → (⟨S150000x20x3, .f32⟩ : BufTy).Contents (Elt F)) (exitV m c (Proc.devRef .tc main_v6)) :=
  (stage_unary writes_ops 12 (x := main_v6) (y := main_v7) rfl (by decide) (by decide) _).trans rfl

theorem exitV_main_v8 (m : (ℓ : Loc nD τ sig) → Buf (Elt F) ℓ) (c : Dev nD) :
    exitV m c (Proc.devRef .tc main_v8) = (subf : (⟨S150000x20x3, .f32⟩ : BufTy).Contents (Elt F) → (⟨S150000x20x3, .f32⟩ : BufTy).Contents (Elt F) → (⟨S150000x20x3, .f32⟩ : BufTy).Contents (Elt F)) (exitV m c (Proc.devRef .tc main_v0)) (exitV m c (Proc.devRef .tc main_v7)) :=
  (stage_binary writes_ops 13 (a := main_v0) (b := main_v7) (y := main_v8) rfl (by decide) (by decide) (by decide) _).trans rfl

theorem exitV_main_v9 (m : (ℓ : Loc nD τ sig) → Buf (Elt F) ℓ) (c : Dev nD) :
    exitV m c (Proc.devRef .tc main_v9) = ((extractStridedSlice S150000x2 ![0, 2] · slices_S150000x4_S150000x2_0_2) : (⟨S150000x4, .i32⟩ : BufTy).Contents (Elt F) → (⟨S150000x2, .i32⟩ : BufTy).Contents (Elt F)) (exitV m c (Proc.devRef .tc main_arg2)) :=
  (stage_unary writes_ops 14 (x := main_arg2) (y := main_v9) rfl (by decide) (by decide) _).trans rfl

theorem exitV_main_v10 (m : (ℓ : Loc nD τ sig) → Buf (Elt F) ℓ) (c : Dev nD) :
    exitV m c (Proc.devRef .tc main_v10) = (sitofp .f32 : (⟨S150000x2, .i32⟩ : BufTy).Contents (Elt F) → (⟨S150000x2, .f32⟩ : BufTy).Contents (Elt F)) (exitV m c (Proc.devRef .tc main_v9)) :=
  (stage_unary writes_ops 15 (x := main_v9) (y := main_v10) rfl (by decide) (by decide) _).trans rfl

theorem exitV_main_v11 (m : (ℓ : Loc nD τ sig) → Buf (Elt F) ℓ) (c : Dev nD) :
    exitV m c (Proc.devRef .tc main_v11) = (Host.reverse [1] : (⟨S150000x2, .f32⟩ : BufTy).Contents (Elt F) → (⟨S150000x2, .f32⟩ : BufTy).Contents (Elt F)) (exitV m c (Proc.devRef .tc main_v10)) :=
  (stage_unary writes_ops 16 (x := main_v10) (y := main_v11) rfl (by decide) (by decide) _).trans rfl

theorem exitV_main_v12 (m : (ℓ : Loc nD τ sig) → Buf (Elt F) ℓ) (c : Dev nD) :
    exitV m c (Proc.devRef .tc main_v12) = ((extractStridedSlice S150000x20x2 ![0, 0, 0] · slices_S150000x20x3_S150000x20x2_0_0_0) : (⟨S150000x20x3, .f32⟩ : BufTy).Contents (Elt F) → (⟨S150000x20x2, .f32⟩ : BufTy).Contents (Elt F)) (exitV m c (Proc.devRef .tc main_v0)) :=
  (stage_unary writes_ops 17 (x := main_v0) (y := main_v12) rfl (by decide) (by decide) _).trans rfl

theorem exitV_main_cst_3 (m : (ℓ : Loc nD τ sig) → Buf (Elt F) ℓ) (c : Dev nD) :
    exitV m c (Proc.devRef .tc main_cst_3) = (constant S_ .f32 0x3F000000#32 : (⟨S_, .f32⟩ : BufTy).Contents (Elt F)) :=
  (stage_nullary writes_ops 18 (y := main_cst_3) rfl (by decide) _).trans rfl

theorem exitV_main_v13 (m : (ℓ : Loc nD τ sig) → Buf (Elt F) ℓ) (c : Dev nD) :
    exitV m c (Proc.devRef .tc main_v13) = (broadcastInDim S150000x2 ![] bcast_S_S150000x2 : (⟨S_, .f32⟩ : BufTy).Contents (Elt F) → (⟨S150000x2, .f32⟩ : BufTy).Contents (Elt F)) (exitV m c (Proc.devRef .tc main_cst_3)) :=
  (stage_unary writes_ops 19 (x := main_cst_3) (y := main_v13) rfl (by decide) (by decide) _).trans rfl

theorem exitV_main_v14 (m : (ℓ : Loc nD τ sig) → Buf (Elt F) ℓ) (c : Dev nD) :
    exitV m c (Proc.devRef .tc main_v14) = (addf : (⟨S150000x2, .f32⟩ : BufTy).Contents (Elt F) → (⟨S150000x2, .f32⟩ : BufTy).Contents (Elt F) → (⟨S150000x2, .f32⟩ : BufTy).Contents (Elt F)) (exitV m c (Proc.devRef .tc main_v11)) (exitV m c (Proc.devRef .tc main_v13)) :=
  (stage_binary writes_ops 20 (a := main_v11) (b := main_v13) (y := main_v14) rfl (by decide) (by decide) (by decide) _).trans rfl

theorem exitV_main_v15 (m : (ℓ : Loc nD τ sig) → Buf (Elt F) ℓ) (c : Dev nD) :
    exitV m c (Proc.devRef .tc main_v15) = ((extractStridedSlice S2 ![0] · slices_S3_S2_0) : (⟨S3, .f32⟩ : BufTy).Contents (Elt F) → (⟨S2, .f32⟩ : BufTy).Contents (Elt F)) (exitV m c (Proc.devRef .tc main_cst)) :=
  (stage_unary writes_ops 21 (x := main_cst) (y := main_v15) rfl (by decide) (by decide) _).trans rfl

theorem exitV_main_v16 (m : (ℓ : Loc nD τ sig) → Buf (Elt F) ℓ) (c : Dev nD) :
    exitV m c (Proc.devRef .tc main_v16) = (broadcastInDim S1x2 ![1] bcast_S2_S1x2_1 : (⟨S2, .f32⟩ : BufTy).Contents (Elt F) → (⟨S1x2, .f32⟩ : BufTy).Contents (Elt F)) (exitV m c (Proc.devRef .tc main_v15)) :=
  (stage_unary writes_ops 22 (x := main_v15) (y := main_v16) rfl (by decide) (by decide) _).trans rfl

theorem exitV_main_v17 (m : (ℓ : Loc nD τ sig) → Buf (Elt F) ℓ) (c : Dev nD) :
    exitV m c (Proc.devRef .tc main_v17) = (broadcastInDim S150000x2 ![0, 1] bcast_S1x2_S150000x2_0_1 : (⟨S1x2, .f32⟩ : BufTy).Contents (Elt F) → (⟨S150000x2, .f32⟩ : BufTy).Contents (Elt F)) (exitV m c (Proc.devRef .tc main_v16)) :=
  (stage_unary writes_ops 23 (x := main_v16) (y := main_v17) rfl (by decide) (by decide) _).trans rfl

theorem exitV_main_v18 (m : (ℓ : Loc nD τ sig) → Buf (Elt F) ℓ) (c : Dev nD) :
    exitV m c (Proc.devRef .tc main_v18) = (mulf : (⟨S150000x2, .f32⟩ : BufTy).Contents (Elt F) → (⟨S150000x2, .f32⟩ : BufTy).Contents (Elt F) → (⟨S150000x2, .f32⟩ : BufTy).Contents (Elt F)) (exitV m c (Proc.devRef .tc main_v14)) (exitV m c (Proc.devRef .tc main_v17)) :=
  (stage_binary writes_ops 24 (a := main_v14) (b := main_v17) (y := main_v18) rfl (by decide) (by decide) (by decide) _).trans rfl

theorem exitV_main_v19 (m : (ℓ : Loc nD τ sig) → Buf (Elt F) ℓ) (c : Dev nD) :
    exitV m c (Proc.devRef .tc main_v19) = ((extractStridedSlice S2 ![0] · slices_S6_S2_0) : (⟨S6, .f32⟩ : BufTy).Contents (Elt F) → (⟨S2, .f32⟩ : BufTy).Contents (Elt F)) (exitV m c (Proc.devRef .tc main_cst_0)) :=
  (stage_unary writes_ops 25 (x := main_cst_0) (y := main_v19) rfl (by decide) (by decide) _).trans rfl

theorem exitV_main_v20 (m : (ℓ : Loc nD τ sig) → Buf (Elt F) ℓ) (c : Dev nD) :
    exitV m c (Proc.devRef .tc main_v20) = (broadcastInDim S1x2 ![1] bcast_S2_S1x2_1 : (⟨S2, .f32⟩ : BufTy).Contents (Elt F) → (⟨S1x2, .f32⟩ : BufTy).Contents (Elt F)) (exitV m c (Proc.devRef .tc main_v19)) :=
  (stage_unary writes_ops 26 (x := main_v19) (y := main_v20) rfl (by decide) (by decide) _).trans rfl

theorem exitV_main_v21 (m : (ℓ : Loc nD τ sig) → Buf (Elt F) ℓ) (c : Dev nD) :
    exitV m c (Proc.devRef .tc main_v21) = (broadcastInDim S150000x2 ![0, 1] bcast_S1x2_S150000x2_0_1 : (⟨S1x2, .f32⟩ : BufTy).Contents (Elt F) → (⟨S150000x2, .f32⟩ : BufTy).Contents (Elt F)) (exitV m c (Proc.devRef .tc main_v20)) :=
  (stage_unary writes_ops 27 (x := main_v20) (y := main_v21) rfl (by decide) (by decide) _).trans rfl

theorem exitV_main_v22 (m : (ℓ : Loc nD τ sig) → Buf (Elt F) ℓ) (c : Dev nD) :
    exitV m c (Proc.devRef .tc main_v22) = (addf : (⟨S150000x2, .f32⟩ : BufTy).Contents (Elt F) → (⟨S150000x2, .f32⟩ : BufTy).Contents (Elt F) → (⟨S150000x2, .f32⟩ : BufTy).Contents (Elt F)) (exitV m c (Proc.devRef .tc main_v18)) (exitV m c (Proc.devRef .tc main_v21)) :=
  (stage_binary writes_ops 28 (a := main_v18) (b := main_v21) (y := main_v22) rfl (by decide) (by decide) (by decide) _).trans rfl

theorem exitV_main_v23 (m : (ℓ : Loc nD τ sig) → Buf (Elt F) ℓ) (c : Dev nD) :
    exitV m c (Proc.devRef .tc main_v23) = (broadcastInDim S150000x1x2 ![0, 2] bcast_S150000x2_S150000x1x2_0_2 : (⟨S150000x2, .f32⟩ : BufTy).Contents (Elt F) → (⟨S150000x1x2, .f32⟩ : BufTy).Contents (Elt F)) (exitV m c (Proc.devRef .tc main_v22)) :=
  (stage_unary writes_ops 29 (x := main_v22) (y := main_v23) rfl (by decide) (by decide) _).trans rfl

theorem exitV_main_v24 (m : (ℓ : Loc nD τ sig) → Buf (Elt F) ℓ) (c : Dev nD) :
    exitV m c (Proc.devRef .tc main_v24) = (broadcastInDim S150000x20x2 ![0, 1, 2] bcast_S150000x1x2_S150000x20x2_0_1_2 : (⟨S150000x1x2, .f32⟩ : BufTy).Contents (Elt F) → (⟨S150000x20x2, .f32⟩ : BufTy).Contents (Elt F)) (exitV m c (Proc.devRef .tc main_v23)) :=
  (stage_unary writes_ops 30 (x := main_v23) (y := main_v24) rfl (by decide) (by decide) _).trans rfl

theorem exitV_main_v25 (m : (ℓ : Loc nD τ sig) → Buf (Elt F) ℓ) (c : Dev nD) :
    exitV m c (Proc.devRef .tc main_v25) = (subf : (⟨S150000x20x2, .f32⟩ : BufTy).Contents (Elt F) → (⟨S150000x20x2, .f32⟩ : BufTy).Contents (Elt F) → (⟨S150000x20x2, .f32⟩ : BufTy).Contents (Elt F)) (exitV m c (Proc.devRef .tc main_v12)) (exitV m c (Proc.devRef .tc main_v24)) :=
  (stage_binary writes_ops 31 (a := main_v12) (b := main_v24) (y := main_v25) rfl (by decide) (by decide) (by decide) _).trans rfl

theorem exitV_main_v26 (m : (ℓ : Loc nD τ sig) → Buf (Elt F) ℓ) (c : Dev nD) :
    exitV m c (Proc.devRef .tc main_v26) = ((extractStridedSlice S150000x20x1 ![0, 0, 2] · slices_S150000x20x3_S150000x20x1_0_0_2) : (⟨S150000x20x3, .f32⟩ : BufTy).Contents (Elt F) → (⟨S150000x20x1, .f32⟩ : BufTy).Contents (Elt F)) (exitV m c (Proc.devRef .tc main_v0)) :=
  (stage_unary writes_ops 32 (x := main_v0) (y := main_v26) rfl (by decide) (by decide) _).trans rfl

theorem exitV_main_v27 (m : (ℓ : Loc nD τ sig) → Buf (Elt F) ℓ) (c : Dev nD) :
    exitV m c (Proc.devRef .tc main_v27) = (shapeCast S150000x20 (exitV m c (Proc.devRef .tc main_v26)) shapeCasts_S150000x20x1_S150000x20 : (⟨S150000x20, .f32⟩ : BufTy).Contents (Elt F)) :=
  (stage_reshape writes_ops 33 (x := main_v26) (y := main_v27) rfl (by decide) (by decide) _).trans rfl

theorem exitV_main_v28 (m : (ℓ : Loc nD τ sig) → Buf (Elt F) ℓ) (c : Dev nD) :
    exitV m c (Proc.devRef .tc main_v28) = ((extractStridedSlice S1 ![2] · slices_S3_S1_2) : (⟨S3, .f32⟩ : BufTy).Contents (Elt F) → (⟨S1, .f32⟩ : BufTy).Contents (Elt F)) (exitV m c (Proc.devRef .tc main_cst)) :=
  (stage_unary writes_ops 34 (x := main_cst) (y := main_v28) rfl (by decide) (by decide) _).trans rfl

theorem exitV_main_v29 (m : (ℓ : Loc nD τ sig) → Buf (Elt F) ℓ) (c : Dev nD) :
    exitV m c (Proc.devRef .tc main_v29) = (shapeCast S_ (exitV m c (Proc.devRef .tc main_v28)) shapeCasts_S1_S_ : (⟨S_, .f32⟩ : BufTy).Contents (Elt F)) :=
  (stage_reshape writes_ops 35 (x := main_v28) (y := main_v29) rfl (by decide) (by decide) _).trans rfl

theorem exitV_main_cst_4 (m : (ℓ : Loc nD τ sig) → Buf (Elt F) ℓ) (c : Dev nD) :
    exitV m c (Proc.devRef .tc main_cst_4) = (constant S_ .f32 0x3F000000#32 : (⟨S_, .f32⟩ : BufTy).Contents (Elt F)) :=
  (stage_nullary writes_ops 36 (y := main_cst_4) rfl (by decide) _).trans rfl

theorem exitV_main_v30 (m : (ℓ : Loc nD τ sig) → Buf (Elt F) ℓ) (c : Dev nD) :
    exitV m c (Proc.devRef .tc main_v30) = (mulf : (⟨S_, .f32⟩ : BufTy).Contents (Elt F) → (⟨S_, .f32⟩ : BufTy).Contents (Elt F) → (⟨S_, .f32⟩ : BufTy).Contents (Elt F)) (exitV m c (Proc.devRef .tc main_cst_4)) (exitV m c (Proc.devRef .tc main_v29)) :=
  (stage_binary writes_ops 37 (a := main_cst_4) (b := main_v29) (y := main_v30) rfl (by decide) (by decide) (by decide) _).trans rfl

theorem exitV_main_v31 (m : (ℓ : Loc nD τ sig) → Buf (Elt F) ℓ) (c : Dev nD) :
    exitV m c (Proc.devRef .tc main_v31) = ((extractStridedSlice S1 ![2] · slices_S6_S1_2) : (⟨S6, .f32⟩ : BufTy).Contents (Elt F) → (⟨S1, .f32⟩ : BufTy).Contents (Elt F)) (exitV m c (Proc.devRef .tc main_cst_0)) :=
  (stage_unary writes_ops 38 (x := main_cst_0) (y := main_v31) rfl (by decide) (by decide) _).trans rfl

theorem exitV_main_v32 (m : (ℓ : Loc nD τ sig) → Buf (Elt F) ℓ) (c : Dev nD) :
    exitV m c (Proc.devRef .tc main_v32) = (shapeCast S_ (exitV m c (Proc.devRef .tc main_v31)) shapeCasts_S1_S_ : (⟨S_, .f32⟩ : BufTy).Contents (Elt F)) :=
  (stage_reshape writes_ops 39 (x := main_v31) (y := main_v32) rfl (by decide) (by decide) _).trans rfl

theorem exitV_main_v33 (m : (ℓ : Loc nD τ sig) → Buf (Elt F) ℓ) (c : Dev nD) :
    exitV m c (Proc.devRef .tc main_v33) = (addf : (⟨S_, .f32⟩ : BufTy).Contents (Elt F) → (⟨S_, .f32⟩ : BufTy).Contents (Elt F) → (⟨S_, .f32⟩ : BufTy).Contents (Elt F)) (exitV m c (Proc.devRef .tc main_v30)) (exitV m c (Proc.devRef .tc main_v32)) :=
  (stage_binary writes_ops 40 (a := main_v30) (b := main_v32) (y := main_v33) rfl (by decide) (by decide) (by decide) _).trans rfl

theorem exitV_main_v34 (m : (ℓ : Loc nD τ sig) → Buf (Elt F) ℓ) (c : Dev nD) :
    exitV m c (Proc.devRef .tc main_v34) = (broadcastInDim S150000x20 ![] bcast_S_S150000x20 : (⟨S_, .f32⟩ : BufTy).Contents (Elt F) → (⟨S150000x20, .f32⟩ : BufTy).Contents (Elt F)) (exitV m c (Proc.devRef .tc main_v33)) :=
  (stage_unary writes_ops 41 (x := main_v33) (y := main_v34) rfl (by decide) (by decide) _).trans rfl

theorem exitV_main_v35 (m : (ℓ : Loc nD τ sig) → Buf (Elt F) ℓ) (c : Dev nD) :
    exitV m c (Proc.devRef .tc main_v35) = (subf : (⟨S150000x20, .f32⟩ : BufTy).Contents (Elt F) → (⟨S150000x20, .f32⟩ : BufTy).Contents (Elt F) → (⟨S150000x20, .f32⟩ : BufTy).Contents (Elt F)) (exitV m c (Proc.devRef .tc main_v27)) (exitV m c (Proc.devRef .tc main_v34)) :=
  (stage_binary writes_ops 42 (a := main_v27) (b := main_v34) (y := main_v35) rfl (by decide) (by decide) (by decide) _).trans rfl

theorem exitV_main_v36 (m : (ℓ : Loc nD τ sig) → Buf (Elt F) ℓ) (c : Dev nD) :
    exitV m c (Proc.devRef .tc main_v36) = (broadcastInDim S150000x20x1 ![0, 1] bcast_S150000x20_S150000x20x1_0_1 : (⟨S150000x20, .f32⟩ : BufTy).Contents (Elt F) → (⟨S150000x20x1, .f32⟩ : BufTy).Contents (Elt F)) (exitV m c (Proc.devRef .tc main_v35)) :=
  (stage_unary writes_ops 43 (x := main_v35) (y := main_v36) rfl (by decide) (by decide) _).trans rfl

theorem exitV_main_v37 (m : (ℓ : Loc nD τ sig) → Buf (Elt F) ℓ) (c : Dev nD) :
    exitV m c (Proc.devRef .tc main_v37) = ((fun a b => concatenate S150000x20x3 2 [⟨S150000x20x2, a⟩, ⟨S150000x20x1, b⟩] concatenates_S150000x20x2_S150000x20x1_S150000x20x3_d2) : (⟨S150000x20x2, .f32⟩ : BufTy).Contents (Elt F) → (⟨S150000x20x1, .f32⟩ : BufTy).Contents (Elt F) → (⟨S150000x20x3, .f32⟩ : BufTy).Contents (Elt F)) (exitV m c (Proc.devRef .tc main_v25)) (exitV m c (Proc.devRef .tc main_v36)) :=
  (stage_binary writes_ops 44 (a := main_v25) (b := main_v36) (y := main_v37) rfl (by decide) (by decide) (by decide) _).trans rfl

theorem exitV_main_cst_5 (m : (ℓ : Loc nD τ sig) → Buf (Elt F) ℓ) (c : Dev nD) :
    exitV m c (Proc.devRef .tc main_cst_5) = (constant S_ .f32 0x00000000#32 : (⟨S_, .f32⟩ : BufTy).Contents (Elt F)) :=
  (stage_nullary writes_ops 45 (y := main_cst_5) rfl (by decide) _).trans rfl

theorem exitV_main_v38 (m : (ℓ : Loc nD τ sig) → Buf (Elt F) ℓ) (c : Dev nD) :
    exitV m c (Proc.devRef .tc main_v38) = (broadcastInDim S150000x20x3 ![] bcast_S_S150000x20x3 : (⟨S_, .f32⟩ : BufTy).Contents (Elt F) → (⟨S150000x20x3, .f32⟩ : BufTy).Contents (Elt F)) (exitV m c (Proc.devRef .tc main_cst_5)) :=
  (stage_unary writes_ops 46 (x := main_cst_5) (y := main_v38) rfl (by decide) (by decide) _).trans rfl

theorem exitV_main_v39 (m : (ℓ : Loc nD τ sig) → Buf (Elt F) ℓ) (c : Dev nD) :
    exitV m c (Proc.devRef .tc main_v39) = (cmpf .une : (⟨S150000x20x3, .f32⟩ : BufTy).Contents (Elt F) → (⟨S150000x20x3, .f32⟩ : BufTy).Contents (Elt F) → (⟨S150000x20x3, .i1⟩ : BufTy).Contents (Elt F)) (exitV m c (Proc.devRef .tc main_v0)) (exitV m c (Proc.devRef .tc main_v38)) :=
  (stage_binary writes_ops 47 (a := main_v0) (b := main_v38) (y := main_v39) rfl (by decide) (by decide) (by decide) _).trans rfl

theorem exitV_main_v40 (m : (ℓ : Loc nD τ sig) → Buf (Elt F) ℓ) (c : Dev nD) :
    exitV m c (Proc.devRef .tc main_v40) = (uitofp .f32 : (⟨S150000x20x3, .i1⟩ : BufTy).Contents (Elt F) → (⟨S150000x20x3, .f32⟩ : BufTy).Contents (Elt F)) (exitV m c (Proc.devRef .tc main_v39)) :=
  (stage_unary writes_ops 48 (x := main_v39) (y := main_v40) rfl (by decide) (by decide) _).trans rfl

theorem exitV_main_v41 (m : (ℓ : Loc nD τ sig) → Buf (Elt F) ℓ) (c : Dev nD) :
    exitV m c (Proc.devRef .tc main_v41) = (mulf : (⟨S150000x20x3, .f32⟩ : BufTy).Contents (Elt F) → (⟨S150000x20x3, .f32⟩ : BufTy).Contents (Elt F) → (⟨S150000x20x3, .f32⟩ : BufTy).Contents (Elt F)) (exitV m c (Proc.devRef .tc main_v37)) (exitV m c (Proc.devRef .tc main_v40)) :=
  (stage_binary writes_ops 49 (a := main_v37) (b := main_v40) (y := main_v41) rfl (by decide) (by decide) (by decide) _).trans rfl

theorem exitV_main_v42 (m : (ℓ : Loc nD τ sig) → Buf (Elt F) ℓ) (c : Dev nD) :
    exitV m c (Proc.devRef .tc main_v42) = (mulf : (⟨S150000x20x3, .f32⟩ : BufTy).Contents (Elt F) → (⟨S150000x20x3, .f32⟩ : BufTy).Contents (Elt F) → (⟨S150000x20x3, .f32⟩ : BufTy).Contents (Elt F)) (exitV m c (Proc.devRef .tc main_v8)) (exitV m c (Proc.devRef .tc main_v40)) :=
  (stage_binary writes_ops 50 (a := main_v8) (b := main_v40) (y := main_v42) rfl (by decide) (by decide) (by decide) _).trans rfl

theorem exitV_main_v43 (m : (ℓ : Loc nD τ sig) → Buf (Elt F) ℓ) (c : Dev nD) :
    exitV m c (Proc.devRef .tc main_v43) = (concatenate S150000x20x9 2 [⟨S150000x20x3, (exitV m c (Proc.devRef .tc main_v0))⟩, ⟨S150000x20x3, (exitV m c (Proc.devRef .tc main_v41))⟩, ⟨S150000x20x3, (exitV m c (Proc.devRef .tc main_v42))⟩] concatenates_S150000x20x3_S150000x20x3_S150000x20x3_S150000x20x9_d2 : (⟨S150000x20x9, .f32⟩ : BufTy).Contents (Elt F)) :=
  (stage_nary writes_ops 51 (xs := ![main_v0, main_v41, main_v42]) (y := main_v43) rfl (by decide) (by decide) _).trans rfl

theorem exitV_main_v44 (m : (ℓ : Loc nD τ sig) → Buf (Elt F) ℓ) (c : Dev nD) :
    exitV m c (Proc.devRef .tc main_v44) = ((fun l r => Host.dotGeneral dot_S150000x20x9_S64x9_S150000x20x64_2_1_01_0_n_n none l r) : (⟨S150000x20x9, .f32⟩ : BufTy).Contents (Elt F) → (⟨S64x9, .f32⟩ : BufTy).Contents (Elt F) → (⟨S150000x20x64, .f32⟩ : BufTy).Contents (Elt F)) (exitV m c (Proc.devRef .tc main_v43)) (exitV m c (Proc.devRef .tc main_arg3)) :=
  (stage_binary writes_ops 52 (a := main_v43) (b := main_arg3) (y := main_v44) rfl (by decide) (by decide) (by decide) _).trans rfl

theorem exitV_main_cst_6 (m : (ℓ : Loc nD τ sig) → Buf (Elt F) ℓ) (c : Dev nD) :
    exitV m c (Proc.devRef .tc main_cst_6) = (constant S_ .f32 0x00000000#32 : (⟨S_, .f32⟩ : BufTy).Contents (Elt F)) :=
  (stage_nullary writes_ops 53 (y := main_cst_6) rfl (by decide) _).trans rfl

theorem exitV_main_v45 (m : (ℓ : Loc nD τ sig) → Buf (Elt F) ℓ) (c : Dev nD) :
    exitV m c (Proc.devRef .tc main_v45) = ((fun x v => Host.reduceAdd x v reducesTo_S150000x20x64_S64_d0_1 h_S_) : (⟨S150000x20x64, .f32⟩ : BufTy).Contents (Elt F) → (⟨S_, .f32⟩ : BufTy).Contents (Elt F) → (⟨S64, .f32⟩ : BufTy).Contents (Elt F)) (exitV m c (Proc.devRef .tc main_v44)) (exitV m c (Proc.devRef .tc main_cst_6)) :=
  (stage_binary writes_ops 54 (a := main_v44) (b := main_cst_6) (y := main_v45) rfl (by decide) (by decide) (by decide) _).trans rfl

theorem exitV_main_cst_7 (m : (ℓ : Loc nD τ sig) → Buf (Elt F) ℓ) (c : Dev nD) :
    exitV m c (Proc.devRef .tc main_cst_7) = (constant S_ .f32 0x4A371B00#32 : (⟨S_, .f32⟩ : BufTy).Contents (Elt F)) :=
  (stage_nullary writes_ops 55 (y := main_cst_7) rfl (by decide) _).trans rfl

theorem exitV_main_v46 (m : (ℓ : Loc nD τ sig) → Buf (Elt F) ℓ) (c : Dev nD) :
    exitV m c (Proc.devRef .tc main_v46) = (broadcastInDim S64 ![] bcast_S_S64 : (⟨S_, .f32⟩ : BufTy).Contents (Elt F) → (⟨S64, .f32⟩ : BufTy).Contents (Elt F)) (exitV m c (Proc.devRef .tc main_cst_7)) :=
  (stage_unary writes_ops 56 (x := main_cst_7) (y := main_v46) rfl (by decide) (by decide) _).trans rfl

theorem exitV_main_v47 (m : (ℓ : Loc nD τ sig) → Buf (Elt F) ℓ) (c : Dev nD) :
    exitV m c (Proc.devRef .tc main_v47) = (Host.divf : (⟨S64, .f32⟩ : BufTy).Contents (Elt F) → (⟨S64, .f32⟩ : BufTy).Contents (Elt F) → (⟨S64, .f32⟩ : BufTy).Contents (Elt F)) (exitV m c (Proc.devRef .tc main_v45)) (exitV m c (Proc.devRef .tc main_v46)) :=
  (stage_binary writes_ops 57 (a := main_v45) (b := main_v46) (y := main_v47) rfl (by decide) (by decide) (by decide) _).trans rfl

theorem exitV_main_c_8 (m : (ℓ : Loc nD τ sig) → Buf (Elt F) ℓ) (c : Dev nD) :
    exitV m c (Proc.devRef .tc main_c_8) = (constantI S_ 32 0#32 : (⟨S_, .i32⟩ : BufTy).Contents (Elt F)) :=
  (stage_nullary writes_ops 58 (y := main_c_8) rfl (by decide) _).trans rfl

theorem exitV_main_call0_cst (m : (ℓ : Loc nD τ sig) → Buf (Elt F) ℓ) (c : Dev nD) :
    exitV m c (Proc.devRef .tc main_call0_cst) = (constant S_ .f32 0x00000000#32 : (⟨S_, .f32⟩ : BufTy).Contents (Elt F)) :=
  (stage_nullary writes_ops 59 (y := main_call0_cst) rfl (by decide) _).trans rfl

theorem exitV_main_call0_v0 (m : (ℓ : Loc nD τ sig) → Buf (Elt F) ℓ) (c : Dev nD) :
    exitV m c (Proc.devRef .tc main_call0_v0) = (fun x v => Host.reduceAdd x v reducesTo_S150000x20x64_S64_d0_1 h_S_ : (⟨S150000x20x64, .f32⟩ : BufTy).Contents (Elt F) → (⟨S_, .f32⟩ : BufTy).Contents (Elt F) → (⟨S64, .f32⟩ : BufTy).Contents (Elt F)) (exitV m c (Proc.devRef .tc main_v44)) (exitV m c (Proc.devRef .tc main_call0_cst)) :=
  (stage_binary writes_ops 60 (a := main_v44) (b := main_call0_cst) (y := main_call0_v0) rfl (by decide) (by decide) (by decide) _).trans rfl

theorem exitV_main_call0_v1 (m : (ℓ : Loc nD τ sig) → Buf (Elt F) ℓ) (c : Dev nD) :
    exitV m c (Proc.devRef .tc main_call0_v1) = (broadcastInDim S1x1x64 ![2] bcast_S64_S1x1x64_2 : (⟨S64, .f32⟩ : BufTy).Contents (Elt F) → (⟨S1x1x64, .f32⟩ : BufTy).Contents (Elt F)) (exitV m c (Proc.devRef .tc main_call0_v0)) :=
  (stage_unary writes_ops 61 (x := main_call0_v0) (y := main_call0_v1) rfl (by decide) (by decide) _).trans rfl

theorem exitV_main_call0_cst_0 (m : (ℓ : Loc nD τ sig) → Buf (Elt F) ℓ) (c : Dev nD) :
    exitV m c (Proc.devRef .tc main_call0_cst_0) = (constant S_ .f32 0x4A371B00#32 : (⟨S_, .f32⟩ : BufTy).Contents (Elt F)) :=
  (stage_nullary writes_ops 62 (y := main_call0_cst_0) rfl (by decide) _).trans rfl

theorem exitV_main_call0_v2 (m : (ℓ : Loc nD τ sig) → Buf (Elt F) ℓ) (c : Dev nD) :
    exitV m c (Proc.devRef .tc main_call0_v2) = (broadcastInDim S1x1x64 ![] bcast_S_S1x1x64 : (⟨S_, .f32⟩ : BufTy).Contents (Elt F) → (⟨S1x1x64, .f32⟩ : BufTy).Contents (Elt F)) (exitV m c (Proc.devRef .tc main_call0_cst_0)) :=
  (stage_unary writes_ops 63 (x := main_call0_cst_0) (y := main_call0_v2) rfl (by decide) (by decide) _).trans rfl

theorem exitV_main_call0_v3 (m : (ℓ : Loc nD τ sig) → Buf (Elt F) ℓ) (c : Dev nD) :
    exitV m c (Proc.devRef .tc main_call0_v3) = (Host.divf : (⟨S1x1x64, .f32⟩ : BufTy).Contents (Elt F) → (⟨S1x1x64, .f32⟩ : BufTy).Contents (Elt F) → (⟨S1x1x64, .f32⟩ : BufTy).Contents (Elt F)) (exitV m c (Proc.devRef .tc main_call0_v1)) (exitV m c (Proc.devRef .tc main_call0_v2)) :=
  (stage_binary writes_ops 64 (a := main_call0_v1) (b := main_call0_v2) (y := main_call0_v3) rfl (by decide) (by decide) (by decide) _).trans rfl

theorem exitV_main_call0_v4 (m : (ℓ : Loc nD τ sig) → Buf (Elt F) ℓ) (c : Dev nD) :
    exitV m c (Proc.devRef .tc main_call0_v4) = (broadcastInDim S150000x20x64 ![0, 1, 2] bcast_S1x1x64_S150000x20x64_0_1_2 : (⟨S1x1x64, .f32⟩ : BufTy).Contents (Elt F) → (⟨S150000x20x64, .f32⟩ : BufTy).Contents (Elt F)) (exitV m c (Proc.devRef .tc main_call0_v3)) :=
  (stage_unary writes_ops 65 (x := main_call0_v3) (y := main_call0_v4) rfl (by decide) (by decide) _).trans rfl

theorem exitV_main_call0_v5 (m : (ℓ : Loc nD τ sig) → Buf (Elt F) ℓ) (c : Dev nD) :
    exitV m c (Proc.devRef .tc main_call0_v5) = (subf : (⟨S150000x20x64, .f32⟩ : BufTy).Contents (Elt F) → (⟨S150000x20x64, .f32⟩ : BufTy).Contents (Elt F) → (⟨S150000x20x64, .f32⟩ : BufTy).Contents (Elt F)) (exitV m c (Proc.devRef .tc main_v44)) (exitV m c (Proc.devRef .tc main_call0_v4)) :=
  (stage_binary writes_ops 66 (a := main_v44) (b := main_call0_v4) (y := main_call0_v5) rfl (by decide) (by decide) (by decide) _).trans rfl

theorem exitV_main_call0_v6 (m : (ℓ : Loc nD τ sig) → Buf (Elt F) ℓ) (c : Dev nD) :
    exitV m c (Proc.devRef .tc main_call0_v6) = (mulf : (⟨S150000x20x64, .f32⟩ : BufTy).Contents (Elt F) → (⟨S150000x20x64, .f32⟩ : BufTy).Contents (Elt F) → (⟨S150000x20x64, .f32⟩ : BufTy).Contents (Elt F)) (exitV m c (Proc.devRef .tc main_call0_v5)) (exitV m c (Proc.devRef .tc main_call0_v5)) :=
  (stage_binary writes_ops 67 (a := main_call0_v5) (b := main_call0_v5) (y := main_call0_v6) rfl (by decide) (by decide) (by decide) _).trans rfl

theorem exitV_main_call0_v7 (m : (ℓ : Loc nD τ sig) → Buf (Elt F) ℓ) (c : Dev nD) :
    exitV m c (Proc.devRef .tc main_call0_v7) = (sitofp (F := F) .f32 : (⟨S_, .i32⟩ : BufTy).Contents (Elt F) → (⟨S_, .f32⟩ : BufTy).Contents (Elt F)) (exitV m c (Proc.devRef .tc main_c_8)) :=
  (stage_unary writes_ops 68 (x := main_c_8) (y := main_call0_v7) rfl (by decide) (by decide) _).trans rfl

theorem exitV_main_call0_cst_1 (m : (ℓ : Loc nD τ sig) → Buf (Elt F) ℓ) (c : Dev nD) :
    exitV m c (Proc.devRef .tc main_call0_cst_1) = (constant S_ .f32 0x4A371B00#32 : (⟨S_, .f32⟩ : BufTy).Contents (Elt F)) :=
  (stage_nullary writes_ops 69 (y := main_call0_cst_1) rfl (by decide) _).trans rfl

theorem exitV_main_call0_v8 (m : (ℓ : Loc nD τ sig) → Buf (Elt F) ℓ) (c : Dev nD) :
    exitV m c (Proc.devRef .tc main_call0_v8) = (subf : (⟨S_, .f32⟩ : BufTy).Contents (Elt F) → (⟨S_, .f32⟩ : BufTy).Contents (Elt F) → (⟨S_, .f32⟩ : BufTy).Contents (Elt F)) (exitV m c (Proc.devRef .tc main_call0_cst_1)) (exitV m c (Proc.devRef .tc main_call0_v7)) :=
  (stage_binary writes_ops 70 (a := main_call0_cst_1) (b := main_call0_v7) (y := main_call0_v8) rfl (by decide) (by decide) (by decide) _).trans rfl

theorem exitV_main_call0_cst_2 (m : (ℓ : Loc nD τ sig) → Buf (Elt F) ℓ) (c : Dev nD) :
    exitV m c (Proc.devRef .tc main_call0_cst_2) = (constant S_ .f32 0x00000000#32 : (⟨S_, .f32⟩ : BufTy).Contents (Elt F)) :=
  (stage_nullary writes_ops 71 (y := main_call0_cst_2) rfl (by decide) _).trans rfl

theorem exitV_main_call0_v9 (m : (ℓ : Loc nD τ sig) → Buf (Elt F) ℓ) (c : Dev nD) :
    exitV m c (Proc.devRef .tc main_call0_v9) = (fun x v => Host.reduceAdd x v reducesTo_S150000x20x64_S64_d0_1 h_S_ : (⟨S150000x20x64, .f32⟩ : BufTy).Contents (Elt F) → (⟨S_, .f32⟩ : BufTy).Contents (Elt F) → (⟨S64, .f32⟩ : BufTy).Contents (Elt F)) (exitV m c (Proc.devRef .tc main_call0_v6)) (exitV m c (Proc.devRef .tc main_call0_cst_2)) :=
  (stage_binary writes_ops 72 (a := main_call0_v6) (b := main_call0_cst_2) (y := main_call0_v9) rfl (by decide) (by decide) (by decide) _).trans rfl

theorem exitV_main_call0_v10 (m : (ℓ : Loc nD τ sig) → Buf (Elt F) ℓ) (c : Dev nD) :
    exitV m c (Proc.devRef .tc main_call0_v10) = (broadcastInDim S64 ![] bcast_S_S64 : (⟨S_, .f32⟩ : BufTy).Contents (Elt F) → (⟨S64, .f32⟩ : BufTy).Contents (Elt F)) (exitV m c (Proc.devRef .tc main_call0_v8)) :=
  (stage_unary writes_ops 73 (x := main_call0_v8) (y := main_call0_v10) rfl (by decide) (by decide) _).trans rfl

theorem exitV_main_call0_v11 (m : (ℓ : Loc nD τ sig) → Buf (Elt F) ℓ) (c : Dev nD) :
    exitV m c (Proc.devRef .tc main_call0_v11) = (Host.divf : (⟨S64, .f32⟩ : BufTy).Contents (Elt F) → (⟨S64, .f32⟩ : BufTy).Contents (Elt F) → (⟨S64, .f32⟩ : BufTy).Contents (Elt F)) (exitV m c (Proc.devRef .tc main_call0_v9)) (exitV m c (Proc.devRef .tc main_call0_v10)) :=
  (stage_binary writes_ops 74 (a := main_call0_v9) (b := main_call0_v10) (y := main_call0_v11) rfl (by decide) (by decide) (by decide) _).trans rfl

theorem exitV_main_call0_cst_3 (m : (ℓ : Loc nD τ sig) → Buf (Elt F) ℓ) (c : Dev nD) :
    exitV m c (Proc.devRef .tc main_call0_cst_3) = (constant S_ .f32 0x00000000#32 : (⟨S_, .f32⟩ : BufTy).Contents (Elt F)) :=
  (stage_nullary writes_ops 75 (y := main_call0_cst_3) rfl (by decide) _).trans rfl

theorem exitV_main_call0_v12 (m : (ℓ : Loc nD τ sig) → Buf (Elt F) ℓ) (c : Dev nD) :
    exitV m c (Proc.devRef .tc main_call0_v12) = (cmpf (F := F) .ogt : (⟨S_, .f32⟩ : BufTy).Contents (Elt F) → (⟨S_, .f32⟩ : BufTy).Contents (Elt F) → (⟨S_, .i1⟩ : BufTy).Contents (Elt F)) (exitV m c (Proc.devRef .tc main_call0_v8)) (exitV m c (Proc.devRef .tc main_call0_cst_3)) :=
  (stage_binary writes_ops 76 (a := main_call0_v8) (b := main_call0_cst_3) (y := main_call0_v12) rfl (by decide) (by decide) (by decide) _).trans rfl

theorem exitV_main_call0_cst_4 (m : (ℓ : Loc nD τ sig) → Buf (Elt F) ℓ) (c : Dev nD) :
    exitV m c (Proc.devRef .tc main_call0_cst_4) = (constant S_ .f32 0x7FC00000#32 : (⟨S_, .f32⟩ : BufTy).Contents (Elt F)) :=
  (stage_nullary writes_ops 77 (y := main_call0_cst_4) rfl (by decide) _).trans rfl

theorem exitV_main_call0_call0_v0 (m : (ℓ : Loc nD τ sig) → Buf (Elt F) ℓ) (c : Dev nD) :
    exitV m c (Proc.devRef .tc main_call0_call0_v0) = (id : (⟨S_, .f32⟩ : BufTy).Contents (Elt F) → (⟨S_, .f32⟩ : BufTy).Contents (Elt F)) (exitV m c (Proc.devRef .tc main_call0_cst_4)) :=
  (stage_unary writes_ops 78 (x := main_call0_cst_4) (y := main_call0_call0_v0) rfl (by decide) (by decide) _).trans rfl

theorem exitV_main_call0_call0_v1 (m : (ℓ : Loc nD τ sig) → Buf (Elt F) ℓ) (c : Dev nD) :
    exitV m c (Proc.devRef .tc main_call0_call0_v1) = (broadcastInDim S64 ![] bcast_S_S64 : (⟨S_, .f32⟩ : BufTy).Contents (Elt F) → (⟨S64, .f32⟩ : BufTy).Contents (Elt F)) (exitV m c (Proc.devRef .tc main_call0_call0_v0)) :=
  (stage_unary writes_ops 79 (x := main_call0_call0_v0) (y := main_call0_call0_v1) rfl (by decide) (by decide) _).trans rfl

theorem exitV_main_v48 (m : (ℓ : Loc nD τ sig) → Buf (Elt F) ℓ) (c : Dev nD) :
    exitV m c (Proc.devRef .tc main_v48) = (fun p a b => select (broadcastInDim S64 ![] bcast_S_S64 p) a b : (⟨S_, .i1⟩ : BufTy).Contents (Elt F) → (⟨S64, .f32⟩ : BufTy).Contents (Elt F) → (⟨S64, .f32⟩ : BufTy).Contents (Elt F) → (⟨S64, .f32⟩ : BufTy).Contents (Elt F)) (exitV m c (Proc.devRef .tc main_call0_v12)) (exitV m c (Proc.devRef .tc main_call0_v11)) (exitV m c (Proc.devRef .tc main_call0_call0_v1)) :=
  (stage_ternary writes_ops 80 (c := main_call0_v12) (a := main_call0_v11) (b := main_call0_call0_v1) (y := main_v48) rfl (by decide) (by decide) (by decide) (by decide) _).trans rfl

theorem exitV_main_v49 (m : (ℓ : Loc nD τ sig) → Buf (Elt F) ℓ) (c : Dev nD) :
    exitV m c (Proc.devRef .tc main_v49) = (broadcastInDim S1x1x64 ![2] bcast_S64_S1x1x64_2 : (⟨S64, .f32⟩ : BufTy).Contents (Elt F) → (⟨S1x1x64, .f32⟩ : BufTy).Contents (Elt F)) (exitV m c (Proc.devRef .tc main_v47)) :=
  (stage_unary writes_ops 81 (x := main_v47) (y := main_v49) rfl (by decide) (by decide) _).trans rfl

theorem exitV_main_v50 (m : (ℓ : Loc nD τ sig) → Buf (Elt F) ℓ) (c : Dev nD) :
    exitV m c (Proc.devRef .tc main_v50) = (broadcastInDim S150000x20x64 ![0, 1, 2] bcast_S1x1x64_S150000x20x64_0_1_2 : (⟨S1x1x64, .f32⟩ : BufTy).Contents (Elt F) → (⟨S150000x20x64, .f32⟩ : BufTy).Contents (Elt F)) (exitV m c (Proc.devRef .tc main_v49)) :=
  (stage_unary writes_ops 82 (x := main_v49) (y := main_v50) rfl (by decide) (by decide) _).trans rfl

theorem exitV_main_v51 (m : (ℓ : Loc nD τ sig) → Buf (Elt F) ℓ) (c : Dev nD) :
    exitV m c (Proc.devRef .tc main_v51) = (subf : (⟨S150000x20x64, .f32⟩ : BufTy).Contents (Elt F) → (⟨S150000x20x64, .f32⟩ : BufTy).Contents (Elt F) → (⟨S150000x20x64, .f32⟩ : BufTy).Contents (Elt F)) (exitV m c (Proc.devRef .tc main_v44)) (exitV m c (Proc.devRef .tc main_v50)) :=
  (stage_binary writes_ops 83 (a := main_v44) (b := main_v50) (y := main_v51) rfl (by decide) (by decide) (by decide) _).trans rfl

theorem exitV_main_cst_9 (m : (ℓ : Loc nD τ sig) → Buf (Elt F) ℓ) (c : Dev nD) :
    exitV m c (Proc.devRef .tc main_cst_9) = (constant S_ .f32 0x3A83126F#32 : (⟨S_, .f32⟩ : BufTy).Contents (Elt F)) :=
  (stage_nullary writes_ops 84 (y := main_cst_9) rfl (by decide) _).trans rfl

theorem exitV_main_v52 (m : (ℓ : Loc nD τ sig) → Buf (Elt F) ℓ) (c : Dev nD) :
    exitV m c (Proc.devRef .tc main_v52) = (broadcastInDim S64 ![] bcast_S_S64 : (⟨S_, .f32⟩ : BufTy).Contents (Elt F) → (⟨S64, .f32⟩ : BufTy).Contents (Elt F)) (exitV m c (Proc.devRef .tc main_cst_9)) :=
  (stage_unary writes_ops 85 (x := main_cst_9) (y := main_v52) rfl (by decide) (by decide) _).trans rfl

theorem exitV_main_v53 (m : (ℓ : Loc nD τ sig) → Buf (Elt F) ℓ) (c : Dev nD) :
    exitV m c (Proc.devRef .tc main_v53) = (addf : (⟨S64, .f32⟩ : BufTy).Contents (Elt F) → (⟨S64, .f32⟩ : BufTy).Contents (Elt F) → (⟨S64, .f32⟩ : BufTy).Contents (Elt F)) (exitV m c (Proc.devRef .tc main_v48)) (exitV m c (Proc.devRef .tc main_v52)) :=
  (stage_binary writes_ops 86 (a := main_v48) (b := main_v52) (y := main_v53) rfl (by decide) (by decide) (by decide) _).trans rfl

theorem exitV_main_v54 (m : (ℓ : Loc nD τ sig) → Buf (Elt F) ℓ) (c : Dev nD) :
    exitV m c (Proc.devRef .tc main_v54) = (Host.rsqrt : (⟨S64, .f32⟩ : BufTy).Contents (Elt F) → (⟨S64, .f32⟩ : BufTy).Contents (Elt F)) (exitV m c (Proc.devRef .tc main_v53)) :=
  (stage_unary writes_ops 87 (x := main_v53) (y := main_v54) rfl (by decide) (by decide) _).trans rfl

theorem exitV_main_v55 (m : (ℓ : Loc nD τ sig) → Buf (Elt F) ℓ) (c : Dev nD) :
    exitV m c (Proc.devRef .tc main_v55) = (broadcastInDim S1x1x64 ![2] bcast_S64_S1x1x64_2 : (⟨S64, .f32⟩ : BufTy).Contents (Elt F) → (⟨S1x1x64, .f32⟩ : BufTy).Contents (Elt F)) (exitV m c (Proc.devRef .tc main_v54)) :=
  (stage_unary writes_ops 88 (x := main_v54) (y := main_v55) rfl (by decide) (by decide) _).trans rfl

theorem exitV_main_v56 (m : (ℓ : Loc nD τ sig) → Buf (Elt F) ℓ) (c : Dev nD) :
    exitV m c (Proc.devRef .tc main_v56) = (broadcastInDim S150000x20x64 ![0, 1, 2] bcast_S1x1x64_S150000x20x64_0_1_2 : (⟨S1x1x64, .f32⟩ : BufTy).Contents (Elt F) → (⟨S150000x20x64, .f32⟩ : BufTy).Contents (Elt F)) (exitV m c (Proc.devRef .tc main_v55)) :=
  (stage_unary writes_ops 89 (x := main_v55) (y := main_v56) rfl (by decide) (by decide) _).trans rfl

theorem exitV_main_v57 (m : (ℓ : Loc nD τ sig) → Buf (Elt F) ℓ) (c : Dev nD) :
    exitV m c (Proc.devRef .tc main_v57) = (mulf : (⟨S150000x20x64, .f32⟩ : BufTy).Contents (Elt F) → (⟨S150000x20x64, .f32⟩ : BufTy).Contents (Elt F) → (⟨S150000x20x64, .f32⟩ : BufTy).Contents (Elt F)) (exitV m c (Proc.devRef .tc main_v51)) (exitV m c (Proc.devRef .tc main_v56)) :=
  (stage_binary writes_ops 90 (a := main_v51) (b := main_v56) (y := main_v57) rfl (by decide) (by decide) (by decide) _).trans rfl

theorem exitV_main_v58 (m : (ℓ : Loc nD τ sig) → Buf (Elt F) ℓ) (c : Dev nD) :
    exitV m c (Proc.devRef .tc main_v58) = (broadcastInDim S1x1x64 ![2] bcast_S64_S1x1x64_2 : (⟨S64, .f32⟩ : BufTy).Contents (Elt F) → (⟨S1x1x64, .f32⟩ : BufTy).Contents (Elt F)) (exitV m c (Proc.devRef .tc main_arg4)) :=
  (stage_unary writes_ops 91 (x := main_arg4) (y := main_v58) rfl (by decide) (by decide) _).trans rfl

theorem exitV_main_v59 (m : (ℓ : Loc nD τ sig) → Buf (Elt F) ℓ) (c : Dev nD) :
    exitV m c (Proc.devRef .tc main_v59) = (broadcastInDim S150000x20x64 ![0, 1, 2] bcast_S1x1x64_S150000x20x64_0_1_2 : (⟨S1x1x64, .f32⟩ : BufTy).Contents (Elt F) → (⟨S150000x20x64, .f32⟩ : BufTy).Contents (Elt F)) (exitV m c (Proc.devRef .tc main_v58)) :=
  (stage_unary writes_ops 92 (x := main_v58) (y := main_v59) rfl (by decide) (by decide) _).trans rfl

theorem exitV_main_v60 (m : (ℓ : Loc nD τ sig) → Buf (Elt F) ℓ) (c : Dev nD) :
    exitV m c (Proc.devRef .tc main_v60) = (mulf : (⟨S150000x20x64, .f32⟩ : BufTy).Contents (Elt F) → (⟨S150000x20x64, .f32⟩ : BufTy).Contents (Elt F) → (⟨S150000x20x64, .f32⟩ : BufTy).Contents (Elt F)) (exitV m c (Proc.devRef .tc main_v57)) (exitV m c (Proc.devRef .tc main_v59)) :=
  (stage_binary writes_ops 93 (a := main_v57) (b := main_v59) (y := main_v60) rfl (by decide) (by decide) (by decide) _).trans rfl

theorem exitV_main_v61 (m : (ℓ : Loc nD τ sig) → Buf (Elt F) ℓ) (c : Dev nD) :
    exitV m c (Proc.devRef .tc main_v61) = (broadcastInDim S1x1x64 ![2] bcast_S64_S1x1x64_2 : (⟨S64, .f32⟩ : BufTy).Contents (Elt F) → (⟨S1x1x64, .f32⟩ : BufTy).Contents (Elt F)) (exitV m c (Proc.devRef .tc main_arg5)) :=
  (stage_unary writes_ops 94 (x := main_arg5) (y := main_v61) rfl (by decide) (by decide) _).trans rfl

theorem exitV_main_v62 (m : (ℓ : Loc nD τ sig) → Buf (Elt F) ℓ) (c : Dev nD) :
    exitV m c (Proc.devRef .tc main_v62) = (broadcastInDim S150000x20x64 ![0, 1, 2] bcast_S1x1x64_S150000x20x64_0_1_2 : (⟨S1x1x64, .f32⟩ : BufTy).Contents (Elt F) → (⟨S150000x20x64, .f32⟩ : BufTy).Contents (Elt F)) (exitV m c (Proc.devRef .tc main_v61)) :=
  (stage_unary writes_ops 95 (x := main_v61) (y := main_v62) rfl (by decide) (by decide) _).trans rfl

theorem exitV_main_v63 (m : (ℓ : Loc nD τ sig) → Buf (Elt F) ℓ) (c : Dev nD) :
    exitV m c (Proc.devRef .tc main_v63) = (addf : (⟨S150000x20x64, .f32⟩ : BufTy).Contents (Elt F) → (⟨S150000x20x64, .f32⟩ : BufTy).Contents (Elt F) → (⟨S150000x20x64, .f32⟩ : BufTy).Contents (Elt F)) (exitV m c (Proc.devRef .tc main_v60)) (exitV m c (Proc.devRef .tc main_v62)) :=
  (stage_binary writes_ops 96 (a := main_v60) (b := main_v62) (y := main_v63) rfl (by decide) (by decide) (by decide) _).trans rfl

theorem exitV_main_call1_cst (m : (ℓ : Loc nD τ sig) → Buf (Elt F) ℓ) (c : Dev nD) :
    exitV m c (Proc.devRef .tc main_call1_cst) = (constant S_ .f32 0x00000000#32 : (⟨S_, .f32⟩ : BufTy).Contents (Elt F)) :=
  (stage_nullary writes_ops 97 (y := main_call1_cst) rfl (by decide) _).trans rfl

theorem exitV_main_call1_v0 (m : (ℓ : Loc nD τ sig) → Buf (Elt F) ℓ) (c : Dev nD) :
    exitV m c (Proc.devRef .tc main_call1_v0) = (broadcastInDim S150000x20x64 ![] bcast_S_S150000x20x64 : (⟨S_, .f32⟩ : BufTy).Contents (Elt F) → (⟨S150000x20x64, .f32⟩ : BufTy).Contents (Elt F)) (exitV m c (Proc.devRef .tc main_call1_cst)) :=
  (stage_unary writes_ops 98 (x := main_call1_cst) (y := main_call1_v0) rfl (by decide) (by decide) _).trans rfl

theorem exitV_main_v64 (m : (ℓ : Loc nD τ sig) → Buf (Elt F) ℓ) (c : Dev nD) :
    exitV m c (Proc.devRef .tc main_v64) = (maximumf : (⟨S150000x20x64, .f32⟩ : BufTy).Contents (Elt F) → (⟨S150000x20x64, .f32⟩ : BufTy).Contents (Elt F) → (⟨S150000x20x64, .f32⟩ : BufTy).Contents (Elt F)) (exitV m c (Proc.devRef .tc main_v63)) (exitV m c (Proc.devRef .tc main_call1_v0)) :=
  (stage_binary writes_ops 99 (a := main_v63) (b := main_call1_v0) (y := main_v64) rfl (by decide) (by decide) (by decide) _).trans rfl

theorem exitV_main_cst_10 (m : (ℓ : Loc nD τ sig) → Buf (Elt F) ℓ) (c : Dev nD) :
    exitV m c (Proc.devRef .tc main_cst_10) = (constant S_ .f32 0xFF800000#32 : (⟨S_, .f32⟩ : BufTy).Contents (Elt F)) :=
  (stage_nullary writes_ops 100 (y := main_cst_10) rfl (by decide) _).trans rfl

theorem exitV_main_v65 (m : (ℓ : Loc nD τ sig) → Buf (Elt F) ℓ) (c : Dev nD) :
    exitV m c (Proc.devRef .tc main_v65) = ((fun x v => Host.reduce FloatOps.maximumf x v reducesTo_S150000x20x64_S150000x64_d1 h_S_) : (⟨S150000x20x64, .f32⟩ : BufTy).Contents (Elt F) → (⟨S_, .f32⟩ : BufTy).Contents (Elt F) → (⟨S150000x64, .f32⟩ : BufTy).Contents (Elt F)) (exitV m c (Proc.devRef .tc main_v64)) (exitV m c (Proc.devRef .tc main_cst_10)) :=
  (stage_binary writes_ops 101 (a := main_v64) (b := main_cst_10) (y := main_v65) rfl (by decide) (by decide) (by decide) _).trans rfl

theorem exitV_main_c_11 (m : (ℓ : Loc nD τ sig) → Buf (Elt F) ℓ) (c : Dev nD) :
    exitV m c (Proc.devRef .tc main_c_11) = (constantI S_ 32 0#32 : (⟨S_, .i32⟩ : BufTy).Contents (Elt F)) :=
  (stage_nullary writes_ops 102 (y := main_c_11) rfl (by decide) _).trans rfl

theorem exitV_main_v66 (m : (ℓ : Loc nD τ sig) → Buf (Elt F) ℓ) (c : Dev nD) :
    exitV m c (Proc.devRef .tc main_v66) = (broadcastInDim S3 ![] bcast_S_S3 : (⟨S_, .i32⟩ : BufTy).Contents (Elt F) → (⟨S3, .i32⟩ : BufTy).Contents (Elt F)) (exitV m c (Proc.devRef .tc main_c_11)) :=
  (stage_unary writes_ops 103 (x := main_c_11) (y := main_v66) rfl (by decide) (by decide) _).trans rfl

theorem exitV_main_v67 (m : (ℓ : Loc nD τ sig) → Buf (Elt F) ℓ) (c : Dev nD) :
    exitV m c (Proc.devRef .tc main_v67) = (cmpi .slt : (⟨S3, .i32⟩ : BufTy).Contents (Elt F) → (⟨S3, .i32⟩ : BufTy).Contents (Elt F) → (⟨S3, .i1⟩ : BufTy).Contents (Elt F)) (exitV m c (Proc.devRef .tc main_c)) (exitV m c (Proc.devRef .tc main_v66)) :=
  (stage_binary writes_ops 104 (a := main_c) (b := main_v66) (y := main_v67) rfl (by decide) (by decide) (by decide) _).trans rfl

theorem exitV_main_c_12 (m : (ℓ : Loc nD τ sig) → Buf (Elt F) ℓ) (c : Dev nD) :
    exitV m c (Proc.devRef .tc main_c_12) = (constantI S_ 32 4#32 : (⟨S_, .i32⟩ : BufTy).Contents (Elt F)) :=
  (stage_nullary writes_ops 105 (y := main_c_12) rfl (by decide) _).trans rfl

theorem exitV_main_v68 (m : (ℓ : Loc nD τ sig) → Buf (Elt F) ℓ) (c : Dev nD) :
    exitV m c (Proc.devRef .tc main_v68) = (broadcastInDim S3 ![] bcast_S_S3 : (⟨S_, .i32⟩ : BufTy).Contents (Elt F) → (⟨S3, .i32⟩ : BufTy).Contents (Elt F)) (exitV m c (Proc.devRef .tc main_c_12)) :=
  (stage_unary writes_ops 106 (x := main_c_12) (y := main_v68) rfl (by decide) (by decide) _).trans rfl

theorem exitV_main_v69 (m : (ℓ : Loc nD τ sig) → Buf (Elt F) ℓ) (c : Dev nD) :
    exitV m c (Proc.devRef .tc main_v69) = (addi : (⟨S3, .i32⟩ : BufTy).Contents (Elt F) → (⟨S3, .i32⟩ : BufTy).Contents (Elt F) → (⟨S3, .i32⟩ : BufTy).Contents (Elt F)) (exitV m c (Proc.devRef .tc main_c)) (exitV m c (Proc.devRef .tc main_v68)) :=
  (stage_binary writes_ops 107 (a := main_c) (b := main_v68) (y := main_v69) rfl (by decide) (by decide) (by decide) _).trans rfl

theorem exitV_main_v70 (m : (ℓ : Loc nD τ sig) → Buf (Elt F) ℓ) (c : Dev nD) :
    exitV m c (Proc.devRef .tc main_v70) = (select : (⟨S3, .i1⟩ : BufTy).Contents (Elt F) → (⟨S3, .i32⟩ : BufTy).Contents (Elt F) → (⟨S3, .i32⟩ : BufTy).Contents (Elt F) → (⟨S3, .i32⟩ : BufTy).Contents (Elt F)) (exitV m c (Proc.devRef .tc main_v67)) (exitV m c (Proc.devRef .tc main_v69)) (exitV m c (Proc.devRef .tc main_c)) :=
  (stage_ternary writes_ops 108 (c := main_v67) (a := main_v69) (b := main_c) (y := main_v70) rfl (by decide) (by decide) (by decide) (by decide) _).trans rfl

theorem exitV_main_v71 (m : (ℓ : Loc nD τ sig) → Buf (Elt F) ℓ) (c : Dev nD) :
    exitV m c (Proc.devRef .tc main_v71) = (broadcastInDim S3x1 ![0] bcast_S3_S3x1_0 : (⟨S3, .i32⟩ : BufTy).Contents (Elt F) → (⟨S3x1, .i32⟩ : BufTy).Contents (Elt F)) (exitV m c (Proc.devRef .tc main_v70)) :=
  (stage_unary writes_ops 109 (x := main_v70) (y := main_v71) rfl (by decide) (by decide) _).trans rfl

theorem exitV_main_v72 (m : (ℓ : Loc nD τ sig) → Buf (Elt F) ℓ) (c : Dev nD) :
    exitV m c (Proc.devRef .tc main_v72) = ((fun x i => Host.gather gather_S150000x4_S3x1_S150000x3_0_1_n_n_1_1_1500001 x i) : (⟨S150000x4, .i32⟩ : BufTy).Contents (Elt F) → (⟨S3x1, .i32⟩ : BufTy).Contents (Elt F) → (⟨S150000x3, .i32⟩ : BufTy).Contents (Elt F)) (exitV m c (Proc.devRef .tc main_arg2)) (exitV m c (Proc.devRef .tc main_v71)) :=
  (stage_binary writes_ops 110 (a := main_arg2) (b := main_v71) (y := main_v72) rfl (by decide) (by decide) (by decide) _).trans rfl

theorem exitV_main_v73 (m : (ℓ : Loc nD τ sig) → Buf (Elt F) ℓ) (c : Dev nD) :
    exitV m c (Proc.devRef .tc main_v73) = ((extractStridedSlice S3 ![3] · slices_S6_S3_3) : (⟨S6, .f32⟩ : BufTy).Contents (Elt F) → (⟨S3, .f32⟩ : BufTy).Contents (Elt F)) (exitV m c (Proc.devRef .tc main_cst_0)) :=
  (stage_unary writes_ops 111 (x := main_cst_0) (y := main_v73) rfl (by decide) (by decide) _).trans rfl

theorem exitV_main_v74 (m : (ℓ : Loc nD τ sig) → Buf (Elt F) ℓ) (c : Dev nD) :
    exitV m c (Proc.devRef .tc main_v74) = ((extractStridedSlice S3 ![0] · slices_S6_S3_0) : (⟨S6, .f32⟩ : BufTy).Contents (Elt F) → (⟨S3, .f32⟩ : BufTy).Contents (Elt F)) (exitV m c (Proc.devRef .tc main_cst_0)) :=
  (stage_unary writes_ops 112 (x := main_cst_0) (y := main_v74) rfl (by decide) (by decide) _).trans rfl

theorem exitV_main_v75 (m : (ℓ : Loc nD τ sig) → Buf (Elt F) ℓ) (c : Dev nD) :
    exitV m c (Proc.devRef .tc main_v75) = (subf : (⟨S3, .f32⟩ : BufTy).Contents (Elt F) → (⟨S3, .f32⟩ : BufTy).Contents (Elt F) → (⟨S3, .f32⟩ : BufTy).Contents (Elt F)) (exitV m c (Proc.devRef .tc main_v73)) (exitV m c (Proc.devRef .tc main_v74)) :=
  (stage_binary writes_ops 113 (a := main_v73) (b := main_v74) (y := main_v75) rfl (by decide) (by decide) (by decide) _).trans rfl

theorem exitV_main_v76 (m : (ℓ : Loc nD τ sig) → Buf (Elt F) ℓ) (c : Dev nD) :
    exitV m c (Proc.devRef .tc main_v76) = (Host.divf : (⟨S3, .f32⟩ : BufTy).Contents (Elt F) → (⟨S3, .f32⟩ : BufTy).Contents (Elt F) → (⟨S3, .f32⟩ : BufTy).Contents (Elt F)) (exitV m c (Proc.devRef .tc main_v75)) (exitV m c (Proc.devRef .tc main_cst)) :=
  (stage_binary writes_ops 114 (a := main_v75) (b := main_cst) (y := main_v76) rfl (by decide) (by decide) (by decide) _).trans rfl

theorem exitV_main_v77 (m : (ℓ : Loc nD τ sig) → Buf (Elt F) ℓ) (c : Dev nD) :
    exitV m c (Proc.devRef .tc main_v77) = (Host.ceil : (⟨S3, .f32⟩ : BufTy).Contents (Elt F) → (⟨S3, .f32⟩ : BufTy).Contents (Elt F)) (exitV m c (Proc.devRef .tc main_v76)) :=
  (stage_unary writes_ops 115 (x := main_v76) (y := main_v77) rfl (by decide) (by decide) _).trans rfl

theorem exitV_main_c_13 (m : (ℓ : Loc nD τ sig) → Buf (Elt F) ℓ) (c : Dev nD) :
    exitV m c (Proc.devRef .tc main_c_13) = (constantI S_ 32 0#32 : (⟨S_, .i32⟩ : BufTy).Contents (Elt F)) :=
  (stage_nullary writes_ops 116 (y := main_c_13) rfl (by decide) _).trans rfl

theorem exitV_main_v78 (m : (ℓ : Loc nD τ sig) → Buf (Elt F) ℓ) (c : Dev nD) :
    exitV m c (Proc.devRef .tc main_v78) = (broadcastInDim S2 ![] bcast_S_S2 : (⟨S_, .i32⟩ : BufTy).Contents (Elt F) → (⟨S2, .i32⟩ : BufTy).Contents (Elt F)) (exitV m c (Proc.devRef .tc main_c_13)) :=
  (stage_unary writes_ops 117 (x := main_c_13) (y := main_v78) rfl (by decide) (by decide) _).trans rfl

theorem exitV_main_v79 (m : (ℓ : Loc nD τ sig) → Buf (Elt F) ℓ) (c : Dev nD) :
    exitV m c (Proc.devRef .tc main_v79) = (cmpi .slt : (⟨S2, .i32⟩ : BufTy).Contents (Elt F) → (⟨S2, .i32⟩ : BufTy).Contents (Elt F) → (⟨S2, .i1⟩ : BufTy).Contents (Elt F)) (exitV m c (Proc.devRef .tc main_c_1)) (exitV m c (Proc.devRef .tc main_v78)) :=
  (stage_binary writes_ops 118 (a := main_c_1) (b := main_v78) (y := main_v79) rfl (by decide) (by decide) (by decide) _).trans rfl

theorem exitV_main_c_14 (m : (ℓ : Loc nD τ sig) → Buf (Elt F) ℓ) (c : Dev nD) :
    exitV m c (Proc.devRef .tc main_c_14) = (constantI S_ 32 3#32 : (⟨S_, .i32⟩ : BufTy).Contents (Elt F)) :=
  (stage_nullary writes_ops 119 (y := main_c_14) rfl (by decide) _).trans rfl

theorem exitV_main_v80 (m : (ℓ : Loc nD τ sig) → Buf (Elt F) ℓ) (c : Dev nD) :
    exitV m c (Proc.devRef .tc main_v80) = (broadcastInDim S2 ![] bcast_S_S2 : (⟨S_, .i32⟩ : BufTy).Contents (Elt F) → (⟨S2, .i32⟩ : BufTy).Contents (Elt F)) (exitV m c (Proc.devRef .tc main_c_14)) :=
  (stage_unary writes_ops 120 (x := main_c_14) (y := main_v80) rfl (by decide) (by decide) _).trans rfl

theorem exitV_main_v81 (m : (ℓ : Loc nD τ sig) → Buf (Elt F) ℓ) (c : Dev nD) :
    exitV m c (Proc.devRef .tc main_v81) = (addi : (⟨S2, .i32⟩ : BufTy).Contents (Elt F) → (⟨S2, .i32⟩ : BufTy).Contents (Elt F) → (⟨S2, .i32⟩ : BufTy).Contents (Elt F)) (exitV m c (Proc.devRef .tc main_c_1)) (exitV m c (Proc.devRef .tc main_v80)) :=
  (stage_binary writes_ops 121 (a := main_c_1) (b := main_v80) (y := main_v81) rfl (by decide) (by decide) (by decide) _).trans rfl

theorem exitV_main_v82 (m : (ℓ : Loc nD τ sig) → Buf (Elt F) ℓ) (c : Dev nD) :
    exitV m c (Proc.devRef .tc main_v82) = (select : (⟨S2, .i1⟩ : BufTy).Contents (Elt F) → (⟨S2, .i32⟩ : BufTy).Contents (Elt F) → (⟨S2, .i32⟩ : BufTy).Contents (Elt F) → (⟨S2, .i32⟩ : BufTy).Contents (Elt F)) (exitV m c (Proc.devRef .tc main_v79)) (exitV m c (Proc.devRef .tc main_v81)) (exitV m c (Proc.devRef .tc main_c_1)) :=
  (stage_ternary writes_ops 122 (c := main_v79) (a := main_v81) (b := main_c_1) (y := main_v82) rfl (by decide) (by decide) (by decide) (by decide) _).trans rfl

theorem exitV_main_v83 (m : (ℓ : Loc nD τ sig) → Buf (Elt F) ℓ) (c : Dev nD) :
    exitV m c (Proc.devRef .tc main_v83) = (broadcastInDim S2x1 ![0] bcast_S2_S2x1_0 : (⟨S2, .i32⟩ : BufTy).Contents (Elt F) → (⟨S2x1, .i32⟩ : BufTy).Contents (Elt F)) (exitV m c (Proc.devRef .tc main_v82)) :=
  (stage_unary writes_ops 123 (x := main_v82) (y := main_v83) rfl (by decide) (by decide) _).trans rfl

theorem exitV_main_v84 (m : (ℓ : Loc nD τ sig) → Buf (Elt F) ℓ) (c : Dev nD) :
    exitV m c (Proc.devRef .tc main_v84) = ((fun x i => Host.gather gather_S3_S2x1_S2_n_0_n_n_0_1_1 x i) : (⟨S3, .f32⟩ : BufTy).Contents (Elt F) → (⟨S2x1, .i32⟩ : BufTy).Contents (Elt F) → (⟨S2, .f32⟩ : BufTy).Contents (Elt F)) (exitV m c (Proc.devRef .tc main_v77)) (exitV m c (Proc.devRef .tc main_v83)) :=
  (stage_binary writes_ops 124 (a := main_v77) (b := main_v83) (y := main_v84) rfl (by decide) (by decide) (by decide) _).trans rfl

/-! ## Every value at the end of the run, as a function of the argument arrays

The same equations composed from the top: each value is its stage definition applied to the six arguments' launch
contents (the operands by the equations before it; the arguments are not written). The three results last. -/

theorem exit_cst (m : (ℓ : Loc nD τ sig) → Buf (Elt F) ℓ) (c : Dev nD) :
    exitV m c (Proc.devRef .tc main_cst) = val_cst (F := F) := by
  rw [exitV_main_cst m c]; rfl

theorem exit_cst_0 (m : (ℓ : Loc nD τ sig) → Buf (Elt F) ℓ) (c : Dev nD) :
    exitV m c (Proc.devRef .tc main_cst_0) = val_cst_0 (F := F) := by
  rw [exitV_main_cst_0 m c]; rfl

theorem exit_c (m : (ℓ : Loc nD τ sig) → Buf (Elt F) ℓ) (c : Dev nD) :
    exitV m c (Proc.devRef .tc main_c) = val_c := by
  rw [exitV_main_c m c]; rfl

theorem exit_c_1 (m : (ℓ : Loc nD τ sig) → Buf (Elt F) ℓ) (c : Dev nD) :
    exitV m c (Proc.devRef .tc main_c_1) = val_c_1 := by
  rw [exitV_main_c_1 m c]; rfl

theorem exit_v0 (m : (ℓ : Loc nD τ sig) → Buf (Elt F) ℓ) (c : Dev nD) :
    exitV m c (Proc.devRef .tc main_v0) = val_v0 (F := F) (m ((c.tc : Thread nD τ).loc main_arg0)) := by
  rw [exitV_main_v0 m c, exitV_arg0 m c]; rfl

theorem exit_v1 (m : (ℓ : Loc nD τ sig) → Buf (Elt F) ℓ) (c : Dev nD) :
    exitV m c (Proc.devRef .tc main_v1) = val_v1 (F := F) (m ((c.tc : Thread nD τ).loc main_arg1)) := by
  rw [exitV_main_v1 m c, exitV_arg1 m c]; rfl

theorem exit_cst_2 (m : (ℓ : Loc nD τ sig) → Buf (Elt F) ℓ) (c : Dev nD) :
    exitV m c (Proc.devRef .tc main_cst_2) = val_cst_2 (F := F) := by
  rw [exitV_main_cst_2 m c]; rfl

theorem exit_v2 (m : (ℓ : Loc nD τ sig) → Buf (Elt F) ℓ) (c : Dev nD) :
    exitV m c (Proc.devRef .tc main_v2) = val_v2 (F := F) (m ((c.tc : Thread nD τ).loc main_arg0)) := by
  rw [exitV_main_v2 m c, exit_v0 m c, exit_cst_2 m c]; rfl

theorem exit_v3 (m : (ℓ : Loc nD τ sig) → Buf (Elt F) ℓ) (c : Dev nD) :
    exitV m c (Proc.devRef .tc main_v3) = val_v3 (F := F) (m ((c.tc : Thread nD τ).loc main_arg1)) := by
  rw [exitV_main_v3 m c, exit_v1 m c]; rfl

theorem exit_v4 (m : (ℓ : Loc nD τ sig) → Buf (Elt F) ℓ) (c : Dev nD) :
    exitV m c (Proc.devRef .tc main_v4) = val_v4 (F := F) (m ((c.tc : Thread nD τ).loc main_arg1)) := by
  rw [exitV_main_v4 m c, exit_v3 m c]; rfl

theorem exit_v5 (m : (ℓ : Loc nD τ sig) → Buf (Elt F) ℓ) (c : Dev nD) :
    exitV m c (Proc.devRef .tc main_v5) = val_v5 (F := F) (m ((c.tc : Thread nD τ).loc main_arg0)) (m ((c.tc : Thread nD τ).loc main_arg1)) := by
  rw [exitV_main_v5 m c, exit_v2 m c, exit_v4 m c]; rfl

theorem exit_v6 (m : (ℓ : Loc nD τ sig) → Buf (Elt F) ℓ) (c : Dev nD) :
    exitV m c (Proc.devRef .tc main_v6) = val_v6 (F := F) (m ((c.tc : Thread nD τ).loc main_arg0)) (m ((c.tc : Thread nD τ).loc main_arg1)) := by
  rw [exitV_main_v6 m c, exit_v5 m c]; rfl

theorem exit_v7 (m : (ℓ : Loc nD τ sig) → Buf (Elt F) ℓ) (c : Dev nD) :
    exitV m c (Proc.devRef .tc main_v7) = val_v7 (F := F) (m ((c.tc : Thread nD τ).loc main_arg0)) (m ((c.tc : Thread nD τ).loc main_arg1)) := by
  rw [exitV_main_v7 m c, exit_v6 m c]; rfl

theorem exit_v8 (m : (ℓ : Loc nD τ sig) → Buf (Elt F) ℓ) (c : Dev nD) :
    exitV m c (Proc.devRef .tc main_v8) = val_v8 (F := F) (m ((c.tc : Thread nD τ).loc main_arg0)) (m ((c.tc : Thread nD τ).loc main_arg1)) := by
  rw [exitV_main_v8 m c, exit_v0 m c, exit_v7 m c]; rfl

theorem exit_v9 (m : (ℓ : Loc nD τ sig) → Buf (Elt F) ℓ) (c : Dev nD) :
    exitV m c (Proc.devRef .tc main_v9) = val_v9 (m ((c.tc : Thread nD τ).loc main_arg2)) := by
  rw [exitV_main_v9 m c, exitV_arg2 m c]; rfl

theorem exit_v10 (m : (ℓ : Loc nD τ sig) → Buf (Elt F) ℓ) (c : Dev nD) :
    exitV m c (Proc.devRef .tc main_v10) = val_v10 (F := F) (m ((c.tc : Thread nD τ).loc main_arg2)) := by
  rw [exitV_main_v10 m c, exit_v9 m c]; rfl

theorem exit_v11 (m : (ℓ : Loc nD τ sig) → Buf (Elt F) ℓ) (c : Dev nD) :
    exitV m c (Proc.devRef .tc main_v11) = val_v11 (F := F) (m ((c.tc : Thread nD τ).loc main_arg2)) := by
  rw [exitV_main_v11 m c, exit_v10 m c]; rfl

theorem exit_v12 (m : (ℓ : Loc nD τ sig) → Buf (Elt F) ℓ) (c : Dev nD) :
    exitV m c (Proc.devRef .tc main_v12) = val_v12 (F := F) (m ((c.tc : Thread nD τ).loc main_arg0)) := by
  rw [exitV_main_v12 m c, exit_v0 m c]; rfl

theorem exit_cst_3 (m : (ℓ : Loc nD τ sig) → Buf (Elt F) ℓ) (c : Dev nD) :
    exitV m c (Proc.devRef .tc main_cst_3) = val_cst_3 (F := F) := by
  rw [exitV_main_cst_3 m c]; rfl

theorem exit_v13 (m : (ℓ : Loc nD τ sig) → Buf (Elt F) ℓ) (c : Dev nD) :
    exitV m c (Proc.devRef .tc main_v13) = val_v13 (F := F) := by
  rw [exitV_main_v13 m c, exit_cst_3 m c]; rfl

theorem exit_v14 (m : (ℓ : Loc nD τ sig) → Buf (Elt F) ℓ) (c : Dev nD) :
    exitV m c (Proc.devRef .tc main_v14) = val_v14 (F := F) (m ((c.tc : Thread nD τ).loc main_arg2)) := by
  rw [exitV_main_v14 m c, exit_v11 m c, exit_v13 m c]; rfl

theorem exit_v15 (m : (ℓ : Loc nD τ sig) → Buf (Elt F) ℓ) (c : Dev nD) :
    exitV m c (Proc.devRef .tc main_v15) = val_v15 (F := F) := by
  rw [exitV_main_v15 m c, exit_cst m c]; rfl

theorem exit_v16 (m : (ℓ : Loc nD τ sig) → Buf (Elt F) ℓ) (c : Dev nD) :
    exitV m c (Proc.devRef .tc main_v16) = val_v16 (F := F) := by
  rw [exitV_main_v16 m c, exit_v15 m c]; rfl

theorem exit_v17 (m : (ℓ : Loc nD τ sig) → Buf (Elt F) ℓ) (c : Dev nD) :
    exitV m c (Proc.devRef .tc main_v17) = val_v17 (F := F) := by
  rw [exitV_main_v17 m c, exit_v16 m c]; rfl

theorem exit_v18 (m : (ℓ : Loc nD τ sig) → Buf (Elt F) ℓ) (c : Dev nD) :
    exitV m c (Proc.devRef .tc main_v18) = val_v18 (F := F) (m ((c.tc : Thread nD τ).loc main_arg2)) := by
  rw [exitV_main_v18 m c, exit_v14 m c, exit_v17 m c]; rfl

theorem exit_v19 (m : (ℓ : Loc nD τ sig) → Buf (Elt F) ℓ) (c : Dev nD) :
    exitV m c (Proc.devRef .tc main_v19) = val_v19 (F := F) := by
  rw [exitV_main_v19 m c, exit_cst_0 m c]; rfl

theorem exit_v20 (m : (ℓ : Loc nD τ sig) → Buf (Elt F) ℓ) (c : Dev nD) :
    exitV m c (Proc.devRef .tc main_v20) = val_v20 (F := F) := by
  rw [exitV_main_v20 m c, exit_v19 m c]; rfl

theorem exit_v21 (m : (ℓ : Loc nD τ sig) → Buf (Elt F) ℓ) (c : Dev nD) :
    exitV m c (Proc.devRef .tc main_v21) = val_v21 (F := F) := by
  rw [exitV_main_v21 m c, exit_v20 m c]; rfl

theorem exit_v22 (m : (ℓ : Loc nD τ sig) → Buf (Elt F) ℓ) (c : Dev nD) :
    exitV m c (Proc.devRef .tc main_v22) = val_v22 (F := F) (m ((c.tc : Thread nD τ).loc main_arg2)) := by
  rw [exitV_main_v22 m c, exit_v18 m c, exit_v21 m c]; rfl

theorem exit_v23 (m : (ℓ : Loc nD τ sig) → Buf (Elt F) ℓ) (c : Dev nD) :
    exitV m c (Proc.devRef .tc main_v23) = val_v23 (F := F) (m ((c.tc : Thread nD τ).loc main_arg2)) := by
  rw [exitV_main_v23 m c, exit_v22 m c]; rfl

theorem exit_v24 (m : (ℓ : Loc nD τ sig) → Buf (Elt F) ℓ) (c : Dev nD) :
    exitV m c (Proc.devRef .tc main_v24) = val_v24 (F := F) (m ((c.tc : Thread nD τ).loc main_arg2)) := by
  rw [exitV_main_v24 m c, exit_v23 m c]; rfl

theorem exit_v25 (m : (ℓ : Loc nD τ sig) → Buf (Elt F) ℓ) (c : Dev nD) :
    exitV m c (Proc.devRef .tc main_v25) = val_v25 (F := F) (m ((c.tc : Thread nD τ).loc main_arg0)) (m ((c.tc : Thread nD τ).loc main_arg2)) := by
  rw [exitV_main_v25 m c, exit_v12 m c, exit_v24 m c]; rfl

theorem exit_v26 (m : (ℓ : Loc nD τ sig) → Buf (Elt F) ℓ) (c : Dev nD) :
    exitV m c (Proc.devRef .tc main_v26) = val_v26 (F := F) (m ((c.tc : Thread nD τ).loc main_arg0)) := by
  rw [exitV_main_v26 m c, exit_v0 m c]; rfl

theorem exit_v27 (m : (ℓ : Loc nD τ sig) → Buf (Elt F) ℓ) (c : Dev nD) :
    exitV m c (Proc.devRef .tc main_v27) = val_v27 (F := F) (m ((c.tc : Thread nD τ).loc main_arg0)) := by
  rw [exitV_main_v27 m c, exit_v26 m c]; rfl

theorem exit_v28 (m : (ℓ : Loc nD τ sig) → Buf (Elt F) ℓ) (c : Dev nD) :
    exitV m c (Proc.devRef .tc main_v28) = val_v28 (F := F) := by
  rw [exitV_main_v28 m c, exit_cst m c]; rfl

theorem exit_v29 (m : (ℓ : Loc nD τ sig) → Buf (Elt F) ℓ) (c : Dev nD) :
    exitV m c (Proc.devRef .tc main_v29) = val_v29 (F := F) := by
  rw [exitV_main_v29 m c, exit_v28 m c]; rfl

theorem exit_cst_4 (m : (ℓ : Loc nD τ sig) → Buf (Elt F) ℓ) (c : Dev nD) :
    exitV m c (Proc.devRef .tc main_cst_4) = val_cst_4 (F := F) := by
  rw [exitV_main_cst_4 m c]; rfl

theorem exit_v30 (m : (ℓ : Loc nD τ sig) → Buf (Elt F) ℓ) (c : Dev nD) :
    exitV m c (Proc.devRef .tc main_v30) = val_v30 (F := F) := by
  rw [exitV_main_v30 m c, exit_cst_4 m c, exit_v29 m c]; rfl

theorem exit_v31 (m : (ℓ : Loc nD τ sig) → Buf (Elt F) ℓ) (c : Dev nD) :
    exitV m c (Proc.devRef .tc main_v31) = val_v31 (F := F) := by
  rw [exitV_main_v31 m c, exit_cst_0 m c]; rfl

theorem exit_v32 (m : (ℓ : Loc nD τ sig) → Buf (Elt F) ℓ) (c : Dev nD) :
    exitV m c (Proc.devRef .tc main_v32) = val_v32 (F := F) := by
  rw [exitV_main_v32 m c, exit_v31 m c]; rfl

theorem exit_v33 (m : (ℓ : Loc nD τ sig) → Buf (Elt F) ℓ) (c : Dev nD) :
    exitV m c (Proc.devRef .tc main_v33) = val_v33 (F := F) := by
  rw [exitV_main_v33 m c, exit_v30 m c, exit_v32 m c]; rfl

theorem exit_v34 (m : (ℓ : Loc nD τ sig) → Buf (Elt F) ℓ) (c : Dev nD) :
    exitV m c (Proc.devRef .tc main_v34) = val_v34 (F := F) := by
  rw [exitV_main_v34 m c, exit_v33 m c]; rfl

theorem exit_v35 (m : (ℓ : Loc nD τ sig) → Buf (Elt F) ℓ) (c : Dev nD) :
    exitV m c (Proc.devRef .tc main_v35) = val_v35 (F := F) (m ((c.tc : Thread nD τ).loc main_arg0)) := by
  rw [exitV_main_v35 m c, exit_v27 m c, exit_v34 m c]; rfl

theorem exit_v36 (m : (ℓ : Loc nD τ sig) → Buf (Elt F) ℓ) (c : Dev nD) :
    exitV m c (Proc.devRef .tc main_v36) = val_v36 (F := F) (m ((c.tc : Thread nD τ).loc main_arg0)) := by
  rw [exitV_main_v36 m c, exit_v35 m c]; rfl

theorem exit_v37 (m : (ℓ : Loc nD τ sig) → Buf (Elt F) ℓ) (c : Dev nD) :
    exitV m c (Proc.devRef .tc main_v37) = val_v37 (F := F) (m ((c.tc : Thread nD τ).loc main_arg0)) (m ((c.tc : Thread nD τ).loc main_arg2)) := by
  rw [exitV_main_v37 m c, exit_v25 m c, exit_v36 m c]; rfl

theorem exit_cst_5 (m : (ℓ : Loc nD τ sig) → Buf (Elt F) ℓ) (c : Dev nD) :
    exitV m c (Proc.devRef .tc main_cst_5) = val_cst_5 (F := F) := by
  rw [exitV_main_cst_5 m c]; rfl

theorem exit_v38 (m : (ℓ : Loc nD τ sig) → Buf (Elt F) ℓ) (c : Dev nD) :
    exitV m c (Proc.devRef .tc main_v38) = val_v38 (F := F) := by
  rw [exitV_main_v38 m c, exit_cst_5 m c]; rfl

theorem exit_v39 (m : (ℓ : Loc nD τ sig) → Buf (Elt F) ℓ) (c : Dev nD) :
    exitV m c (Proc.devRef .tc main_v39) = val_v39 (F := F) (m ((c.tc : Thread nD τ).loc main_arg0)) := by
  rw [exitV_main_v39 m c, exit_v0 m c, exit_v38 m c]; rfl

theorem exit_v40 (m : (ℓ : Loc nD τ sig) → Buf (Elt F) ℓ) (c : Dev nD) :
    exitV m c (Proc.devRef .tc main_v40) = val_v40 (F := F) (m ((c.tc : Thread nD τ).loc main_arg0)) := by
  rw [exitV_main_v40 m c, exit_v39 m c]; rfl

theorem exit_v41 (m : (ℓ : Loc nD τ sig) → Buf (Elt F) ℓ) (c : Dev nD) :
    exitV m c (Proc.devRef .tc main_v41) = val_v41 (F := F) (m ((c.tc : Thread nD τ).loc main_arg0)) (m ((c.tc : Thread nD τ).loc main_arg2)) := by
  rw [exitV_main_v41 m c, exit_v37 m c, exit_v40 m c]; rfl

theorem exit_v42 (m : (ℓ : Loc nD τ sig) → Buf (Elt F) ℓ) (c : Dev nD) :
    exitV m c (Proc.devRef .tc main_v42) = val_v42 (F := F) (m ((c.tc : Thread nD τ).loc main_arg0)) (m ((c.tc : Thread nD τ).loc main_arg1)) := by
  rw [exitV_main_v42 m c, exit_v8 m c, exit_v40 m c]; rfl

theorem exit_v43 (m : (ℓ : Loc nD τ sig) → Buf (Elt F) ℓ) (c : Dev nD) :
    exitV m c (Proc.devRef .tc main_v43) = val_v43 (F := F) (m ((c.tc : Thread nD τ).loc main_arg0)) (m ((c.tc : Thread nD τ).loc main_arg1)) (m ((c.tc : Thread nD τ).loc main_arg2)) := by
  rw [exitV_main_v43 m c, exit_v0 m c, exit_v41 m c, exit_v42 m c]; rfl

theorem exit_v44 (m : (ℓ : Loc nD τ sig) → Buf (Elt F) ℓ) (c : Dev nD) :
    exitV m c (Proc.devRef .tc main_v44) = val_v44 (F := F) (m ((c.tc : Thread nD τ).loc main_arg0)) (m ((c.tc : Thread nD τ).loc main_arg1)) (m ((c.tc : Thread nD τ).loc main_arg2)) (m ((c.tc : Thread nD τ).loc main_arg3)) := by
  rw [exitV_main_v44 m c, exit_v43 m c, exitV_arg3 m c]; rfl

theorem exit_cst_6 (m : (ℓ : Loc nD τ sig) → Buf (Elt F) ℓ) (c : Dev nD) :
    exitV m c (Proc.devRef .tc main_cst_6) = val_cst_6 (F := F) := by
  rw [exitV_main_cst_6 m c]; rfl

theorem exit_v45 (m : (ℓ : Loc nD τ sig) → Buf (Elt F) ℓ) (c : Dev nD) :
    exitV m c (Proc.devRef .tc main_v45) = val_v45 (F := F) (m ((c.tc : Thread nD τ).loc main_arg0)) (m ((c.tc : Thread nD τ).loc main_arg1)) (m ((c.tc : Thread nD τ).loc main_arg2)) (m ((c.tc : Thread nD τ).loc main_arg3)) := by
  rw [exitV_main_v45 m c, exit_v44 m c, exit_cst_6 m c]; rfl

theorem exit_cst_7 (m : (ℓ : Loc nD τ sig) → Buf (Elt F) ℓ) (c : Dev nD) :
    exitV m c (Proc.devRef .tc main_cst_7) = val_cst_7 (F := F) := by
  rw [exitV_main_cst_7 m c]; rfl

theorem exit_v46 (m : (ℓ : Loc nD τ sig) → Buf (Elt F) ℓ) (c : Dev nD) :
    exitV m c (Proc.devRef .tc main_v46) = val_v46 (F := F) := by
  rw [exitV_main_v46 m c, exit_cst_7 m c]; rfl

theorem exit_v47 (m : (ℓ : Loc nD τ sig) → Buf (Elt F) ℓ) (c : Dev nD) :
    exitV m c (Proc.devRef .tc main_v47) = val_v47 (F := F) (m ((c.tc : Thread nD τ).loc main_arg0)) (m ((c.tc : Thread nD τ).loc main_arg1)) (m ((c.tc : Thread nD τ).loc main_arg2)) (m ((c.tc : Thread nD τ).loc main_arg3)) := by
  rw [exitV_main_v47 m c, exit_v45 m c, exit_v46 m c]; rfl

theorem exit_c_8 (m : (ℓ : Loc nD τ sig) → Buf (Elt F) ℓ) (c : Dev nD) :
    exitV m c (Proc.devRef .tc main_c_8) = val_c_8 := by
  rw [exitV_main_c_8 m c]; rfl

theorem exit_call0_cst (m : (ℓ : Loc nD τ sig) → Buf (Elt F) ℓ) (c : Dev nD) :
    exitV m c (Proc.devRef .tc main_call0_cst) = val_call0_cst (F := F) := by
  rw [exitV_main_call0_cst m c]; rfl

theorem exit_call0_v0 (m : (ℓ : Loc nD τ sig) → Buf (Elt F) ℓ) (c : Dev nD) :
    exitV m c (Proc.devRef .tc main_call0_v0) = val_call0_v0 (F := F) (m ((c.tc : Thread nD τ).loc main_arg0)) (m ((c.tc : Thread nD τ).loc main_arg1)) (m ((c.tc : Thread nD τ).loc main_arg2)) (m ((c.tc : Thread nD τ).loc main_arg3)) := by
  rw [exitV_main_call0_v0 m c, exit_v44 m c, exit_call0_cst m c]; rfl

theorem exit_call0_v1 (m : (ℓ : Loc nD τ sig) → Buf (Elt F) ℓ) (c : Dev nD) :
    exitV m c (Proc.devRef .tc main_call0_v1) = val_call0_v1 (F := F) (m ((c.tc : Thread nD τ).loc main_arg0)) (m ((c.tc : Thread nD τ).loc main_arg1)) (m ((c.tc : Thread nD τ).loc main_arg2)) (m ((c.tc : Thread nD τ).loc main_arg3)) := by
  rw [exitV_main_call0_v1 m c, exit_call0_v0 m c]; rfl

theorem exit_call0_cst_0 (m : (ℓ : Loc nD τ sig) → Buf (Elt F) ℓ) (c : Dev nD) :
    exitV m c (Proc.devRef .tc main_call0_cst_0) = val_call0_cst_0 (F := F) := by
  rw [exitV_main_call0_cst_0 m c]; rfl

theorem exit_call0_v2 (m : (ℓ : Loc nD τ sig) → Buf (Elt F) ℓ) (c : Dev nD) :
    exitV m c (Proc.devRef .tc main_call0_v2) = val_call0_v2 (F := F) := by
  rw [exitV_main_call0_v2 m c, exit_call0_cst_0 m c]; rfl

theorem exit_call0_v3 (m : (ℓ : Loc nD τ sig) → Buf (Elt F) ℓ) (c : Dev nD) :
    exitV m c (Proc.devRef .tc main_call0_v3) = val_call0_v3 (F := F) (m ((c.tc : Thread nD τ).loc main_arg0)) (m ((c.tc : Thread nD τ).loc main_arg1)) (m ((c.tc : Thread nD τ).loc main_arg2)) (m ((c.tc : Thread nD τ).loc main_arg3)) := by
  rw [exitV_main_call0_v3 m c, exit_call0_v1 m c, exit_call0_v2 m c]; rfl

theorem exit_call0_v4 (m : (ℓ : Loc nD τ sig) → Buf (Elt F) ℓ) (c : Dev nD) :
    exitV m c (Proc.devRef .tc main_call0_v4) = val_call0_v4 (F := F) (m ((c.tc : Thread nD τ).loc main_arg0)) (m ((c.tc : Thread nD τ).loc main_arg1)) (m ((c.tc : Thread nD τ).loc main_arg2)) (m ((c.tc : Thread nD τ).loc main_arg3)) := by
  rw [exitV_main_call0_v4 m c, exit_call0_v3 m c]; rfl

theorem exit_call0_v5 (m : (ℓ : Loc nD τ sig) → Buf (Elt F) ℓ) (c : Dev nD) :
    exitV m c (Proc.devRef .tc main_call0_v5) = val_call0_v5 (F := F) (m ((c.tc : Thread nD τ).loc main_arg0)) (m ((c.tc : Thread nD τ).loc main_arg1)) (m ((c.tc : Thread nD τ).loc main_arg2)) (m ((c.tc : Thread nD τ).loc main_arg3)) := by
  rw [exitV_main_call0_v5 m c, exit_v44 m c, exit_call0_v4 m c]; rfl

theorem exit_call0_v6 (m : (ℓ : Loc nD τ sig) → Buf (Elt F) ℓ) (c : Dev nD) :
    exitV m c (Proc.devRef .tc main_call0_v6) = val_call0_v6 (F := F) (m ((c.tc : Thread nD τ).loc main_arg0)) (m ((c.tc : Thread nD τ).loc main_arg1)) (m ((c.tc : Thread nD τ).loc main_arg2)) (m ((c.tc : Thread nD τ).loc main_arg3)) := by
  rw [exitV_main_call0_v6 m c, exit_call0_v5 m c]; rfl

theorem exit_call0_v7 (m : (ℓ : Loc nD τ sig) → Buf (Elt F) ℓ) (c : Dev nD) :
    exitV m c (Proc.devRef .tc main_call0_v7) = val_call0_v7 (F := F) := by
  rw [exitV_main_call0_v7 m c, exit_c_8 m c]; rfl

theorem exit_call0_cst_1 (m : (ℓ : Loc nD τ sig) → Buf (Elt F) ℓ) (c : Dev nD) :
    exitV m c (Proc.devRef .tc main_call0_cst_1) = val_call0_cst_1 (F := F) := by
  rw [exitV_main_call0_cst_1 m c]; rfl

theorem exit_call0_v8 (m : (ℓ : Loc nD τ sig) → Buf (Elt F) ℓ) (c : Dev nD) :
    exitV m c (Proc.devRef .tc main_call0_v8) = val_call0_v8 (F := F) := by
  rw [exitV_main_call0_v8 m c, exit_call0_cst_1 m c, exit_call0_v7 m c]; rfl

theorem exit_call0_cst_2 (m : (ℓ : Loc nD τ sig) → Buf (Elt F) ℓ) (c : Dev nD) :
    exitV m c (Proc.devRef .tc main_call0_cst_2) = val_call0_cst_2 (F := F) := by
  rw [exitV_main_call0_cst_2 m c]; rfl

theorem exit_call0_v9 (m : (ℓ : Loc nD τ sig) → Buf (Elt F) ℓ) (c : Dev nD) :
    exitV m c (Proc.devRef .tc main_call0_v9) = val_call0_v9 (F := F) (m ((c.tc : Thread nD τ).loc main_arg0)) (m ((c.tc : Thread nD τ).loc main_arg1)) (m ((c.tc : Thread nD τ).loc main_arg2)) (m ((c.tc : Thread nD τ).loc main_arg3)) := by
  rw [exitV_main_call0_v9 m c, exit_call0_v6 m c, exit_call0_cst_2 m c]; rfl

theorem exit_call0_v10 (m : (ℓ : Loc nD τ sig) → Buf (Elt F) ℓ) (c : Dev nD) :
    exitV m c (Proc.devRef .tc main_call0_v10) = val_call0_v10 (F := F) := by
  rw [exitV_main_call0_v10 m c, exit_call0_v8 m c]; rfl

theorem exit_call0_v11 (m : (ℓ : Loc nD τ sig) → Buf (Elt F) ℓ) (c : Dev nD) :
    exitV m c (Proc.devRef .tc main_call0_v11) = val_call0_v11 (F := F) (m ((c.tc : Thread nD τ).loc main_arg0)) (m ((c.tc : Thread nD τ).loc main_arg1)) (m ((c.tc : Thread nD τ).loc main_arg2)) (m ((c.tc : Thread nD τ).loc main_arg3)) := by
  rw [exitV_main_call0_v11 m c, exit_call0_v9 m c, exit_call0_v10 m c]; rfl

theorem exit_call0_cst_3 (m : (ℓ : Loc nD τ sig) → Buf (Elt F) ℓ) (c : Dev nD) :
    exitV m c (Proc.devRef .tc main_call0_cst_3) = val_call0_cst_3 (F := F) := by
  rw [exitV_main_call0_cst_3 m c]; rfl

theorem exit_call0_v12 (m : (ℓ : Loc nD τ sig) → Buf (Elt F) ℓ) (c : Dev nD) :
    exitV m c (Proc.devRef .tc main_call0_v12) = val_call0_v12 (F := F) := by
  rw [exitV_main_call0_v12 m c, exit_call0_v8 m c, exit_call0_cst_3 m c]; rfl

theorem exit_call0_cst_4 (m : (ℓ : Loc nD τ sig) → Buf (Elt F) ℓ) (c : Dev nD) :
    exitV m c (Proc.devRef .tc main_call0_cst_4) = val_call0_cst_4 (F := F) := by
  rw [exitV_main_call0_cst_4 m c]; rfl

theorem exit_call0_call0_v0 (m : (ℓ : Loc nD τ sig) → Buf (Elt F) ℓ) (c : Dev nD) :
    exitV m c (Proc.devRef .tc main_call0_call0_v0) = val_call0_call0_v0 (F := F) := by
  rw [exitV_main_call0_call0_v0 m c, exit_call0_cst_4 m c]; rfl

theorem exit_call0_call0_v1 (m : (ℓ : Loc nD τ sig) → Buf (Elt F) ℓ) (c : Dev nD) :
    exitV m c (Proc.devRef .tc main_call0_call0_v1) = val_call0_call0_v1 (F := F) := by
  rw [exitV_main_call0_call0_v1 m c, exit_call0_call0_v0 m c]; rfl

theorem exit_v48 (m : (ℓ : Loc nD τ sig) → Buf (Elt F) ℓ) (c : Dev nD) :
    exitV m c (Proc.devRef .tc main_v48) = val_v48 (F := F) (m ((c.tc : Thread nD τ).loc main_arg0)) (m ((c.tc : Thread nD τ).loc main_arg1)) (m ((c.tc : Thread nD τ).loc main_arg2)) (m ((c.tc : Thread nD τ).loc main_arg3)) := by
  rw [exitV_main_v48 m c, exit_call0_v12 m c, exit_call0_v11 m c, exit_call0_call0_v1 m c]; rfl

theorem exit_v49 (m : (ℓ : Loc nD τ sig) → Buf (Elt F) ℓ) (c : Dev nD) :
    exitV m c (Proc.devRef .tc main_v49) = val_v49 (F := F) (m ((c.tc : Thread nD τ).loc main_arg0)) (m ((c.tc : Thread nD τ).loc main_arg1)) (m ((c.tc : Thread nD τ).loc main_arg2)) (m ((c.tc : Thread nD τ).loc main_arg3)) := by
  rw [exitV_main_v49 m c, exit_v47 m c]; rfl

theorem exit_v50 (m : (ℓ : Loc nD τ sig) → Buf (Elt F) ℓ) (c : Dev nD) :
    exitV m c (Proc.devRef .tc main_v50) = val_v50 (F := F) (m ((c.tc : Thread nD τ).loc main_arg0)) (m ((c.tc : Thread nD τ).loc main_arg1)) (m ((c.tc : Thread nD τ).loc main_arg2)) (m ((c.tc : Thread nD τ).loc main_arg3)) := by
  rw [exitV_main_v50 m c, exit_v49 m c]; rfl

theorem exit_v51 (m : (ℓ : Loc nD τ sig) → Buf (Elt F) ℓ) (c : Dev nD) :
    exitV m c (Proc.devRef .tc main_v51) = val_v51 (F := F) (m ((c.tc : Thread nD τ).loc main_arg0)) (m ((c.tc : Thread nD τ).loc main_arg1)) (m ((c.tc : Thread nD τ).loc main_arg2)) (m ((c.tc : Thread nD τ).loc main_arg3)) := by
  rw [exitV_main_v51 m c, exit_v44 m c, exit_v50 m c]; rfl

theorem exit_cst_9 (m : (ℓ : Loc nD τ sig) → Buf (Elt F) ℓ) (c : Dev nD) :
    exitV m c (Proc.devRef .tc main_cst_9) = val_cst_9 (F := F) := by
  rw [exitV_main_cst_9 m c]; rfl

theorem exit_v52 (m : (ℓ : Loc nD τ sig) → Buf (Elt F) ℓ) (c : Dev nD) :
    exitV m c (Proc.devRef .tc main_v52) = val_v52 (F := F) := by
  rw [exitV_main_v52 m c, exit_cst_9 m c]; rfl

theorem exit_v53 (m : (ℓ : Loc nD τ sig) → Buf (Elt F) ℓ) (c : Dev nD) :
    exitV m c (Proc.devRef .tc main_v53) = val_v53 (F := F) (m ((c.tc : Thread nD τ).loc main_arg0)) (m ((c.tc : Thread nD τ).loc main_arg1)) (m ((c.tc : Thread nD τ).loc main_arg2)) (m ((c.tc : Thread nD τ).loc main_arg3)) := by
  rw [exitV_main_v53 m c, exit_v48 m c, exit_v52 m c]; rfl

theorem exit_v54 (m : (ℓ : Loc nD τ sig) → Buf (Elt F) ℓ) (c : Dev nD) :
    exitV m c (Proc.devRef .tc main_v54) = val_v54 (F := F) (m ((c.tc : Thread nD τ).loc main_arg0)) (m ((c.tc : Thread nD τ).loc main_arg1)) (m ((c.tc : Thread nD τ).loc main_arg2)) (m ((c.tc : Thread nD τ).loc main_arg3)) := by
  rw [exitV_main_v54 m c, exit_v53 m c]; rfl

theorem exit_v55 (m : (ℓ : Loc nD τ sig) → Buf (Elt F) ℓ) (c : Dev nD) :
    exitV m c (Proc.devRef .tc main_v55) = val_v55 (F := F) (m ((c.tc : Thread nD τ).loc main_arg0)) (m ((c.tc : Thread nD τ).loc main_arg1)) (m ((c.tc : Thread nD τ).loc main_arg2)) (m ((c.tc : Thread nD τ).loc main_arg3)) := by
  rw [exitV_main_v55 m c, exit_v54 m c]; rfl

theorem exit_v56 (m : (ℓ : Loc nD τ sig) → Buf (Elt F) ℓ) (c : Dev nD) :
    exitV m c (Proc.devRef .tc main_v56) = val_v56 (F := F) (m ((c.tc : Thread nD τ).loc main_arg0)) (m ((c.tc : Thread nD τ).loc main_arg1)) (m ((c.tc : Thread nD τ).loc main_arg2)) (m ((c.tc : Thread nD τ).loc main_arg3)) := by
  rw [exitV_main_v56 m c, exit_v55 m c]; rfl

theorem exit_v57 (m : (ℓ : Loc nD τ sig) → Buf (Elt F) ℓ) (c : Dev nD) :
    exitV m c (Proc.devRef .tc main_v57) = val_v57 (F := F) (m ((c.tc : Thread nD τ).loc main_arg0)) (m ((c.tc : Thread nD τ).loc main_arg1)) (m ((c.tc : Thread nD τ).loc main_arg2)) (m ((c.tc : Thread nD τ).loc main_arg3)) := by
  rw [exitV_main_v57 m c, exit_v51 m c, exit_v56 m c]; rfl

theorem exit_v58 (m : (ℓ : Loc nD τ sig) → Buf (Elt F) ℓ) (c : Dev nD) :
    exitV m c (Proc.devRef .tc main_v58) = val_v58 (F := F) (m ((c.tc : Thread nD τ).loc main_arg4)) := by
  rw [exitV_main_v58 m c, exitV_arg4 m c]; rfl

theorem exit_v59 (m : (ℓ : Loc nD τ sig) → Buf (Elt F) ℓ) (c : Dev nD) :
    exitV m c (Proc.devRef .tc main_v59) = val_v59 (F := F) (m ((c.tc : Thread nD τ).loc main_arg4)) := by
  rw [exitV_main_v59 m c, exit_v58 m c]; rfl

theorem exit_v60 (m : (ℓ : Loc nD τ sig) → Buf (Elt F) ℓ) (c : Dev nD) :
    exitV m c (Proc.devRef .tc main_v60) = val_v60 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [exitV_main_v60 m c, exit_v57 m c, exit_v59 m c]; rfl

theorem exit_v61 (m : (ℓ : Loc nD τ sig) → Buf (Elt F) ℓ) (c : Dev nD) :
    exitV m c (Proc.devRef .tc main_v61) = val_v61 (F := F) (m ((c.tc : Thread nD τ).loc main_arg5)) := by
  rw [exitV_main_v61 m c, exitV_arg5 m c]; rfl

theorem exit_v62 (m : (ℓ : Loc nD τ sig) → Buf (Elt F) ℓ) (c : Dev nD) :
    exitV m c (Proc.devRef .tc main_v62) = val_v62 (F := F) (m ((c.tc : Thread nD τ).loc main_arg5)) := by
  rw [exitV_main_v62 m c, exit_v61 m c]; rfl

theorem exit_v63 (m : (ℓ : Loc nD τ sig) → Buf (Elt F) ℓ) (c : Dev nD) :
    exitV m c (Proc.devRef .tc main_v63) = val_v63 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [exitV_main_v63 m c, exit_v60 m c, exit_v62 m c]; rfl

theorem exit_call1_cst (m : (ℓ : Loc nD τ sig) → Buf (Elt F) ℓ) (c : Dev nD) :
    exitV m c (Proc.devRef .tc main_call1_cst) = val_call1_cst (F := F) := by
  rw [exitV_main_call1_cst m c]; rfl

theorem exit_call1_v0 (m : (ℓ : Loc nD τ sig) → Buf (Elt F) ℓ) (c : Dev nD) :
    exitV m c (Proc.devRef .tc main_call1_v0) = val_call1_v0 (F := F) := by
  rw [exitV_main_call1_v0 m c, exit_call1_cst m c]; rfl

theorem exit_v64 (m : (ℓ : Loc nD τ sig) → Buf (Elt F) ℓ) (c : Dev nD) :
    exitV m c (Proc.devRef .tc main_v64) = val_v64 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [exitV_main_v64 m c, exit_v63 m c, exit_call1_v0 m c]; rfl

theorem exit_cst_10 (m : (ℓ : Loc nD τ sig) → Buf (Elt F) ℓ) (c : Dev nD) :
    exitV m c (Proc.devRef .tc main_cst_10) = val_cst_10 (F := F) := by
  rw [exitV_main_cst_10 m c]; rfl

theorem exit_v65 (m : (ℓ : Loc nD τ sig) → Buf (Elt F) ℓ) (c : Dev nD) :
    exitV m c (Proc.devRef .tc main_v65) = val_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [exitV_main_v65 m c, exit_v64 m c, exit_cst_10 m c]; rfl

theorem exit_c_11 (m : (ℓ : Loc nD τ sig) → Buf (Elt F) ℓ) (c : Dev nD) :
    exitV m c (Proc.devRef .tc main_c_11) = val_c_11 := by
  rw [exitV_main_c_11 m c]; rfl

theorem exit_v66 (m : (ℓ : Loc nD τ sig) → Buf (Elt F) ℓ) (c : Dev nD) :
    exitV m c (Proc.devRef .tc main_v66) = val_v66 := by
  rw [exitV_main_v66 m c, exit_c_11 m c]; rfl

theorem exit_v67 (m : (ℓ : Loc nD τ sig) → Buf (Elt F) ℓ) (c : Dev nD) :
    exitV m c (Proc.devRef .tc main_v67) = val_v67 := by
  rw [exitV_main_v67 m c, exit_c m c, exit_v66 m c]; rfl

theorem exit_c_12 (m : (ℓ : Loc nD τ sig) → Buf (Elt F) ℓ) (c : Dev nD) :
    exitV m c (Proc.devRef .tc main_c_12) = val_c_12 := by
  rw [exitV_main_c_12 m c]; rfl

theorem exit_v68 (m : (ℓ : Loc nD τ sig) → Buf (Elt F) ℓ) (c : Dev nD) :
    exitV m c (Proc.devRef .tc main_v68) = val_v68 := by
  rw [exitV_main_v68 m c, exit_c_12 m c]; rfl

theorem exit_v69 (m : (ℓ : Loc nD τ sig) → Buf (Elt F) ℓ) (c : Dev nD) :
    exitV m c (Proc.devRef .tc main_v69) = val_v69 := by
  rw [exitV_main_v69 m c, exit_c m c, exit_v68 m c]; rfl

theorem exit_v70 (m : (ℓ : Loc nD τ sig) → Buf (Elt F) ℓ) (c : Dev nD) :
    exitV m c (Proc.devRef .tc main_v70) = val_v70 := by
  rw [exitV_main_v70 m c, exit_v67 m c, exit_v69 m c, exit_c m c]; rfl

theorem exit_v71 (m : (ℓ : Loc nD τ sig) → Buf (Elt F) ℓ) (c : Dev nD) :
    exitV m c (Proc.devRef .tc main_v71) = val_v71 := by
  rw [exitV_main_v71 m c, exit_v70 m c]; rfl

theorem exit_v72 (m : (ℓ : Loc nD τ sig) → Buf (Elt F) ℓ) (c : Dev nD) :
    exitV m c (Proc.devRef .tc main_v72) = val_v72 (m ((c.tc : Thread nD τ).loc main_arg2)) := by
  rw [exitV_main_v72 m c, exitV_arg2 m c, exit_v71 m c]; rfl

theorem exit_v73 (m : (ℓ : Loc nD τ sig) → Buf (Elt F) ℓ) (c : Dev nD) :
    exitV m c (Proc.devRef .tc main_v73) = val_v73 (F := F) := by
  rw [exitV_main_v73 m c, exit_cst_0 m c]; rfl

theorem exit_v74 (m : (ℓ : Loc nD τ sig) → Buf (Elt F) ℓ) (c : Dev nD) :
    exitV m c (Proc.devRef .tc main_v74) = val_v74 (F := F) := by
  rw [exitV_main_v74 m c, exit_cst_0 m c]; rfl

theorem exit_v75 (m : (ℓ : Loc nD τ sig) → Buf (Elt F) ℓ) (c : Dev nD) :
    exitV m c (Proc.devRef .tc main_v75) = val_v75 (F := F) := by
  rw [exitV_main_v75 m c, exit_v73 m c, exit_v74 m c]; rfl

theorem exit_v76 (m : (ℓ : Loc nD τ sig) → Buf (Elt F) ℓ) (c : Dev nD) :
    exitV m c (Proc.devRef .tc main_v76) = val_v76 (F := F) := by
  rw [exitV_main_v76 m c, exit_v75 m c, exit_cst m c]; rfl

theorem exit_v77 (m : (ℓ : Loc nD τ sig) → Buf (Elt F) ℓ) (c : Dev nD) :
    exitV m c (Proc.devRef .tc main_v77) = val_v77 (F := F) := by
  rw [exitV_main_v77 m c, exit_v76 m c]; rfl

theorem exit_c_13 (m : (ℓ : Loc nD τ sig) → Buf (Elt F) ℓ) (c : Dev nD) :
    exitV m c (Proc.devRef .tc main_c_13) = val_c_13 := by
  rw [exitV_main_c_13 m c]; rfl

theorem exit_v78 (m : (ℓ : Loc nD τ sig) → Buf (Elt F) ℓ) (c : Dev nD) :
    exitV m c (Proc.devRef .tc main_v78) = val_v78 := by
  rw [exitV_main_v78 m c, exit_c_13 m c]; rfl

theorem exit_v79 (m : (ℓ : Loc nD τ sig) → Buf (Elt F) ℓ) (c : Dev nD) :
    exitV m c (Proc.devRef .tc main_v79) = val_v79 := by
  rw [exitV_main_v79 m c, exit_c_1 m c, exit_v78 m c]; rfl

theorem exit_c_14 (m : (ℓ : Loc nD τ sig) → Buf (Elt F) ℓ) (c : Dev nD) :
    exitV m c (Proc.devRef .tc main_c_14) = val_c_14 := by
  rw [exitV_main_c_14 m c]; rfl

theorem exit_v80 (m : (ℓ : Loc nD τ sig) → Buf (Elt F) ℓ) (c : Dev nD) :
    exitV m c (Proc.devRef .tc main_v80) = val_v80 := by
  rw [exitV_main_v80 m c, exit_c_14 m c]; rfl

theorem exit_v81 (m : (ℓ : Loc nD τ sig) → Buf (Elt F) ℓ) (c : Dev nD) :
    exitV m c (Proc.devRef .tc main_v81) = val_v81 := by
  rw [exitV_main_v81 m c, exit_c_1 m c, exit_v80 m c]; rfl

theorem exit_v82 (m : (ℓ : Loc nD τ sig) → Buf (Elt F) ℓ) (c : Dev nD) :
    exitV m c (Proc.devRef .tc main_v82) = val_v82 := by
  rw [exitV_main_v82 m c, exit_v79 m c, exit_v81 m c, exit_c_1 m c]; rfl

theorem exit_v83 (m : (ℓ : Loc nD τ sig) → Buf (Elt F) ℓ) (c : Dev nD) :
    exitV m c (Proc.devRef .tc main_v83) = val_v83 := by
  rw [exitV_main_v83 m c, exit_v82 m c]; rfl

theorem exit_v84 (m : (ℓ : Loc nD τ sig) → Buf (Elt F) ℓ) (c : Dev nD) :
    exitV m c (Proc.devRef .tc main_v84) = val_v84 (F := F) := by
  rw [exitV_main_v84 m c, exit_v77 m c, exit_v83 m c]; rfl

end Cert.ReferenceIdeal.Hand

end
-- ==== Proof.Consts.lean ====
/-
  The f32 words the two programs carry, as the extended reals they denote.
-/
import proofs.«129818_j66013647339880_2_alg».proof.Proof.Spec

noncomputable section

namespace Cert.Consts

open Idealize.ShloMosaic Cert.Spec

/-- The word of +0.0 denotes 0. -/
theorem lit_zero : lit 0x00000000#32 = 0 := by
  simp [Ideal.ofBits, Ideal.ieee]

/-- The word of 1.0 denotes 1. -/
theorem lit_one : lit 0x3F800000#32 = ((1 : ℝ) : EReal) := by
  simp [Ideal.ofBits, Ideal.ieee, -EReal.coe_mul]; norm_num

/-- The word of 3000000.0 denotes 3000000. -/
theorem lit_nPts : lit 0x4A371B00#32 = ((3000000 : ℝ) : EReal) := by
  simp [Ideal.ofBits, Ideal.ieee, -EReal.coe_mul]; norm_num

/-- The word of 0.5 denotes 1/2. -/
theorem lit_half : lit 0x3F000000#32 = ((1 / 2 : ℝ) : EReal) := by
  simp [Ideal.ofBits, Ideal.ieee, -EReal.coe_mul]; norm_num

/-- The word of 4.0 denotes 4. -/
theorem lit_four : lit 0x40800000#32 = ((4 : ℝ) : EReal) := by
  simp [Ideal.ofBits, Ideal.ieee, -EReal.coe_mul]; norm_num

/-- The word of -3.0 denotes -3. -/
theorem lit_neg_three : lit 0xC0400000#32 = ((-3 : ℝ) : EReal) := by
  simp [Ideal.ofBits, Ideal.ieee, -EReal.coe_mul]; norm_num

/-- The word of -1.0 denotes -1. -/
theorem lit_neg_one : lit 0xBF800000#32 = ((-1 : ℝ) : EReal) := by
  simp [Ideal.ofBits, Ideal.ieee, -EReal.coe_mul]; norm_num

/-- The word of -40.0 denotes -40. -/
theorem lit_neg_forty : lit 0xC2200000#32 = ((-40 : ℝ) : EReal) := by
  simp [Ideal.ofBits, Ideal.ieee, -EReal.coe_mul]; norm_num

/-- The voxel size's word (nearest 0.16) denotes a real. -/
theorem lit_vsize : ∃ r : ℝ, lit 0x3E23D70A#32 = (r : EReal) := by
  refine ⟨(10737418 : ℝ) * (2 : ℝ) ^ (-26 : ℤ), ?_⟩
  simp [Ideal.ofBits, Ideal.ieee, -EReal.coe_mul]

/-- The variance offset's word (nearest 0.001) denotes a positive real. -/
theorem lit_eps : ∃ e : ℝ, 0 < e ∧ lit 0x3A83126F#32 = (e : EReal) := by
  refine ⟨(8589935 : ℝ) * (2 : ℝ) ^ (-33 : ℤ), by positivity, ?_⟩
  simp [Ideal.ofBits, Ideal.ieee, -EReal.coe_mul]

/-- The word of -infinity denotes the bottom element. -/
theorem lit_neg_inf : lit 0xFF800000#32 = ⊥ := by
  simp [Ideal.ofBits, Ideal.ieee]

/-- 1/2 * 4 + (-3) = -1, at the words. -/
theorem half_mul_four_add_neg_three :
    lit 0x3F000000#32 * lit 0x40800000#32 + lit 0xC0400000#32 = lit 0xBF800000#32 := by
  rw [lit_half, lit_four, lit_neg_three, lit_neg_one, ← EReal.coe_mul, ← EReal.coe_add]
  norm_num

end Cert.Consts

end
-- ==== Proof.Ref.Read.lean ====
/-
  The reference program's result read index by index: each value of the program, at an index named
  by its coordinates, is the shared specification's expression there — a pillar's feature sums, the
  voxel centre, the nine-vector, the linear layer, the batch mean and variance over all points, the
  normalised, scaled, shifted and clamped value, and its maximum over a pillar's points.
-/
import proofs.«129818_j66013647339880_2_alg».proof.Proof.Ref.Stages
import proofs.«129818_j66013647339880_2_alg».proof.Proof.Spec
import proofs.«129818_j66013647339880_2_alg».proof.Proof.Consts
import Idealize.ShloMosaic.Lib.IdealHost
import Idealize.ShloMosaic.Lib.Pipeline.Value
import Idealize.ShloMosaic.PureOps.Ideal.Laws

noncomputable section

namespace Cert.ReferenceIdeal.Hand

open Idealize.ShloMosaic Idealize.ShloMosaic.ValueIdx
open Cert.ReferenceIdeal Cert.ReferenceIdeal.Facts₀ Cert.ReferenceIdeal.Facts
open Cert.Spec

variable [Facts]

/-! ## Layout operations at the program's shapes, read at an index named by coordinates -/

section Layout
variable {α : Type}

theorem slice_feat (x : S150000x20x5.Idx → α) (h : S150000x20x5.Slices ![0, 0, 0] S150000x20x3)
    (p : Fin 150000) (n : Fin 20) (k : Fin 3) :
    extractStridedSlice S150000x20x3 ![0, 0, 0] x h (ix3 p n k) = x (ix3 p n ⟨k.val, by omega⟩) :=
  extractStridedSlice_apply _ x h _ _ fun a => match a with
    | ⟨0, _⟩ => by show p.val = 0 + p.val; omega
    | ⟨1, _⟩ => by show n.val = 0 + n.val; omega
    | ⟨2, _⟩ => by show k.val = 0 + k.val; omega

theorem slice_xy (x : S150000x20x3.Idx → α) (h : S150000x20x3.Slices ![0, 0, 0] S150000x20x2)
    (p : Fin 150000) (n : Fin 20) (c : Fin 2) :
    extractStridedSlice S150000x20x2 ![0, 0, 0] x h (ix3 p n c) = x (ix3 p n ⟨c.val, by omega⟩) :=
  extractStridedSlice_apply _ x h _ _ fun a => match a with
    | ⟨0, _⟩ => by show p.val = 0 + p.val; omega
    | ⟨1, _⟩ => by show n.val = 0 + n.val; omega
    | ⟨2, _⟩ => by show c.val = 0 + c.val; omega

theorem slice_z (x : S150000x20x3.Idx → α) (h : S150000x20x3.Slices ![0, 0, 2] S150000x20x1)
    (p : Fin 150000) (n : Fin 20) (z : Fin 1) :
    extractStridedSlice S150000x20x1 ![0, 0, 2] x h (ix3 p n z) = x (ix3 p n 2) :=
  extractStridedSlice_apply _ x h _ _ fun a => match a with
    | ⟨0, _⟩ => by show p.val = 0 + p.val; omega
    | ⟨1, _⟩ => by show n.val = 0 + n.val; omega
    | ⟨2, _⟩ => by show 2 = 2 + z.val; omega

theorem slice_crd (x : S150000x4.Idx → α) (h : S150000x4.Slices ![0, 2] S150000x2)
    (p : Fin 150000) (c : Fin 2) :
    extractStridedSlice S150000x2 ![0, 2] x h (ix2 p c) = x (ix2 p ⟨c.val + 2, by omega⟩) :=
  extractStridedSlice_apply _ x h _ _ fun a => match a with
    | ⟨0, _⟩ => by show p.val = 0 + p.val; omega
    | ⟨1, _⟩ => by show c.val + 2 = 2 + c.val; omega

theorem slice_3_2 (x : S3.Idx → α) (h : S3.Slices ![0] S2) (c : Fin 2) :
    extractStridedSlice S2 ![0] x h (ix1 c) = x (ix1 ⟨c.val, by omega⟩) :=
  extractStridedSlice_apply _ x h _ _ fun a => match a with
    | ⟨0, _⟩ => by show c.val = 0 + c.val; omega

theorem slice_6_2 (x : S6.Idx → α) (h : S6.Slices ![0] S2) (c : Fin 2) :
    extractStridedSlice S2 ![0] x h (ix1 c) = x (ix1 ⟨c.val, by omega⟩) :=
  extractStridedSlice_apply _ x h _ _ fun a => match a with
    | ⟨0, _⟩ => by show c.val = 0 + c.val; omega

theorem slice_3_1 (x : S3.Idx → α) (h : S3.Slices ![2] S1) (z : Fin 1) :
    extractStridedSlice S1 ![2] x h (ix1 z) = x (ix1 2) :=
  extractStridedSlice_apply _ x h _ _ fun a => match a with
    | ⟨0, _⟩ => by show 2 = 2 + z.val; omega

theorem slice_6_1 (x : S6.Idx → α) (h : S6.Slices ![2] S1) (z : Fin 1) :
    extractStridedSlice S1 ![2] x h (ix1 z) = x (ix1 2) :=
  extractStridedSlice_apply _ x h _ _ fun a => match a with
    | ⟨0, _⟩ => by show 2 = 2 + z.val; omega

theorem bc_col (x : S150000.Idx → α) (h : S150000.BroadcastsInDim S150000x1 ![0]) (p : Fin 150000) (z : Fin 1) :
    broadcastInDim S150000x1 ![0] h x (ix2 p z) = x (ix1 p) :=
  broadcastInDim_apply _ h x _ _ fun a => match a with | ⟨0, _⟩ => rfl

theorem bc_col3 (x : S150000x1.Idx → α) (h : S150000x1.BroadcastsInDim S150000x3 ![0, 1]) (p : Fin 150000) (k : Fin 3) :
    broadcastInDim S150000x3 ![0, 1] h x (ix2 p k) = x (ix2 p 0) :=
  broadcastInDim_apply _ h x _ _ fun a => match a with | ⟨0, _⟩ => rfl | ⟨1, _⟩ => rfl

theorem bc_mid3 (x : S150000x3.Idx → α) (h : S150000x3.BroadcastsInDim S150000x1x3 ![0, 2]) (p : Fin 150000) (z : Fin 1) (k : Fin 3) :
    broadcastInDim S150000x1x3 ![0, 2] h x (ix3 p z k) = x (ix2 p k) :=
  broadcastInDim_apply _ h x _ _ fun a => match a with | ⟨0, _⟩ => rfl | ⟨1, _⟩ => rfl

theorem bc_pts3 (x : S150000x1x3.Idx → α) (h : S150000x1x3.BroadcastsInDim S150000x20x3 ![0, 1, 2]) (p : Fin 150000) (n : Fin 20) (k : Fin 3) :
    broadcastInDim S150000x20x3 ![0, 1, 2] h x (ix3 p n k) = x (ix3 p 0 k) :=
  broadcastInDim_apply _ h x _ _ fun a => match a with | ⟨0, _⟩ => rfl | ⟨1, _⟩ => rfl | ⟨2, _⟩ => rfl

theorem bc_row2 (x : S2.Idx → α) (h : S2.BroadcastsInDim S1x2 ![1]) (z : Fin 1) (c : Fin 2) :
    broadcastInDim S1x2 ![1] h x (ix2 z c) = x (ix1 c) :=
  broadcastInDim_apply _ h x _ _ fun a => match a with | ⟨0, _⟩ => rfl

theorem bc_rows2 (x : S1x2.Idx → α) (h : S1x2.BroadcastsInDim S150000x2 ![0, 1]) (p : Fin 150000) (c : Fin 2) :
    broadcastInDim S150000x2 ![0, 1] h x (ix2 p c) = x (ix2 0 c) :=
  broadcastInDim_apply _ h x _ _ fun a => match a with | ⟨0, _⟩ => rfl | ⟨1, _⟩ => rfl

theorem bc_mid2 (x : S150000x2.Idx → α) (h : S150000x2.BroadcastsInDim S150000x1x2 ![0, 2]) (p : Fin 150000) (z : Fin 1) (c : Fin 2) :
    broadcastInDim S150000x1x2 ![0, 2] h x (ix3 p z c) = x (ix2 p c) :=
  broadcastInDim_apply _ h x _ _ fun a => match a with | ⟨0, _⟩ => rfl | ⟨1, _⟩ => rfl

theorem bc_pts2 (x : S150000x1x2.Idx → α) (h : S150000x1x2.BroadcastsInDim S150000x20x2 ![0, 1, 2]) (p : Fin 150000) (n : Fin 20) (c : Fin 2) :
    broadcastInDim S150000x20x2 ![0, 1, 2] h x (ix3 p n c) = x (ix3 p 0 c) :=
  broadcastInDim_apply _ h x _ _ fun a => match a with | ⟨0, _⟩ => rfl | ⟨1, _⟩ => rfl | ⟨2, _⟩ => rfl

theorem bc_unit (x : S150000x20.Idx → α) (h : S150000x20.BroadcastsInDim S150000x20x1 ![0, 1]) (p : Fin 150000) (n : Fin 20) (z : Fin 1) :
    broadcastInDim S150000x20x1 ![0, 1] h x (ix3 p n z) = x (ix2 p n) :=
  broadcastInDim_apply _ h x _ _ fun a => match a with | ⟨0, _⟩ => rfl | ⟨1, _⟩ => rfl

theorem bc_ch (x : S64.Idx → α) (h : S64.BroadcastsInDim S1x1x64 ![2]) (y z : Fin 1) (o : Fin 64) :
    broadcastInDim S1x1x64 ![2] h x (ix3 y z o) = x (ix1 o) :=
  broadcastInDim_apply _ h x _ _ fun a => match a with | ⟨0, _⟩ => rfl

theorem bc_all (x : S1x1x64.Idx → α) (h : S1x1x64.BroadcastsInDim S150000x20x64 ![0, 1, 2]) (p : Fin 150000) (n : Fin 20) (o : Fin 64) :
    broadcastInDim S150000x20x64 ![0, 1, 2] h x (ix3 p n o) = x (ix3 0 0 o) :=
  broadcastInDim_apply _ h x _ _ fun a => match a with | ⟨0, _⟩ => rfl | ⟨1, _⟩ => rfl | ⟨2, _⟩ => rfl

theorem cast_z (x : S150000x20x1.Idx → α) (h : S150000x20x1.ShapeCasts S150000x20) (p : Fin 150000) (n : Fin 20) :
    shapeCast S150000x20 x h (ix2 p n) = x (ix3 p n 0) :=
  shapeCast_apply x h _ _ (by
    rw [Shape.rowMajor_val_three, Shape.rowMajor_val_two]
    show (p.val * 20 + n.val) * 1 + 0 = p.val * 20 + n.val
    omega)

theorem cast_scalar (x : S1.Idx → α) (h : S1.ShapeCasts S_) (j : S_.Idx) :
    shapeCast S_ x h j = x (ix1 0) :=
  shapeCast_apply x h _ _ (by
    rw [Shape.rowMajor_val_one]
    have := (S_.rowMajor j).isLt
    show 0 = (S_.rowMajor j).val
    have h1 : S_.numel = 1 := rfl
    omega)

theorem rev_crd (x : S150000x2.Idx → α) (p : Fin 150000) (c : Fin 2) :
    Host.reverse [1] x (ix2 p c) = x (ix2 p c.rev) := by
  unfold Host.reverse
  refine congrArg x (funext fun a => ?_)
  match a with
  | ⟨0, _⟩ => rfl
  | ⟨1, _⟩ => rfl

end Layout

/-! ## The stages up to the nine-vector, read at an index -/

section Stages
variable (a0 : FVec Ideal S150000x20x5 .f32) (a1 : IVec S150000 32) (a2 : IVec S150000x4 32)

theorem v0_apply (p : Fin 150000) (n : Fin 20) (k : Fin 3) :
    val_v0 (F := Ideal) a0 (ix3 p n k) = feat (R := 150000) a0 p n k :=
  slice_feat _ _ p n k

theorem v1_apply (p : Fin 150000) : val_v1 (F := Ideal) a1 (ix1 p) = cnt (R := 150000) a1 p := rfl

theorem red_pts3 : S150000x20x3.Reduces [1] S150000x3 := by decide

theorem lift_pts3 (p : Fin 150000) (n : Fin 20) (k : Fin 3) : red_pts3.lift (ix2 p k) n = ix3 p n k := by
  funext c
  match c with
  | ⟨0, _⟩ => exact Fin.ext rfl
  | ⟨1, _⟩ => exact Fin.ext rfl
  | ⟨2, _⟩ => exact Fin.ext rfl

theorem v2_apply (p : Fin 150000) (k : Fin 3) : val_v2 (F := Ideal) a0 (ix2 p k) = fsum (R := 150000) a0 p k := by
  refine (hostReduceAdd_apply (val_v0 (F := Ideal) a0) (val_cst_2 (F := Ideal)) _ _ _).trans ?_
  refine (Ideal.hostReduceAdd_single _ red_pts3 _ _ _).trans ?_
  show Ideal.ofBits .f32 0x00000000#32 + _ = _
  rw [Ideal.ofBits_zero_f32, zero_add]
  unfold fsum
  exact Finset.sum_congr rfl fun n _ => (congrArg (val_v0 (F := Ideal) a0) (lift_pts3 p n k)).trans (v0_apply a0 p n k)

theorem v4_apply (p : Fin 150000) (k : Fin 3) : val_v4 (F := Ideal) a1 (ix2 p k) = cnt (R := 150000) a1 p :=
  (bc_col3 _ _ p k).trans ((bc_col _ _ p 0).trans (v1_apply a1 p))

theorem v5_apply (p : Fin 150000) (k : Fin 3) :
    val_v5 (F := Ideal) a0 a1 (ix2 p k) = Ideal.div (fsum (R := 150000) a0 p k) (cnt (R := 150000) a1 p) := by
  show Ideal.div (val_v2 (F := Ideal) a0 (ix2 p k)) (val_v4 (F := Ideal) a1 (ix2 p k)) = _
  rw [v2_apply, v4_apply]

theorem v7_apply (p : Fin 150000) (n : Fin 20) (k : Fin 3) :
    val_v7 (F := Ideal) a0 a1 (ix3 p n k) = Ideal.div (fsum (R := 150000) a0 p k) (cnt (R := 150000) a1 p) :=
  (bc_pts3 _ _ p n k).trans ((bc_mid3 _ _ p 0 k).trans (v5_apply a0 a1 p k))

theorem v8_apply (p : Fin 150000) (n : Fin 20) (k : Fin 3) :
    val_v8 (F := Ideal) a0 a1 (ix3 p n k)
      = feat (R := 150000) a0 p n k - Ideal.div (fsum (R := 150000) a0 p k) (cnt (R := 150000) a1 p) := by
  show val_v0 (F := Ideal) a0 (ix3 p n k) - val_v7 (F := Ideal) a0 a1 (ix3 p n k) = _
  rw [v0_apply, v7_apply]

/-! ### The voxel's centre -/

theorem v10_apply (p : Fin 150000) (c : Fin 2) :
    val_v10 (F := Ideal) a2 (ix2 p c) = crd (R := 150000) a2 p ⟨c.val + 2, by omega⟩ :=
  congrArg (fun w : BitVec 32 => (((w.toInt : ℝ)) : EReal)) (slice_crd a2 _ p c)

theorem v11_apply (p : Fin 150000) (c : Fin 2) :
    val_v11 (F := Ideal) a2 (ix2 p c) = crd (R := 150000) a2 p ⟨c.rev.val + 2, by omega⟩ :=
  (rev_crd _ p c).trans (v10_apply a2 p c.rev)

theorem v13_apply (j : S150000x2.Idx) : val_v13 (F := Ideal) j = lit 0x3F000000#32 :=
  broadcastInDim_scalar_apply _ _ _

theorem cst_apply (c : Fin 3) : val_cst (F := Ideal) (ix1 c) = lit (lit0 c) :=
  congrArg (fun q => Ideal.ofBits .f32 (lit0 q)) (Fin.ext (Shape.rowMajor_val_one (ix1 c)))

theorem cst_0_apply (c : Fin 6) : val_cst_0 (F := Ideal) (ix1 c) = lit (lit1 c) :=
  congrArg (fun q => Ideal.ofBits .f32 (lit1 q)) (Fin.ext (Shape.rowMajor_val_one (ix1 c)))

theorem v15_apply (c : Fin 2) : val_v15 (F := Ideal) (ix1 c) = lit 0x3E23D70A#32 :=
  (slice_3_2 _ _ c).trans ((cst_apply ⟨c.val, by omega⟩).trans (by
    match c with
    | ⟨0, _⟩ => rfl
    | ⟨1, _⟩ => rfl))

theorem v17_apply (p : Fin 150000) (c : Fin 2) : val_v17 (F := Ideal) (ix2 p c) = lit 0x3E23D70A#32 :=
  (bc_rows2 _ _ p c).trans ((bc_row2 _ _ 0 c).trans (v15_apply c))

theorem v19_apply (c : Fin 2) : val_v19 (F := Ideal) (ix1 c) = lit (lit1 ⟨c.val, by omega⟩) :=
  (slice_6_2 _ _ c).trans (cst_0_apply ⟨c.val, by omega⟩)

theorem v21_apply (p : Fin 150000) (c : Fin 2) : val_v21 (F := Ideal) (ix2 p c) = lit (lit1 ⟨c.val, by omega⟩) :=
  (bc_rows2 _ _ p c).trans ((bc_row2 _ _ 0 c).trans (v19_apply c))

theorem v22_apply (p : Fin 150000) (c : Fin 2) :
    val_v22 (F := Ideal) a2 (ix2 p c) = ctr (R := 150000) a2 p ⟨c.val, by omega⟩ := by
  show (val_v11 (F := Ideal) a2 (ix2 p c) + val_v13 (F := Ideal) (ix2 p c)) * val_v17 (F := Ideal) (ix2 p c)
      + val_v21 (F := Ideal) (ix2 p c) = _
  rw [v11_apply, v13_apply, v17_apply, v21_apply]
  match c with
  | ⟨0, _⟩ => rfl
  | ⟨1, _⟩ => rfl

theorem v12_apply (p : Fin 150000) (n : Fin 20) (c : Fin 2) :
    val_v12 (F := Ideal) a0 (ix3 p n c) = feat (R := 150000) a0 p n ⟨c.val, by omega⟩ :=
  (slice_xy _ _ p n c).trans (v0_apply a0 p n ⟨c.val, by omega⟩)

theorem v24_apply (p : Fin 150000) (n : Fin 20) (c : Fin 2) :
    val_v24 (F := Ideal) a2 (ix3 p n c) = ctr (R := 150000) a2 p ⟨c.val, by omega⟩ :=
  (bc_pts2 _ _ p n c).trans ((bc_mid2 _ _ p 0 c).trans (v22_apply a2 p c))

theorem v25_apply (p : Fin 150000) (n : Fin 20) (c : Fin 2) :
    val_v25 (F := Ideal) a0 a2 (ix3 p n c)
      = feat (R := 150000) a0 p n ⟨c.val, by omega⟩ - ctr (R := 150000) a2 p ⟨c.val, by omega⟩ := by
  show val_v12 (F := Ideal) a0 (ix3 p n c) - val_v24 (F := Ideal) a2 (ix3 p n c) = _
  rw [v12_apply, v24_apply]

theorem v29_apply (j : S_.Idx) : val_v29 (F := Ideal) j = lit 0x40800000#32 :=
  (cast_scalar _ _ j).trans ((slice_3_1 _ _ 0).trans (cst_apply 2))

theorem v32_apply (j : S_.Idx) : val_v32 (F := Ideal) j = lit 0xC0400000#32 :=
  (cast_scalar _ _ j).trans ((slice_6_1 _ _ 0).trans (cst_0_apply 2))

theorem v33_apply (j : S_.Idx) : val_v33 (F := Ideal) j = lit 0xBF800000#32 := by
  show lit 0x3F000000#32 * val_v29 (F := Ideal) j + val_v32 (F := Ideal) j = _
  rw [v29_apply, v32_apply]
  exact Cert.Consts.half_mul_four_add_neg_three

theorem v27_apply (p : Fin 150000) (n : Fin 20) : val_v27 (F := Ideal) a0 (ix2 p n) = feat (R := 150000) a0 p n 2 :=
  (cast_z _ _ p n).trans ((slice_z _ _ p n 0).trans (v0_apply a0 p n 2))

theorem v35_apply (p : Fin 150000) (n : Fin 20) :
    val_v35 (F := Ideal) a0 (ix2 p n) = feat (R := 150000) a0 p n 2 - lit 0xBF800000#32 := by
  show val_v27 (F := Ideal) a0 (ix2 p n) - val_v34 (F := Ideal) (ix2 p n) = _
  rw [v27_apply, show val_v34 (F := Ideal) (ix2 p n) = lit 0xBF800000#32 from
    (broadcastInDim_scalar_apply _ _ _).trans (v33_apply _)]

theorem v36_apply (p : Fin 150000) (n : Fin 20) (z : Fin 1) :
    val_v36 (F := Ideal) a0 (ix3 p n z) = feat (R := 150000) a0 p n 2 - lit 0xBF800000#32 :=
  (bc_unit _ _ p n z).trans (v35_apply a0 p n)

theorem v37_apply (p : Fin 150000) (n : Fin 20) (k : Fin 3) :
    val_v37 (F := Ideal) a0 a2 (ix3 p n k) = feat (R := 150000) a0 p n k - ctr (R := 150000) a2 p k := by
  by_cases hk : k.val < 2
  · refine (concatenate_pair_apply_left (2 : Fin S150000x20x3.rank) (val_v25 (F := Ideal) a0 a2) (val_v36 (F := Ideal) a0) _
      (ix3 p n k) rfl (ix3 p n ⟨k.val, hk⟩) fun b => ?_).trans (v25_apply a0 a2 p n ⟨k.val, hk⟩)
    match b with
    | ⟨0, _⟩ => rfl
    | ⟨1, _⟩ => rfl
    | ⟨2, _⟩ => rfl
  · have hk2 : k = 2 := Fin.ext (by have := k.isLt; show k.val = 2; omega)
    subst hk2
    refine (concatenate_pair_apply_right (2 : Fin S150000x20x3.rank) (val_v25 (F := Ideal) a0 a2) (val_v36 (F := Ideal) a0) _
      (ix3 p n 2) rfl rfl (ix3 p n 0) (fun b => ?_) rfl).trans (v36_apply a0 p n 0)
    match b with
    | ⟨0, _⟩ => exact fun _ => rfl
    | ⟨1, _⟩ => exact fun _ => rfl
    | ⟨2, _⟩ => exact fun h => absurd rfl h

/-! ### The indicator of a non-zero feature, and the nine-vector -/

theorem msk_eq (x : EReal) :
    (((Ideal.cmp .une x (Ideal.ofBits .f32 0x00000000#32)).toNat : ℝ) : EReal) = msk x := by
  rw [Ideal.ofBits_zero_f32]
  unfold Ideal.cmp msk
  by_cases h : x = 0
  · simp [h]
  · simp [h]

theorem v40_apply (p : Fin 150000) (n : Fin 20) (k : Fin 3) :
    val_v40 (F := Ideal) a0 (ix3 p n k) = msk (feat (R := 150000) a0 p n k) := by
  show (((Ideal.cmp .une (val_v0 (F := Ideal) a0 (ix3 p n k)) (val_v38 (F := Ideal) (ix3 p n k))).toNat : ℝ) : EReal) = _
  rw [v0_apply, show val_v38 (F := Ideal) (ix3 p n k) = Ideal.ofBits .f32 0x00000000#32 from broadcastInDim_scalar_apply _ _ _]
  exact msk_eq _

theorem v41_apply (p : Fin 150000) (n : Fin 20) (k : Fin 3) :
    val_v41 (F := Ideal) a0 a2 (ix3 p n k)
      = (feat (R := 150000) a0 p n k - ctr (R := 150000) a2 p k) * msk (feat (R := 150000) a0 p n k) := by
  show val_v37 (F := Ideal) a0 a2 (ix3 p n k) * val_v40 (F := Ideal) a0 (ix3 p n k) = _
  rw [v37_apply, v40_apply]

theorem v42_apply (p : Fin 150000) (n : Fin 20) (k : Fin 3) :
    val_v42 (F := Ideal) a0 a1 (ix3 p n k)
      = (feat (R := 150000) a0 p n k - Ideal.div (fsum (R := 150000) a0 p k) (cnt (R := 150000) a1 p))
          * msk (feat (R := 150000) a0 p n k) := by
  show val_v8 (F := Ideal) a0 a1 (ix3 p n k) * val_v40 (F := Ideal) a0 (ix3 p n k) = _
  rw [v8_apply, v40_apply]

theorem v43_apply (p : Fin 150000) (n : Fin 20) (j : Fin 9) :
    val_v43 (F := Ideal) a0 a1 a2 (ix3 p n j) = x9 (R := 150000) a0 a2 (cnt (R := 150000) a1) p n j := by
  unfold x9
  by_cases h3 : j.val < 3
  · rw [dif_pos h3]
    refine (concatenate_apply_piece (2 : Fin S150000x20x9.rank) _ _ (ix3 p n j) 0 (by show (0 : ℕ) < 3; omega) S150000x20x3
      (val_v0 (F := Ideal) a0) rfl rfl 0 rfl (ix3 p n ⟨j.val, h3⟩) (fun b => ?_) ?_).trans (v0_apply a0 p n ⟨j.val, h3⟩)
    · match b with
      | ⟨0, _⟩ => exact fun _ => rfl
      | ⟨1, _⟩ => exact fun _ => rfl
      | ⟨2, _⟩ => exact fun h => absurd rfl h
    · show 0 + j.val = j.val; omega
  · rw [dif_neg h3]
    by_cases h6 : j.val < 6
    · rw [dif_pos h6]
      refine (concatenate_apply_piece (2 : Fin S150000x20x9.rank) _ _ (ix3 p n j) 1 (by show (1 : ℕ) < 3; omega) S150000x20x3
        (val_v41 (F := Ideal) a0 a2) rfl rfl 3 rfl (ix3 p n ⟨j.val - 3, by omega⟩) (fun b => ?_) ?_).trans
        (v41_apply a0 a2 p n ⟨j.val - 3, by omega⟩)
      · match b with
        | ⟨0, _⟩ => exact fun _ => rfl
        | ⟨1, _⟩ => exact fun _ => rfl
        | ⟨2, _⟩ => exact fun h => absurd rfl h
      · show 3 + (j.val - 3) = j.val; omega
    · rw [dif_neg h6]
      refine (concatenate_apply_piece (2 : Fin S150000x20x9.rank) _ _ (ix3 p n j) 2 (by show (2 : ℕ) < 3; omega) S150000x20x3
        (val_v42 (F := Ideal) a0 a1) rfl rfl 6 rfl (ix3 p n ⟨j.val - 6, by have := j.isLt; omega⟩) (fun b => ?_) ?_).trans
        (v42_apply a0 a1 p n ⟨j.val - 6, by have := j.isLt; omega⟩)
      · match b with
        | ⟨0, _⟩ => exact fun _ => rfl
        | ⟨1, _⟩ => exact fun _ => rfl
        | ⟨2, _⟩ => exact fun h => absurd rfl h
      · show 6 + (j.val - 6) = j.val; omega

end Stages

end Cert.ReferenceIdeal.Hand

end
-- ==== Proof.Ref.ReadLin.lean ====
/-
  The reference program's linear layer read at an index: the one contraction of the program, of each
  point's nine-vector with a row of the 64 x 9 weight, is the sum over the nine features of the
  products — whatever the nine-vector has been shown to be.
-/
import proofs.«129818_j66013647339880_2_alg».proof.Proof.Ref.Stages
import proofs.«129818_j66013647339880_2_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.Hand

open Idealize.ShloMosaic Idealize.ShloMosaic.ValueIdx
open Cert.ReferenceIdeal Cert.ReferenceIdeal.Facts₀ Cert.ReferenceIdeal.Facts
open Cert.Spec

variable [Facts]

/-! ## The contraction's operand indices at a result index and the `k`-th contraction position -/

/-- The left operand's pillar is the result's, -/
theorem lin_lhs_0 (j : S150000x20x64.Idx) (q : dot_S150000x20x9_S64x9_S150000x20x64_2_1_01_0_n_n.contr.Idx) :
    (dot_S150000x20x9_S64x9_S150000x20x64_2_1_01_0_n_n.lhsIdx j q 0).val = (j 0).val := rfl
/-- its point the result's, -/
theorem lin_lhs_1 (j : S150000x20x64.Idx) (q : dot_S150000x20x9_S64x9_S150000x20x64_2_1_01_0_n_n.contr.Idx) :
    (dot_S150000x20x9_S64x9_S150000x20x64_2_1_01_0_n_n.lhsIdx j q 1).val = (j 1).val := rfl
/-- its feature is `k`; -/
theorem lin_lhs_2 (j : S150000x20x64.Idx) (k : Fin 9) :
    (dot_S150000x20x9_S64x9_S150000x20x64_2_1_01_0_n_n.lhsIdx j ((contrEquiv1 dot_S150000x20x9_S64x9_S150000x20x64_2_1_01_0_n_n 9 rfl rfl).symm k) 2).val = k.val :=
  (DotDims.lhsIdx_val_of_single _ rfl j _).trans (contrEquiv1_symm_val dot_S150000x20x9_S64x9_S150000x20x64_2_1_01_0_n_n 9 rfl rfl k)
/-- the weight's row is the result's channel, -/
theorem lin_rhs_0 (j : S150000x20x64.Idx) (q : dot_S150000x20x9_S64x9_S150000x20x64_2_1_01_0_n_n.contr.Idx) :
    (dot_S150000x20x9_S64x9_S150000x20x64_2_1_01_0_n_n.rhsIdx j q 0).val = (j 2).val := rfl
/-- its column is `k`. -/
theorem lin_rhs_1 (j : S150000x20x64.Idx) (k : Fin 9) :
    (dot_S150000x20x9_S64x9_S150000x20x64_2_1_01_0_n_n.rhsIdx j ((contrEquiv1 dot_S150000x20x9_S64x9_S150000x20x64_2_1_01_0_n_n 9 rfl rfl).symm k) 1).val = k.val :=
  (DotDims.rhsIdx_val_of_single _ rfl j _).trans (contrEquiv1_symm_val dot_S150000x20x9_S64x9_S150000x20x64_2_1_01_0_n_n 9 rfl rfl k)

/-! ## The linear layer -/

/-- Channel `o` of point `n` of pillar `p` is the contraction of the point's nine-vector with the weight's row `o`. -/
theorem v44_of (a0 : FVec Ideal S150000x20x5 .f32) (a1 : IVec S150000 32) (a2 : IVec S150000x4 32) (a3 : FVec Ideal S64x9 .f32)
    (X9 : Fin 150000 → Fin 20 → Fin 9 → EReal)
    (h43 : ∀ p n j, val_v43 (F := Ideal) a0 a1 a2 (ix3 p n j) = X9 p n j)
    (p : Fin 150000) (n : Fin 20) (o : Fin 64) :
    val_v44 (F := Ideal) a0 a1 a2 a3 (ix3 p n o) = ∑ j : Fin 9, X9 p n j * a3 (ix2 o j) := by
  unfold val_v44
  refine (Ideal.dotGeneral_apply (φ₁ := .f32) (φ₂ := .f32) dot_S150000x20x9_S64x9_S150000x20x64_2_1_01_0_n_n none .single _ _ (ix3 p n o)).trans ?_
  rw [← Equiv.sum_comp (contrEquiv1 dot_S150000x20x9_S64x9_S150000x20x64_2_1_01_0_n_n 9 rfl rfl).symm]
  refine Finset.sum_congr rfl fun k _ => ?_
  congr 1
  · refine Eq.trans (congrArg (val_v43 (F := Ideal) a0 a1 a2) (funext fun a => Fin.ext ?_)) (h43 p n k)
    match a with
    | ⟨0, _⟩ => exact lin_lhs_0 _ _
    | ⟨1, _⟩ => exact lin_lhs_1 _ _
    | ⟨2, _⟩ => exact lin_lhs_2 _ _
  · refine congrArg a3 (funext fun a => Fin.ext ?_)
    match a with
    | ⟨0, _⟩ => exact lin_rhs_0 _ _
    | ⟨1, _⟩ => exact lin_rhs_1 _ _

end Cert.ReferenceIdeal.Hand

end
-- ==== Proof.Ref.ReadStats.lean ====
/-
  The reference program's batch statistics read index by index: over any values L of the linear layer, the mean of
  channel o is the sum of L over all points of all pillars divided by the number of points, and the variance is the
  sum of the squared deviations from that mean divided by the number of points (the divisor's guard holds: the
  number of points less zero is positive, so the guarded quotient is the quotient).
-/
import proofs.«129818_j66013647339880_2_alg».proof.Proof.Ref.Stages
import proofs.«129818_j66013647339880_2_alg».proof.Proof.Spec
import proofs.«129818_j66013647339880_2_alg».proof.Proof.Consts
import Idealize.ShloMosaic.Lib.IdealHost
import Idealize.ShloMosaic.Lib.Pipeline.Value
import Idealize.ShloMosaic.PureOps.Ideal.Laws

noncomputable section

namespace Cert.ReferenceIdeal.Hand

open Idealize.ShloMosaic Idealize.ShloMosaic.ValueIdx
open Cert.ReferenceIdeal Cert.ReferenceIdeal.Facts₀ Cert.ReferenceIdeal.Facts
open Cert.Spec
open scoped BigOperators

variable [Facts]

/-! ## A sum over a rank-3 index set, and the reduction over the two leading axes -/

/-- A rank-3 index set is the product of its three coordinate ranges … -/
def statsIdxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem stats_sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (statsIdxEquiv3 (n0 := n0) (n1 := n1) (n2 := n2)).symm f, Fintype.sum_prod_type]
  refine Finset.sum_congr rfl fun a _ => ?_
  rw [Fintype.sum_prod_type]
  rfl

/-- Dropping the two leading axes of (p, n, c) leaves c. -/
theorem stats_drop_ix3 (h : S150000x20x64.ReducesTo [0, 1] S64) (p : Fin 150000) (n : Fin 20) (c : Fin 64) :
    h.drop (ix3 p n c) = ix1 c := by
  funext b
  match b with
  | ⟨0, _⟩ => exact Fin.ext (Shape.ReducesTo.drop_apply_val_of_eq h (ix3 p n c) ⟨0, by decide⟩ 2)

/-- The host's sum over the two leading axes, at channel o: the initial value plus the double sum over pillars and points. -/
theorem stats_reduce (x : FVec Ideal S150000x20x64 .f32) (init : FVec Ideal S_ .f32)
    (h : S150000x20x64.ReducesTo [0, 1] S64) (hu : 0 < S_.numel) (o : Fin 64) :
    Host.reduceAdd x init h hu (ix1 o) = init ix0 + ∑ p : Fin 150000, ∑ n : Fin 20, x (ix3 p n o) := by
  rw [hostReduceAdd_apply]
  unfold Ideal.hostReduceAdd
  rw [show Shape.Idx.first hu = ix0 from funext fun a => a.elim0]
  refine congrArg (init ix0 + ·) ?_
  rw [Finset.sum_filter, stats_sum_idx3]
  refine Finset.sum_congr rfl fun p _ => Finset.sum_congr rfl fun n _ => ?_
  simp only [stats_drop_ix3 h]
  rw [Finset.sum_eq_single o]
  · rw [if_pos rfl]
  · intro c _ hc
    rw [if_neg]
    intro e
    exact hc (by have := congrFun e 0; exact this)
  · intro ho; exact absurd (Finset.mem_univ o) ho

/-! ## The constants of the statistics -/

/-- The number of points, broadcast to the 64 channels. -/
theorem v46_apply (j : S64.Idx) : val_v46 (F := Ideal) j = nPts := by
  unfold val_v46; rw [broadcastInDim_scalar_apply]; rfl

/-- The guard's divisor: the number of points less the count of excluded degrees of freedom, zero. -/
theorem call0_v8_apply : val_call0_v8 (F := Ideal) ix0 = nPts := by
  unfold val_call0_v8 val_call0_cst_1 val_call0_v7 val_c_8
  rw [subf_apply, constant_apply, sitofp_apply]
  show nPts - (((BitVec.toInt (constantI S_ 32 0#32 ix0) : ℝ)) : EReal) = nPts
  rw [show constantI S_ 32 0#32 ix0 = 0#32 from rfl]
  simp

/-- The guard holds: the divisor is positive. -/
theorem call0_v12_apply : val_call0_v12 (F := Ideal) ix0 = 1#1 := by
  unfold val_call0_v12
  rw [cmpf_apply, call0_v8_apply]
  unfold val_call0_cst_3
  rw [constant_apply]
  show Ideal.cmp .ogt nPts (Ideal.ofBits .f32 0x00000000#32) = 1#1
  unfold Ideal.cmp
  rw [Ideal.ofBits_zero_f32, show (nPts : EReal) = lit 0x4A371B00#32 from rfl, Cert.Consts.lit_nPts]
  have : (0 : EReal) < ((3000000 : ℝ) : EReal) := by exact_mod_cast (by norm_num : (0 : ℝ) < 3000000)
  simp [this]

section
variable (a0 : FVec Ideal S150000x20x5 .f32) (a1 : IVec S150000 32) (a2 : IVec S150000x4 32) (a3 : FVec Ideal S64x9 .f32)
  (L : Fin 150000 → Fin 20 → Fin 64 → EReal)
  (h44 : ∀ p n o, val_v44 (F := Ideal) a0 a1 a2 a3 (ix3 p n o) = L p n o)

include h44 in
/-- The sum of channel o of the linear layer over all points of all pillars. -/
theorem v45_of (o : Fin 64) :
    val_v45 (F := Ideal) a0 a1 a2 a3 (ix1 o) = ∑ p : Fin 150000, ∑ n : Fin 20, L p n o := by
  unfold val_v45
  rw [stats_reduce]
  unfold val_cst_6
  rw [constant_apply, Ideal.ofBits_zero_f32, zero_add]
  exact Finset.sum_congr rfl fun p _ => Finset.sum_congr rfl fun n _ => h44 p n o

include h44 in
/-- The batch mean of channel o. -/
theorem v47_of (o : Fin 64) :
    val_v47 (F := Ideal) a0 a1 a2 a3 (ix1 o) = Ideal.div (∑ p : Fin 150000, ∑ n : Fin 20, L p n o) Spec.nPts := by
  unfold val_v47
  rw [hostDivf_apply, v45_of a0 a1 a2 a3 L h44 o, v46_apply]

include h44 in
/-- Inside the variance: the same sum again. -/
theorem call0_v0_of (o : Fin 64) :
    val_call0_v0 (F := Ideal) a0 a1 a2 a3 (ix1 o) = ∑ p : Fin 150000, ∑ n : Fin 20, L p n o := by
  unfold val_call0_v0
  rw [stats_reduce]
  unfold val_call0_cst
  rw [constant_apply, Ideal.ofBits_zero_f32, zero_add]
  exact Finset.sum_congr rfl fun p _ => Finset.sum_congr rfl fun n _ => h44 p n o

include h44 in
/-- Inside the variance: the mean, as a 1 x 1 x 64 array. -/
theorem call0_v3_of (o : Fin 64) :
    val_call0_v3 (F := Ideal) a0 a1 a2 a3 (ix3 0 0 o) = Ideal.div (∑ p : Fin 150000, ∑ n : Fin 20, L p n o) Spec.nPts := by
  unfold val_call0_v3
  rw [hostDivf_apply]
  unfold val_call0_v1 val_call0_v2 val_call0_cst_0
  rw [broadcastInDim_scalar_apply, constant_apply,
    broadcastInDim_apply _ _ _ _ (ix1 o) (fun a => match a with | ⟨0, _⟩ => rfl),
    call0_v0_of a0 a1 a2 a3 L h44 o]

include h44 in
/-- Inside the variance: the deviation from the mean at a point. -/
theorem call0_v5_of (p : Fin 150000) (n : Fin 20) (o : Fin 64) :
    val_call0_v5 (F := Ideal) a0 a1 a2 a3 (ix3 p n o)
      = L p n o - Ideal.div (∑ p : Fin 150000, ∑ n : Fin 20, L p n o) Spec.nPts := by
  unfold val_call0_v5
  rw [subf_apply, h44]
  unfold val_call0_v4
  rw [broadcastInDim_apply _ _ _ _ (ix3 0 0 o) (fun a => match a with | ⟨0, _⟩ => rfl | ⟨1, _⟩ => rfl | ⟨2, _⟩ => rfl),
    call0_v3_of a0 a1 a2 a3 L h44 o]

include h44 in
/-- The batch variance of channel o: the mean of the squared deviations from the batch mean. -/
theorem v48_of (o : Fin 64) :
    val_v48 (F := Ideal) a0 a1 a2 a3 (ix1 o)
      = Ideal.div (∑ p : Fin 150000, ∑ n : Fin 20,
          (L p n o - Ideal.div (∑ p : Fin 150000, ∑ n : Fin 20, L p n o) Spec.nPts)
            * (L p n o - Ideal.div (∑ p : Fin 150000, ∑ n : Fin 20, L p n o) Spec.nPts)) Spec.nPts := by
  unfold val_v48
  rw [select_apply, broadcastInDim_scalar_apply, call0_v12_apply]
  show val_call0_v11 (F := Ideal) a0 a1 a2 a3 (ix1 o) = _
  unfold val_call0_v11
  rw [hostDivf_apply]
  unfold val_call0_v10
  rw [broadcastInDim_scalar_apply, call0_v8_apply]
  unfold val_call0_v9
  rw [stats_reduce]
  unfold val_call0_cst_2
  rw [constant_apply, Ideal.ofBits_zero_f32, zero_add]
  refine congrArg (fun s => Ideal.div s Spec.nPts) ?_
  refine Finset.sum_congr rfl fun p _ => Finset.sum_congr rfl fun n _ => ?_
  unfold val_call0_v6
  rw [mulf_apply, call0_v5_of a0 a1 a2 a3 L h44 p n o]

end

end Cert.ReferenceIdeal.Hand

end
-- ==== Proof.Ref.ReadOut.lean ====
/-
  The reference's last stretch read index by index: from the linear layer's values, the batch mean and
  the batch variance to the result — subtract the mean, multiply by the reciprocal square root of the
  variance plus its offset, scale, shift, clamp at zero, and take the maximum over a pillar's points.
-/
import proofs.«129818_j66013647339880_2_alg».proof.Proof.Ref.Stages
import proofs.«129818_j66013647339880_2_alg».proof.Proof.Spec
import Idealize.ShloMosaic.Lib.IdealHost
import Idealize.ShloMosaic.Lib.Pipeline.Value
import Idealize.ShloMosaic.PureOps.Ideal.Laws

noncomputable section

namespace Cert.ReferenceIdeal.Hand

open Idealize.ShloMosaic Idealize.ShloMosaic.ValueIdx
open Cert.ReferenceIdeal Cert.ReferenceIdeal.Facts₀ Cert.ReferenceIdeal.Facts

variable [Facts]

/-- A per-channel vector broadcast to [1, 1, 64] and then to [150000, 20, 64], read at (p, n, o), is the vector at o. -/
theorem out_bcast_chan {α : Type} (x : S64.Idx → α) (p : Fin 150000) (n : Fin 20) (o : Fin 64) :
    broadcastInDim S150000x20x64 ![0, 1, 2] bcast_S1x1x64_S150000x20x64_0_1_2
      (broadcastInDim S1x1x64 ![2] bcast_S64_S1x1x64_2 x) (ix3 p n o) = x (ix1 o) := by
  rw [broadcastInDim_apply ![0, 1, 2] bcast_S1x1x64_S150000x20x64_0_1_2 _ (ix3 p n o) (ix3 (0 : Fin 1) (0 : Fin 1) o)
      (fun a => match a with | ⟨0, _⟩ => rfl | ⟨1, _⟩ => rfl | ⟨2, _⟩ => rfl),
    broadcastInDim_apply ![2] bcast_S64_S1x1x64_2 x (ix3 (0 : Fin 1) (0 : Fin 1) o) (ix1 o)
      (fun a => match a with | ⟨0, _⟩ => rfl)]

/-- The index of point n of pillar p at channel o, as the one the maximum over the points' axis reads. -/
theorem out_lift (h : S150000x20x64.Reduces [1] S150000x64) (p : Fin 150000) (o : Fin 64) (n : Fin 20) :
    h.lift (ix2 p o) n = ix3 p n o := by
  funext c
  match c with
  | ⟨0, _⟩ => rfl
  | ⟨1, _⟩ => rfl
  | ⟨2, _⟩ => rfl

section
variable (a0 : FVec Ideal S150000x20x5 .f32) (a1 : IVec S150000 32) (a2 : IVec S150000x4 32)
  (a3 : FVec Ideal S64x9 .f32) (a4 a5 : FVec Ideal S64 .f32)
  (L : Fin 150000 → Fin 20 → Fin 64 → EReal) (μ v : Fin 64 → EReal)

/-- The clamped affine image at one point. -/
theorem v64_of (h44 : ∀ p n o, val_v44 (F := Ideal) a0 a1 a2 a3 (ix3 p n o) = L p n o)
    (hμ : ∀ o, val_v47 (F := Ideal) a0 a1 a2 a3 (ix1 o) = μ o)
    (hv : ∀ o, val_v48 (F := Ideal) a0 a1 a2 a3 (ix1 o) = v o) (p : Fin 150000) (n : Fin 20) (o : Fin 64) :
    val_v64 (F := Ideal) a0 a1 a2 a3 a4 a5 (ix3 p n o)
      = max ((L p n o - μ o) * Ideal.rsqrt (v o + Spec.eps) * a4 (ix1 o) + a5 (ix1 o)) (Spec.lit 0x00000000#32) := by
  have e0 : val_call1_v0 (F := Ideal) (ix3 p n o) = Spec.lit 0x00000000#32 := by
    unfold val_call1_v0 val_call1_cst
    rw [broadcastInDim_scalar_apply]; rfl
  have e62 : val_v62 (F := Ideal) a5 (ix3 p n o) = a5 (ix1 o) := by
    unfold val_v62 val_v61; exact out_bcast_chan a5 p n o
  have e59 : val_v59 (F := Ideal) a4 (ix3 p n o) = a4 (ix1 o) := by
    unfold val_v59 val_v58; exact out_bcast_chan a4 p n o
  have e50 : val_v50 (F := Ideal) a0 a1 a2 a3 (ix3 p n o) = μ o := by
    unfold val_v50 val_v49; rw [out_bcast_chan]; exact hμ o
  have e52 : val_v52 (F := Ideal) (ix1 o) = Spec.eps := by
    unfold val_v52 val_cst_9
    rw [broadcastInDim_scalar_apply]; rfl
  have e56 : val_v56 (F := Ideal) a0 a1 a2 a3 (ix3 p n o) = Ideal.rsqrt (v o + Spec.eps) := by
    unfold val_v56 val_v55; rw [out_bcast_chan]
    unfold val_v54
    show Ideal.rsqrt (val_v53 (F := Ideal) a0 a1 a2 a3 (ix1 o)) = _
    unfold val_v53
    rw [addf_apply, hv o, e52]
  unfold val_v64
  rw [maximumf_apply, e0]
  unfold val_v63
  rw [addf_apply, e62]
  unfold val_v60
  rw [mulf_apply, e59]
  unfold val_v57
  rw [mulf_apply, e56]
  unfold val_v51
  rw [subf_apply, e50, h44]

/-- The reference's result at (p, o): the maximum over the pillar's points. -/
theorem v65_of (h44 : ∀ p n o, val_v44 (F := Ideal) a0 a1 a2 a3 (ix3 p n o) = L p n o)
    (hμ : ∀ o, val_v47 (F := Ideal) a0 a1 a2 a3 (ix1 o) = μ o)
    (hv : ∀ o, val_v48 (F := Ideal) a0 a1 a2 a3 (ix1 o) = v o) (p : Fin 150000) (o : Fin 64) :
    val_v65 (F := Ideal) a0 a1 a2 a3 a4 a5 (ix2 p o)
      = (Finset.univ : Finset (Fin 20)).fold max (Spec.lit 0xFF800000#32) fun n =>
          max ((L p n o - μ o) * Ideal.rsqrt (v o + Spec.eps) * a4 (ix1 o) + a5 (ix1 o)) (Spec.lit 0x00000000#32) := by
  have h : S150000x20x64.Reduces [1] S150000x64 := by decide
  unfold val_v65
  rw [Host.reduce_eq_fold_single FloatOps.maximumf _ _ reducesTo_S150000x20x64_S150000x64_d1 h h_S_ (ix2 p o)]
  show Finset.fold max (Spec.lit 0xFF800000#32)
      (fun n : Fin 20 => val_v64 (F := Ideal) a0 a1 a2 a3 a4 a5 (h.lift (ix2 p o) n)) (Finset.univ : Finset (Fin 20)) = _
  refine Finset.fold_congr fun n _ => ?_
  rw [out_lift h p o n]
  exact v64_of a0 a1 a2 a3 a4 a5 L μ v h44 hμ hv p n o

end

end Cert.ReferenceIdeal.Hand

end
-- ==== Proof.Ref.ReadAll.lean ====
/-
  The reference's result is the specification's: the pieces — the nine-vector at an index, the linear
  layer as a sum over nine terms, the batch mean and variance as sums over all points, and the
  normalised, scaled, shifted, clamped value maximised over a pillar's points — put together.
-/
import proofs.«129818_j66013647339880_2_alg».proof.Proof.Ref.Read
import proofs.«129818_j66013647339880_2_alg».proof.Proof.Ref.ReadLin
import proofs.«129818_j66013647339880_2_alg».proof.Proof.Ref.ReadStats
import proofs.«129818_j66013647339880_2_alg».proof.Proof.Ref.ReadOut

noncomputable section

namespace Cert.ReferenceIdeal.Hand

open Idealize.ShloMosaic Idealize.ShloMosaic.ValueIdx
open Cert.ReferenceIdeal Cert.ReferenceIdeal.Facts₀ Cert.ReferenceIdeal.Facts
open Cert.Spec

variable [Facts]

variable (a0 : FVec Ideal S150000x20x5 .f32) (a1 : IVec S150000 32) (a2 : IVec S150000x4 32)
  (a3 : FVec Ideal S64x9 .f32) (a4 a5 : FVec Ideal S64 .f32)

/-- The linear layer's output at a point is the specification's, over the point count as divisor. -/
theorem v44_apply (p : Fin 150000) (n : Fin 20) (o : Fin 64) :
    val_v44 (F := Ideal) a0 a1 a2 a3 (ix3 p n o) = lin (R := 150000) a0 a2 a3 (cnt (R := 150000) a1) p n o :=
  v44_of a0 a1 a2 a3 (x9 (R := 150000) a0 a2 (cnt (R := 150000) a1)) (v43_apply a0 a1 a2) p n o

/-- The batch mean of a channel. -/
theorem v47_apply (o : Fin 64) : val_v47 (F := Ideal) a0 a1 a2 a3 (ix1 o) = meanR a0 a1 a2 a3 o :=
  v47_of a0 a1 a2 a3 (lin (R := 150000) a0 a2 a3 (cnt (R := 150000) a1)) (v44_apply a0 a1 a2 a3) o

/-- The batch variance of a channel. -/
theorem v48_apply (o : Fin 64) : val_v48 (F := Ideal) a0 a1 a2 a3 (ix1 o) = varR a0 a1 a2 a3 o :=
  v48_of a0 a1 a2 a3 (lin (R := 150000) a0 a2 a3 (cnt (R := 150000) a1)) (v44_apply a0 a1 a2 a3) o

/-- The reference's first result is the specification's, at every pillar and channel. -/
theorem v65_eq : val_v65 (F := Ideal) a0 a1 a2 a3 a4 a5 = outR a0 a1 a2 a3 a4 a5 := by
  funext i
  obtain ⟨p, o, rfl⟩ : ∃ (p : Fin 150000) (o : Fin 64), i = ix2 p o := ⟨i 0, i 1, eq_ix2 i⟩
  exact v65_of a0 a1 a2 a3 a4 a5 _ _ _ (v44_apply a0 a1 a2 a3) (v47_apply a0 a1 a2 a3) (v48_apply a0 a1 a2 a3) p o

end Cert.ReferenceIdeal.Hand

end
-- ==== Proof.PreFacts.lean ====
/-
  The precondition decoded: when the printed predicate holds, every float entry is a real number
  and every point count is at least one.
-/
import proofs.«129818_j66013647339880_2_alg».proof.Pre_finite_inputs
import Idealize.ShloMosaic.Lib.ReduceAll
import Idealize.ShloMosaic.Lib.IdealHost
import Idealize.ShloMosaic.Lib.ValueIdx

noncomputable section

namespace Cert.PreFacts

open Idealize.ShloMosaic Idealize.ShloMosaic.ValueIdx Cert.Pre_finite_inputs

/-- The rank-0 shape has one index. -/
instance : Subsingleton S_.Idx := ⟨fun a b => funext fun d => d.elim0⟩

/-- The word of +infinity denotes the top element. -/
theorem inf_word : Ideal.ofBits .f32 0x7F800000#32 = ⊤ := by
  simp [Ideal.ofBits, Ideal.ieee]

/-- An extended real whose absolute value max x (-x) is below +infinity is a real. -/
theorem real_of_abs_lt (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | top => simp [Ideal.cmp] at h
  | coe r => exact ⟨r, rfl⟩

/-- One element of the comparison |x| < +infinity, read back. -/
theorem real_of_elem {s : Shape} (x : FVec Ideal s .f32) (hb : S_.BroadcastsInDim s ![]) (i : s.Idx)
    (h : cmpf .olt (Host.absf x) (broadcastInDim s ![] hb (constant (F := Ideal) S_ .f32 0x7F800000#32)) i = 1#1) :
    ∃ r : ℝ, x i = r := by
  rw [cmpf_apply, broadcastInDim_scalar_apply, constant_apply] at h
  exact real_of_abs_lt (x i) h

variable [Facts]

/-- The precondition decoded. -/
theorem of_pre (a0 : FVec Ideal S150000x20x5 .f32) (a1 : IVec S150000 32) (a2 : IVec S150000x4 32)
    (a3 : FVec Ideal S64x9 .f32) (a4 a5 : FVec Ideal S64 .f32)
    (h : Cert.Pre_finite_inputs.fn (F := Ideal) a0 a1 a2 a3 a4 a5 = fun _ => 1#1) :
    (∀ i, ∃ r : ℝ, a0 i = r) ∧ (∀ i, ∃ r : ℝ, a3 i = r) ∧ (∀ i, ∃ r : ℝ, a4 i = r) ∧ (∀ i, ∃ r : ℝ, a5 i = r)
      ∧ (∀ i, 1 ≤ (a1 i).toInt) := by
  have h' := congrFun h ix0
  dsimp only [fn, fn_part1] at h'
  have e : ∀ (x y : IVec S_ 1), andi x y ix0 = IntOp.andi (x ix0) (y ix0) := fun _ _ => rfl
  rw [e, IntOp.andi_eq_one, e, IntOp.andi_eq_one, e, IntOp.andi_eq_one, e, IntOp.andi_eq_one] at h'
  obtain ⟨⟨⟨⟨h0, h3⟩, h4⟩, h5⟩, h1⟩ := h'
  refine ⟨fun i => real_of_elem a0 _ i (Host.reduce_andi_all _ _ _ _ _ h0 i),
    fun i => real_of_elem a3 _ i (Host.reduce_andi_all _ _ _ _ _ h3 i),
    fun i => real_of_elem a4 _ i (Host.reduce_andi_all _ _ _ _ _ h4 i),
    fun i => real_of_elem a5 _ i (Host.reduce_andi_all _ _ _ _ _ h5 i), fun i => ?_⟩
  have hi := Host.reduce_andi_all _ _ _ _ _ h1 i
  change IntOp.cmpi .sge (a1 i) (broadcastInDim S150000 ![] _ (constantI S_ 32 1#32) i) = 1#1 at hi
  rw [broadcastInDim_scalar_apply, IntOp.cmpi_sge] at hi
  exact hi

end Cert.PreFacts

end
-- ==== Proof.Bridge.lean ====
/-
  The mathematics joining the two sides: under "every float entry is a real, every point count is at
  least one" the kernel's result and the reference's result are the same function.

  (i) the clamped count is the count; (ii) every value of the linear layer is a real, so the batch
  sums are reals and the two means agree; (iii) mean of squares minus squared mean is the mean of the
  squared deviations, which is not negative, so the clamp at zero is the identity and the two
  variances agree; (iv) the reciprocal square root of a positive real is a real; (v) the two affine
  forms agree over the reals.
-/
import proofs.«129818_j66013647339880_2_alg».proof.Proof.Spec
import proofs.«129818_j66013647339880_2_alg».proof.Proof.Consts
import Mathlib.Tactic.Ring
import Mathlib.Tactic.FieldSimp
import Mathlib.Tactic.Linarith
import Mathlib.Tactic.Choose
import Mathlib.Algebra.BigOperators.Ring.Finset
import Mathlib.Algebra.Order.BigOperators.Group.Finset
import Mathlib.Data.Fintype.BigOperators

noncomputable section

namespace Cert.Bridge

open Idealize.ShloMosaic Idealize.ShloMosaic.ValueIdx Cert.Spec Cert.Consts

/-! ### Extended reals that are real numbers -/

/-- An extended real that is a real number. -/
def IsReal (x : EReal) : Prop := ∃ r : ℝ, x = (r : EReal)

namespace IsReal

theorem coe (r : ℝ) : IsReal (r : EReal) := ⟨r, rfl⟩
theorem zero : IsReal 0 := ⟨0, rfl⟩
theorem one : IsReal 1 := ⟨1, rfl⟩

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem sum {ι : Type*} (s : Finset ι) (f : ι → EReal) (h : ∀ i ∈ s, IsReal (f i)) : IsReal (∑ i ∈ s, f i) := by
  induction s using Finset.cons_induction with
  | empty => rw [Finset.sum_empty]; exact zero
  | cons a s ha ih =>
    rw [Finset.sum_cons]
    exact (h a (Finset.mem_cons_self a s)).add (ih fun i hi => h i (Finset.mem_cons_of_mem hi))

/-- The quotient by a real that is not zero is the product with its reciprocal. -/
theorem div {x : EReal} (hx : IsReal x) {y : ℝ} (hy : y ≠ 0) : IsReal (Ideal.div x (y : EReal)) := by
  rw [Ideal.div_coe hy]; exact hx.mul (coe _)

end IsReal

/-- A finite sum of reals, taken among the extended reals, is the real sum. -/
theorem coe_sum {ι : Type*} (s : Finset ι) (f : ι → ℝ) :
    (∑ i ∈ s, (f i : EReal)) = ((∑ i ∈ s, f i : ℝ) : EReal) := by
  induction s using Finset.cons_induction with
  | empty => rw [Finset.sum_empty, Finset.sum_empty, EReal.coe_zero]
  | cons a s ha ih => rw [Finset.sum_cons, Finset.sum_cons, ih, EReal.coe_add]

/-- A double sum of reals as one real sum over the pairs. -/
theorem coe_sum₂ {ι κ : Type*} [Fintype ι] [Fintype κ] (g : ι → κ → ℝ) :
    (∑ p, ∑ n, (g p n : EReal)) = ((∑ x : ι × κ, g x.1 x.2 : ℝ) : EReal) := by
  rw [Fintype.sum_prod_type, ← coe_sum]
  exact Finset.sum_congr rfl fun p _ => coe_sum _ _

theorem nPts_eq : nPts = ((3000000 : ℝ) : EReal) := lit_nPts

/-! ### The pieces of the specification are reals -/
section
variable {R : ℕ} (a0 : (SFeat R).Idx → EReal) (a1 : (SCnt R).Idx → BitVec 32) (a2 : (SCrd R).Idx → BitVec 32)
  (a3 : SW.Idx → EReal)

theorem feat_real (h0 : ∀ i, ∃ r : ℝ, a0 i = r) (p : Fin R) (n : Fin 20) (k : Fin 3) : IsReal (feat a0 p n k) :=
  h0 _

theorem fsum_real (h0 : ∀ i, ∃ r : ℝ, a0 i = r) (p : Fin R) (k : Fin 3) : IsReal (fsum a0 p k) :=
  IsReal.sum _ _ fun n _ => feat_real a0 h0 p n k

theorem crd_real (p : Fin R) (j : Fin 4) : IsReal (crd a2 p j) := ⟨_, rfl⟩

theorem ctr_real (p : Fin R) (k : Fin 3) : IsReal (ctr a2 p k) := by
  obtain ⟨r, hr⟩ := lit_vsize
  match k with
  | ⟨0, _⟩ =>
    show IsReal ((crd a2 p 3 + lit 0x3F000000#32) * lit 0x3E23D70A#32 + lit 0x00000000#32)
    rw [lit_half, hr, lit_zero]
    exact (((crd_real a2 p 3).add (.coe _)).mul (.coe _)).add .zero
  | ⟨1, _⟩ =>
    show IsReal ((crd a2 p 2 + lit 0x3F000000#32) * lit 0x3E23D70A#32 + lit 0xC2200000#32)
    rw [lit_half, hr, lit_neg_forty]
    exact (((crd_real a2 p 2).add (.coe _)).mul (.coe _)).add (.coe _)
  | ⟨_ + 2, _⟩ =>
    show IsReal (lit 0xBF800000#32)
    rw [lit_neg_one]; exact .coe _

theorem msk_real (x : EReal) : IsReal (msk x) := by
  unfold msk; split_ifs
  exacts [.zero, .one]

/-- The nine-vector over a divisor that is a real and not zero. -/
theorem x9_real (h0 : ∀ i, ∃ r : ℝ, a0 i = r) (den : Fin R → EReal) (hden : ∀ p, ∃ d : ℝ, d ≠ 0 ∧ den p = d)
    (p : Fin R) (n : Fin 20) (j : Fin 9) : IsReal (x9 a0 a2 den p n j) := by
  unfold x9
  split_ifs with h h2
  · exact feat_real a0 h0 _ _ _
  · exact ((feat_real a0 h0 _ _ _).sub (ctr_real a2 p _)).mul (msk_real _)
  · obtain ⟨d, hd, e⟩ := hden p
    rw [e]
    exact ((feat_real a0 h0 _ _ _).sub ((fsum_real a0 h0 _ _).div hd)).mul (msk_real _)

theorem lin_real (h0 : ∀ i, ∃ r : ℝ, a0 i = r) (h3 : ∀ i, ∃ r : ℝ, a3 i = r) (den : Fin R → EReal)
    (hden : ∀ p, ∃ d : ℝ, d ≠ 0 ∧ den p = d) (p : Fin R) (n : Fin 20) (o : Fin 64) :
    IsReal (lin a0 a2 a3 den p n o) :=
  IsReal.sum _ _ fun j _ => (x9_real a0 a2 h0 den hden p n j).mul (h3 _)

/-- A count that is at least one is a real that is not zero. -/
theorem cnt_den (h1 : ∀ p : Fin R, 1 ≤ (a1 (ix1 p)).toInt) (p : Fin R) : ∃ d : ℝ, d ≠ 0 ∧ cnt a1 p = d := by
  refine ⟨((a1 (ix1 p)).toInt : ℝ), ?_, rfl⟩
  have : (1 : ℝ) ≤ ((a1 (ix1 p)).toInt : ℝ) := by exact_mod_cast h1 p
  exact ne_of_gt (by linarith)

/-- (i) A count that is at least one is its own clamp below at one. -/
theorem cntK_eq (h1 : ∀ p : Fin R, 1 ≤ (a1 (ix1 p)).toInt) : cntK a1 = cnt a1 := by
  funext p
  unfold cntK
  rw [lit_one]
  apply max_eq_left
  unfold cnt
  exact EReal.coe_le_coe_iff.2 (by exact_mod_cast h1 p)

end

/-! ### The variance, over the reals -/

/-- (iii) The mean of the squared deviations from the mean T / N is the mean of the squares minus the squared mean. -/
theorem sum_sq_dev {ι : Type*} [Fintype ι] (f : ι → ℝ) (N T : ℝ) (hN : (Fintype.card ι : ℝ) = N) (hT : ∑ i, f i = T)
    (hN0 : N ≠ 0) :
    (∑ i, (f i - T / N) * (f i - T / N)) / N = (∑ i, f i * f i) / N - (T / N) * (T / N) := by
  have e : ∑ i, (f i - T / N) * (f i - T / N) = (∑ i, f i * f i) - 2 * (T / N) * T + N * (T / N * (T / N)) := by
    calc ∑ i, (f i - T / N) * (f i - T / N) = ∑ i, (f i * f i - 2 * (T / N) * f i + T / N * (T / N)) :=
          Finset.sum_congr rfl fun i _ => by ring
      _ = _ := by
        rw [Finset.sum_add_distrib, Finset.sum_sub_distrib, ← Finset.mul_sum, hT, Finset.sum_const, Finset.card_univ,
          nsmul_eq_mul, hN]
  rw [e]; field_simp; ring

/-- The batch statistics of a family of reals: the mean is a real; the clamped "mean of squares minus squared mean" and
    the mean of squared deviations are one real that is not negative. -/
theorem stats (ℓ : Fin 150000 → Fin 20 → ℝ) :
    ∃ μ v : ℝ, 0 ≤ v ∧ Ideal.div (∑ p, ∑ n, (ℓ p n : EReal)) nPts = μ
      ∧ max (Ideal.div (∑ p, ∑ n, (ℓ p n : EReal) * (ℓ p n : EReal)) nPts
              - Ideal.div (∑ p, ∑ n, (ℓ p n : EReal)) nPts * Ideal.div (∑ p, ∑ n, (ℓ p n : EReal)) nPts)
            (lit 0x00000000#32) = v
      ∧ Ideal.div (∑ p, ∑ n, ((ℓ p n : EReal) - Ideal.div (∑ p, ∑ n, (ℓ p n : EReal)) nPts)
              * ((ℓ p n : EReal) - Ideal.div (∑ p, ∑ n, (ℓ p n : EReal)) nPts)) nPts = v := by
  have hN0 : (3000000 : ℝ) ≠ 0 := by norm_num
  have hcard : (Fintype.card (Fin 150000 × Fin 20) : ℝ) = 3000000 := by
    rw [Fintype.card_prod, Fintype.card_fin, Fintype.card_fin]; norm_num
  obtain ⟨T, hT⟩ : ∃ T : ℝ, ∑ x : Fin 150000 × Fin 20, ℓ x.1 x.2 = T := ⟨_, rfl⟩
  have hμ : Ideal.div (∑ p, ∑ n, (ℓ p n : EReal)) nPts = ((T / 3000000 : ℝ) : EReal) := by
    rw [coe_sum₂, hT, nPts_eq, Ideal.div_coe hN0, ← EReal.coe_mul, mul_one_div]
  have hq : Ideal.div (∑ p, ∑ n, (ℓ p n : EReal) * (ℓ p n : EReal)) nPts
      = (((∑ x : Fin 150000 × Fin 20, ℓ x.1 x.2 * ℓ x.1 x.2) / 3000000 : ℝ) : EReal) := by
    simp only [← EReal.coe_mul]
    rw [coe_sum₂ (fun p n => ℓ p n * ℓ p n), nPts_eq, Ideal.div_coe hN0, ← EReal.coe_mul, mul_one_div]
  have hid := sum_sq_dev (fun x : Fin 150000 × Fin 20 => ℓ x.1 x.2) 3000000 T hcard hT hN0
  have hnn : 0 ≤ (∑ x : Fin 150000 × Fin 20, (ℓ x.1 x.2 - T / 3000000) * (ℓ x.1 x.2 - T / 3000000)) / 3000000 :=
    div_nonneg (Finset.sum_nonneg fun x _ => mul_self_nonneg _) (by norm_num)
  refine ⟨T / 3000000, (∑ x : Fin 150000 × Fin 20, (ℓ x.1 x.2 - T / 3000000) * (ℓ x.1 x.2 - T / 3000000)) / 3000000,
    hnn, hμ, ?_, ?_⟩
  · rw [hμ, hq, lit_zero, ← EReal.coe_mul, ← EReal.coe_sub, ← EReal.coe_zero,
      ← Monotone.map_max EReal.coe_strictMono.monotone]
    refine congrArg Real.toEReal ?_
    rw [hid] at hnn ⊢
    exact max_eq_left hnn
  · rw [hμ]
    simp only [← EReal.coe_sub, ← EReal.coe_mul]
    rw [coe_sum₂ (fun p n => (ℓ p n - T / 3000000) * (ℓ p n - T / 3000000)), nPts_eq, Ideal.div_coe hN0,
      ← EReal.coe_mul, mul_one_div]

/-! ### The affine step, over the reals -/

/-- (iv) The reciprocal square root of a positive real is a real. -/
theorem rsqrt_real {v e : ℝ} (hv : 0 ≤ v) (he : 0 < e) :
    Ideal.rsqrt ((v : EReal) + (e : EReal)) = (((Real.sqrt (v + e))⁻¹ : ℝ) : EReal) := by
  have hpos : 0 < v + e := by linarith
  rw [← EReal.coe_add, Ideal.rsqrt_coe, if_neg (not_lt.2 hpos.le), if_neg hpos.ne']

/-- (v) x * (r * g) + (b - μ * (r * g)) = (x - μ) * r * g + b. -/
theorem affine_real (x μ r g b : ℝ) :
    (x : EReal) * ((r : EReal) * (g : EReal)) + ((b : EReal) - (μ : EReal) * ((r : EReal) * (g : EReal)))
      = ((x : EReal) - (μ : EReal)) * (r : EReal) * (g : EReal) + (b : EReal) := by
  simp only [← EReal.coe_mul, ← EReal.coe_sub, ← EReal.coe_add]
  congr 1; ring

/-! ### The two results agree -/
section
variable (a0 : (SFeat 150000).Idx → EReal) (a1 : (SCnt 150000).Idx → BitVec 32) (a2 : (SCrd 150000).Idx → BitVec 32)
  (a3 : SW.Idx → EReal) (a4 a5 : SCh.Idx → EReal)

/-- At one pillar and one channel. -/
theorem out_point (h0 : ∀ i, ∃ r : ℝ, a0 i = r) (h3 : ∀ i, ∃ r : ℝ, a3 i = r) (h4 : ∀ i, ∃ r : ℝ, a4 i = r)
    (h5 : ∀ i, ∃ r : ℝ, a5 i = r) (h1 : ∀ p : Fin 150000, 1 ≤ (a1 (ix1 p)).toInt) (p : Fin 150000) (o : Fin 64) :
    ((Finset.univ : Finset (Fin 20)).fold max (lit 0xFF800000#32) fun n =>
        max (lin a0 a2 a3 (cntK a1) p n o * scaleK a0 a1 a2 a3 a4 o + shiftK a0 a1 a2 a3 a4 a5 o) (lit 0x00000000#32))
      = ((Finset.univ : Finset (Fin 20)).fold max (lit 0xFF800000#32) fun n =>
        max ((lin a0 a2 a3 (cnt a1) p n o - meanR a0 a1 a2 a3 o) * Ideal.rsqrt (varR a0 a1 a2 a3 o + eps) * a4 (ix1 o)
          + a5 (ix1 o)) (lit 0x00000000#32)) := by
  have hden : ∀ p : Fin 150000, ∃ d : ℝ, d ≠ 0 ∧ cnt a1 p = d := cnt_den a1 h1
  choose ℓ hℓ using fun p n o => (lin_real a0 a2 a3 h0 h3 (cnt a1) hden p n o : ∃ r : ℝ, _ = (r : EReal))
  obtain ⟨g, hg⟩ := h4 (ix1 o)
  obtain ⟨b, hb⟩ := h5 (ix1 o)
  obtain ⟨μ, v, hv, hμ, hvK, hvR⟩ := stats (fun p n => ℓ p n o)
  obtain ⟨e, he, hε⟩ := lit_eps
  have heps : eps = (e : EReal) := hε
  have hmR : meanR a0 a1 a2 a3 o = μ := by
    unfold meanR tot; simp only [hℓ]; exact hμ
  have hmK : meanK a0 a1 a2 a3 o = μ := by
    unfold meanK; rw [cntK_eq a1 h1]; exact hmR
  have hVR : varR a0 a1 a2 a3 o = v := by
    unfold varR meanR tot; simp only [hℓ]; exact hvR
  have hVK : varK a0 a1 a2 a3 o = v := by
    unfold varK meanK totsq tot; rw [cntK_eq a1 h1]; simp only [hℓ]; exact hvK
  congr 1
  funext n
  congr 1
  unfold shiftK scaleK
  rw [hmK, hVK, hmR, hVR, cntK_eq a1 h1, hℓ, hg, hb, heps, rsqrt_real hv he]
  exact affine_real _ _ _ _ _

/-- THE THEOREM: the kernel's result is the reference's. -/
theorem outK_eq_outR (h0 : ∀ i, ∃ r : ℝ, a0 i = r) (h3 : ∀ i, ∃ r : ℝ, a3 i = r) (h4 : ∀ i, ∃ r : ℝ, a4 i = r)
    (h5 : ∀ i, ∃ r : ℝ, a5 i = r) (h1 : ∀ p : Fin 150000, 1 ≤ (a1 (ix1 p)).toInt) :
    outK a0 a1 a2 a3 a4 a5 = outR a0 a1 a2 a3 a4 a5 := by
  funext i
  exact out_point a0 a1 a2 a3 a4 a5 h0 h3 h4 h5 h1 (i 0) (i 1)

end

end Cert.Bridge

end
-- ==== Proof.lean ====
/-
  The certificate of the pillar-feature kernel against its reference.

  Both programs map 150000 pillars of 20 points to 64 channels: a nine-vector per point, a 9 → 64 linear layer, batch
  normalisation with the statistics of all 3,000,000 points, a clamp at zero and the maximum over a pillar's points.
  The kernel program does this in two passes over blocks of 512 pillars (the arrays padded to 150016 pillars: the 16
  added pillars are all zero and contribute nothing to any sum): the first pass accumulates, per channel, the sum and
  the sum of squares in two carried buffers and at its last block writes mean and variance; the second normalises and
  pools. Under the precondition — finite floats and at least one point per pillar — the kernel's divisor max(count, 1)
  is the count, its variance "mean of squares minus squared mean, clamped at zero" is the mean of squared deviations,
  and its affine step x·s + (b − m·s) is ((x − m)·r)·g + b: Spec.lean states both sides, Bridge.lean joins them.
  The frames: each program's run ends with every buffer at a named valuation in which no argument has changed.
  The other two results (a column selection of the coordinates and a constant grid size) are the same host
  operations on both sides.
-/
import proofs.«129818_j66013647339880_2_alg».proof.Defs
import proofs.«129818_j66013647339880_2_alg».proof.Proof.Gen.Kernel
import proofs.«129818_j66013647339880_2_alg».proof.Proof.Gen.KernelIdeal
import proofs.«129818_j66013647339880_2_alg».proof.Proof.Gen.ReferenceIdeal
import proofs.«129818_j66013647339880_2_alg».proof.Proof.Gen.Pre_finite_inputs
import proofs.«129818_j66013647339880_2_alg».proof.Proof.K.Run
import proofs.«129818_j66013647339880_2_alg».proof.Proof.KI.Run
import proofs.«129818_j66013647339880_2_alg».proof.Proof.KI.Value
import proofs.«129818_j66013647339880_2_alg».proof.Proof.KI.ValueHost
import proofs.«129818_j66013647339880_2_alg».proof.Proof.Ref.Run
import proofs.«129818_j66013647339880_2_alg».proof.Proof.Ref.ReadAll
import proofs.«129818_j66013647339880_2_alg».proof.Proof.PreFacts
import proofs.«129818_j66013647339880_2_alg».proof.Proof.Bridge

noncomputable section

namespace Cert.Proof

open Idealize.ShloMosaic Idealize.ShloMosaic.ValueIdx Idealize.SL.Sem

/-- The word-level program runs to the end and leaves its six arguments as launched. -/
theorem frame_K : Cert.frame_Kernel := fun m ρ _ =>
  (θ_run (Cert.Kernel.defs (F := Bits)) _ _).mono
    (fun r h c => ⟨(h c Cert.Kernel.main_arg0 (by decide)).trans (Cert.Kernel.Hand.exitV_arg0 m c),
      (h c Cert.Kernel.main_arg1 (by decide)).trans (Cert.Kernel.Hand.exitV_arg1 m c),
      (h c Cert.Kernel.main_arg2 (by decide)).trans (Cert.Kernel.Hand.exitV_arg2 m c),
      (h c Cert.Kernel.main_arg3 (by decide)).trans (Cert.Kernel.Hand.exitV_arg3 m c),
      (h c Cert.Kernel.main_arg4 (by decide)).trans (Cert.Kernel.Hand.exitV_arg4 m c),
      (h c Cert.Kernel.main_arg5 (by decide)).trans (Cert.Kernel.Hand.exitV_arg5 m c)⟩)
    (Cert.Kernel.Hand.run_full (F := Bits) m ρ)

/-- The idealized program likewise. -/
theorem frame_KI : Cert.frame_KernelIdeal := fun m ρ _ =>
  (θ_run (Cert.KernelIdeal.defs (F := Ideal)) _ _).mono
    (fun r h c => ⟨(h c Cert.KernelIdeal.main_arg0 (by decide)).trans (Cert.KernelIdeal.Hand.exitV_arg0 m c),
      (h c Cert.KernelIdeal.main_arg1 (by decide)).trans (Cert.KernelIdeal.Hand.exitV_arg1 m c),
      (h c Cert.KernelIdeal.main_arg2 (by decide)).trans (Cert.KernelIdeal.Hand.exitV_arg2 m c),
      (h c Cert.KernelIdeal.main_arg3 (by decide)).trans (Cert.KernelIdeal.Hand.exitV_arg3 m c),
      (h c Cert.KernelIdeal.main_arg4 (by decide)).trans (Cert.KernelIdeal.Hand.exitV_arg4 m c),
      (h c Cert.KernelIdeal.main_arg5 (by decide)).trans (Cert.KernelIdeal.Hand.exitV_arg5 m c)⟩)
    (Cert.KernelIdeal.Hand.run_full (F := Ideal) m ρ)

/-- The reference is host operations only: its run, with the results dropped. -/
theorem frame_RI : Cert.frame_ReferenceIdeal := fun m ρ _ =>
  (θ_run (Cert.ReferenceIdeal.defs (F := Ideal)) _ _).mono
    (fun r h c => ⟨(h c Cert.ReferenceIdeal.main_arg0).trans (Cert.ReferenceIdeal.Hand.exitV_arg0 m c),
      (h c Cert.ReferenceIdeal.main_arg1).trans (Cert.ReferenceIdeal.Hand.exitV_arg1 m c),
      (h c Cert.ReferenceIdeal.main_arg2).trans (Cert.ReferenceIdeal.Hand.exitV_arg2 m c),
      (h c Cert.ReferenceIdeal.main_arg3).trans (Cert.ReferenceIdeal.Hand.exitV_arg3 m c),
      (h c Cert.ReferenceIdeal.main_arg4).trans (Cert.ReferenceIdeal.Hand.exitV_arg4 m c),
      (h c Cert.ReferenceIdeal.main_arg5).trans (Cert.ReferenceIdeal.Hand.exitV_arg5 m c)⟩)
    (Cert.ReferenceIdeal.Hand.run (F := Ideal) m ρ)

/-- From memories that agree on the arguments both idealized programs end with the same three results: the pooled
    features by the two value readings joined by the mathematics of Bridge.lean under the precondition, the other two
    because they are the same host operations of the same argument. -/
theorem algebraic : Cert.algebraic_KernelIdeal_ReferenceIdeal := by
  intro m ρ m' ρ' hpre hagree
  refine ⟨fun c => Cert.KernelIdeal.Hand.exitV m c (Proc.devRef .tc Cert.KernelIdeal.main_v9),
    fun c => Cert.KernelIdeal.Hand.exitV m c (Proc.devRef .tc Cert.KernelIdeal.main_v16),
    fun c => Cert.KernelIdeal.Hand.exitV m c (Proc.devRef .tc Cert.KernelIdeal.main_v28), ?_, ?_⟩
  · exact (θ_run (Cert.KernelIdeal.defs (F := Ideal)) _ _).mono
      (fun r h c => ⟨h c Cert.KernelIdeal.main_v9 (by decide), h c Cert.KernelIdeal.main_v16 (by decide), h c Cert.KernelIdeal.main_v28 (by decide),
        (h c Cert.KernelIdeal.main_arg0 (by decide)).trans (Cert.KernelIdeal.Hand.exitV_arg0 m c),
        (h c Cert.KernelIdeal.main_arg1 (by decide)).trans (Cert.KernelIdeal.Hand.exitV_arg1 m c),
        (h c Cert.KernelIdeal.main_arg2 (by decide)).trans (Cert.KernelIdeal.Hand.exitV_arg2 m c),
        (h c Cert.KernelIdeal.main_arg3 (by decide)).trans (Cert.KernelIdeal.Hand.exitV_arg3 m c),
        (h c Cert.KernelIdeal.main_arg4 (by decide)).trans (Cert.KernelIdeal.Hand.exitV_arg4 m c),
        (h c Cert.KernelIdeal.main_arg5 (by decide)).trans (Cert.KernelIdeal.Hand.exitV_arg5 m c)⟩)
      (Cert.KernelIdeal.Hand.run_full (F := Ideal) m ρ)
  · refine (θ_run (Cert.ReferenceIdeal.defs (F := Ideal)) _ _).mono
      (fun r h c => ⟨(h c Cert.ReferenceIdeal.main_v65).trans ?_, (h c Cert.ReferenceIdeal.main_v72).trans ?_, (h c Cert.ReferenceIdeal.main_v84).trans ?_,
        (h c Cert.ReferenceIdeal.main_arg0).trans (Cert.ReferenceIdeal.Hand.exitV_arg0 m' c),
        (h c Cert.ReferenceIdeal.main_arg1).trans (Cert.ReferenceIdeal.Hand.exitV_arg1 m' c),
        (h c Cert.ReferenceIdeal.main_arg2).trans (Cert.ReferenceIdeal.Hand.exitV_arg2 m' c),
        (h c Cert.ReferenceIdeal.main_arg3).trans (Cert.ReferenceIdeal.Hand.exitV_arg3 m' c),
        (h c Cert.ReferenceIdeal.main_arg4).trans (Cert.ReferenceIdeal.Hand.exitV_arg4 m' c),
        (h c Cert.ReferenceIdeal.main_arg5).trans (Cert.ReferenceIdeal.Hand.exitV_arg5 m' c)⟩)
      (Cert.ReferenceIdeal.Hand.run (F := Ideal) m' ρ')
    · -- the pooled features
      obtain ⟨e0, e1, e2, e3, e4, e5⟩ := hagree c
      rw [Cert.ReferenceIdeal.Hand.exit_v65 m' c, Cert.ReferenceIdeal.Hand.v65_eq, e0, e1, e2, e3, e4, e5]
      obtain ⟨h0, h3, h4, h5, h1⟩ := Cert.PreFacts.of_pre _ _ _ _ _ _ (hpre c)
      exact ((Cert.KernelIdeal.HandV.out_value m c).trans
        (Cert.Bridge.outK_eq_outR _ _ _ _ _ _ h0 h3 h4 h5 (fun p => h1 (ix1 p)))).symm
    · -- the selected coordinate columns
      obtain ⟨e0, e1, e2, e3, e4, e5⟩ := hagree c
      rw [Cert.ReferenceIdeal.Hand.exit_v72 m' c, e2]
      exact (Cert.KernelIdeal.HandV.coords_value m c).symm
    · -- the grid size
      rw [Cert.ReferenceIdeal.Hand.exit_v84 m' c]
      exact (Cert.KernelIdeal.HandV.grid_value_ideal m c).symm

theorem claim : Cert.Claim :=
  ⟨Cert.Kernel.Gen.facts, Cert.KernelIdeal.Gen.facts, Cert.ReferenceIdeal.Gen.facts, Cert.Pre_finite_inputs.Gen.facts,
    frame_K, frame_KI, frame_RI, trivial, algebraic⟩

end Cert.Proof

end
